-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x160000 : Shape := ⟨2, ![2, 160000]⟩
abbrev S256x512 : Shape := ⟨2, ![256, 512]⟩
abbrev S512 : Shape := ⟨1, ![512]⟩
abbrev S2x512x512 : Shape := ⟨3, ![2, 512, 512]⟩
abbrev S2x512 : Shape := ⟨2, ![2, 512]⟩
abbrev S2x1024x512 : Shape := ⟨3, ![2, 1024, 512]⟩
abbrev S512x1 : Shape := ⟨2, ![512, 1]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_
  bcast_S_S2x1024x512 : S_.BroadcastsInDim S2x1024x512 (![] : Fin 0 → Fin S2x1024x512.rank)
  reducesTo_S2x1024x512_S_d0_1_2 : S2x1024x512.ReducesTo [0, 1, 2] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S2x160000 : S_.BroadcastsInDim S2x160000 (![] : Fin 0 → Fin S2x160000.rank)
  reducesTo_S2x160000_S_d0_1 : S2x160000.ReducesTo [0, 1] S_

variable [Facts]

def fn_part3 {F : FTy → Type} [FloatOps F] (main_v47 : IVec S_ 1) (main_v49 : IVec S2x160000 1) (main_c_19 : IVec S_ 1) : IVec S_ 1 :=
  let main_v50 : IVec S_ 1 := (fun x v => Host.reduce IntOp.andi x v reducesTo_S2x160000_S_d0_1 h_S_) main_v49 main_c_19
  let main_v51 : IVec S_ 1 := andi main_v47 main_v50
  main_v51

def fn_part2 {F : FTy → Type} [FloatOps F] (main_arg1 : IVec S2x160000 32) (main_arg8 : FVec F S512x1 .f32) (main_arg9 : FVec F S1 .f32) (main_v33 : IVec S_ 1) : IVec S_ 1 :=
  let main_v34 : FVec F S512x1 .f32 := Host.absf main_arg8
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S2x160000 32 := broadcastInDim S2x160000 ![] bcast_S_S2x160000 main_c_16
  let main_v45 : IVec S2x160000 1 := cmpi .sge main_arg1 main_v44
  let main_c_17 : IVec S_ 1 := constantI S_ 1 1#1
  let main_v46 : IVec S_ 1 := (fun x v => Host.reduce IntOp.andi x v reducesTo_S2x160000_S_d0_1 h_S_) main_v45 main_c_17
  let main_v47 : IVec S_ 1 := andi main_v43 main_v46
  let main_c_18 : IVec S_ 32 := constantI S_ 32 10000#32
  let main_v48 : IVec S2x160000 32 := broadcastInDim S2x160000 ![] bcast_S_S2x160000 main_c_18
  let main_v49 : IVec S2x160000 1 := cmpi .slt main_arg1 main_v48
  let main_c_19 : IVec S_ 1 := constantI S_ 1 1#1
  fn_part3 (F := F) main_v47 main_v49 main_c_19

def fn_part1 {F : FTy → Type} [FloatOps F] (main_arg1 : IVec S2x160000 32) (main_arg5 : FVec F S2x512 .f32) (main_arg6 : FVec F S2x1024x512 .f32) (main_arg7 : FVec F S2x512 .f32) (main_arg8 : FVec F S512x1 .f32) (main_arg9 : FVec F S1 .f32) (main_v13 : IVec S_ 1) (main_v16 : IVec S2x512x512 1) : IVec S_ 1 :=
  let main_c_5 : IVec S_ 1 := constantI S_ 1 1#1
  let main_v17 : IVec S_ 1 := (fun x v => Host.reduce IntOp.andi x v reducesTo_S2x512x512_S_d0_1_2 h_S_) main_v16 main_c_5
  let main_v18 : IVec S_ 1 := andi main_v13 main_v17
  let main_v19 : FVec F S2x512 .f32 := Host.absf main_arg5
  let main_cst_6 : FVec F S_ .f32 := constant S_ .f32 0x7F800000#32
  let main_v20 : FVec F S2x512 .f32 := broadcastInDim S2x512 ![] bcast_S_S2x512 main_cst_6
  let main_v21 : IVec S2x512 1 := cmpf .olt main_v19 main_v20
  let main_c_7 : IVec S_ 1 := constantI S_ 1 1#1
  let main_v22 : IVec S_ 1 := (fun x v => Host.reduce IntOp.andi x v reducesTo_S2x512_S_d0_1 h_S_) main_v21 main_c_7
  let main_v23 : IVec S_ 1 := andi main_v18 main_v22
  let main_v24 : FVec F S2x1024x512 .f32 := Host.absf main_arg6
  let main_cst_8 : FVec F S_ .f32 := constant S_ .f32 0x7F800000#32
  let main_v25 : FVec F S2x1024x512 .f32 := broadcastInDim S2x1024x512 ![] bcast_S_S2x1024x512 main_cst_8
  let main_v26 : IVec S2x1024x512 1 := cmpf .olt main_v24 main_v25
  let main_c_9 : IVec S_ 1 := constantI S_ 1 1#1
  let main_v27 : IVec S_ 1 := (fun x v => Host.reduce IntOp.andi x v reducesTo_S2x1024x512_S_d0_1_2 h_S_) main_v26 main_c_9
  let main_v28 : IVec S_ 1 := andi main_v23 main_v27
  let main_v29 : FVec F S2x512 .f32 := Host.absf main_arg7
  let main_cst_10 : FVec F S_ .f32 := constant S_ .f32 0x7F800000#32
  let main_v30 : FVec F S2x512 .f32 := broadcastInDim S2x512 ![] bcast_S_S2x512 main_cst_10
  let main_v31 : IVec S2x512 1 := cmpf .olt main_v29 main_v30
  let main_c_11 : IVec S_ 1 := constantI S_ 1 1#1
  let main_v32 : IVec S_ 1 := (fun x v => Host.reduce IntOp.andi x v reducesTo_S2x512_S_d0_1 h_S_) main_v31 main_c_11
  let main_v33 : IVec S_ 1 := andi main_v28 main_v32
  fn_part2 (F := F) main_arg1 main_arg8 main_arg9 main_v33

def fn {F : FTy → Type} [FloatOps F] (main_arg0 : FVec F S10000x256 .f32) (main_arg1 : IVec S2x160000 32) (main_arg2 : FVec F S256x512 .f32) (main_arg3 : FVec F S512 .f32) (main_arg4 : FVec F S2x512x512 .f32) (main_arg5 : FVec F S2x512 .f32) (main_arg6 : FVec F S2x1024x512 .f32) (main_arg7 : FVec F S2x512 .f32) (main_arg8 : FVec F S512x1 .f32) (main_arg9 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2x512x512 .f32 := Host.absf main_arg4
  let main_cst_4 : FVec F S_ .f32 := constant S_ .f32 0x7F800000#32
  let main_v15 : FVec F S2x512x512 .f32 := broadcastInDim S2x512x512 ![] bcast_S_S2x512x512 main_cst_4
  let main_v16 : IVec S2x512x512 1 := cmpf .olt main_v14 main_v15
  fn_part1 (F := F) main_arg1 main_arg5 main_arg6 main_arg7 main_arg8 main_arg9 main_v13 main_v16
-- ==== Kernel.lean ====
abbrev S10000x256 : Shape := ⟨2, ![10000, 256]⟩
abbrev S2x160000 : Shape := ⟨2, ![2, 160000]⟩
abbrev S256x512 : Shape := ⟨2, ![256, 512]⟩
abbrev S512 : Shape := ⟨1, ![512]⟩
abbrev S2x512x512 : Shape := ⟨3, ![2, 512, 512]⟩
abbrev S2x512 : Shape := ⟨2, ![2, 512]⟩
abbrev S2x1024x512 : Shape := ⟨3, ![2, 1024, 512]⟩
abbrev S512x1 : Shape := ⟨2, ![512, 1]⟩
abbrev S1 : Shape := ⟨1, ![1]⟩
abbrev S1x160000 : Shape := ⟨2, ![1, 160000]⟩
abbrev S160000 : Shape := ⟨1, ![160000]⟩
abbrev S_ : Shape := ⟨0, ![]⟩
abbrev S10240x256 : Shape := ⟨2, ![10240, 256]⟩
abbrev S10240x10240 : Shape := ⟨2, ![10240, 10240]⟩
abbrev S160000x1 : Shape := ⟨2, ![160000, 1]⟩
abbrev S160000x2 : Shape := ⟨2, ![160000, 2]⟩
abbrev S1x512 : Shape := ⟨2, ![1, 512]⟩
abbrev S10240x512 : Shape := ⟨2, ![10240, 512]⟩
abbrev S1280x256 : Shape := ⟨2, ![1280, 256]⟩
abbrev S1280x512 : Shape := ⟨2, ![1280, 512]⟩
abbrev S1x512x512 : Shape := ⟨3, ![1, 512, 512]⟩
abbrev S512x512 : Shape := ⟨2, ![512, 512]⟩
abbrev S1280x1280 : Shape := ⟨2, ![1280, 1280]⟩
abbrev S1x1 : Shape := ⟨2, ![1, 1]⟩
abbrev S10240x1 : Shape := ⟨2, ![10240, 1]⟩
abbrev S1280x1 : Shape := ⟨2, ![1280, 1]⟩
abbrev S10000x1 : Shape := ⟨2, ![10000, 1]⟩
abbrev S10000 : Shape := ⟨1, ![10000]⟩

abbrev nBuf : Space → Nat
  | .hbm => 82
  | .vmem => 56
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S256x512, .f32⟩
  | .hbm, ⟨3, _⟩ => ⟨S512, .f32⟩
  | .hbm, ⟨4, _⟩ => ⟨S2x512x512, .f32⟩
  | .hbm, ⟨5, _⟩ => ⟨S2x512, .f32⟩
  | .hbm, ⟨6, _⟩ => ⟨S2x1024x512, .f32⟩
  | .hbm, ⟨7, _⟩ => ⟨S2x512, .f32⟩
  | .hbm, ⟨8, _⟩ => ⟨S512x1, .f32⟩
  | .hbm, ⟨9, _⟩ => ⟨S1, .f32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S_, .i32⟩
  | .hbm, ⟨15, _⟩ => ⟨S_, .f32⟩
  | .hbm, ⟨16, _⟩ => ⟨S10240x256, .f32⟩
  | .hbm, ⟨17, _⟩ => ⟨S_, .f32⟩
  | .hbm, ⟨18, _⟩ => ⟨S10240x10240, .f32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S_, .i32⟩
  | .hbm, ⟨27, _⟩ => ⟨S160000, .i32⟩
  | .hbm, ⟨28, _⟩ => ⟨S160000, .i1⟩
  | .hbm, ⟨29, _⟩ => ⟨S_, .i32⟩
  | .hbm, ⟨30, _⟩ => ⟨S160000, .i32⟩
  | .hbm, ⟨31, _⟩ => ⟨S160000, .i32⟩
  | .hbm, ⟨32, _⟩ => ⟨S160000, .i32⟩
  | .hbm, ⟨33, _⟩ => ⟨S160000x1, .i32⟩
  | .hbm, ⟨34, _⟩ => ⟨S160000x1, .i32⟩
  | .hbm, ⟨35, _⟩ => ⟨S160000x2, .i32⟩
  | .hbm, ⟨36, _⟩ => ⟨S_, .f32⟩
  | .hbm, ⟨37, _⟩ => ⟨S160000, .f32⟩
  | .hbm, ⟨38, _⟩ => ⟨S10240x10240, .f32⟩
  | .hbm, ⟨39, _⟩ => ⟨S10240x10240, .bf16⟩
  | .hbm, ⟨40, _⟩ => ⟨S1x512, .f32⟩
  | .hbm, ⟨41, _⟩ => ⟨S10240x512, .f32⟩
  | .hbm, ⟨42, _⟩ => ⟨S1x512x512, .f32⟩
  | .hbm, ⟨43, _⟩ => ⟨S512x512, .f32⟩
  | .hbm, ⟨44, _⟩ => ⟨S512x512, .bf16⟩
  | .hbm, ⟨45, _⟩ => ⟨S1x512, .f32⟩
  | .hbm, ⟨46, _⟩ => ⟨S512, .f32⟩
  | .hbm, ⟨47, _⟩ => ⟨S1x512, .f32⟩
  | .hbm, ⟨48, _⟩ => ⟨S10240x512, .bf16⟩
  | .hbm, ⟨49, _⟩ => ⟨S10240x512, .bf16⟩
  | .hbm, ⟨50, _⟩ => ⟨S1x512x512, .f32⟩
  | .hbm, ⟨51, _⟩ => ⟨S512x512, .f32⟩
  | .hbm, ⟨52, _⟩ => ⟨S512x512, .bf16⟩
  | .hbm, ⟨53, _⟩ => ⟨S1x512x512, .f32⟩
  | .hbm, ⟨54, _⟩ => ⟨S512x512, .f32⟩
  | .hbm, ⟨55, _⟩ => ⟨S512x512, .bf16⟩
  | .hbm, ⟨56, _⟩ => ⟨S1x512, .f32⟩
  | .hbm, ⟨57, _⟩ => ⟨S512, .f32⟩
  | .hbm, ⟨58, _⟩ => ⟨S1x512, .f32⟩
  | .hbm, ⟨59, _⟩ => ⟨S10240x512, .f32⟩
  | .hbm, ⟨60, _⟩ => ⟨S1x512x512, .f32⟩
  | .hbm, ⟨61, _⟩ => ⟨S512x512, .f32⟩
  | .hbm, ⟨62, _⟩ => ⟨S512x512, .bf16⟩
  | .hbm, ⟨63, _⟩ => ⟨S1x512, .f32⟩
  | .hbm, ⟨64, _⟩ => ⟨S512, .f32⟩
  | .hbm, ⟨65, _⟩ => ⟨S1x512, .f32⟩
  | .hbm, ⟨66, _⟩ => ⟨S10240x512, .bf16⟩
  | .hbm, ⟨67, _⟩ => ⟨S10240x512, .bf16⟩
  | .hbm, ⟨68, _⟩ => ⟨S1x512x512, .f32⟩
  | .hbm, ⟨69, _⟩ => ⟨S512x512, .f32⟩
  | .hbm, ⟨70, _⟩ => ⟨S512x512, .bf16⟩
  | .hbm, ⟨71, _⟩ => ⟨S1x512x512, .f32⟩
  | .hbm, ⟨72, _⟩ => ⟨S512x512, .f32⟩
  | .hbm, ⟨73, _⟩ => ⟨S512x512, .bf16⟩
  | .hbm, ⟨74, _⟩ => ⟨S1x512, .f32⟩
  | .hbm, ⟨75, _⟩ => ⟨S512, .f32⟩
  | .hbm, ⟨76, _⟩ => ⟨S1x512, .f32⟩
  | .hbm, ⟨77, _⟩ => ⟨S10240x512, .f32⟩
  | .hbm, ⟨78, _⟩ => ⟨S1x1, .f32⟩
  | .hbm, ⟨79, _⟩ => ⟨S10240x1, .f32⟩
  | .hbm, ⟨80, _⟩ => ⟨S10000x1, .f32⟩
  | .hbm, ⟨81, _⟩ => ⟨S10000, .f32⟩
  | .local _ .vmem, ⟨0, _⟩ => ⟨S1280x256, .f32⟩
  | .local _ .vmem, ⟨1, _⟩ => ⟨S1280x256, .f32⟩
  | .local _ .vmem, ⟨2, _⟩ => ⟨S256x512, .f32⟩
  | .local _ .vmem, ⟨3, _⟩ => ⟨S1x512, .f32⟩
  | .local _ .vmem, ⟨4, _⟩ => ⟨S1280x512, .f32⟩
  | .local _ .vmem, ⟨5, _⟩ => ⟨S1280x512, .f32⟩
  | .local _ .vmem, ⟨6, _⟩ => ⟨S1280x512, .f32⟩
  | .local _ .vmem, ⟨7, _⟩ => ⟨S1280x512, .f32⟩
  | .local _ .vmem, ⟨8, _⟩ => ⟨S512x512, .bf16⟩
  | .local _ .vmem, ⟨9, _⟩ => ⟨S1x512, .f32⟩
  | .local _ .vmem, ⟨10, _⟩ => ⟨S1280x512, .bf16⟩
  | .local _ .vmem, ⟨11, _⟩ => ⟨S1280x512, .bf16⟩
  | .local _ .vmem, ⟨12, _⟩ => ⟨S1280x1280, .bf16⟩
  | .local _ .vmem, ⟨13, _⟩ => ⟨S1280x1280, .bf16⟩
  | .local _ .vmem, ⟨14, _⟩ => ⟨S1280x512, .bf16⟩
  | .local _ .vmem, ⟨15, _⟩ => ⟨S1280x512, .bf16⟩
  | .local _ .vmem, ⟨16, _⟩ => ⟨S1280x512, .bf16⟩
  | .local _ .vmem, ⟨17, _⟩ => ⟨S1280x512, .bf16⟩
  | .local _ .vmem, ⟨18, _⟩ => ⟨S1280x512, .f32⟩
  | .local _ .vmem, ⟨19, _⟩ => ⟨S1280x512, .f32⟩
  | .local _ .vmem, ⟨20, _⟩ => ⟨S1280x512, .f32⟩
  | .local _ .vmem, ⟨21, _⟩ => ⟨S1280x512, .bf16⟩
  | .local _ .vmem, ⟨22, _⟩ => ⟨S1280x512, .bf16⟩
  | .local _ .vmem, ⟨23, _⟩ => ⟨S512x512, .bf16⟩
  | .local _ .vmem, ⟨24, _⟩ => ⟨S512x512, .bf16⟩
  | .local _ .vmem, ⟨25, _⟩ => ⟨S1x512, .f32⟩
  | .local _ .vmem, ⟨26, _⟩ => ⟨S1280x512, .f32⟩
  | .local _ .vmem, ⟨27, _⟩ => ⟨S1280x512, .f32⟩
  | .local _ .vmem, ⟨28, _⟩ => ⟨S1280x512, .f32⟩
  | .local _ .vmem, ⟨29, _⟩ => ⟨S1280x512, .f32⟩
  | .local _ .vmem, ⟨30, _⟩ => ⟨S512x512, .bf16⟩
  | .local _ .vmem, ⟨31, _⟩ => ⟨S1x512, .f32⟩
  | .local _ .vmem, ⟨32, _⟩ => ⟨S1280x512, .bf16⟩
  | .local _ .vmem, ⟨33, _⟩ => ⟨S1280x512, .bf16⟩
  | .local _ .vmem, ⟨34, _⟩ => ⟨S1280x1280, .bf16⟩
  | .local _ .vmem, ⟨35, _⟩ => ⟨S1280x1280, .bf16⟩
  | .local _ .vmem, ⟨36, _⟩ => ⟨S1280x512, .bf16⟩
  | .local _ .vmem, ⟨37, _⟩ => ⟨S1280x512, .bf16⟩
  | .local _ .vmem, ⟨38, _⟩ => ⟨S1280x512, .bf16⟩
  | .local _ .vmem, ⟨39, _⟩ => ⟨S1280x512, .bf16⟩
  | .local _ .vmem, ⟨40, _⟩ => ⟨S1280x512, .f32⟩
  | .local _ .vmem, ⟨41, _⟩ => ⟨S1280x512, .f32⟩
  | .local _ .vmem, ⟨42, _⟩ => ⟨S1280x512, .f32⟩
  | .local _ .vmem, ⟨43, _⟩ => ⟨S1280x512, .bf16⟩
  | .local _ .vmem, ⟨44, _⟩ => ⟨S1280x512, .bf16⟩
  | .local _ .vmem, ⟨45, _⟩ => ⟨S512x512, .bf16⟩
  | .local _ .vmem, ⟨46, _⟩ => ⟨S512x512, .bf16⟩
  | .local _ .vmem, ⟨47, _⟩ => ⟨S1x512, .f32⟩
  | .local _ .vmem, ⟨48, _⟩ => ⟨S1280x512, .f32⟩
  | .local _ .vmem, ⟨49, _⟩ => ⟨S1280x512, .f32⟩
  | .local _ .vmem, ⟨50, _⟩ => ⟨S1280x512, .f32⟩
  | .local _ .vmem, ⟨51, _⟩ => ⟨S1280x512, .f32⟩
  | .local _ .vmem, ⟨52, _⟩ => ⟨S512x1, .f32⟩
  | .local _ .vmem, ⟨53, _⟩ => ⟨S1x1, .f32⟩
  | .local _ .vmem, ⟨54, _⟩ => ⟨S1280x1, .f32⟩
  | .local _ .vmem, ⟨55, _⟩ => ⟨S1280x1, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_scratch0 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem5_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem3_0 : DmaSem sig := 44
abbrev cc6_sem4_0 : DmaSem sig := 45
abbrev cc6_sem5_0 : DmaSem sig := 46
abbrev cc6_sem5_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1280x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1280x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1280x1280 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1280x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1280x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1280x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1280x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1280x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1280x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1280x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![8, 8], ![false, false]⟩

def k5_cond2 (i : grid5.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1280x1280 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1280x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1280x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1280x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1280x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x512 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x512 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1280x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1280x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S512x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1280x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  pads_S10000x256_S10240x256_02400_000 : S10000x256.Pads (![0, 0] : Fin 2 → Nat) ![240, 0] ![0, 0] S10240x256
  h_S_ : 0 < S_.numel
  bcast_S_S10240x10240 : S_.BroadcastsInDim S10240x10240 (![] : Fin 0 → Fin S10240x10240.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  bitsLt_bf16_f32 : FTy.bits .bf16 < FTy.bits .f32
  shapeCasts_S512_S1x512 : S512.ShapeCasts S1x512
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1280x512 : S1x512.Broadcasts S1280x512
  inb_S1280x512_S1280x512_0_0 : ∀ a, (![0, 0] : Fin 2 → Nat) a + S1280x512.size a ≤ S1280x512.size a
  h_S1280x512 : 0 < S1280x512.numel
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  shapeCasts_S1280x512_S1280x512 : S1280x512.ShapeCasts S1280x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1280x512_S1280x512_0_0 : (Rect.unit (s := S1280x512) ![0, 0] S1280x512.size inb_S1280x512_S1280x512_0_0).PackedRows (EltTy.packing .bf16)
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  slices_S2x1024x512_S1x512x512_0_0_0 : S2x1024x512.Slices ![0, 0, 0] S1x512x512
  slices_S2x1024x512_S1x512x512_0_512_0 : S2x1024x512.Slices ![0, 512, 0] S1x512x512
  slices_S2x512x512_S1x512x512_1_0_0 : S2x512x512.Slices ![1, 0, 0] S1x512x512
  slices_S2x512_S1x512_1_0 : S2x512.Slices ![1, 0] S1x512
  slices_S2x1024x512_S1x512x512_1_0_0 : S2x1024x512.Slices ![1, 0, 0] S1x512x512
  slices_S2x1024x512_S1x512x512_1_512_0 : S2x1024x512.Slices ![1, 512, 0] S1x512x512
  shapeCasts_S1_S1x1 : S1.ShapeCasts S1x1
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1280x1 : S1x1.Broadcasts S1280x1
  inb_S1280x1_S1280x1_0_0 : ∀ a, (![0, 0] : Fin 2 → Nat) a + S1280x1.size a ≤ S1280x1.size a
  h_S1280x1 : 0 < S1280x1.numel
  slices_S10240x1_S10000x1_0_0 : S10240x1.Slices ![0, 0] S10000x1
  shapeCasts_S10000x1_S10000 : S10000x1.ShapeCasts S10000
  scatter_S10240x10240_S160000x2_S160000_n_01_01_1_wf : ScatterDims.WF S10240x10240 S160000x2 S160000 [] [0, 1] [0, 1] 1
  dot_S1280x256_S256x512_S1280x512_1_0_0_1_n_n_wf : DotDims.WF S1280x256 S256x512 S1280x512 [1] [0] [0] [1] [] []
  dot_S1280x512_S512x512_S1280x512_1_0_0_1_n_n_wf : DotDims.WF S1280x512 S512x512 S1280x512 [1] [0] [0] [1] [] []
  dot_S1280x1280_S1280x512_S1280x512_1_0_0_1_n_n_wf : DotDims.WF S1280x1280 S1280x512 S1280x512 [1] [0] [0] [1] [] []
  dot_S1280x512_S512x1_S1280x1_1_0_0_1_n_n_wf : DotDims.WF S1280x512 S512x1 S1280x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x256.size a ≤ S10240x256.size a
  hwx0_0 : ∀ i : grid0.Coords, EltTy.bits .f32 = 32 ∨ (Rect.block (s := S10240x256) S1280x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x512.size a ≤ S10240x512.size a
  hwx0_3 : ∀ i : grid0.Coords, EltTy.bits .f32 = 32 ∨ (Rect.block (s := S10240x512) S1280x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x512.size a ≤ S10240x512.size a
  hwx1_0 : ∀ i : grid1.Coords, EltTy.bits .f32 = 32 ∨ (Rect.block (s := S10240x512) S1280x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1280x512.size a ≤ S10240x512.size a
  hwx1_3 : ∀ i : grid1.Coords, EltTy.bits .bf16 = 32 ∨ (Rect.block (s := S10240x512) S1280x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x1280.size a ≤ S10240x10240.size a
  hwx2_0 : ∀ i : grid2.Coords, EltTy.bits .bf16 = 32 ∨ (Rect.block (s := S10240x10240) S1280x1280.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x512.size a ≤ S10240x512.size a
  hwx2_1 : ∀ i : grid2.Coords, EltTy.bits .bf16 = 32 ∨ (Rect.block (s := S10240x512) S1280x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1280x512.size a ≤ S10240x512.size a
  hwx2_2 : ∀ i : grid2.Coords, EltTy.bits .bf16 = 32 ∨ (Rect.block (s := S10240x512) S1280x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1280x512.size a ≤ S10240x512.size a
  hwx3_0 : ∀ i : grid3.Coords, EltTy.bits .f32 = 32 ∨ (Rect.block (s := S10240x512) S1280x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x512.size a ≤ S10240x512.size a
  hwx3_1 : ∀ i : grid3.Coords, EltTy.bits .bf16 = 32 ∨ (Rect.block (s := S10240x512) S1280x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .bf16 = 32 ∨ (Rect.block (s := S512x512) S512x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .bf16 = 32 ∨ (Rect.block (s := S512x512) S512x512.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1280x512.size a ≤ S10240x512.size a
  hwx3_5 : ∀ i : grid3.Coords, EltTy.bits .f32 = 32 ∨ (Rect.block (s := S10240x512) S1280x512.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1280x512.size a ≤ S10240x512.size a
  hwx4_0 : ∀ i : grid4.Coords, EltTy.bits .f32 = 32 ∨ (Rect.block (s := S10240x512) S1280x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .bf16 = 32 ∨ (Rect.block (s := S512x512) S512x512.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1280x512.size a ≤ S10240x512.size a
  hwx4_3 : ∀ i : grid4.Coords, EltTy.bits .bf16 = 32 ∨ (Rect.block (s := S10240x512) S1280x512.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1280x1280.size a ≤ S10240x10240.size a
  hwx5_0 : ∀ i : grid5.Coords, EltTy.bits .bf16 = 32 ∨ (Rect.block (s := S10240x10240) S1280x1280.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1280x512.size a ≤ S10240x512.size a
  hwx5_1 : ∀ i : grid5.Coords, EltTy.bits .bf16 = 32 ∨ (Rect.block (s := S10240x512) S1280x512.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1280x512.size a ≤ S10240x512.size a
  hwx5_2 : ∀ i : grid5.Coords, EltTy.bits .bf16 = 32 ∨ (Rect.block (s := S10240x512) S1280x512.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1280x512.size a ≤ S10240x512.size a
  hwx6_0 : ∀ i : grid6.Coords, EltTy.bits .f32 = 32 ∨ (Rect.block (s := S10240x512) S1280x512.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1280x512.size a ≤ S10240x512.size a
  hwx6_1 : ∀ i : grid6.Coords, EltTy.bits .bf16 = 32 ∨ (Rect.block (s := S10240x512) S1280x512.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x512.size a ≤ S512x512.size a
  hwx6_2 : ∀ i : grid6.Coords, EltTy.bits .bf16 = 32 ∨ (Rect.block (s := S512x512) S512x512.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x512.size a ≤ S512x512.size a
  hwx6_3 : ∀ i : grid6.Coords, EltTy.bits .bf16 = 32 ∨ (Rect.block (s := S512x512) S512x512.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x512.size a ≤ S1x512.size a
  hwx6_4 : ∀ i : grid6.Coords, EltTy.bits .f32 = 32 ∨ (Rect.block (s := S1x512) S1x512.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1280x512.size a ≤ S10240x512.size a
  hwx6_5 : ∀ i : grid6.Coords, EltTy.bits .f32 = 32 ∨ (Rect.block (s := S10240x512) S1280x512.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1280x512.size a ≤ S10240x512.size a
  hwx7_0 : ∀ i : grid7.Coords, EltTy.bits .f32 = 32 ∨ (Rect.block (s := S10240x512) S1280x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x1.size a ≤ S512x1.size a
  hwx7_1 : ∀ i : grid7.Coords, EltTy.bits .f32 = 32 ∨ (Rect.block (s := S512x1) S512x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1280x1.size a ≤ S10240x1.size a
  hwx7_3 : ∀ i : grid7.Coords, EltTy.bits .f32 = 32 ∨ (Rect.block (s := S10240x1) S1280x1.size (cc7_transform_3 i) (hinb7_3 i)).WholeWords (EltTy.packing .f32)

variable [Facts₀]

def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def dot_S1280x256_S256x512_S1280x512_1_0_0_1_n_n : DotDims S1280x256 S256x512 S1280x512 where
  lhsContracting := [1]
  rhsContracting := [0]
  lhsNonContracting := [0]
  rhsNonContracting := [1]
  lhsBatch := []
  rhsBatch := []
  wf := dot_S1280x256_S256x512_S1280x512_1_0_0_1_n_n_wf
def dot_S1280x512_S512x512_S1280x512_1_0_0_1_n_n : DotDims S1280x512 S512x512 S1280x512 where
  lhsContracting := [1]
  rhsContracting := [0]
  lhsNonContracting := [0]
  rhsNonContracting := [1]
  lhsBatch := []
  rhsBatch := []
  wf := dot_S1280x512_S512x512_S1280x512_1_0_0_1_n_n_wf
def dot_S1280x1280_S1280x512_S1280x512_1_0_0_1_n_n : DotDims S1280x1280 S1280x512 S1280x512 where
  lhsContracting := [1]
  rhsContracting := [0]
  lhsNonContracting := [0]
  rhsNonContracting := [1]
  lhsBatch := []
  rhsBatch := []
  wf := dot_S1280x1280_S1280x512_S1280x512_1_0_0_1_n_n_wf
def dot_S1280x512_S512x1_S1280x1_1_0_0_1_n_n : DotDims S1280x512 S512x1 S1280x1 where
  lhsContracting := [1]
  rhsContracting := [0]
  lhsNonContracting := [0]
  rhsNonContracting := [1]
  lhsBatch := []
  rhsBatch := []
  wf := dot_S1280x512_S512x1_S1280x1_1_0_0_1_n_n_wf

abbrev win0_0 : Pipeline.Window sig grid0 :=
  Pipeline.Window.ofSpec (Memref.whole main_v4) S1280x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1280x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S1280x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1280x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S1280x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1280x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1280x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v23) S1280x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1280x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S1280x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v41) S1280x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1280x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v21) S1280x1280.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S1280x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v49) S1280x512.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v41) S1280x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v49) S1280x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v52) S512x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v55) S512x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v58) S1x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v59) S1280x512.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v59) S1280x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg8) S512x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v60) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v61) S1280x1.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S10000x256 : Shape := ⟨2, ![10000, 256]⟩
abbrev S2x160000 : Shape := ⟨2, ![2, 160000]⟩
abbrev S256x512 : Shape := ⟨2, ![256, 512]⟩
abbrev S512 : Shape := ⟨1, ![512]⟩
abbrev S2x512x512 : Shape := ⟨3, ![2, 512, 512]⟩
abbrev S2x512 : Shape := ⟨2, ![2, 512]⟩
abbrev S2x1024x512 : Shape := ⟨3, ![2, 1024, 512]⟩
abbrev S512x1 : Shape := ⟨2, ![512, 1]⟩
abbrev S1 : Shape := ⟨1, ![1]⟩
abbrev S1x160000 : Shape := ⟨2, ![1, 160000]⟩
abbrev S160000 : Shape := ⟨1, ![160000]⟩
abbrev S10000x512 : Shape := ⟨2, ![10000, 512]⟩
abbrev S1x512 : Shape := ⟨2, ![1, 512]⟩
abbrev S_ : Shape := ⟨0, ![]⟩
abbrev S160000x1 : Shape := ⟨2, ![160000, 1]⟩
abbrev S160000x512 : Shape := ⟨2, ![160000, 512]⟩
abbrev S1x512x512 : Shape := ⟨3, ![1, 512, 512]⟩
abbrev S512x512 : Shape := ⟨2, ![512, 512]⟩
abbrev S10000x1024 : Shape := ⟨2, ![10000, 1024]⟩
abbrev S1x1024x512 : Shape := ⟨3, ![1, 1024, 512]⟩
abbrev S1024x512 : Shape := ⟨2, ![1024, 512]⟩
abbrev S10000x1 : Shape := ⟨2, ![10000, 1]⟩
abbrev S1x1 : Shape := ⟨2, ![1, 1]⟩
abbrev S10000 : Shape := ⟨1, ![10000]⟩

abbrev nBuf : Space → Nat
  | .hbm => 98
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S256x512, .f32⟩
  | .hbm, ⟨3, _⟩ => ⟨S512, .f32⟩
  | .hbm, ⟨4, _⟩ => ⟨S2x512x512, .f32⟩
  | .hbm, ⟨5, _⟩ => ⟨S2x512, .f32⟩
  | .hbm, ⟨6, _⟩ => ⟨S2x1024x512, .f32⟩
  | .hbm, ⟨7, _⟩ => ⟨S2x512, .f32⟩
  | .hbm, ⟨8, _⟩ => ⟨S512x1, .f32⟩
  | .hbm, ⟨9, _⟩ => ⟨S1, .f32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S10000x512, .f32⟩
  | .hbm, ⟨15, _⟩ => ⟨S1x512, .f32⟩
  | .hbm, ⟨16, _⟩ => ⟨S10000x512, .f32⟩
  | .hbm, ⟨17, _⟩ => ⟨S10000x512, .f32⟩
  | .hbm, ⟨18, _⟩ => ⟨S_, .f32⟩
  | .hbm, ⟨19, _⟩ => ⟨S10000x512, .f32⟩
  | .hbm, ⟨20, _⟩ => ⟨S10000x512, .f32⟩
  | .hbm, ⟨21, _⟩ => ⟨S_, .i32⟩
  | .hbm, ⟨22, _⟩ => ⟨S160000, .i32⟩
  | .hbm, ⟨23, _⟩ => ⟨S160000, .i1⟩
  | .hbm, ⟨24, _⟩ => ⟨S_, .i32⟩
  | .hbm, ⟨25, _⟩ => ⟨S160000, .i32⟩
  | .hbm, ⟨26, _⟩ => ⟨S160000, .i32⟩
  | .hbm, ⟨27, _⟩ => ⟨S160000, .i32⟩
  | .hbm, ⟨28, _⟩ => ⟨S160000x1, .i32⟩
  | .hbm, ⟨29, _⟩ => ⟨S160000x512, .f32⟩
  | .hbm, ⟨30, _⟩ => ⟨S1x512x512, .f32⟩
  | .hbm, ⟨31, _⟩ => ⟨S512x512, .f32⟩
  | .hbm, ⟨32, _⟩ => ⟨S160000x512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S160000x512, .f32⟩
  | .hbm, ⟨37, _⟩ => ⟨S160000x512, .f32⟩
  | .hbm, ⟨38, _⟩ => ⟨S_, .f32⟩
  | .hbm, ⟨39, _⟩ => ⟨S160000x512, .f32⟩
  | .hbm, ⟨40, _⟩ => ⟨S160000x512, .f32⟩
  | .hbm, ⟨41, _⟩ => ⟨S_, .f32⟩
  | .hbm, ⟨42, _⟩ => ⟨S10000x512, .f32⟩
  | .hbm, ⟨43, _⟩ => ⟨S160000x1, .i32⟩
  | .hbm, ⟨44, _⟩ => ⟨S10000x512, .f32⟩
  | .hbm, ⟨45, _⟩ => ⟨S10000x1024, .f32⟩
  | .hbm, ⟨46, _⟩ => ⟨S1x1024x512, .f32⟩
  | .hbm, ⟨47, _⟩ => ⟨S1024x512, .f32⟩
  | .hbm, ⟨48, _⟩ => ⟨S10000x512, .f32⟩
  | .hbm, ⟨49, _⟩ => ⟨S1x512, .f32⟩
  | .hbm, ⟨50, _⟩ => ⟨S512, .f32⟩
  | .hbm, ⟨51, _⟩ => ⟨S1x512, .f32⟩
  | .hbm, ⟨52, _⟩ => ⟨S10000x512, .f32⟩
  | .hbm, ⟨53, _⟩ => ⟨S10000x512, .f32⟩
  | .hbm, ⟨54, _⟩ => ⟨S_, .f32⟩
  | .hbm, ⟨55, _⟩ => ⟨S10000x512, .f32⟩
  | .hbm, ⟨56, _⟩ => ⟨S10000x512, .f32⟩
  | .hbm, ⟨57, _⟩ => ⟨S_, .i32⟩
  | .hbm, ⟨58, _⟩ => ⟨S160000, .i32⟩
  | .hbm, ⟨59, _⟩ => ⟨S160000, .i1⟩
  | .hbm, ⟨60, _⟩ => ⟨S_, .i32⟩
  | .hbm, ⟨61, _⟩ => ⟨S160000, .i32⟩
  | .hbm, ⟨62, _⟩ => ⟨S160000, .i32⟩
  | .hbm, ⟨63, _⟩ => ⟨S160000, .i32⟩
  | .hbm, ⟨64, _⟩ => ⟨S160000x1, .i32⟩
  | .hbm, ⟨65, _⟩ => ⟨S160000x512, .f32⟩
  | .hbm, ⟨66, _⟩ => ⟨S1x512x512, .f32⟩
  | .hbm, ⟨67, _⟩ => ⟨S512x512, .f32⟩
  | .hbm, ⟨68, _⟩ => ⟨S160000x512, .f32⟩
  | .hbm, ⟨69, _⟩ => ⟨S1x512, .f32⟩
  | .hbm, ⟨70, _⟩ => ⟨S512, .f32⟩
  | .hbm, ⟨71, _⟩ => ⟨S1x512, .f32⟩
  | .hbm, ⟨72, _⟩ => ⟨S160000x512, .f32⟩
  | .hbm, ⟨73, _⟩ => ⟨S160000x512, .f32⟩
  | .hbm, ⟨74, _⟩ => ⟨S_, .f32⟩
  | .hbm, ⟨75, _⟩ => ⟨S160000x512, .f32⟩
  | .hbm, ⟨76, _⟩ => ⟨S160000x512, .f32⟩
  | .hbm, ⟨77, _⟩ => ⟨S_, .f32⟩
  | .hbm, ⟨78, _⟩ => ⟨S10000x512, .f32⟩
  | .hbm, ⟨79, _⟩ => ⟨S160000x1, .i32⟩
  | .hbm, ⟨80, _⟩ => ⟨S10000x512, .f32⟩
  | .hbm, ⟨81, _⟩ => ⟨S10000x1024, .f32⟩
  | .hbm, ⟨82, _⟩ => ⟨S1x1024x512, .f32⟩
  | .hbm, ⟨83, _⟩ => ⟨S1024x512, .f32⟩
  | .hbm, ⟨84, _⟩ => ⟨S10000x512, .f32⟩
  | .hbm, ⟨85, _⟩ => ⟨S1x512, .f32⟩
  | .hbm, ⟨86, _⟩ => ⟨S512, .f32⟩
  | .hbm, ⟨87, _⟩ => ⟨S1x512, .f32⟩
  | .hbm, ⟨88, _⟩ => ⟨S10000x512, .f32⟩
  | .hbm, ⟨89, _⟩ => ⟨S10000x512, .f32⟩
  | .hbm, ⟨90, _⟩ => ⟨S_, .f32⟩
  | .hbm, ⟨91, _⟩ => ⟨S10000x512, .f32⟩
  | .hbm, ⟨92, _⟩ => ⟨S10000x512, .f32⟩
  | .hbm, ⟨93, _⟩ => ⟨S10000x1, .f32⟩
  | .hbm, ⟨94, _⟩ => ⟨S1x1, .f32⟩
  | .hbm, ⟨95, _⟩ => ⟨S10000x1, .f32⟩
  | .hbm, ⟨96, _⟩ => ⟨S10000x1, .f32⟩
  | .hbm, ⟨97, _⟩ => ⟨S10000, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_cst : Ref sig .tc := ⟨.hbm, 38, rfl⟩
abbrev main_call1_v0 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call2_cst : Ref sig .tc := ⟨.hbm, 54, rfl⟩
abbrev main_call2_v0 : Ref sig .tc := ⟨.hbm, 55, rfl⟩
abbrev main_v37 : Ref sig .tc := ⟨.hbm, 56, rfl⟩
abbrev main_c_1 : Ref sig .tc := ⟨.hbm, 57, rfl⟩
abbrev main_v38 : Ref sig .tc := ⟨.hbm, 58, rfl⟩
abbrev main_v39 : Ref sig .tc := ⟨.hbm, 59, rfl⟩
abbrev main_c_2 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call3_cst : Ref sig .tc := ⟨.hbm, 74, rfl⟩
abbrev main_call3_v0 : Ref sig .tc := ⟨.hbm, 75, rfl⟩
abbrev main_v53 : Ref sig .tc := ⟨.hbm, 76, rfl⟩
abbrev main_cst_3 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call4_cst : Ref sig .tc := ⟨.hbm, 90, rfl⟩
abbrev main_call4_v0 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S_S160000 : S_.BroadcastsInDim S160000 (![] : Fin 0 → Fin S160000.rank)
  bcast_S160000_S160000x1_0 : S160000.BroadcastsInDim S160000x1 (![0] : Fin 1 → Fin S160000x1.rank)
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  bcast_S1x512_S160000x512_0_1 : S1x512.BroadcastsInDim S160000x512 (![0, 1] : Fin 2 → Fin S160000x512.rank)
  bcast_S_S160000x512 : S_.BroadcastsInDim S160000x512 (![] : Fin 0 → Fin S160000x512.rank)
  concatenates_S10000x512_S10000x512_S10000x1024_d1 : Shape.Concatenates [S10000x512, S10000x512] S10000x1024 1
  slices_S2x1024x512_S1x1024x512_0_0_0 : S2x1024x512.Slices ![0, 0, 0] S1x1024x512
  shapeCasts_S1x1024x512_S1024x512 : S1x1024x512.ShapeCasts S1024x512
  slices_S2x512x512_S1x512x512_1_0_0 : S2x512x512.Slices ![1, 0, 0] S1x512x512
  slices_S2x512_S1x512_1_0 : S2x512.Slices ![1, 0] S1x512
  slices_S2x1024x512_S1x1024x512_1_0_0 : S2x1024x512.Slices ![1, 0, 0] S1x1024x512
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S10000 : S10000x1.ShapeCasts S10000
  dot_S10000x256_S256x512_S10000x512_1_0_0_1_n_n_wf : DotDims.WF S10000x256 S256x512 S10000x512 [1] [0] [0] [1] [] []
  gather_S10000x512_S160000x1_S160000x512_1_0_n_n_0_1_1512_wf : GatherDims.WF S10000x512 S160000x1 S160000x512 [1] [0] [] [0] [] 1 ![1, 512]
  dot_S160000x512_S512x512_S160000x512_1_0_0_1_n_n_wf : DotDims.WF S160000x512 S512x512 S160000x512 [1] [0] [0] [1] [] []
  scatter_S10000x512_S160000x1_S160000x512_1_0_0_1_wf : ScatterDims.WF S10000x512 S160000x1 S160000x512 [1] [0] [0] 1
  dot_S10000x1024_S1024x512_S10000x512_1_0_0_1_n_n_wf : DotDims.WF S10000x1024 S1024x512 S10000x512 [1] [0] [0] [1] [] []
  dot_S10000x512_S512x1_S10000x1_1_0_0_1_n_n_wf : DotDims.WF S10000x512 S512x1 S10000x1 [1] [0] [0] [1] [] []

variable [Facts₀]

def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def dot_S160000x512_S512x512_S160000x512_1_0_0_1_n_n : DotDims S160000x512 S512x512 S160000x512 where
  lhsContracting := [1]
  rhsContracting := [0]
  lhsNonContracting := [0]
  rhsNonContracting := [1]
  lhsBatch := []
  rhsBatch := []
  wf := dot_S160000x512_S512x512_S160000x512_1_0_0_1_n_n_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x1024_S1024x512_S10000x512_1_0_0_1_n_n : DotDims S10000x1024 S1024x512 S10000x512 where
  lhsContracting := [1]
  rhsContracting := [0]
  lhsNonContracting := [0]
  rhsNonContracting := [1]
  lhsBatch := []
  rhsBatch := []
  wf := dot_S10000x1024_S1024x512_S10000x512_1_0_0_1_n_n_wf
def dot_S10000x512_S512x1_S10000x1_1_0_0_1_n_n : DotDims S10000x512 S512x1 S10000x1 where
  lhsContracting := [1]
  rhsContracting := [0]
  lhsNonContracting := [0]
  rhsNonContracting := [1]
  lhsBatch := []
  rhsBatch := []
  wf := dot_S10000x512_S512x1_S10000x1_1_0_0_1_n_n_wf

class Facts : Prop extends Facts₀ where

variable [Facts]
-- ==== Proof.KI.RegA0.lean ====
/- Region 0 of @main: custom_call 0, the kernel function `cc0__linear_kernel_f32` on pipeline `cfg0`, at a
   parameter `V` (the core's buffer contents when the region is entered). Windows 0, 1, 2 are inputs, window 3 the
   output. The body reads each input block whole, reads the output block (a value nothing uses) and overwrites the
   output block whole with the payload `k0_pay1` of the three input blocks. Hence: after the body each input buffer
   still holds its block and the output buffer holds what one whole-block write of that payload leaves; before the body
   an input buffer holds its block at every point, refetched there or not, because a window that is not refetched has
   not moved its block index; the class's invariant and the core's debt pass through the body unread. -/
import proofs.«408707_j33406255628688_2_alg».proof.Proof.Gen.KernelIdeal.Launch
import proofs.«408707_j33406255628688_2_alg».proof.Proof.Gen.KernelIdeal.Skeleton
import proofs.«408707_j33406255628688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## This region's blocks

Shape and element type of the block of each window (a, b, c: the inputs, windows 0, 1, 2; o: the output, window 3),
and for each the fact that the whole block lies inside itself. Everything below is written over these twelve. -/

local notation "𝔹a" => S1280x256
local notation "𝔼a" => EltTy.f32
local notation "inbA" => inb_S1280x256_S1280x256_0_0
local notation "𝔹b" => S256x512
local notation "𝔼b" => EltTy.f32
local notation "inbB" => inb_S256x512_S256x512_0_0
local notation "𝔹c" => S1x512
local notation "𝔼c" => EltTy.f32
local notation "inbC" => inb_S1x512_S1x512_0_0
local notation "𝔹o" => S1280x512
local notation "𝔼o" => EltTy.f32
local notation "inbO" => inb_S1280x512_S1280x512_0_0

variable (V : (c : Dev nD) → (b : Ref sig .tc) → Buf (Elt F) ((c : Thread nD τ).loc b))

/-! ## The blocks the windows show -/

/-- The block of window `w` at grid point `t`: the window's view of its array there, read in the contents the region
    finds (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes through: each block whole -/

abbrev wholeA0 : Rect 𝔹a := Rect.unit (s := 𝔹a) ![0, 0] (Shape.size 𝔹a) inbA
abbrev wholeB0 : Rect 𝔹b := Rect.unit (s := 𝔹b) ![0, 0] (Shape.size 𝔹b) inbB
abbrev wholeC0 : Rect 𝔹c := Rect.unit (s := 𝔹c) ![0, 0] (Shape.size 𝔹c) inbC
abbrev wholeO0 : Rect 𝔹o := Rect.unit (s := 𝔹o) ![0, 0] (Shape.size 𝔹o) inbO

/-! ## What the body leaves in the output buffer -/

/-- The output buffer after the body, from the three input blocks: the body's single store, of the payload of the three
    loads, through the whole-block rectangle. -/
def out0_3 (x0 : Vec F 𝔹a 𝔼a) (x1 : Vec F 𝔹b 𝔼b) (x2 : Vec F 𝔹c 𝔼c) : Vec F 𝔹o 𝔼o :=
  View.canon [⟨wholeO0, k0_pay1 (View.ld x0 wholeA0) (View.ld x1 wholeB0) (View.ld x2 wholeC0)⟩]

/-- That store is of the whole block, so it alone covers the buffer, whatever it stores. -/
theorem covers0_3 (p : (wholeO0).shape.Idx → Elt F 𝔼o) (y : Shape.Idx 𝔹o) :
    ∃ pc ∈ ([⟨wholeO0, p⟩] : List (View.Piece (Elt F) 𝔹o 𝔼o)), y ∈ pc.1.set :=
  View.cover_of_wholeMem _ (View.Piece.wholeMem_here (by rfl)) y

/-! ## The body as a triple over its four memrefs -/

set_option maxHeartbeats 1000000 in
/-- On whole memrefs, the three inputs' reading `x0 x1 x2` and the output's holding anything, the body runs to a
    continuation that is given the inputs' unchanged and the output's at `out0_3 x0 x1 x2`. -/
theorem sound_kernel0 (c : Dev nD) (E : Set ℕ) (i : grid0.Coords)
    (arg1 : Memref sig .tc .vmem 𝔹a 𝔼a) (harg1 : arg1.IsWhole) (arg2 : Memref sig .tc .vmem 𝔹b 𝔼b) (harg2 : arg2.IsWhole)
    (arg3 : Memref sig .tc .vmem 𝔹c 𝔼c) (harg3 : arg3.IsWhole) (arg4 : Memref sig .tc .vmem 𝔹o 𝔼o) (harg4 : arg4.IsWhole)
    (x0 : Vec F 𝔹a 𝔼a) (x1 : Vec F 𝔹b 𝔼b) (x2 : Vec F 𝔹c 𝔼c) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel_f32 i arg1 harg1 arg2 harg2 arg3 harg3 arg4 harg4) K := by
  simp only [cc0__linear_kernel_f32_eq_skeleton]; unfold cc0__linear_kernel_f32_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers0_3 _)

/-! ## The proof data -/

/-- Pipeline 0's proof data on core `c`. The arrays: as the region finds them. After the body at point `t`: an input's
    buffer at its block, the output's at `out0_3` of the three input blocks there. The invariant is the class's (the
    scoped rest and the generator register, which the body does not touch), nothing is owed, every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- Its arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body finds in the input buffers

Window 0 is refetched at every point, windows 1 and 2 only at the first. Either way the buffer holds the window's
block: where the pipeline does not refetch, the block index is the previous point's, and the body left that block in
place. The blocks tile their arrays (no cut) and the pipeline states no idle point. -/

theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0]; unfold Dat.blockOf iblk0; rw [A_eq0]; try rfl
  refine ((dat0 V c).before_in_eq_fetched 0 rfl (fun _ => rfl) (fun _ _ _ => rfl) hkeep t d).trans ?_
  unfold Dat.fetched Dat.blockOf iblk0; rw [A_eq0]; try rfl

theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := fun s => by
    rw [after0_1]; unfold Dat.blockOf iblk0; rw [A_eq0]; try rfl
  refine ((dat0 V c).before_in_eq_fetched 1 rfl (fun _ => rfl) (fun _ _ _ => rfl) hkeep t d).trans ?_
  unfold Dat.fetched Dat.blockOf iblk0; rw [A_eq0]; try rfl

theorem before0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := fun s => by
    rw [after0_2]; unfold Dat.blockOf iblk0; rw [A_eq0]; try rfl
  refine ((dat0 V c).before_in_eq_fetched 2 rfl (fun _ => rfl) (fun _ _ _ => rfl) hkeep t d).trans ?_
  unfold Dat.fetched Dat.blockOf iblk0; rw [A_eq0]; try rfl

/-! ## The body obligation -/

/-- What the pipeline hands the body at point `t`: the invariant, the debt, and each window's current buffer at what it
    then holds, the four windows one by one. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it takes back: the same at the next point, each buffer at what the body leaves. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at a point: the input buffers hold their blocks, the output buffer something, so the triple applies at the
    three blocks; the invariant and the debt do not depend on the point and are carried over as they are. -/
theorem sound_body0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's loop asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.RegA1.lean ====
/- Region 1 of @main: custom_call 1, the kernel function `cc1__msg_kernel` on pipeline `cfg1`, at a
   parameter `V` (the core's buffer contents when the region is entered). Windows 0, 1, 2 are inputs, window 3 the
   output. The body reads each input block whole, reads the output block (a value nothing uses) and overwrites the
   output block whole with the payload `k1_pay1` of the three input blocks. Hence: after the body each input buffer
   still holds its block and the output buffer holds what one whole-block write of that payload leaves; before the body
   an input buffer holds its block at every point, refetched there or not, because a window that is not refetched has
   not moved its block index; the class's invariant and the core's debt pass through the body unread. -/
import proofs.«408707_j33406255628688_2_alg».proof.Proof.Gen.KernelIdeal.Launch
import proofs.«408707_j33406255628688_2_alg».proof.Proof.Gen.KernelIdeal.Skeleton
import proofs.«408707_j33406255628688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## This region's blocks

Shape and element type of the block of each window (a, b, c: the inputs, windows 0, 1, 2; o: the output, window 3),
and for each the fact that the whole block lies inside itself. Everything below is written over these twelve. -/

local notation "𝔹a" => S1280x512
local notation "𝔼a" => EltTy.f32
local notation "inbA" => inb_S1280x512_S1280x512_0_0
local notation "𝔹b" => S512x512
local notation "𝔼b" => EltTy.bf16
local notation "inbB" => inb_S512x512_S512x512_0_0
local notation "𝔹c" => S1x512
local notation "𝔼c" => EltTy.f32
local notation "inbC" => inb_S1x512_S1x512_0_0
local notation "𝔹o" => S1280x512
local notation "𝔼o" => EltTy.bf16
local notation "inbO" => inb_S1280x512_S1280x512_0_0

variable (V : (c : Dev nD) → (b : Ref sig .tc) → Buf (Elt F) ((c : Thread nD τ).loc b))

/-! ## The blocks the windows show -/

/-- The block of window `w` at grid point `t`: the window's view of its array there, read in the contents the region
    finds (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes through: each block whole -/

abbrev wholeA1 : Rect 𝔹a := Rect.unit (s := 𝔹a) ![0, 0] (Shape.size 𝔹a) inbA
abbrev wholeB1 : Rect 𝔹b := Rect.unit (s := 𝔹b) ![0, 0] (Shape.size 𝔹b) inbB
abbrev wholeC1 : Rect 𝔹c := Rect.unit (s := 𝔹c) ![0, 0] (Shape.size 𝔹c) inbC
abbrev wholeO1 : Rect 𝔹o := Rect.unit (s := 𝔹o) ![0, 0] (Shape.size 𝔹o) inbO

/-! ## What the body leaves in the output buffer -/

/-- The output buffer after the body, from the three input blocks: the body's single store, of the payload of the three
    loads, through the whole-block rectangle. -/
def out1_3 (x0 : Vec F 𝔹a 𝔼a) (x1 : Vec F 𝔹b 𝔼b) (x2 : Vec F 𝔹c 𝔼c) : Vec F 𝔹o 𝔼o :=
  View.canon [⟨wholeO1, k1_pay1 (View.ld x0 wholeA1) (View.ld x1 wholeB1) (View.ld x2 wholeC1)⟩]

/-- That store is of the whole block, so it alone covers the buffer, whatever it stores. -/
theorem covers1_3 (p : (wholeO1).shape.Idx → Elt F 𝔼o) (y : Shape.Idx 𝔹o) :
    ∃ pc ∈ ([⟨wholeO1, p⟩] : List (View.Piece (Elt F) 𝔹o 𝔼o)), y ∈ pc.1.set :=
  View.cover_of_wholeMem _ (View.Piece.wholeMem_here (by rfl)) y

/-! ## The body as a triple over its four memrefs -/

set_option maxHeartbeats 1000000 in
/-- On whole memrefs, the three inputs' reading `x0 x1 x2` and the output's holding anything, the body runs to a
    continuation that is given the inputs' unchanged and the output's at `out1_3 x0 x1 x2`. -/
theorem sound_kernel1 (c : Dev nD) (E : Set ℕ) (i : grid1.Coords)
    (arg1 : Memref sig .tc .vmem 𝔹a 𝔼a) (harg1 : arg1.IsWhole) (arg2 : Memref sig .tc .vmem 𝔹b 𝔼b) (harg2 : arg2.IsWhole)
    (arg3 : Memref sig .tc .vmem 𝔹c 𝔼c) (harg3 : arg3.IsWhole) (arg4 : Memref sig .tc .vmem 𝔹o 𝔼o) (harg4 : arg4.IsWhole)
    (x0 : Vec F 𝔹a 𝔼a) (x1 : Vec F 𝔹b 𝔼b) (x2 : Vec F 𝔹c 𝔼c) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__msg_kernel i arg1 harg1 arg2 harg2 arg3 harg3 arg4 harg4) K := by
  simp only [cc1__msg_kernel_eq_skeleton]; unfold cc1__msg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers1_3 _)

/-! ## The proof data -/

/-- Pipeline 1's proof data on core `c`. The arrays: as the region finds them. After the body at point `t`: an input's
    buffer at its block, the output's at `out1_3` of the three input blocks there. The invariant is the class's (the
    scoped rest and the generator register, which the body does not touch), nothing is owed, every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- Its arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## What the body finds in the input buffers

Window 0 is refetched at every point, windows 1 and 2 only at the first. Either way the buffer holds the window's
block: where the pipeline does not refetch, the block index is the previous point's, and the body left that block in
place. The blocks tile their arrays (no cut) and the pipeline states no idle point. -/

theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := fun s => by
    rw [after1_0]; unfold Dat.blockOf iblk1; rw [A_eq1]; try rfl
  refine ((dat1 V c).before_in_eq_fetched 0 rfl (fun _ => rfl) (fun _ _ _ => rfl) hkeep t d).trans ?_
  unfold Dat.fetched Dat.blockOf iblk1; rw [A_eq1]; try rfl

theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := fun s => by
    rw [after1_1]; unfold Dat.blockOf iblk1; rw [A_eq1]; try rfl
  refine ((dat1 V c).before_in_eq_fetched 1 rfl (fun _ => rfl) (fun _ _ _ => rfl) hkeep t d).trans ?_
  unfold Dat.fetched Dat.blockOf iblk1; rw [A_eq1]; try rfl

theorem before1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := fun s => by
    rw [after1_2]; unfold Dat.blockOf iblk1; rw [A_eq1]; try rfl
  refine ((dat1 V c).before_in_eq_fetched 2 rfl (fun _ => rfl) (fun _ _ _ => rfl) hkeep t d).trans ?_
  unfold Dat.fetched Dat.blockOf iblk1; rw [A_eq1]; try rfl

/-! ## The body obligation -/

/-- What the pipeline hands the body at point `t`: the invariant, the debt, and each window's current buffer at what it
    then holds, the four windows one by one. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it takes back: the same at the next point, each buffer at what the body leaves. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at a point: the input buffers hold their blocks, the output buffer something, so the triple applies at the
    three blocks; the invariant and the debt do not depend on the point and are carried over as they are. -/
theorem sound_body1 (c : Dev nD) (t : Fin cfg1.N) :
    handed1 V c t ⊢ wp frame (wpE (defs₀ (F := F)) Variants.none c none) Set.univ (bodyAt1 t) (fun _ => returned1 V c t) := by
  unfold handed1 returned1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's loop asks of the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.RegJ2.lean ====
/-
  Region 2 of @main: the adjacency product, accumulated over the contraction blocks.

  The grid is 8 × 8; a point (i, k) reads block (i, k) of the adjacency matrix (1280 × 1280) and block (k, 0) of the
  messages (1280 × 512), and the contraction index k runs innermost. An accumulator (1280 × 512, single precision)
  is kept from point to point: at k = 0 it is set to zero, at every point the product of the two blocks is added
  to it, and at k = 7 it is narrowed to half precision and stored as block (i, 0) of the result; off k = 7 the
  result's buffer is left as found and not written back.

  So the body has three control cases, by k: k = 0, 0 < k < 7, k = 7. For each the body's run is stated on whole
  memrefs, with what it leaves in the accumulator (and, at k = 7, in the result's buffer) as a closed term over the
  two input blocks, the accumulator found, and the payloads of the body's stores. `outsAt2` folds these over the 64
  points; the invariant carries the accumulator at `outsAt2`'s second component from each point to the next (at
  k = 0 whatever it holds is overwritten, so the first point needs nothing of it); the proof data, the body
  obligation at every point, and the invariant's two ends follow. Everything is generic in the float semantics.
-/
import proofs.«408707_j33406255628688_2_alg».proof.Proof.Gen.KernelIdeal.Launch
import proofs.«408707_j33406255628688_2_alg».proof.Proof.Gen.KernelIdeal.Skeleton
import proofs.«408707_j33406255628688_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions, decided over the grid -/

/-- The reset branch is taken where the contraction index (grid axis 1) is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The output branch is taken where the contraction index is the last one, 7. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## The body's accesses: every load and store is of a whole buffer -/

abbrev rS2 : Rect S1280x512 := Rect.unit (s := S1280x512) ![0, 0] S1280x512.size inb_S1280x512_S1280x512_0_0
abbrev rA2 : Rect S1280x1280 := Rect.unit (s := S1280x1280) ![0, 0] S1280x1280.size inb_S1280x1280_S1280x1280_0_0

/-- A whole-buffer store covers the accumulator, whatever was stored before it. -/
theorem coverS2 (p0 : rS2.shape.Idx → Elt F .f32) (L : List (View.Piece (Elt F) S1280x512 .f32)) (y : S1280x512.Idx) :
    ∃ pc ∈ ((⟨rS2, p0⟩ : View.Piece (Elt F) S1280x512 .f32) :: L), y ∈ pc.1.set := by
  obtain ⟨pc, hm, hy⟩ := View.cover_of_tiledL ([⟨rS2, p0⟩] : List (View.Piece (Elt F) S1280x512 .f32)) S1280x512.size (by sl_kernel_rfl) y
  exact ⟨pc, List.mem_cons.mpr (Or.inl (List.mem_singleton.mp hm)), hy⟩

/-- A whole-buffer store covers the output block. -/
theorem coverO2 (p0 : rS2.shape.Idx → Elt F .bf16) (L : List (View.Piece (Elt F) S1280x512 .bf16)) (y : S1280x512.Idx) :
    ∃ pc ∈ ((⟨rS2, p0⟩ : View.Piece (Elt F) S1280x512 .bf16) :: L), y ∈ pc.1.set := by
  obtain ⟨pc, hm, hy⟩ := View.cover_of_tiledL ([⟨rS2, p0⟩] : List (View.Piece (Elt F) S1280x512 .bf16)) S1280x512.size (by sl_kernel_rfl) y
  exact ⟨pc, List.mem_cons.mpr (Or.inl (List.mem_singleton.mp hm)), hy⟩

/-! ## What one point leaves, from the input blocks and the accumulator it found -/

/-- The accumulator after a point that RESETS it (k = 0): zeros stored, read back, the product of the two input
    blocks added, stored. Last store first. -/
def accReset2 (x0 : Vec F S1280x1280 .bf16) (x1 : Vec F S1280x512 .bf16) : Vec F S1280x512 .f32 :=
  View.canon [⟨rS2, k2_pay2 (View.ld (View.canon [⟨rS2, k2_pay1 (F := F)⟩]) rS2) (View.ld x0 rA2) (View.ld x1 rS2)⟩, ⟨rS2, k2_pay1 (F := F)⟩]

/-- The accumulator after a point that CARRIES it (k ≠ 0), from what the point before left (`xs`). -/
def accStep2 (x0 : Vec F S1280x1280 .bf16) (x1 : Vec F S1280x512 .bf16) (xs : Vec F S1280x512 .f32) : Vec F S1280x512 .f32 :=
  View.canon [⟨rS2, k2_pay2 (View.ld xs rS2) (View.ld x0 rA2) (View.ld x1 rS2)⟩]

/-- The output block stored at the last contraction step (k = 7): the accumulator just stored, narrowed. -/
def outLast2 (x0 : Vec F S1280x1280 .bf16) (x1 : Vec F S1280x512 .bf16) (xs : Vec F S1280x512 .f32) : Vec F S1280x512 .bf16 :=
  View.canon [⟨rS2, k2_pay3 (View.ld (accStep2 x0 x1 xs) rS2)⟩]

set_option maxHeartbeats 1000000 in
/-- CASE k = 0 (and k ≠ 7): on whole memrefs, the two inputs at their contents, the output at contents handed back
    untouched, the accumulator at ANYTHING, the body runs to the inputs and the output as they were and the
    accumulator at `accReset2` of the input blocks. -/
theorem run2_A (c : Dev nD) (i : grid2.Coords) (aA : Memref sig .tc .vmem S1280x1280 .bf16) (haA : aA.IsWhole) (aG : Memref sig .tc .vmem S1280x512 .bf16) (haG : aG.IsWhole) (aO : Memref sig .tc .vmem S1280x512 .bf16) (haO : aO.IsWhole) (aS : Memref sig .tc .vmem S1280x512 .f32) (haS : aS.IsWhole) (hc0 : cond2_0 i) (hc1 : ¬cond2_1 i)
    (x0 : Vec F S1280x1280 .bf16) (x1 : Vec F S1280x512 .bf16) (xi : Vec F S1280x512 .bf16) (E : Set ℕ) (K : PUnit → sProp 𝕄) :
    iprop(owns (c : Thread nD τ) aA fullShare x0 ∗ owns (c : Thread nD τ) aG fullShare x1 ∗ owns (c : Thread nD τ) aO fullShare xi ∗ (∃ d, owns (c : Thread nD τ) aS fullShare d)
        ∗ (iprop(owns (c : Thread nD τ) aA fullShare x0 ∗ owns (c : Thread nD τ) aG fullShare x1 ∗ owns (c : Thread nD τ) aO fullShare xi ∗ owns (c : Thread nD τ) aS fullShare (accReset2 x0 x1)) -∗ K ⟨⟩))
      ⊢ wp frame (wpE (defs₀ (F := F)) Variants.none c none) E (cc2__adj_matmul_kernel i aA haA aG haG aO haO aS haS) K := by
  simp only [cc2__adj_matmul_kernel_eq_skeleton]; unfold cc2__adj_matmul_kernel_skel
  unfold owns
  iintro ⟨⟨%f0, %hf0, H0⟩, ⟨%f1, %hf1, H1⟩, ⟨%fO, %hfO, HO⟩, ⟨%dS, %fS, -, HS⟩, Hk⟩
  subst hf0; subst hf1; subst hfO
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists fO; isplitr; · ipureintro; rfl
    iexact HO
  iexists _; isplitr
  swap; · iexact HS
  ipureintro
  sl_unfold_run_names
  rw [View.readCov_eq_canon_ld _ _ _ (coverS2 _ _)]
  exact View.read_writes_eq_canon _ _ _ (coverS2 _ _)

set_option maxHeartbeats 1000000 in
/-- CASE k ≠ 0, k ≠ 7: the accumulator is found at what the point before left (`xs`) and left at `accStep2`; the
    output is handed back untouched. -/
theorem run2_B (c : Dev nD) (i : grid2.Coords) (aA : Memref sig .tc .vmem S1280x1280 .bf16) (haA : aA.IsWhole) (aG : Memref sig .tc .vmem S1280x512 .bf16) (haG : aG.IsWhole) (aO : Memref sig .tc .vmem S1280x512 .bf16) (haO : aO.IsWhole) (aS : Memref sig .tc .vmem S1280x512 .f32) (haS : aS.IsWhole) (hc0 : ¬cond2_0 i) (hc1 : ¬cond2_1 i)
    (x0 : Vec F S1280x1280 .bf16) (x1 : Vec F S1280x512 .bf16) (xi : Vec F S1280x512 .bf16) (xs : Vec F S1280x512 .f32) (E : Set ℕ) (K : PUnit → sProp 𝕄) :
    iprop(owns (c : Thread nD τ) aA fullShare x0 ∗ owns (c : Thread nD τ) aG fullShare x1 ∗ owns (c : Thread nD τ) aO fullShare xi ∗ owns (c : Thread nD τ) aS fullShare xs
        ∗ (iprop(owns (c : Thread nD τ) aA fullShare x0 ∗ owns (c : Thread nD τ) aG fullShare x1 ∗ owns (c : Thread nD τ) aO fullShare xi ∗ owns (c : Thread nD τ) aS fullShare (accStep2 x0 x1 xs)) -∗ K ⟨⟩))
      ⊢ wp frame (wpE (defs₀ (F := F)) Variants.none c none) E (cc2__adj_matmul_kernel i aA haA aG haG aO haO aS haS) K := by
  simp only [cc2__adj_matmul_kernel_eq_skeleton]; unfold cc2__adj_matmul_kernel_skel
  unfold owns
  iintro ⟨⟨%f0, %hf0, H0⟩, ⟨%f1, %hf1, H1⟩, ⟨%fO, %hfO, HO⟩, ⟨%fS, %hfS, HS⟩, Hk⟩
  subst hf0; subst hf1; subst hfO; subst hfS
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists fO; isplitr; · ipureintro; rfl
    iexact HO
  iexists _; isplitr
  swap; · iexact HS
  ipureintro
  exact View.read_writes_eq_canon _ _ _ (coverS2 _ _)

set_option maxHeartbeats 1000000 in
/-- CASE k = 7 (so k ≠ 0): the accumulator as in the case before; the output, found at anything, is left at
    `outLast2`: the accumulator just stored, read back and narrowed. -/
theorem run2_C (c : Dev nD) (i : grid2.Coords) (aA : Memref sig .tc .vmem S1280x1280 .bf16) (haA : aA.IsWhole) (aG : Memref sig .tc .vmem S1280x512 .bf16) (haG : aG.IsWhole) (aO : Memref sig .tc .vmem S1280x512 .bf16) (haO : aO.IsWhole) (aS : Memref sig .tc .vmem S1280x512 .f32) (haS : aS.IsWhole) (hc0 : ¬cond2_0 i) (hc1 : cond2_1 i)
    (x0 : Vec F S1280x1280 .bf16) (x1 : Vec F S1280x512 .bf16) (xs : Vec F S1280x512 .f32) (E : Set ℕ) (K : PUnit → sProp 𝕄) :
    iprop(owns (c : Thread nD τ) aA fullShare x0 ∗ owns (c : Thread nD τ) aG fullShare x1 ∗ (∃ d, owns (c : Thread nD τ) aO fullShare d) ∗ owns (c : Thread nD τ) aS fullShare xs
        ∗ (iprop(owns (c : Thread nD τ) aA fullShare x0 ∗ owns (c : Thread nD τ) aG fullShare x1 ∗ owns (c : Thread nD τ) aO fullShare (outLast2 x0 x1 xs) ∗ owns (c : Thread nD τ) aS fullShare (accStep2 x0 x1 xs)) -∗ K ⟨⟩))
      ⊢ wp frame (wpE (defs₀ (F := F)) Variants.none c none) E (cc2__adj_matmul_kernel i aA haA aG haG aO haO aS haS) K := by
  simp only [cc2__adj_matmul_kernel_eq_skeleton]; unfold cc2__adj_matmul_kernel_skel
  unfold owns
  iintro ⟨⟨%f0, %hf0, H0⟩, ⟨%f1, %hf1, H1⟩, ⟨%dO, %fO, -, HO⟩, ⟨%fS, %hfS, HS⟩, Hk⟩
  subst hf0; subst hf1; subst hfS
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_run_names
    rw [View.readCov_eq_canon_ld _ _ _ (coverS2 _ _)]
    exact View.read_writes_eq_canon _ _ _ (coverO2 _ _)
  iexists _; isplitr
  swap; · iexact HS
  ipureintro
  exact View.read_writes_eq_canon _ _ _ (coverS2 _ _)

/-! ## The windows' blocks -/

/-- Window `w`'s block at point `t`, read off its array as the region finds it (`V`): block (i, k) of the
    adjacency for window 0, block (k, 0) of the messages for window 1, block (i, 0) of the result for window 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, for any proof data whose array is `V`'s and
    whose body leaves the block in place: the window is never idle and its blocks tile the array. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## Where the output window is idle -/

/-- The two inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
/-- Off the last contraction step the output window is idle: the body stores nothing into it, -/
theorem idleAt2_2 : ∀ t : Fin cfg2.N, ¬cond2_1 (grid2.coords t) → cfg2.idle 2 (grid2.coords t) = true :=
  (by decide +kernel : ∀ t : Fin grid2.N, ¬cond2_1 (grid2.coords t) → idle2 2 (grid2.coords t) = true)
/-- and the pipeline does not write its block back there. -/
theorem noFlush2_2 : ∀ t : Fin cfg2.N, ¬cond2_1 (grid2.coords t) → (cfg2.win 2).flush t = false :=
  (by decide +kernel : ∀ t : Fin grid2.N, ¬cond2_1 (grid2.coords t) → win2_2.flush t = false)
/-- At the last contraction step it is live. -/
theorem liveAt2_2 : ∀ t : Fin cfg2.N, cond2_1 (grid2.coords t) → cfg2.idle 2 (grid2.coords t) = false :=
  (by decide +kernel : ∀ t : Fin grid2.N, cond2_1 (grid2.coords t) → idle2 2 (grid2.coords t) = false)

/-! ## What the output buffer and the accumulator hold after each point -/

/-- THE ACCUMULATION over the grid, point by point (the contraction index k = n mod 8 innermost): the pair (output
    buffer, accumulator) after the body at position `n`. At k = 0 the accumulator restarts from zeros whatever it held;
    at k ≠ 0 it continues from what position `n - 1` left; at k = 7 the output block is the accumulator narrowed.
    Off k = 7 the output component is a placeholder nothing consults (the window is idle and not written back). -/
def outsAt2 (c : Dev nD) : (n : ℕ) → n < cfg2.N → Vec F S1280x512 .bf16 × Vec F S1280x512 .f32
  | 0, hn => (View.canon [], accReset2 (iblk2 V c 0 ⟨0, hn⟩) (iblk2 V c 1 ⟨0, hn⟩))
  | n + 1, hn =>
    if (n + 1) % 8 = 0 then
      (View.canon [], accReset2 (iblk2 V c 0 ⟨n + 1, hn⟩) (iblk2 V c 1 ⟨n + 1, hn⟩))
    else if (n + 1) % 8 = 7 then
      (outLast2 (iblk2 V c 0 ⟨n + 1, hn⟩) (iblk2 V c 1 ⟨n + 1, hn⟩) (outsAt2 c n (Nat.lt_of_succ_lt hn)).2,
        accStep2 (iblk2 V c 0 ⟨n + 1, hn⟩) (iblk2 V c 1 ⟨n + 1, hn⟩) (outsAt2 c n (Nat.lt_of_succ_lt hn)).2)
    else
      (View.canon [], accStep2 (iblk2 V c 0 ⟨n + 1, hn⟩) (iblk2 V c 1 ⟨n + 1, hn⟩) (outsAt2 c n (Nat.lt_of_succ_lt hn)).2)

/-- At a point with k = 0: the accumulator restarted on this point's blocks. -/
theorem outsAt2_A (c : Dev nD) (t : Fin cfg2.N) (h0 : t.val % 8 = 0) :
    outsAt2 V c t.val t.isLt = (View.canon [], accReset2 (iblk2 V c 0 t) (iblk2 V c 1 t)) := by
  obtain ⟨n, hn⟩ := t
  cases n with
  | zero => exact rfl
  | succ n => exact (if_pos h0).trans rfl

/-- At a point with 0 < k < 7: the accumulator continued from the point before. -/
theorem outsAt2_B (c : Dev nD) (t : Fin cfg2.N) (h0 : ¬t.val % 8 = 0) (h1 : ¬t.val % 8 = 7) :
    outsAt2 V c t.val t.isLt = (View.canon [], accStep2 (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h1).trans rfl)

/-- At a point with k = 7: the same accumulator, and the output block read off it. -/
theorem outsAt2_C (c : Dev nD) (t : Fin cfg2.N) (h1 : t.val % 8 = 7) :
    outsAt2 V c t.val t.isLt = (outLast2 (iblk2 V c 0 t) (iblk2 V c 1 t) (outsAt2 V c (t.val - 1) (Nat.lt_of_le_of_lt (Nat.sub_le _ _) t.isLt)).2,
      accStep2 (iblk2 V c 0 t) (iblk2 V c 1 t) (outsAt2 V c (t.val - 1) (Nat.lt_of_le_of_lt (Nat.sub_le _ _) t.isLt)).2) := by
  obtain ⟨n, hn⟩ := t
  have h0 : ¬(n % 8 = 0) := fun h => by dsimp only at h1; omega
  cases n with
  | zero => exact absurd (Nat.zero_mod _) h0
  | succ n => exact (if_neg h0).trans ((if_pos h1).trans rfl)

/-! ## The region invariant -/

/-- The accumulator: a whole scoped buffer of the kernel's own, passed beside the windows. -/
abbrev scM2 : Memref sig .tc .vmem S1280x512 .f32 := Memref.whole cc2_scratch0
/-- Every other scoped buffer of the core that is no staging buffer of this call, each at some contents, unopened. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the accumulator taken out as a memref owned at some contents. -/
theorem PhiA2_eq (c : Dev nD) :
    (Pipeline.ΦA spec2 c : sProp 𝕄)
      = iprop(iprop(iprop((∃ d, owns (c : Thread nD τ) scM2 fullShare d)) ∗ rest2 (F := F) c) ∗ (∃ r, prngReg c r)) := by
  unfold Pipeline.ΦA; rw [scopedRest2_split]; simp only [scM2, rest2, owns_whole]; try rfl

/-- The invariant before position `n`: before the first point the class's (the accumulator at anything); afterwards
    the accumulator at what the point before left, beside the other scoped buffers and the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ rest2 (F := F) c) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- Each window's current staging memref at point `t`, spelled as the pipeline passes it to the body. -/
abbrev ms2_0 (t : Fin cfg2.N) : Memref sig .tc .vmem S1280x1280 .bf16 := win2_0.stage (cfg2.slots t 0)
abbrev ms2_1 (t : Fin cfg2.N) : Memref sig .tc .vmem S1280x512 .bf16 := win2_1.stage (cfg2.slots t 1)
abbrev ms2_2 (t : Fin cfg2.N) : Memref sig .tc .vmem S1280x512 .bf16 := win2_2.stage (cfg2.slots t 2)

/-- What the body is called with at point `t`: the invariant, what the core owes, each window's buffer at what it
    then holds, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the closed forms of the two conditions say which of
    the three control cases the point is in. At k = 0 the accumulator is handed over at whatever it holds (the class's
    invariant before the first point, the previous row block's last value afterwards) and comes back restarted; at
    k ≠ 0 it is handed over at what the point before left and comes back continued; the output window is handed back as
    found off k = 7 and at the narrowed accumulator at k = 7. The other scoped buffers, the generator register and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 64 := lt_of_lt_of_eq t.isLt (show cfg2.N = 64 from N_2)
  by_cases h0 : t.val % 8 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [outsAt2_A V c t h0]; dsimp only
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%dO, HO⟩⟩
      iapply (run2_A c (grid2.coords t) _ _ _ _ _ _ _ _ hc0 hc1 (iblk2 V c 0 t) (iblk2 V c 1 t) _ Set.univ _)
      isplitl [H0]; · iexact H0
      isplitl [H1]; · iexact H1
      isplitl [HO]; · iexact HO
      isplitl [HS]; · iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HO
    · rw [PhiS2_castSucc V c t, PhiS2_pos V c _ _ hz]
      iintro ⟨⟨⟨HS, HR⟩, Hg⟩, Ho, ⟨%d0, H0⟩, ⟨%d1, H1⟩, ⟨%dO, HO⟩⟩
      iapply (run2_A c (grid2.coords t) _ _ _ _ _ _ _ _ hc0 hc1 (iblk2 V c 0 t) (iblk2 V c 1 t) _ Set.univ _)
      isplitl [H0]; · iexact H0
      isplitl [H1]; · iexact H1
      isplitl [HO]; · iexact HO
      isplitl [HS]; · iexists _; iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HO
  · have hc0 : ¬cond2_0 (grid2.coords t) := fun h => h0 ((hcond2_0 t).mp h)
    have hz : t.val ≠ 0 := fun h => h0 (by rw [h])
    by_cases h1 : t.val % 8 = 7
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [outsAt2_C V c t h1]; dsimp only
      rw [PhiS2_castSucc V c t, PhiS2_pos V c _ _ hz]
      iintro ⟨⟨⟨HS, HR⟩, Hg⟩, Ho, ⟨%d0, H0⟩, ⟨%d1, H1⟩, ⟨%dO, HO⟩⟩
      iapply (run2_C c (grid2.coords t) _ _ _ _ _ _ _ _ hc0 hc1 (iblk2 V c 0 t) (iblk2 V c 1 t) _ Set.univ _)
      isplitl [H0]; · iexact H0
      isplitl [H1]; · iexact H1
      isplitl [HO]; · iexists _; iexact HO
      isplitl [HS]; · iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact HO
    · have hc1 : ¬cond2_1 (grid2.coords t) := fun h => h1 ((hcond2_1 t).mp h)
      rw [Dat.leavesExact_idle (dat2 V c) 2 t (idleAt2_2 t hc1) (noFlush2_2 t hc1)]
      rw [outsAt2_B V c t h0 h1]; dsimp only
      rw [PhiS2_castSucc V c t, PhiS2_pos V c _ _ hz]
      iintro ⟨⟨⟨HS, HR⟩, Hg⟩, Ho, ⟨%d0, H0⟩, ⟨%d1, H1⟩, ⟨%dO, HO⟩⟩
      iapply (run2_B c (grid2.coords t) _ _ _ _ _ _ _ _ hc0 hc1 (iblk2 V c 0 t) (iblk2 V c 1 t) _ _ Set.univ _)
      isplitl [H0]; · iexact H0
      isplitl [H1]; · iexact H1
      isplitl [HO]; · iexact HO
      isplitl [HS]; · iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HO

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.KI.RegU3.lean ====
/-
  Region 3 of @main: the node update. At each of the eight row blocks the body reads five staged blocks — the
  block's rows of the node features (f32) and of the aggregated messages (bf16), the two square weight matrices
  (bf16) and the bias row (f32) — and overwrites the staged output block, whole, by

      max (trunc (features) · W_self + messages · W_nbr + bias, 0).

  It also reads the output block once before overwriting it; nothing depends on what that read returns, so the
  block may hold anything when the body starts.

  Stated at the contents V of the core's buffers when the region is entered:
    * every input window's staging buffer holds that window's block of V at every grid point. The features and
      the messages are fetched at each point. The weights and the bias are fetched at the first point only; their
      block index is constant over the grid, so the block staged first is the block of every later point;
    * the output buffer after the body is the single whole store's payload of the five input blocks;
    * the body's Hoare triple, the pipeline's proof data and the body obligation at a generic grid point.
-/
import proofs.«408707_j33406255628688_2_alg».proof.Proof.Gen.KernelIdeal.Launch
import proofs.«408707_j33406255628688_2_alg».proof.Proof.Gen.KernelIdeal.Skeleton
import proofs.«408707_j33406255628688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 1280 × 512 rectangle is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- Window `w`'s block at grid point `t`: the window's array, as the region finds it, read through the block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's rectangles: each access is the whole of its staging buffer -/

/-- A whole 1280 × 512 block: the features, the messages and the output. -/
abbrev rect3_rows : Rect S1280x512 := Rect.unit (s := S1280x512) ![0, 0] S1280x512.size inb_S1280x512_S1280x512_0_0
/-- A whole 512 × 512 weight matrix. -/
abbrev rect3_wt : Rect S512x512 := Rect.unit (s := S512x512) ![0, 0] S512x512.size inb_S512x512_S512x512_0_0
/-- The whole 1 × 512 bias row. -/
abbrev rect3_bias : Rect S1x512 := Rect.unit (s := S1x512) ![0, 0] S1x512.size inb_S1x512_S1x512_0_0

/-! ## What the body leaves in the output buffer -/

/-- The output buffer after the body, as a function of the five input blocks: one store, through the whole
    rectangle, of the update's payload at what the five loads read. -/
def out3_5 (x0 : Vec F S1280x512 .f32) (x1 : Vec F S1280x512 .bf16) (x2 x3 : Vec F S512x512 .bf16) (x4 : Vec F S1x512 .f32) :
    Vec F S1280x512 .f32 :=
  View.canon [⟨rect3_rows,
    k3_pay1 (View.ld x0 rect3_rows) (View.ld x1 rect3_rows) (View.ld x2 rect3_wt) (View.ld x3 rect3_wt) (View.ld x4 rect3_bias)⟩]

/-- The single store's rectangle is the whole block, so every index of the block lies in it. -/
theorem cover3_5 (p : Vec F S1280x512 .f32) (y : S1280x512.Idx) :
    ∃ pc ∈ ([⟨rect3_rows, p⟩] : List (View.Piece (Elt F) S1280x512 .f32)), y ∈ pc.1.set :=
  View.cover_of_tiled [⟨rect3_rows, p⟩] S1280x512.size (by rfl) y

/-! ## The body's triple -/

set_option maxHeartbeats 1000000 in
/-- The body on whole staging memrefs: the five inputs at read contents `x0 … x4`, the output at anything. It runs to
    the continuation with the inputs as they were and the output at `out3_5` of them. The read of the output before
    the store consumes nothing and its value is dropped. -/
theorem sound_kernel3 (c : Dev nD) (E : Set ℕ) (i : grid3.Coords)
    (arg1 : Memref sig .tc .vmem S1280x512 .f32) (harg1 : arg1.IsWhole)
    (arg2 : Memref sig .tc .vmem S1280x512 .bf16) (harg2 : arg2.IsWhole)
    (arg3 : Memref sig .tc .vmem S512x512 .bf16) (harg3 : arg3.IsWhole)
    (arg4 : Memref sig .tc .vmem S512x512 .bf16) (harg4 : arg4.IsWhole)
    (arg5 : Memref sig .tc .vmem S1x512 .f32) (harg5 : arg5.IsWhole)
    (arg6 : Memref sig .tc .vmem S1280x512 .f32) (harg6 : arg6.IsWhole)
    (x0 : Vec F S1280x512 .f32) (x1 : Vec F S1280x512 .bf16) (x2 x3 : Vec F S512x512 .bf16) (x4 : Vec F S1x512 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare x4
              ∗ owns (c : Thread nD τ) arg6 fullShare (out3_5 x0 x1 x2 x3 x4)) -∗ K ⟨⟩))
      ⊢ wp frame (wpE (defs₀ (F := F)) Variants.none c none) E
          (cc3__update_kernel i arg1 harg1 arg2 harg2 arg3 harg3 arg4 harg4 arg5 harg5 arg6 harg6) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the region's pipeline on core `c`: the arrays as the region finds them; after the body at point
    `t` each input buffer at its block and the output buffer at `out3_5` of the five blocks; the invariant is
    the untouched rest; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- Each window's array in the proof data is `V`'s buffer for that window's reference. -/
theorem A_eq3 (c : Dev nD) (w : Fin cfg3.W) : (dat3 V c).A w = V c (Pipeline.arrRef spec3 w) := by
  dsimp only [dat3]

/-- The contents after the body, one equation per window (an input keeps its block; the output gets the payload). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by
  dsimp only [dat3]

/-! ## What the body finds in each input buffer

An input window is not an output, is idle nowhere and is not clipped, and the body leaves its block in place; so at
every point its buffer holds the block a fetch there would bring, fetched there or not. For the features and the
messages every point fetches. For the weights and the bias only the first point does, and at a later point the
buffer still holds the first point's block, which is that point's block because the block index has not moved. -/

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-! ## The body obligation at a generic point -/

/-- What the body is handed at point `t`: the invariant, what the core owes, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What the body returns at point `t`: the invariant and the debt at the next point, each buffer at what the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the five input buffers hold their blocks, so the body's triple applies at those blocks;
    the invariant and what the core owes are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's loop asks of the body, in the library's form: its window products are six-fold
    chains, and under them it is the triple above at each grid point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.RegA4.lean ====
/- Region 4 of @main: custom_call 4, the kernel function `cc4__msg_kernel` on pipeline `cfg4`, at a
   parameter `V` (the core's buffer contents when the region is entered). Windows 0, 1, 2 are inputs, window 3 the
   output. The body reads each input block whole, reads the output block (a value nothing uses) and overwrites the
   output block whole with the payload `k4_pay1` of the three input blocks. Hence: after the body each input buffer
   still holds its block and the output buffer holds what one whole-block write of that payload leaves; before the body
   an input buffer holds its block at every point, refetched there or not, because a window that is not refetched has
   not moved its block index; the class's invariant and the core's debt pass through the body unread. -/
import proofs.«408707_j33406255628688_2_alg».proof.Proof.Gen.KernelIdeal.Launch
import proofs.«408707_j33406255628688_2_alg».proof.Proof.Gen.KernelIdeal.Skeleton
import proofs.«408707_j33406255628688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## This region's blocks

Shape and element type of the block of each window (a, b, c: the inputs, windows 0, 1, 2; o: the output, window 3),
and for each the fact that the whole block lies inside itself. Everything below is written over these twelve. -/

local notation "𝔹a" => S1280x512
local notation "𝔼a" => EltTy.f32
local notation "inbA" => inb_S1280x512_S1280x512_0_0
local notation "𝔹b" => S512x512
local notation "𝔼b" => EltTy.bf16
local notation "inbB" => inb_S512x512_S512x512_0_0
local notation "𝔹c" => S1x512
local notation "𝔼c" => EltTy.f32
local notation "inbC" => inb_S1x512_S1x512_0_0
local notation "𝔹o" => S1280x512
local notation "𝔼o" => EltTy.bf16
local notation "inbO" => inb_S1280x512_S1280x512_0_0

variable (V : (c : Dev nD) → (b : Ref sig .tc) → Buf (Elt F) ((c : Thread nD τ).loc b))

/-! ## The blocks the windows show -/

/-- The block of window `w` at grid point `t`: the window's view of its array there, read in the contents the region
    finds (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The rectangles the body reads and writes through: each block whole -/

abbrev wholeA4 : Rect 𝔹a := Rect.unit (s := 𝔹a) ![0, 0] (Shape.size 𝔹a) inbA
abbrev wholeB4 : Rect 𝔹b := Rect.unit (s := 𝔹b) ![0, 0] (Shape.size 𝔹b) inbB
abbrev wholeC4 : Rect 𝔹c := Rect.unit (s := 𝔹c) ![0, 0] (Shape.size 𝔹c) inbC
abbrev wholeO4 : Rect 𝔹o := Rect.unit (s := 𝔹o) ![0, 0] (Shape.size 𝔹o) inbO

/-! ## What the body leaves in the output buffer -/

/-- The output buffer after the body, from the three input blocks: the body's single store, of the payload of the three
    loads, through the whole-block rectangle. -/
def out4_3 (x0 : Vec F 𝔹a 𝔼a) (x1 : Vec F 𝔹b 𝔼b) (x2 : Vec F 𝔹c 𝔼c) : Vec F 𝔹o 𝔼o :=
  View.canon [⟨wholeO4, k4_pay1 (View.ld x0 wholeA4) (View.ld x1 wholeB4) (View.ld x2 wholeC4)⟩]

/-- That store is of the whole block, so it alone covers the buffer, whatever it stores. -/
theorem covers4_3 (p : (wholeO4).shape.Idx → Elt F 𝔼o) (y : Shape.Idx 𝔹o) :
    ∃ pc ∈ ([⟨wholeO4, p⟩] : List (View.Piece (Elt F) 𝔹o 𝔼o)), y ∈ pc.1.set :=
  View.cover_of_wholeMem _ (View.Piece.wholeMem_here (by rfl)) y

/-! ## The body as a triple over its four memrefs -/

set_option maxHeartbeats 1000000 in
/-- On whole memrefs, the three inputs' reading `x0 x1 x2` and the output's holding anything, the body runs to a
    continuation that is given the inputs' unchanged and the output's at `out4_3 x0 x1 x2`. -/
theorem sound_kernel4 (c : Dev nD) (E : Set ℕ) (i : grid4.Coords)
    (arg1 : Memref sig .tc .vmem 𝔹a 𝔼a) (harg1 : arg1.IsWhole) (arg2 : Memref sig .tc .vmem 𝔹b 𝔼b) (harg2 : arg2.IsWhole)
    (arg3 : Memref sig .tc .vmem 𝔹c 𝔼c) (harg3 : arg3.IsWhole) (arg4 : Memref sig .tc .vmem 𝔹o 𝔼o) (harg4 : arg4.IsWhole)
    (x0 : Vec F 𝔹a 𝔼a) (x1 : Vec F 𝔹b 𝔼b) (x2 : Vec F 𝔹c 𝔼c) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__msg_kernel i arg1 harg1 arg2 harg2 arg3 harg3 arg4 harg4) K := by
  simp only [cc4__msg_kernel_eq_skeleton]; unfold cc4__msg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers4_3 _)

/-! ## The proof data -/

/-- Pipeline 4's proof data on core `c`. The arrays: as the region finds them. After the body at point `t`: an input's
    buffer at its block, the output's at `out4_3` of the three input blocks there. The invariant is the class's (the
    scoped rest and the generator register, which the body does not touch), nothing is owed, every share is full. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- Its arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-! ## What the body finds in the input buffers

Window 0 is refetched at every point, windows 1 and 2 only at the first. Either way the buffer holds the window's
block: where the pipeline does not refetch, the block index is the previous point's, and the body left that block in
place. The blocks tile their arrays (no cut) and the pipeline states no idle point. -/

theorem before4_0 (c : Dev nD) (t : Fin cfg4.N) (d) : (dat4 V c).before 0 t d = iblk4 V c 0 t := by
  have hkeep : ∀ s, (cfg4.win 0).cut (cfg4.grid.coords s) ((dat4 V c).after 0 s) = (dat4 V c).blockOf 0 s := fun s => by
    rw [after4_0]; unfold Dat.blockOf iblk4; rw [A_eq4]; try rfl
  refine ((dat4 V c).before_in_eq_fetched 0 rfl (fun _ => rfl) (fun _ _ _ => rfl) hkeep t d).trans ?_
  unfold Dat.fetched Dat.blockOf iblk4; rw [A_eq4]; try rfl

theorem before4_1 (c : Dev nD) (t : Fin cfg4.N) (d) : (dat4 V c).before 1 t d = iblk4 V c 1 t := by
  have hkeep : ∀ s, (cfg4.win 1).cut (cfg4.grid.coords s) ((dat4 V c).after 1 s) = (dat4 V c).blockOf 1 s := fun s => by
    rw [after4_1]; unfold Dat.blockOf iblk4; rw [A_eq4]; try rfl
  refine ((dat4 V c).before_in_eq_fetched 1 rfl (fun _ => rfl) (fun _ _ _ => rfl) hkeep t d).trans ?_
  unfold Dat.fetched Dat.blockOf iblk4; rw [A_eq4]; try rfl

theorem before4_2 (c : Dev nD) (t : Fin cfg4.N) (d) : (dat4 V c).before 2 t d = iblk4 V c 2 t := by
  have hkeep : ∀ s, (cfg4.win 2).cut (cfg4.grid.coords s) ((dat4 V c).after 2 s) = (dat4 V c).blockOf 2 s := fun s => by
    rw [after4_2]; unfold Dat.blockOf iblk4; rw [A_eq4]; try rfl
  refine ((dat4 V c).before_in_eq_fetched 2 rfl (fun _ => rfl) (fun _ _ _ => rfl) hkeep t d).trans ?_
  unfold Dat.fetched Dat.blockOf iblk4; rw [A_eq4]; try rfl

/-! ## The body obligation -/

/-- What the pipeline hands the body at point `t`: the invariant, the debt, and each window's current buffer at what it
    then holds, the four windows one by one. -/
def handed4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- What it takes back: the same at the next point, each buffer at what the body leaves. -/
def returned4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at a point: the input buffers hold their blocks, the output buffer something, so the triple applies at the
    three blocks; the invariant and the debt do not depend on the point and are carried over as they are. -/
theorem sound_body4 (c : Dev nD) (t : Fin cfg4.N) :
    handed4 V c t ⊢ wp frame (wpE (defs₀ (F := F)) Variants.none c none) Set.univ (bodyAt4 t) (fun _ => returned4 V c t) := by
  unfold handed4 returned4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's loop asks of the body, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.RegJ5.lean ====
/-
  Region 5 of @main: the adjacency product, accumulated over the contraction blocks.

  The grid is 8 × 8; a point (i, k) reads block (i, k) of the adjacency matrix (1280 × 1280) and block (k, 0) of the
  messages (1280 × 512), and the contraction index k runs innermost. An accumulator (1280 × 512, single precision)
  is kept from point to point: at k = 0 it is set to zero, at every point the product of the two blocks is added
  to it, and at k = 7 it is narrowed to half precision and stored as block (i, 0) of the result; off k = 7 the
  result's buffer is left as found and not written back.

  So the body has three control cases, by k: k = 0, 0 < k < 7, k = 7. For each the body's run is stated on whole
  memrefs, with what it leaves in the accumulator (and, at k = 7, in the result's buffer) as a closed term over the
  two input blocks, the accumulator found, and the payloads of the body's stores. `outsAt5` folds these over the 64
  points; the invariant carries the accumulator at `outsAt5`'s second component from each point to the next (at
  k = 0 whatever it holds is overwritten, so the first point needs nothing of it); the proof data, the body
  obligation at every point, and the invariant's two ends follow. Everything is generic in the float semantics.
-/
import proofs.«408707_j33406255628688_2_alg».proof.Proof.Gen.KernelIdeal.Launch
import proofs.«408707_j33406255628688_2_alg».proof.Proof.Gen.KernelIdeal.Skeleton
import proofs.«408707_j33406255628688_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions, decided over the grid -/

/-- The reset branch is taken where the contraction index (grid axis 1) is 0. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 8 = 0 :=
  (by decide +kernel : ∀ t : Fin grid5.N, cond5_0 (grid5.coords t) ↔ t.val % 8 = 0)
/-- The output branch is taken where the contraction index is the last one, 7. -/
abbrev cond5_1 (i : grid5.Coords) : Prop := k5_cond2 i = 1#1
theorem hcond5_1 : ∀ t : Fin cfg5.N, cond5_1 (grid5.coords t) ↔ t.val % 8 = 7 :=
  (by decide +kernel : ∀ t : Fin grid5.N, cond5_1 (grid5.coords t) ↔ t.val % 8 = 7)

/-! ## The body's accesses: every load and store is of a whole buffer -/

abbrev rS5 : Rect S1280x512 := Rect.unit (s := S1280x512) ![0, 0] S1280x512.size inb_S1280x512_S1280x512_0_0
abbrev rA5 : Rect S1280x1280 := Rect.unit (s := S1280x1280) ![0, 0] S1280x1280.size inb_S1280x1280_S1280x1280_0_0

/-- A whole-buffer store covers the accumulator, whatever was stored before it. -/
theorem coverS5 (p0 : rS5.shape.Idx → Elt F .f32) (L : List (View.Piece (Elt F) S1280x512 .f32)) (y : S1280x512.Idx) :
    ∃ pc ∈ ((⟨rS5, p0⟩ : View.Piece (Elt F) S1280x512 .f32) :: L), y ∈ pc.1.set := by
  obtain ⟨pc, hm, hy⟩ := View.cover_of_tiledL ([⟨rS5, p0⟩] : List (View.Piece (Elt F) S1280x512 .f32)) S1280x512.size (by sl_kernel_rfl) y
  exact ⟨pc, List.mem_cons.mpr (Or.inl (List.mem_singleton.mp hm)), hy⟩

/-- A whole-buffer store covers the output block. -/
theorem coverO5 (p0 : rS5.shape.Idx → Elt F .bf16) (L : List (View.Piece (Elt F) S1280x512 .bf16)) (y : S1280x512.Idx) :
    ∃ pc ∈ ((⟨rS5, p0⟩ : View.Piece (Elt F) S1280x512 .bf16) :: L), y ∈ pc.1.set := by
  obtain ⟨pc, hm, hy⟩ := View.cover_of_tiledL ([⟨rS5, p0⟩] : List (View.Piece (Elt F) S1280x512 .bf16)) S1280x512.size (by sl_kernel_rfl) y
  exact ⟨pc, List.mem_cons.mpr (Or.inl (List.mem_singleton.mp hm)), hy⟩

/-! ## What one point leaves, from the input blocks and the accumulator it found -/

/-- The accumulator after a point that RESETS it (k = 0): zeros stored, read back, the product of the two input
    blocks added, stored. Last store first. -/
def accReset5 (x0 : Vec F S1280x1280 .bf16) (x1 : Vec F S1280x512 .bf16) : Vec F S1280x512 .f32 :=
  View.canon [⟨rS5, k5_pay2 (View.ld (View.canon [⟨rS5, k5_pay1 (F := F)⟩]) rS5) (View.ld x0 rA5) (View.ld x1 rS5)⟩, ⟨rS5, k5_pay1 (F := F)⟩]

/-- The accumulator after a point that CARRIES it (k ≠ 0), from what the point before left (`xs`). -/
def accStep5 (x0 : Vec F S1280x1280 .bf16) (x1 : Vec F S1280x512 .bf16) (xs : Vec F S1280x512 .f32) : Vec F S1280x512 .f32 :=
  View.canon [⟨rS5, k5_pay2 (View.ld xs rS5) (View.ld x0 rA5) (View.ld x1 rS5)⟩]

/-- The output block stored at the last contraction step (k = 7): the accumulator just stored, narrowed. -/
def outLast5 (x0 : Vec F S1280x1280 .bf16) (x1 : Vec F S1280x512 .bf16) (xs : Vec F S1280x512 .f32) : Vec F S1280x512 .bf16 :=
  View.canon [⟨rS5, k5_pay3 (View.ld (accStep5 x0 x1 xs) rS5)⟩]

set_option maxHeartbeats 1000000 in
/-- CASE k = 0 (and k ≠ 7): on whole memrefs, the two inputs at their contents, the output at contents handed back
    untouched, the accumulator at ANYTHING, the body runs to the inputs and the output as they were and the
    accumulator at `accReset5` of the input blocks. -/
theorem run5_A (c : Dev nD) (i : grid5.Coords) (aA : Memref sig .tc .vmem S1280x1280 .bf16) (haA : aA.IsWhole) (aG : Memref sig .tc .vmem S1280x512 .bf16) (haG : aG.IsWhole) (aO : Memref sig .tc .vmem S1280x512 .bf16) (haO : aO.IsWhole) (aS : Memref sig .tc .vmem S1280x512 .f32) (haS : aS.IsWhole) (hc0 : cond5_0 i) (hc1 : ¬cond5_1 i)
    (x0 : Vec F S1280x1280 .bf16) (x1 : Vec F S1280x512 .bf16) (xi : Vec F S1280x512 .bf16) (E : Set ℕ) (K : PUnit → sProp 𝕄) :
    iprop(owns (c : Thread nD τ) aA fullShare x0 ∗ owns (c : Thread nD τ) aG fullShare x1 ∗ owns (c : Thread nD τ) aO fullShare xi ∗ (∃ d, owns (c : Thread nD τ) aS fullShare d)
        ∗ (iprop(owns (c : Thread nD τ) aA fullShare x0 ∗ owns (c : Thread nD τ) aG fullShare x1 ∗ owns (c : Thread nD τ) aO fullShare xi ∗ owns (c : Thread nD τ) aS fullShare (accReset5 x0 x1)) -∗ K ⟨⟩))
      ⊢ wp frame (wpE (defs₀ (F := F)) Variants.none c none) E (cc5__adj_matmul_kernel i aA haA aG haG aO haO aS haS) K := by
  simp only [cc5__adj_matmul_kernel_eq_skeleton]; unfold cc5__adj_matmul_kernel_skel
  unfold owns
  iintro ⟨⟨%f0, %hf0, H0⟩, ⟨%f1, %hf1, H1⟩, ⟨%fO, %hfO, HO⟩, ⟨%dS, %fS, -, HS⟩, Hk⟩
  subst hf0; subst hf1; subst hfO
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists fO; isplitr; · ipureintro; rfl
    iexact HO
  iexists _; isplitr
  swap; · iexact HS
  ipureintro
  sl_unfold_run_names
  rw [View.readCov_eq_canon_ld _ _ _ (coverS5 _ _)]
  exact View.read_writes_eq_canon _ _ _ (coverS5 _ _)

set_option maxHeartbeats 1000000 in
/-- CASE k ≠ 0, k ≠ 7: the accumulator is found at what the point before left (`xs`) and left at `accStep5`; the
    output is handed back untouched. -/
theorem run5_B (c : Dev nD) (i : grid5.Coords) (aA : Memref sig .tc .vmem S1280x1280 .bf16) (haA : aA.IsWhole) (aG : Memref sig .tc .vmem S1280x512 .bf16) (haG : aG.IsWhole) (aO : Memref sig .tc .vmem S1280x512 .bf16) (haO : aO.IsWhole) (aS : Memref sig .tc .vmem S1280x512 .f32) (haS : aS.IsWhole) (hc0 : ¬cond5_0 i) (hc1 : ¬cond5_1 i)
    (x0 : Vec F S1280x1280 .bf16) (x1 : Vec F S1280x512 .bf16) (xi : Vec F S1280x512 .bf16) (xs : Vec F S1280x512 .f32) (E : Set ℕ) (K : PUnit → sProp 𝕄) :
    iprop(owns (c : Thread nD τ) aA fullShare x0 ∗ owns (c : Thread nD τ) aG fullShare x1 ∗ owns (c : Thread nD τ) aO fullShare xi ∗ owns (c : Thread nD τ) aS fullShare xs
        ∗ (iprop(owns (c : Thread nD τ) aA fullShare x0 ∗ owns (c : Thread nD τ) aG fullShare x1 ∗ owns (c : Thread nD τ) aO fullShare xi ∗ owns (c : Thread nD τ) aS fullShare (accStep5 x0 x1 xs)) -∗ K ⟨⟩))
      ⊢ wp frame (wpE (defs₀ (F := F)) Variants.none c none) E (cc5__adj_matmul_kernel i aA haA aG haG aO haO aS haS) K := by
  simp only [cc5__adj_matmul_kernel_eq_skeleton]; unfold cc5__adj_matmul_kernel_skel
  unfold owns
  iintro ⟨⟨%f0, %hf0, H0⟩, ⟨%f1, %hf1, H1⟩, ⟨%fO, %hfO, HO⟩, ⟨%fS, %hfS, HS⟩, Hk⟩
  subst hf0; subst hf1; subst hfO; subst hfS
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists fO; isplitr; · ipureintro; rfl
    iexact HO
  iexists _; isplitr
  swap; · iexact HS
  ipureintro
  exact View.read_writes_eq_canon _ _ _ (coverS5 _ _)

set_option maxHeartbeats 1000000 in
/-- CASE k = 7 (so k ≠ 0): the accumulator as in the case before; the output, found at anything, is left at
    `outLast5`: the accumulator just stored, read back and narrowed. -/
theorem run5_C (c : Dev nD) (i : grid5.Coords) (aA : Memref sig .tc .vmem S1280x1280 .bf16) (haA : aA.IsWhole) (aG : Memref sig .tc .vmem S1280x512 .bf16) (haG : aG.IsWhole) (aO : Memref sig .tc .vmem S1280x512 .bf16) (haO : aO.IsWhole) (aS : Memref sig .tc .vmem S1280x512 .f32) (haS : aS.IsWhole) (hc0 : ¬cond5_0 i) (hc1 : cond5_1 i)
    (x0 : Vec F S1280x1280 .bf16) (x1 : Vec F S1280x512 .bf16) (xs : Vec F S1280x512 .f32) (E : Set ℕ) (K : PUnit → sProp 𝕄) :
    iprop(owns (c : Thread nD τ) aA fullShare x0 ∗ owns (c : Thread nD τ) aG fullShare x1 ∗ (∃ d, owns (c : Thread nD τ) aO fullShare d) ∗ owns (c : Thread nD τ) aS fullShare xs
        ∗ (iprop(owns (c : Thread nD τ) aA fullShare x0 ∗ owns (c : Thread nD τ) aG fullShare x1 ∗ owns (c : Thread nD τ) aO fullShare (outLast5 x0 x1 xs) ∗ owns (c : Thread nD τ) aS fullShare (accStep5 x0 x1 xs)) -∗ K ⟨⟩))
      ⊢ wp frame (wpE (defs₀ (F := F)) Variants.none c none) E (cc5__adj_matmul_kernel i aA haA aG haG aO haO aS haS) K := by
  simp only [cc5__adj_matmul_kernel_eq_skeleton]; unfold cc5__adj_matmul_kernel_skel
  unfold owns
  iintro ⟨⟨%f0, %hf0, H0⟩, ⟨%f1, %hf1, H1⟩, ⟨%dO, %fO, -, HO⟩, ⟨%fS, %hfS, HS⟩, Hk⟩
  subst hf0; subst hf1; subst hfS
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_run_names
    rw [View.readCov_eq_canon_ld _ _ _ (coverS5 _ _)]
    exact View.read_writes_eq_canon _ _ _ (coverO5 _ _)
  iexists _; isplitr
  swap; · iexact HS
  ipureintro
  exact View.read_writes_eq_canon _ _ _ (coverS5 _ _)

/-! ## The windows' blocks -/

/-- Window `w`'s block at point `t`, read off its array as the region finds it (`V`): block (i, k) of the
    adjacency for window 0, block (k, 0) of the messages for window 1, block (i, 0) of the result for window 2. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, for any proof data whose array is `V`'s and
    whose body leaves the block in place: the window is never idle and its blocks tile the array. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## Where the output window is idle -/

/-- The two inputs are never idle. -/
theorem liveAt5_0 : ∀ t : Fin cfg5.N, cfg5.idle 0 (grid5.coords t) = false := fun _ => rfl
theorem liveAt5_1 : ∀ t : Fin cfg5.N, cfg5.idle 1 (grid5.coords t) = false := fun _ => rfl
/-- Off the last contraction step the output window is idle: the body stores nothing into it, -/
theorem idleAt5_2 : ∀ t : Fin cfg5.N, ¬cond5_1 (grid5.coords t) → cfg5.idle 2 (grid5.coords t) = true :=
  (by decide +kernel : ∀ t : Fin grid5.N, ¬cond5_1 (grid5.coords t) → idle5 2 (grid5.coords t) = true)
/-- and the pipeline does not write its block back there. -/
theorem noFlush5_2 : ∀ t : Fin cfg5.N, ¬cond5_1 (grid5.coords t) → (cfg5.win 2).flush t = false :=
  (by decide +kernel : ∀ t : Fin grid5.N, ¬cond5_1 (grid5.coords t) → win5_2.flush t = false)
/-- At the last contraction step it is live. -/
theorem liveAt5_2 : ∀ t : Fin cfg5.N, cond5_1 (grid5.coords t) → cfg5.idle 2 (grid5.coords t) = false :=
  (by decide +kernel : ∀ t : Fin grid5.N, cond5_1 (grid5.coords t) → idle5 2 (grid5.coords t) = false)

/-! ## What the output buffer and the accumulator hold after each point -/

/-- THE ACCUMULATION over the grid, point by point (the contraction index k = n mod 8 innermost): the pair (output
    buffer, accumulator) after the body at position `n`. At k = 0 the accumulator restarts from zeros whatever it held;
    at k ≠ 0 it continues from what position `n - 1` left; at k = 7 the output block is the accumulator narrowed.
    Off k = 7 the output component is a placeholder nothing consults (the window is idle and not written back). -/
def outsAt5 (c : Dev nD) : (n : ℕ) → n < cfg5.N → Vec F S1280x512 .bf16 × Vec F S1280x512 .f32
  | 0, hn => (View.canon [], accReset5 (iblk5 V c 0 ⟨0, hn⟩) (iblk5 V c 1 ⟨0, hn⟩))
  | n + 1, hn =>
    if (n + 1) % 8 = 0 then
      (View.canon [], accReset5 (iblk5 V c 0 ⟨n + 1, hn⟩) (iblk5 V c 1 ⟨n + 1, hn⟩))
    else if (n + 1) % 8 = 7 then
      (outLast5 (iblk5 V c 0 ⟨n + 1, hn⟩) (iblk5 V c 1 ⟨n + 1, hn⟩) (outsAt5 c n (Nat.lt_of_succ_lt hn)).2,
        accStep5 (iblk5 V c 0 ⟨n + 1, hn⟩) (iblk5 V c 1 ⟨n + 1, hn⟩) (outsAt5 c n (Nat.lt_of_succ_lt hn)).2)
    else
      (View.canon [], accStep5 (iblk5 V c 0 ⟨n + 1, hn⟩) (iblk5 V c 1 ⟨n + 1, hn⟩) (outsAt5 c n (Nat.lt_of_succ_lt hn)).2)

/-- At a point with k = 0: the accumulator restarted on this point's blocks. -/
theorem outsAt5_A (c : Dev nD) (t : Fin cfg5.N) (h0 : t.val % 8 = 0) :
    outsAt5 V c t.val t.isLt = (View.canon [], accReset5 (iblk5 V c 0 t) (iblk5 V c 1 t)) := by
  obtain ⟨n, hn⟩ := t
  cases n with
  | zero => exact rfl
  | succ n => exact (if_pos h0).trans rfl

/-- At a point with 0 < k < 7: the accumulator continued from the point before. -/
theorem outsAt5_B (c : Dev nD) (t : Fin cfg5.N) (h0 : ¬t.val % 8 = 0) (h1 : ¬t.val % 8 = 7) :
    outsAt5 V c t.val t.isLt = (View.canon [], accStep5 (iblk5 V c 0 t) (iblk5 V c 1 t) (outsAt5 V c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h1).trans rfl)

/-- At a point with k = 7: the same accumulator, and the output block read off it. -/
theorem outsAt5_C (c : Dev nD) (t : Fin cfg5.N) (h1 : t.val % 8 = 7) :
    outsAt5 V c t.val t.isLt = (outLast5 (iblk5 V c 0 t) (iblk5 V c 1 t) (outsAt5 V c (t.val - 1) (Nat.lt_of_le_of_lt (Nat.sub_le _ _) t.isLt)).2,
      accStep5 (iblk5 V c 0 t) (iblk5 V c 1 t) (outsAt5 V c (t.val - 1) (Nat.lt_of_le_of_lt (Nat.sub_le _ _) t.isLt)).2) := by
  obtain ⟨n, hn⟩ := t
  have h0 : ¬(n % 8 = 0) := fun h => by dsimp only at h1; omega
  cases n with
  | zero => exact absurd (Nat.zero_mod _) h0
  | succ n => exact (if_neg h0).trans ((if_pos h1).trans rfl)

/-! ## The region invariant -/

/-- The accumulator: a whole scoped buffer of the kernel's own, passed beside the windows. -/
abbrev scM5 : Memref sig .tc .vmem S1280x512 .f32 := Memref.whole cc5_scratch0
/-- Every other scoped buffer of the core that is no staging buffer of this call, each at some contents, unopened. -/
abbrev rest5 (c : Dev nD) : sProp 𝕄 :=
  Pipeline.scopedRestBut (Ix := Unit) (Name := ℕ) (U := UR sig nD τ) (Lvl := ℕ) (Val := Elt F) spec5 c [cc5_scratch0]

/-- The class's invariant with the accumulator taken out as a memref owned at some contents. -/
theorem PhiA5_eq (c : Dev nD) :
    (Pipeline.ΦA spec5 c : sProp 𝕄)
      = iprop(iprop(iprop((∃ d, owns (c : Thread nD τ) scM5 fullShare d)) ∗ rest5 (F := F) c) ∗ (∃ r, prngReg c r)) := by
  unfold Pipeline.ΦA; rw [scopedRest5_split]; simp only [scM5, rest5, owns_whole]; try rfl

/-- The invariant before position `n`: before the first point the class's (the accumulator at anything); afterwards
    the accumulator at what the point before left, beside the other scoped buffers and the generator register. -/
def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare ((outsAt5 V c n hn).2) ∗ rest5 (F := F) c) ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ rest5 (F := F) c) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt5`'s first component; the invariant `PhiS5`; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- Each window's current staging memref at point `t`, spelled as the pipeline passes it to the body. -/
abbrev ms5_0 (t : Fin cfg5.N) : Memref sig .tc .vmem S1280x1280 .bf16 := win5_0.stage (cfg5.slots t 0)
abbrev ms5_1 (t : Fin cfg5.N) : Memref sig .tc .vmem S1280x512 .bf16 := win5_1.stage (cfg5.slots t 1)
abbrev ms5_2 (t : Fin cfg5.N) : Memref sig .tc .vmem S1280x512 .bf16 := win5_2.stage (cfg5.slots t 2)

/-- What the body is called with at point `t`: the invariant, what the core owes, each window's buffer at what it
    then holds, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point. The inputs' memrefs hold their blocks; the closed forms of the two conditions say which of
    the three control cases the point is in. At k = 0 the accumulator is handed over at whatever it holds (the class's
    invariant before the first point, the previous row block's last value afterwards) and comes back restarted; at
    k ≠ 0 it is handed over at what the point before left and comes back continued; the output window is handed back as
    found off k = 7 and at the narrowed accumulator at k = 7. The other scoped buffers, the generator register and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  have hN : t.val < 64 := lt_of_lt_of_eq t.isLt (show cfg5.N = 64 from N_5)
  by_cases h0 : t.val % 8 = 0
  · have hc0 : cond5_0 (grid5.coords t) := (hcond5_0 t).mpr h0
    have hc1 : ¬cond5_1 (grid5.coords t) := fun h => by have := (hcond5_1 t).mp h; omega
    rw [Dat.leavesExact_idle (dat5 V c) 2 t (idleAt5_2 t hc1) (noFlush5_2 t hc1)]
    rw [outsAt5_A V c t h0]; dsimp only
    by_cases hz : t.val = 0
    · rw [PhiS5_castSucc V c t, PhiS5_zero V c _ _ hz, PhiA5_eq]
      iintro ⟨⟨⟨HS, HR⟩, Hg⟩, Ho, ⟨%d0, H0⟩, ⟨%d1, H1⟩, ⟨%dO, HO⟩⟩
      iapply (run5_A c (grid5.coords t) _ _ _ _ _ _ _ _ hc0 hc1 (iblk5 V c 0 t) (iblk5 V c 1 t) _ Set.univ _)
      isplitl [H0]; · iexact H0
      isplitl [H1]; · iexact H1
      isplitl [HO]; · iexact HO
      isplitl [HS]; · iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HO
    · rw [PhiS5_castSucc V c t, PhiS5_pos V c _ _ hz]
      iintro ⟨⟨⟨HS, HR⟩, Hg⟩, Ho, ⟨%d0, H0⟩, ⟨%d1, H1⟩, ⟨%dO, HO⟩⟩
      iapply (run5_A c (grid5.coords t) _ _ _ _ _ _ _ _ hc0 hc1 (iblk5 V c 0 t) (iblk5 V c 1 t) _ Set.univ _)
      isplitl [H0]; · iexact H0
      isplitl [H1]; · iexact H1
      isplitl [HO]; · iexact HO
      isplitl [HS]; · iexists _; iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HO
  · have hc0 : ¬cond5_0 (grid5.coords t) := fun h => h0 ((hcond5_0 t).mp h)
    have hz : t.val ≠ 0 := fun h => h0 (by rw [h])
    by_cases h1 : t.val % 8 = 7
    · have hc1 : cond5_1 (grid5.coords t) := (hcond5_1 t).mpr h1
      rw [show (dat5 V c).leavesExact 2 t = owns (c : Thread nD τ) (ms5_2 t) fullShare ((dat5 V c).after 2 t) from by
        unfold Dat.leavesExact; rw [liveAt5_2 t hc1], after5_2]
      rw [outsAt5_C V c t h1]; dsimp only
      rw [PhiS5_castSucc V c t, PhiS5_pos V c _ _ hz]
      iintro ⟨⟨⟨HS, HR⟩, Hg⟩, Ho, ⟨%d0, H0⟩, ⟨%d1, H1⟩, ⟨%dO, HO⟩⟩
      iapply (run5_C c (grid5.coords t) _ _ _ _ _ _ _ _ hc0 hc1 (iblk5 V c 0 t) (iblk5 V c 1 t) _ Set.univ _)
      isplitl [H0]; · iexact H0
      isplitl [H1]; · iexact H1
      isplitl [HO]; · iexists _; iexact HO
      isplitl [HS]; · iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact HO
    · have hc1 : ¬cond5_1 (grid5.coords t) := fun h => h1 ((hcond5_1 t).mp h)
      rw [Dat.leavesExact_idle (dat5 V c) 2 t (idleAt5_2 t hc1) (noFlush5_2 t hc1)]
      rw [outsAt5_B V c t h0 h1]; dsimp only
      rw [PhiS5_castSucc V c t, PhiS5_pos V c _ _ hz]
      iintro ⟨⟨⟨HS, HR⟩, Hg⟩, Ho, ⟨%d0, H0⟩, ⟨%d1, H1⟩, ⟨%dO, HO⟩⟩
      iapply (run5_B c (grid5.coords t) _ _ _ _ _ _ _ _ hc0 hc1 (iblk5 V c 0 t) (iblk5 V c 1 t) _ _ Set.univ _)
      isplitl [H0]; · iexact H0
      isplitl [H1]; · iexact H1
      isplitl [HO]; · iexact HO
      isplitl [HS]; · iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HO

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the class's back: the accumulator's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS, HR⟩, Hg⟩
  isplitl [HS HR]
  · isplitl [HS]
    · iexists _; iexact HS
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 64 := N_5; omega)

end Cert.KernelIdeal.Hand

end
-- ==== Proof.KI.RegU6.lean ====
/-
  Region 6 of @main: the node update. At each of the eight row blocks the body reads five staged blocks — the
  block's rows of the node features (f32) and of the aggregated messages (bf16), the two square weight matrices
  (bf16) and the bias row (f32) — and overwrites the staged output block, whole, by

      max (trunc (features) · W_self + messages · W_nbr + bias, 0).

  It also reads the output block once before overwriting it; nothing depends on what that read returns, so the
  block may hold anything when the body starts.

  Stated at the contents V of the core's buffers when the region is entered:
    * every input window's staging buffer holds that window's block of V at every grid point. The features and
      the messages are fetched at each point. The weights and the bias are fetched at the first point only; their
      block index is constant over the grid, so the block staged first is the block of every later point;
    * the output buffer after the body is the single whole store's payload of the five input blocks;
    * the body's Hoare triple, the pipeline's proof data and the body obligation at a generic grid point.
-/
import proofs.«408707_j33406255628688_2_alg».proof.Proof.Gen.KernelIdeal.Launch
import proofs.«408707_j33406255628688_2_alg».proof.Proof.Gen.KernelIdeal.Skeleton
import proofs.«408707_j33406255628688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 1280 × 512 rectangle is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- Window `w`'s block at grid point `t`: the window's array, as the region finds it, read through the block's view. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's rectangles: each access is the whole of its staging buffer -/

/-- A whole 1280 × 512 block: the features, the messages and the output. -/
abbrev rect6_rows : Rect S1280x512 := Rect.unit (s := S1280x512) ![0, 0] S1280x512.size inb_S1280x512_S1280x512_0_0
/-- A whole 512 × 512 weight matrix. -/
abbrev rect6_wt : Rect S512x512 := Rect.unit (s := S512x512) ![0, 0] S512x512.size inb_S512x512_S512x512_0_0
/-- The whole 1 × 512 bias row. -/
abbrev rect6_bias : Rect S1x512 := Rect.unit (s := S1x512) ![0, 0] S1x512.size inb_S1x512_S1x512_0_0

/-! ## What the body leaves in the output buffer -/

/-- The output buffer after the body, as a function of the five input blocks: one store, through the whole
    rectangle, of the update's payload at what the five loads read. -/
def out6_5 (x0 : Vec F S1280x512 .f32) (x1 : Vec F S1280x512 .bf16) (x2 x3 : Vec F S512x512 .bf16) (x4 : Vec F S1x512 .f32) :
    Vec F S1280x512 .f32 :=
  View.canon [⟨rect6_rows,
    k6_pay1 (View.ld x0 rect6_rows) (View.ld x1 rect6_rows) (View.ld x2 rect6_wt) (View.ld x3 rect6_wt) (View.ld x4 rect6_bias)⟩]

/-- The single store's rectangle is the whole block, so every index of the block lies in it. -/
theorem cover6_5 (p : Vec F S1280x512 .f32) (y : S1280x512.Idx) :
    ∃ pc ∈ ([⟨rect6_rows, p⟩] : List (View.Piece (Elt F) S1280x512 .f32)), y ∈ pc.1.set :=
  View.cover_of_tiled [⟨rect6_rows, p⟩] S1280x512.size (by rfl) y

/-! ## The body's triple -/

set_option maxHeartbeats 1000000 in
/-- The body on whole staging memrefs: the five inputs at read contents `x0 … x4`, the output at anything. It runs to
    the continuation with the inputs as they were and the output at `out6_5` of them. The read of the output before
    the store consumes nothing and its value is dropped. -/
theorem sound_kernel6 (c : Dev nD) (E : Set ℕ) (i : grid6.Coords)
    (arg1 : Memref sig .tc .vmem S1280x512 .f32) (harg1 : arg1.IsWhole)
    (arg2 : Memref sig .tc .vmem S1280x512 .bf16) (harg2 : arg2.IsWhole)
    (arg3 : Memref sig .tc .vmem S512x512 .bf16) (harg3 : arg3.IsWhole)
    (arg4 : Memref sig .tc .vmem S512x512 .bf16) (harg4 : arg4.IsWhole)
    (arg5 : Memref sig .tc .vmem S1x512 .f32) (harg5 : arg5.IsWhole)
    (arg6 : Memref sig .tc .vmem S1280x512 .f32) (harg6 : arg6.IsWhole)
    (x0 : Vec F S1280x512 .f32) (x1 : Vec F S1280x512 .bf16) (x2 x3 : Vec F S512x512 .bf16) (x4 : Vec F S1x512 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare x4
              ∗ owns (c : Thread nD τ) arg6 fullShare (out6_5 x0 x1 x2 x3 x4)) -∗ K ⟨⟩))
      ⊢ wp frame (wpE (defs₀ (F := F)) Variants.none c none) E
          (cc6__update_kernel i arg1 harg1 arg2 harg2 arg3 harg3 arg4 harg4 arg5 harg5 arg6 harg6) K := by
  simp only [cc6__update_kernel_eq_skeleton]; unfold cc6__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of the region's pipeline on core `c`: the arrays as the region finds them; after the body at point
    `t` each input buffer at its block and the output buffer at `out6_5` of the five blocks; the invariant is
    the untouched rest; full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- Each window's array in the proof data is `V`'s buffer for that window's reference. -/
theorem A_eq6 (c : Dev nD) (w : Fin cfg6.W) : (dat6 V c).A w = V c (Pipeline.arrRef spec6 w) := by
  dsimp only [dat6]

/-- The contents after the body, one equation per window (an input keeps its block; the output gets the payload). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

/-! ## What the body finds in each input buffer

An input window is not an output, is idle nowhere and is not clipped, and the body leaves its block in place; so at
every point its buffer holds the block a fetch there would bring, fetched there or not. For the features and the
messages every point fetches. For the weights and the bias only the first point does, and at a later point the
buffer still holds the first point's block, which is that point's block because the block index has not moved. -/

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)

/-! ## The body obligation at a generic point -/

/-- What the body is handed at point `t`: the invariant, what the core owes, and each window's current buffer. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What the body returns at point `t`: the invariant and the debt at the next point, each buffer at what the body leaves. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the five input buffers hold their blocks, so the body's triple applies at those blocks;
    the invariant and what the core owes are not touched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's loop asks of the body, in the library's form: its window products are six-fold
    chains, and under them it is the triple above at each grid point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.RegA7.lean ====
/- Region 7 of @main: custom_call 7, the kernel function `cc7__linear_kernel_f32` on pipeline `cfg7`, at a
   parameter `V` (the core's buffer contents when the region is entered). Windows 0, 1, 2 are inputs, window 3 the
   output. The body reads each input block whole, reads the output block (a value nothing uses) and overwrites the
   output block whole with the payload `k7_pay1` of the three input blocks. Hence: after the body each input buffer
   still holds its block and the output buffer holds what one whole-block write of that payload leaves; before the body
   an input buffer holds its block at every point, refetched there or not, because a window that is not refetched has
   not moved its block index; the class's invariant and the core's debt pass through the body unread. -/
import proofs.«408707_j33406255628688_2_alg».proof.Proof.Gen.KernelIdeal.Launch
import proofs.«408707_j33406255628688_2_alg».proof.Proof.Gen.KernelIdeal.Skeleton
import proofs.«408707_j33406255628688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## This region's blocks

Shape and element type of the block of each window (a, b, c: the inputs, windows 0, 1, 2; o: the output, window 3),
and for each the fact that the whole block lies inside itself. Everything below is written over these twelve. -/

local notation "𝔹a" => S1280x512
local notation "𝔼a" => EltTy.f32
local notation "inbA" => inb_S1280x512_S1280x512_0_0
local notation "𝔹b" => S512x1
local notation "𝔼b" => EltTy.f32
local notation "inbB" => inb_S512x1_S512x1_0_0
local notation "𝔹c" => S1x1
local notation "𝔼c" => EltTy.f32
local notation "inbC" => inb_S1x1_S1x1_0_0
local notation "𝔹o" => S1280x1
local notation "𝔼o" => EltTy.f32
local notation "inbO" => inb_S1280x1_S1280x1_0_0

variable (V : (c : Dev nD) → (b : Ref sig .tc) → Buf (Elt F) ((c : Thread nD τ).loc b))

/-! ## The blocks the windows show -/

/-- The block of window `w` at grid point `t`: the window's view of its array there, read in the contents the region
    finds (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The rectangles the body reads and writes through: each block whole -/

abbrev wholeA7 : Rect 𝔹a := Rect.unit (s := 𝔹a) ![0, 0] (Shape.size 𝔹a) inbA
abbrev wholeB7 : Rect 𝔹b := Rect.unit (s := 𝔹b) ![0, 0] (Shape.size 𝔹b) inbB
abbrev wholeC7 : Rect 𝔹c := Rect.unit (s := 𝔹c) ![0, 0] (Shape.size 𝔹c) inbC
abbrev wholeO7 : Rect 𝔹o := Rect.unit (s := 𝔹o) ![0, 0] (Shape.size 𝔹o) inbO

/-! ## What the body leaves in the output buffer -/

/-- The output buffer after the body, from the three input blocks: the body's single store, of the payload of the three
    loads, through the whole-block rectangle. -/
def out7_3 (x0 : Vec F 𝔹a 𝔼a) (x1 : Vec F 𝔹b 𝔼b) (x2 : Vec F 𝔹c 𝔼c) : Vec F 𝔹o 𝔼o :=
  View.canon [⟨wholeO7, k7_pay1 (View.ld x0 wholeA7) (View.ld x1 wholeB7) (View.ld x2 wholeC7)⟩]

/-- That store is of the whole block, so it alone covers the buffer, whatever it stores. -/
theorem covers7_3 (p : (wholeO7).shape.Idx → Elt F 𝔼o) (y : Shape.Idx 𝔹o) :
    ∃ pc ∈ ([⟨wholeO7, p⟩] : List (View.Piece (Elt F) 𝔹o 𝔼o)), y ∈ pc.1.set :=
  View.cover_of_wholeMem _ (View.Piece.wholeMem_here (by rfl)) y

/-! ## The body as a triple over its four memrefs -/

set_option maxHeartbeats 1000000 in
/-- On whole memrefs, the three inputs' reading `x0 x1 x2` and the output's holding anything, the body runs to a
    continuation that is given the inputs' unchanged and the output's at `out7_3 x0 x1 x2`. -/
theorem sound_kernel7 (c : Dev nD) (E : Set ℕ) (i : grid7.Coords)
    (arg1 : Memref sig .tc .vmem 𝔹a 𝔼a) (harg1 : arg1.IsWhole) (arg2 : Memref sig .tc .vmem 𝔹b 𝔼b) (harg2 : arg2.IsWhole)
    (arg3 : Memref sig .tc .vmem 𝔹c 𝔼c) (harg3 : arg3.IsWhole) (arg4 : Memref sig .tc .vmem 𝔹o 𝔼o) (harg4 : arg4.IsWhole)
    (x0 : Vec F 𝔹a 𝔼a) (x1 : Vec F 𝔹b 𝔼b) (x2 : Vec F 𝔹c 𝔼c) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__linear_kernel_f32 i arg1 harg1 arg2 harg2 arg3 harg3 arg4 harg4) K := by
  simp only [cc7__linear_kernel_f32_eq_skeleton]; unfold cc7__linear_kernel_f32_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers7_3 _)

/-! ## The proof data -/

/-- Pipeline 7's proof data on core `c`. The arrays: as the region finds them. After the body at point `t`: an input's
    buffer at its block, the output's at `out7_3` of the three input blocks there. The invariant is the class's (the
    scoped rest and the generator register, which the body does not touch), nothing is owed, every share is full. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- Its arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-! ## What the body finds in the input buffers

Window 0 is refetched at every point, windows 1 and 2 only at the first. Either way the buffer holds the window's
block: where the pipeline does not refetch, the block index is the previous point's, and the body left that block in
place. The blocks tile their arrays (no cut) and the pipeline states no idle point. -/

theorem before7_0 (c : Dev nD) (t : Fin cfg7.N) (d) : (dat7 V c).before 0 t d = iblk7 V c 0 t := by
  have hkeep : ∀ s, (cfg7.win 0).cut (cfg7.grid.coords s) ((dat7 V c).after 0 s) = (dat7 V c).blockOf 0 s := fun s => by
    rw [after7_0]; unfold Dat.blockOf iblk7; rw [A_eq7]; try rfl
  refine ((dat7 V c).before_in_eq_fetched 0 rfl (fun _ => rfl) (fun _ _ _ => rfl) hkeep t d).trans ?_
  unfold Dat.fetched Dat.blockOf iblk7; rw [A_eq7]; try rfl

theorem before7_1 (c : Dev nD) (t : Fin cfg7.N) (d) : (dat7 V c).before 1 t d = iblk7 V c 1 t := by
  have hkeep : ∀ s, (cfg7.win 1).cut (cfg7.grid.coords s) ((dat7 V c).after 1 s) = (dat7 V c).blockOf 1 s := fun s => by
    rw [after7_1]; unfold Dat.blockOf iblk7; rw [A_eq7]; try rfl
  refine ((dat7 V c).before_in_eq_fetched 1 rfl (fun _ => rfl) (fun _ _ _ => rfl) hkeep t d).trans ?_
  unfold Dat.fetched Dat.blockOf iblk7; rw [A_eq7]; try rfl

theorem before7_2 (c : Dev nD) (t : Fin cfg7.N) (d) : (dat7 V c).before 2 t d = iblk7 V c 2 t := by
  have hkeep : ∀ s, (cfg7.win 2).cut (cfg7.grid.coords s) ((dat7 V c).after 2 s) = (dat7 V c).blockOf 2 s := fun s => by
    rw [after7_2]; unfold Dat.blockOf iblk7; rw [A_eq7]; try rfl
  refine ((dat7 V c).before_in_eq_fetched 2 rfl (fun _ => rfl) (fun _ _ _ => rfl) hkeep t d).trans ?_
  unfold Dat.fetched Dat.blockOf iblk7; rw [A_eq7]; try rfl

/-! ## The body obligation -/

/-- What the pipeline hands the body at point `t`: the invariant, the debt, and each window's current buffer at what it
    then holds, the four windows one by one. -/
def handed7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- What it takes back: the same at the next point, each buffer at what the body leaves. -/
def returned7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at a point: the input buffers hold their blocks, the output buffer something, so the triple applies at the
    three blocks; the invariant and the debt do not depend on the point and are carried over as they are. -/
theorem sound_body7 (c : Dev nD) (t : Fin cfg7.N) :
    handed7 V c t ⊢ wp frame (wpE (defs₀ (F := F)) Variants.none c none) Set.univ (bodyAt7 t) (fun _ => returned7 V c t) := by
  unfold handed7 returned7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's loop asks of the body, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Fold.lean ====
/-
  The fold of the buffers' contents through @main, with nothing left unknown.

  Between two items of @main every unscoped buffer of a core holds a definite value. The launch contents pass through
  the first three host stretches (`W3`); a kernel region changes exactly one buffer, its output window's array, and
  leaves there the array after the write-backs of all its grid points (`Dat.arrAt … N` of the region's proof data taken
  at the contents the region is entered from); a host stretch maps the contents by `StableHlo.after`. This gives
  `W3 … W17`, the same recursion as the valuations `V3 … V17` of the conditional frame, whose unknowns `outs J r c`
  are here the fold itself (`outsX`); `VJ_eq` says so at every item. The proof data family `pdats` takes each region's
  data at the fold's contents at that region's entry.
-/
import proofs.«408707_j33406255628688_2_alg».proof.Proof.KI.RegA0
import proofs.«408707_j33406255628688_2_alg».proof.Proof.KI.RegA1
import proofs.«408707_j33406255628688_2_alg».proof.Proof.KI.RegJ2
import proofs.«408707_j33406255628688_2_alg».proof.Proof.KI.RegU3
import proofs.«408707_j33406255628688_2_alg».proof.Proof.KI.RegA4
import proofs.«408707_j33406255628688_2_alg».proof.Proof.KI.RegJ5
import proofs.«408707_j33406255628688_2_alg».proof.Proof.KI.RegU6
import proofs.«408707_j33406255628688_2_alg».proof.Proof.KI.RegA7
import proofs.«408707_j33406255628688_2_alg».proof.Proof.Gen.KernelIdeal.Regions

-- decided memberships and inequalities over the program's references recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The contents at each item's boundary -/

/-- Core `c`'s unscoped buffers when region 0 is entered: the launch contents after the first three host stretches. -/
abbrev W3 (c : Dev nD) : Valuation τ sig (Elt F) := V3 m c
/-- The same read at the TensorCore's references (what region 0's proof data take). -/
abbrev T3 : (c : Dev nD) → (b : Ref sig .tc) → Buf (Elt F) ((c : Thread nD τ).loc b) := fun c b => W3 m c b

/-- What region 0 leaves in its output array `main_v23`: the array after the write-backs of all its grid points. -/
def o23 (c : Dev nD) : Buf (Elt F) ((c : Thread nD τ).loc main_v23) := (dat0 (T3 m) c).arrAt 3 cfg0.N
/-- Core `c`'s unscoped buffers when region 0 is left: `main_v23` at what the region leaves, every other buffer as entered. -/
def W4 (c : Dev nD) : Valuation τ sig (Elt F) := Function.update (W3 m c) main_v23 (o23 m c)
/-- The same read at the TensorCore's references. -/
abbrev T4 : (c : Dev nD) → (b : Ref sig .tc) → Buf (Elt F) ((c : Thread nD τ).loc b) := fun c b => W4 m c b

/-- Core `c`'s unscoped buffers after the host stretch `hostOps1`. -/
abbrev W5 (c : Dev nD) : Valuation τ sig (Elt F) := StableHlo.after hostOps1 (W4 m c)
/-- The same read at the TensorCore's references. -/
abbrev T5 : (c : Dev nD) → (b : Ref sig .tc) → Buf (Elt F) ((c : Thread nD τ).loc b) := fun c b => W5 m c b

/-- What region 1 leaves in its output array `main_v30`: the array after the write-backs of all its grid points. -/
def o30 (c : Dev nD) : Buf (Elt F) ((c : Thread nD τ).loc main_v30) := (dat1 (T5 m) c).arrAt 3 cfg1.N
/-- Core `c`'s unscoped buffers when region 1 is left: `main_v30` at what the region leaves, every other buffer as entered. -/
def W6 (c : Dev nD) : Valuation τ sig (Elt F) := Function.update (W5 m c) main_v30 (o30 m c)
/-- The same read at the TensorCore's references. -/
abbrev T6 : (c : Dev nD) → (b : Ref sig .tc) → Buf (Elt F) ((c : Thread nD τ).loc b) := fun c b => W6 m c b

/-- What region 2 leaves in its output array `main_v31`: the array after the write-backs of all its grid points. -/
def o31 (c : Dev nD) : Buf (Elt F) ((c : Thread nD τ).loc main_v31) := (dat2 (T6 m) c).arrAt 2 cfg2.N
/-- Core `c`'s unscoped buffers when region 2 is left: `main_v31` at what the region leaves, every other buffer as entered. -/
def W7 (c : Dev nD) : Valuation τ sig (Elt F) := Function.update (W6 m c) main_v31 (o31 m c)
/-- The same read at the TensorCore's references. -/
abbrev T7 : (c : Dev nD) → (b : Ref sig .tc) → Buf (Elt F) ((c : Thread nD τ).loc b) := fun c b => W7 m c b

/-- Core `c`'s unscoped buffers after the host stretch `hostOps3`. -/
abbrev W8 (c : Dev nD) : Valuation τ sig (Elt F) := StableHlo.after hostOps3 (W7 m c)
/-- The same read at the TensorCore's references. -/
abbrev T8 : (c : Dev nD) → (b : Ref sig .tc) → Buf (Elt F) ((c : Thread nD τ).loc b) := fun c b => W8 m c b

/-- What region 3 leaves in its output array `main_v41`: the array after the write-backs of all its grid points. -/
def o41 (c : Dev nD) : Buf (Elt F) ((c : Thread nD τ).loc main_v41) := (dat3 (T8 m) c).arrAt 5 cfg3.N
/-- Core `c`'s unscoped buffers when region 3 is left: `main_v41` at what the region leaves, every other buffer as entered. -/
def W9 (c : Dev nD) : Valuation τ sig (Elt F) := Function.update (W8 m c) main_v41 (o41 m c)
/-- The same read at the TensorCore's references. -/
abbrev T9 : (c : Dev nD) → (b : Ref sig .tc) → Buf (Elt F) ((c : Thread nD τ).loc b) := fun c b => W9 m c b

/-- Core `c`'s unscoped buffers after the host stretch `hostOps4`. -/
abbrev W10 (c : Dev nD) : Valuation τ sig (Elt F) := StableHlo.after hostOps4 (W9 m c)
/-- The same read at the TensorCore's references. -/
abbrev T10 : (c : Dev nD) → (b : Ref sig .tc) → Buf (Elt F) ((c : Thread nD τ).loc b) := fun c b => W10 m c b

/-- What region 4 leaves in its output array `main_v48`: the array after the write-backs of all its grid points. -/
def o48 (c : Dev nD) : Buf (Elt F) ((c : Thread nD τ).loc main_v48) := (dat4 (T10 m) c).arrAt 3 cfg4.N
/-- Core `c`'s unscoped buffers when region 4 is left: `main_v48` at what the region leaves, every other buffer as entered. -/
def W11 (c : Dev nD) : Valuation τ sig (Elt F) := Function.update (W10 m c) main_v48 (o48 m c)
/-- The same read at the TensorCore's references. -/
abbrev T11 : (c : Dev nD) → (b : Ref sig .tc) → Buf (Elt F) ((c : Thread nD τ).loc b) := fun c b => W11 m c b

/-- What region 5 leaves in its output array `main_v49`: the array after the write-backs of all its grid points. -/
def o49 (c : Dev nD) : Buf (Elt F) ((c : Thread nD τ).loc main_v49) := (dat5 (T11 m) c).arrAt 2 cfg5.N
/-- Core `c`'s unscoped buffers when region 5 is left: `main_v49` at what the region leaves, every other buffer as entered. -/
def W12 (c : Dev nD) : Valuation τ sig (Elt F) := Function.update (W11 m c) main_v49 (o49 m c)
/-- The same read at the TensorCore's references. -/
abbrev T12 : (c : Dev nD) → (b : Ref sig .tc) → Buf (Elt F) ((c : Thread nD τ).loc b) := fun c b => W12 m c b

/-- Core `c`'s unscoped buffers after the host stretch `hostOps6`. -/
abbrev W13 (c : Dev nD) : Valuation τ sig (Elt F) := StableHlo.after hostOps6 (W12 m c)
/-- The same read at the TensorCore's references. -/
abbrev T13 : (c : Dev nD) → (b : Ref sig .tc) → Buf (Elt F) ((c : Thread nD τ).loc b) := fun c b => W13 m c b

/-- What region 6 leaves in its output array `main_v59`: the array after the write-backs of all its grid points. -/
def o59 (c : Dev nD) : Buf (Elt F) ((c : Thread nD τ).loc main_v59) := (dat6 (T13 m) c).arrAt 5 cfg6.N
/-- Core `c`'s unscoped buffers when region 6 is left: `main_v59` at what the region leaves, every other buffer as entered. -/
def W14 (c : Dev nD) : Valuation τ sig (Elt F) := Function.update (W13 m c) main_v59 (o59 m c)
/-- The same read at the TensorCore's references. -/
abbrev T14 : (c : Dev nD) → (b : Ref sig .tc) → Buf (Elt F) ((c : Thread nD τ).loc b) := fun c b => W14 m c b

/-- Core `c`'s unscoped buffers after the host stretch `hostOps7`. -/
abbrev W15 (c : Dev nD) : Valuation τ sig (Elt F) := StableHlo.after hostOps7 (W14 m c)
/-- The same read at the TensorCore's references. -/
abbrev T15 : (c : Dev nD) → (b : Ref sig .tc) → Buf (Elt F) ((c : Thread nD τ).loc b) := fun c b => W15 m c b

/-- What region 7 leaves in its output array `main_v61`: the array after the write-backs of all its grid points. -/
def o61 (c : Dev nD) : Buf (Elt F) ((c : Thread nD τ).loc main_v61) := (dat7 (T15 m) c).arrAt 3 cfg7.N
/-- Core `c`'s unscoped buffers when region 7 is left: `main_v61` at what the region leaves, every other buffer as entered. -/
def W16 (c : Dev nD) : Valuation τ sig (Elt F) := Function.update (W15 m c) main_v61 (o61 m c)
/-- The same read at the TensorCore's references. -/
abbrev T16 : (c : Dev nD) → (b : Ref sig .tc) → Buf (Elt F) ((c : Thread nD τ).loc b) := fun c b => W16 m c b

/-- Core `c`'s unscoped buffers after the host stretch `hostOps8`. -/
abbrev W17 (c : Dev nD) : Valuation τ sig (Elt F) := StableHlo.after hostOps8 (W16 m c)

/-! ## The conditional frame's unknowns, read off the fold -/

/-- What the regions leave, as the conditional frame's valuations take it: at the point after a region, the fold's contents
    there (the frame reads `outs J r c` only at a region's output array `r`, after that region). -/
def outsX : Outs (F := F) := fun J r c =>
  match J with
  | 4 => W4 m c r
  | 6 => W6 m c r
  | 7 => W7 m c r
  | 9 => W9 m c r
  | 11 => W11 m c r
  | 12 => W12 m c r
  | 14 => W14 m c r
  | 16 => W16 m c r
  | _ => W3 m c r

/-! ## The conditional frame's valuations at these unknowns are the fold -/

theorem V4_eq (c : Dev nD) : V4 m (outsX m) c = W4 m c := by
  show Function.update (V3 m c) main_v23 (W4 m c main_v23) = W4 m c
  unfold W4; rw [Function.update_self]
theorem V5_eq (c : Dev nD) : V5 m (outsX m) c = W5 m c := congrArg (StableHlo.after hostOps1) (V4_eq m c)

theorem V6_eq (c : Dev nD) : V6 m (outsX m) c = W6 m c := by
  show Function.update (V5 m (outsX m) c) main_v30 (W6 m c main_v30) = W6 m c
  rw [V5_eq]; unfold W6; rw [Function.update_self]

theorem V7_eq (c : Dev nD) : V7 m (outsX m) c = W7 m c := by
  show Function.update (V6 m (outsX m) c) main_v31 (W7 m c main_v31) = W7 m c
  rw [V6_eq]; unfold W7; rw [Function.update_self]
theorem V8_eq (c : Dev nD) : V8 m (outsX m) c = W8 m c := congrArg (StableHlo.after hostOps3) (V7_eq m c)

theorem V9_eq (c : Dev nD) : V9 m (outsX m) c = W9 m c := by
  show Function.update (V8 m (outsX m) c) main_v41 (W9 m c main_v41) = W9 m c
  rw [V8_eq]; unfold W9; rw [Function.update_self]
theorem V10_eq (c : Dev nD) : V10 m (outsX m) c = W10 m c := congrArg (StableHlo.after hostOps4) (V9_eq m c)

theorem V11_eq (c : Dev nD) : V11 m (outsX m) c = W11 m c := by
  show Function.update (V10 m (outsX m) c) main_v48 (W11 m c main_v48) = W11 m c
  rw [V10_eq]; unfold W11; rw [Function.update_self]

theorem V12_eq (c : Dev nD) : V12 m (outsX m) c = W12 m c := by
  show Function.update (V11 m (outsX m) c) main_v49 (W12 m c main_v49) = W12 m c
  rw [V11_eq]; unfold W12; rw [Function.update_self]
theorem V13_eq (c : Dev nD) : V13 m (outsX m) c = W13 m c := congrArg (StableHlo.after hostOps6) (V12_eq m c)

theorem V14_eq (c : Dev nD) : V14 m (outsX m) c = W14 m c := by
  show Function.update (V13 m (outsX m) c) main_v59 (W14 m c main_v59) = W14 m c
  rw [V13_eq]; unfold W14; rw [Function.update_self]
theorem V15_eq (c : Dev nD) : V15 m (outsX m) c = W15 m c := congrArg (StableHlo.after hostOps7) (V14_eq m c)

theorem V16_eq (c : Dev nD) : V16 m (outsX m) c = W16 m c := by
  show Function.update (V15 m (outsX m) c) main_v61 (W16 m c main_v61) = W16 m c
  rw [V15_eq]; unfold W16; rw [Function.update_self]
theorem V17_eq (c : Dev nD) : V17 m (outsX m) c = W17 m c := congrArg (StableHlo.after hostOps8) (V16_eq m c)

/-! ## A region's exit contents, read at a reference -/

/-- At its output array the exit contents of region 0 are what the region leaves, -/
theorem W4_out (c : Dev nD) : W4 m c main_v23 = o23 m c := by unfold W4; exact Function.update_self _ _ _
/-- and at every other reference they are the entry contents. -/
theorem W4_of_ne (c : Dev nD) (b : Ref sig .tc) (h : b ≠ main_v23) : W4 m c b = W3 m c b := by
  unfold W4; exact Function.update_of_ne (StableHlo.devRef_ne_of_ne h) _ _

/-- At its output array the exit contents of region 1 are what the region leaves, -/
theorem W6_out (c : Dev nD) : W6 m c main_v30 = o30 m c := by unfold W6; exact Function.update_self _ _ _
/-- and at every other reference they are the entry contents. -/
theorem W6_of_ne (c : Dev nD) (b : Ref sig .tc) (h : b ≠ main_v30) : W6 m c b = W5 m c b := by
  unfold W6; exact Function.update_of_ne (StableHlo.devRef_ne_of_ne h) _ _

/-- At its output array the exit contents of region 2 are what the region leaves, -/
theorem W7_out (c : Dev nD) : W7 m c main_v31 = o31 m c := by unfold W7; exact Function.update_self _ _ _
/-- and at every other reference they are the entry contents. -/
theorem W7_of_ne (c : Dev nD) (b : Ref sig .tc) (h : b ≠ main_v31) : W7 m c b = W6 m c b := by
  unfold W7; exact Function.update_of_ne (StableHlo.devRef_ne_of_ne h) _ _

/-- At its output array the exit contents of region 3 are what the region leaves, -/
theorem W9_out (c : Dev nD) : W9 m c main_v41 = o41 m c := by unfold W9; exact Function.update_self _ _ _
/-- and at every other reference they are the entry contents. -/
theorem W9_of_ne (c : Dev nD) (b : Ref sig .tc) (h : b ≠ main_v41) : W9 m c b = W8 m c b := by
  unfold W9; exact Function.update_of_ne (StableHlo.devRef_ne_of_ne h) _ _

/-- At its output array the exit contents of region 4 are what the region leaves, -/
theorem W11_out (c : Dev nD) : W11 m c main_v48 = o48 m c := by unfold W11; exact Function.update_self _ _ _
/-- and at every other reference they are the entry contents. -/
theorem W11_of_ne (c : Dev nD) (b : Ref sig .tc) (h : b ≠ main_v48) : W11 m c b = W10 m c b := by
  unfold W11; exact Function.update_of_ne (StableHlo.devRef_ne_of_ne h) _ _

/-- At its output array the exit contents of region 5 are what the region leaves, -/
theorem W12_out (c : Dev nD) : W12 m c main_v49 = o49 m c := by unfold W12; exact Function.update_self _ _ _
/-- and at every other reference they are the entry contents. -/
theorem W12_of_ne (c : Dev nD) (b : Ref sig .tc) (h : b ≠ main_v49) : W12 m c b = W11 m c b := by
  unfold W12; exact Function.update_of_ne (StableHlo.devRef_ne_of_ne h) _ _

/-- At its output array the exit contents of region 6 are what the region leaves, -/
theorem W14_out (c : Dev nD) : W14 m c main_v59 = o59 m c := by unfold W14; exact Function.update_self _ _ _
/-- and at every other reference they are the entry contents. -/
theorem W14_of_ne (c : Dev nD) (b : Ref sig .tc) (h : b ≠ main_v59) : W14 m c b = W13 m c b := by
  unfold W14; exact Function.update_of_ne (StableHlo.devRef_ne_of_ne h) _ _

/-- At its output array the exit contents of region 7 are what the region leaves, -/
theorem W16_out (c : Dev nD) : W16 m c main_v61 = o61 m c := by unfold W16; exact Function.update_self _ _ _
/-- and at every other reference they are the entry contents. -/
theorem W16_of_ne (c : Dev nD) (b : Ref sig .tc) (h : b ≠ main_v61) : W16 m c b = W15 m c b := by
  unfold W16; exact Function.update_of_ne (StableHlo.devRef_ne_of_ne h) _ _

/-! ## The proof data family -/

/-- Every region's proof data, each at the fold's contents at its region's entry: a literal `match`, so that the family at a
    numeral reduces to that region's data. -/
def pdats : (p : Fin 8) → (c : Dev nD) → Dat τ (Elt F) Unit ℕ (UR sig nD τ) ℕ (cfgs p) c
  | ⟨0, _⟩ => fun c => dat0 (T3 m) c
  | ⟨1, _⟩ => fun c => dat1 (T5 m) c
  | ⟨2, _⟩ => fun c => dat2 (T6 m) c
  | ⟨3, _⟩ => fun c => dat3 (T8 m) c
  | ⟨4, _⟩ => fun c => dat4 (T10 m) c
  | ⟨5, _⟩ => fun c => dat5 (T11 m) c
  | ⟨6, _⟩ => fun c => dat6 (T13 m) c
  | ⟨7, _⟩ => fun c => dat7 (T15 m) c

end Cert.KernelIdeal.Hand

end
-- ==== Proof.KI.Segs.lean ====
/-
  The eight kernel regions of @main as segments over the thread state.

  Between two items a core holds every unscoped buffer whole at the fold's contents there (`W3 … W17`) beside a rest `R`:
  its generator register at some state and its `owes` at nothing. A region is entered from that state at its entry contents and
  left at it at its exit contents. At entry the region's windowed arrays are split out of the unscoped buffers, at the contents its
  proof data name; at exit they are put back at the contents updated at the output array — every input array is never written
  (`Dat.arrAt_in`), the output array holds the write-backs of all grid points, every other buffer bypasses the region. The
  generator register goes into the region's invariant and comes back; nothing is owed at any point; no region has a semaphore
  of its own.
-/
import proofs.«408707_j33406255628688_2_alg».proof.Proof.KI.Fold

-- decided memberships and inequalities over the program's references recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no pair is assigned a level. -/
abbrev noPairs : GSem nD τ sig → Finset Unit := fun _ => ∅
abbrev noLevel : GSem nD τ sig → Unit → ℕ := fun _ _ => 0

/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)

/-! ## What every region does at its entry and at its exit

The eight records below differ in their configuration, their proof data and the contents they are entered from and left at;
what they do with the thread state is the same, and is proved here once, over abstract pieces. -/

section Protocol

variable {cfg : Pipeline.Cfg sig Λ₀} {c : Dev nD} (dat : Dat τ (Elt F) Unit ℕ (UR sig nD τ) ℕ cfg c)

/-- A core that owes nothing, whatever pairs it has recorded, is what a pipeline holds before point `t` when it owes nothing
    there and bounds the recorded pairs by everything. -/
theorem owesAt_of_owes (t : Fin (cfg.N + 1)) (howed : dat.owed t = 0) (hrec : dat.recorded t = Set.univ) (W) :
    owes (c : Thread nD τ) (0 : CellTallies nD τ sig Unit) W ⊢ (dat.owesAt () t : sProp 𝕄) := by
  show _ ⊢ iprop(∃ W', ⌜↑W' ⊆ dat.bound () t⌝ ∗ owes (c : Thread nD τ) (dat.owed t) W')
  rw [howed]
  iintro H; iexists W
  isplitr
  · ipureintro; intro x _; exact Or.inl (hrec ▸ Set.mem_univ x)
  iexact H

/-- Conversely such a pipeline's `owes` before `t` is the core owing nothing, at some recorded set. -/
theorem owes_of_owesAt (t : Fin (cfg.N + 1)) (howed : dat.owed t = 0) :
    (dat.owesAt () t : sProp 𝕄) ⊢ iprop(∃ W, owes (c : Thread nD τ) (0 : CellTallies nD τ sig Unit) W) := by
  show iprop(∃ W', ⌜↑W' ⊆ dat.bound () t⌝ ∗ owes (c : Thread nD τ) (dat.owed t) W') ⊢ _
  rw [howed]
  iintro ⟨%W, -, H⟩; iexists W; iexact H

end Protocol

/-- A pipeline without prefetched tables holds no table: the tables' part of an entry is trivial. -/
theorem prefHeld_of_no_table (pre : Pipeline.Prefetch sig) (hK : pre.K = 0) (c : Dev nD) (q : Fin pre.K → PosShare TreeShare) (v : pre.Contents (Elt F)) :
    (BI.emp : sProp 𝕄) ⊢ Pipeline.prefHeld pre c q v := by
  unfold Pipeline.prefHeld
  rw [Finset.eq_empty_of_forall_notMem (s := (Finset.univ : Finset (Fin pre.K))) fun k _ => by have := k.isLt; omega, BI.bigSep_empty]

/-- ENTRY of a region, over abstract pieces: the thread state is every unscoped buffer at `V` beside `R`; given that those
    buffers split into the region's arrays `A` and the rest `Z`, that the tables' part `Pt` is trivial and that the core owing
    nothing is the pipeline's first `owes` `O`, the state (with anything `S` beside it, dropped) sorts into the five parts a
    region's entry asks for, the generator register apart. -/
theorem region_entry (c : Dev nD) (V : Valuation τ sig (Elt F)) {A Z Pt O S : sProp 𝕄}
    (hsplit : StableHlo.held (c : Thread nD τ) (Pipeline.ucRefs τ sig) V ⊢ iprop(A ∗ Z))
    (hPt : (BI.emp : sProp 𝕄) ⊢ Pt)
    (hO : ∀ W, owes (c : Thread nD τ) (0 : CellTallies nD τ sig Unit) W ⊢ O) :
    iprop((StableHlo.held (c : Thread nD τ) (Pipeline.ucRefs τ sig) V ∗ R c) ∗ S)
      ⊢ |={Set.univ}=> iprop(A ∗ Pt ∗ O ∗ (∃ r, prngReg c r) ∗ Z) := by
  iintro ⟨⟨Hheld, Hreg, Howes⟩, -⟩
  icases Howes with ⟨%W, Howes⟩
  ihave Hparts := hsplit $$ Hheld
  icases Hparts with ⟨HA, HZ⟩
  imodintro
  isplitl [HA]; · iexact HA
  isplitr; · iapply hPt; iempintro
  isplitl [Howes]; · iapply (hO W); iexact Howes
  isplitl [Hreg]; · iexact Hreg
  iexact HZ

/-- EXIT of a region, over abstract pieces: the arrays `A` at their last contents and the bypassed rest `Z` make every
    unscoped buffer at `V'`; the pipeline's last `owes` `O` is the core owing nothing; with the generator register they are the
    thread state at `V'`. -/
theorem region_exit (c : Dev nD) (V' : Valuation τ sig (Elt F)) {A Z O : sProp 𝕄}
    (hjoin : iprop(A ∗ Z) ⊢ StableHlo.held (c : Thread nD τ) (Pipeline.ucRefs τ sig) V')
    (hO : O ⊢ iprop(∃ W, owes (c : Thread nD τ) (0 : CellTallies nD τ sig Unit) W)) :
    iprop(A ∗ O ∗ (∃ r, prngReg c r) ∗ Z)
      ⊢ |={Set.univ}=> iprop(StableHlo.held (c : Thread nD τ) (Pipeline.ucRefs τ sig) V' ∗ R c) := by
  iintro ⟨HA, HO, Hreg, HZ⟩
  imodintro
  isplitl [HA HZ]
  · iapply hjoin; isplitl [HA]; · iexact HA
    iexact HZ
  isplitl [Hreg]; · iexact Hreg
  iapply hO; iexact HO

/-- The generator register and the scoped buffers no window stages make the class invariant (the tables' part dropped), -/
theorem ΦA_of_parts {gr W : Nat} (win : Fin W → Pipeline.WinSpec sig gr) (c : Dev nD) {Pt : sProp 𝕄} :
    iprop((∃ r, prngReg c r) ∗ Pt ∗ Pipeline.scopedRest win c) ⊢ (Pipeline.ΦA win c : sProp 𝕄) := by
  unfold Pipeline.ΦA
  iintro ⟨Hreg, -, Hsc⟩
  isplitl [Hsc]; · iexact Hsc
  iexact Hreg

/-- and the class invariant gives them back (no semaphore of the kernel's own: nothing in their place). -/
theorem parts_of_ΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hsc, Hreg⟩
  isplitl [Hreg]; · iexact Hreg
  isplitr; · iempintro
  iexact Hsc

/-! ## The arrays at a region's exit -/

/-- When region 0 is left each of its arrays holds what the exit contents say: an input array is never written and was read off
    the entry contents, which the exit contents keep off `main_v23`; the output array `main_v23` holds the write-backs. -/
theorem hF0 (c : Dev nD) (w : Fin 4) : (dat0 (T3 m) c).arrAt w cfg0.N = T4 m c (Pipeline.arrRef spec0 w) := by
  by_cases hw : w = 3
  · subst hw; exact (W4_out m c).symm
  · have hne : Pipeline.arrRef spec0 w ≠ main_v23 := by revert w; decide
    have hin : (cfg0.win w).isOut = false := by revert w; decide
    exact ((dat0 (T3 m) c).arrAt_in w hin _).trans ((A_eq0 (T3 m) c w).trans (W4_of_ne m c _ hne).symm)
/-- Off region 0's arrays the exit contents are the entry contents. -/
theorem hrest0 (c : Dev nD) : ∀ b, b ∉ Finset.univ.image (Pipeline.arrRef spec0) → T4 m c b = T3 m c b :=
  fun b hb => W4_of_ne m c b fun e => hb (Finset.mem_image.mpr ⟨3, Finset.mem_univ _, e.symm⟩)

/-- When region 1 is left each of its arrays holds what the exit contents say: an input array is never written and was read off
    the entry contents, which the exit contents keep off `main_v30`; the output array `main_v30` holds the write-backs. -/
theorem hF1 (c : Dev nD) (w : Fin 4) : (dat1 (T5 m) c).arrAt w cfg1.N = T6 m c (Pipeline.arrRef spec1 w) := by
  by_cases hw : w = 3
  · subst hw; exact (W6_out m c).symm
  · have hne : Pipeline.arrRef spec1 w ≠ main_v30 := by revert w; decide
    have hin : (cfg1.win w).isOut = false := by revert w; decide
    exact ((dat1 (T5 m) c).arrAt_in w hin _).trans ((A_eq1 (T5 m) c w).trans (W6_of_ne m c _ hne).symm)
/-- Off region 1's arrays the exit contents are the entry contents. -/
theorem hrest1 (c : Dev nD) : ∀ b, b ∉ Finset.univ.image (Pipeline.arrRef spec1) → T6 m c b = T5 m c b :=
  fun b hb => W6_of_ne m c b fun e => hb (Finset.mem_image.mpr ⟨3, Finset.mem_univ _, e.symm⟩)

/-- When region 2 is left each of its arrays holds what the exit contents say: an input array is never written and was read off
    the entry contents, which the exit contents keep off `main_v31`; the output array `main_v31` holds the write-backs. -/
theorem hF2 (c : Dev nD) (w : Fin 3) : (dat2 (T6 m) c).arrAt w cfg2.N = T7 m c (Pipeline.arrRef spec2 w) := by
  by_cases hw : w = 2
  · subst hw; exact (W7_out m c).symm
  · have hne : Pipeline.arrRef spec2 w ≠ main_v31 := by revert w; decide
    have hin : (cfg2.win w).isOut = false := by revert w; decide
    exact ((dat2 (T6 m) c).arrAt_in w hin _).trans ((A_eq2 (T6 m) c w).trans (W7_of_ne m c _ hne).symm)
/-- Off region 2's arrays the exit contents are the entry contents. -/
theorem hrest2 (c : Dev nD) : ∀ b, b ∉ Finset.univ.image (Pipeline.arrRef spec2) → T7 m c b = T6 m c b :=
  fun b hb => W7_of_ne m c b fun e => hb (Finset.mem_image.mpr ⟨2, Finset.mem_univ _, e.symm⟩)

/-- When region 3 is left each of its arrays holds what the exit contents say: an input array is never written and was read off
    the entry contents, which the exit contents keep off `main_v41`; the output array `main_v41` holds the write-backs. -/
theorem hF3 (c : Dev nD) (w : Fin 6) : (dat3 (T8 m) c).arrAt w cfg3.N = T9 m c (Pipeline.arrRef spec3 w) := by
  by_cases hw : w = 5
  · subst hw; exact (W9_out m c).symm
  · have hne : Pipeline.arrRef spec3 w ≠ main_v41 := by revert w; decide
    have hin : (cfg3.win w).isOut = false := by revert w; decide
    exact ((dat3 (T8 m) c).arrAt_in w hin _).trans ((A_eq3 (T8 m) c w).trans (W9_of_ne m c _ hne).symm)
/-- Off region 3's arrays the exit contents are the entry contents. -/
theorem hrest3 (c : Dev nD) : ∀ b, b ∉ Finset.univ.image (Pipeline.arrRef spec3) → T9 m c b = T8 m c b :=
  fun b hb => W9_of_ne m c b fun e => hb (Finset.mem_image.mpr ⟨5, Finset.mem_univ _, e.symm⟩)

/-- When region 4 is left each of its arrays holds what the exit contents say: an input array is never written and was read off
    the entry contents, which the exit contents keep off `main_v48`; the output array `main_v48` holds the write-backs. -/
theorem hF4 (c : Dev nD) (w : Fin 4) : (dat4 (T10 m) c).arrAt w cfg4.N = T11 m c (Pipeline.arrRef spec4 w) := by
  by_cases hw : w = 3
  · subst hw; exact (W11_out m c).symm
  · have hne : Pipeline.arrRef spec4 w ≠ main_v48 := by revert w; decide
    have hin : (cfg4.win w).isOut = false := by revert w; decide
    exact ((dat4 (T10 m) c).arrAt_in w hin _).trans ((A_eq4 (T10 m) c w).trans (W11_of_ne m c _ hne).symm)
/-- Off region 4's arrays the exit contents are the entry contents. -/
theorem hrest4 (c : Dev nD) : ∀ b, b ∉ Finset.univ.image (Pipeline.arrRef spec4) → T11 m c b = T10 m c b :=
  fun b hb => W11_of_ne m c b fun e => hb (Finset.mem_image.mpr ⟨3, Finset.mem_univ _, e.symm⟩)

/-- When region 5 is left each of its arrays holds what the exit contents say: an input array is never written and was read off
    the entry contents, which the exit contents keep off `main_v49`; the output array `main_v49` holds the write-backs. -/
theorem hF5 (c : Dev nD) (w : Fin 3) : (dat5 (T11 m) c).arrAt w cfg5.N = T12 m c (Pipeline.arrRef spec5 w) := by
  by_cases hw : w = 2
  · subst hw; exact (W12_out m c).symm
  · have hne : Pipeline.arrRef spec5 w ≠ main_v49 := by revert w; decide
    have hin : (cfg5.win w).isOut = false := by revert w; decide
    exact ((dat5 (T11 m) c).arrAt_in w hin _).trans ((A_eq5 (T11 m) c w).trans (W12_of_ne m c _ hne).symm)
/-- Off region 5's arrays the exit contents are the entry contents. -/
theorem hrest5 (c : Dev nD) : ∀ b, b ∉ Finset.univ.image (Pipeline.arrRef spec5) → T12 m c b = T11 m c b :=
  fun b hb => W12_of_ne m c b fun e => hb (Finset.mem_image.mpr ⟨2, Finset.mem_univ _, e.symm⟩)

/-- When region 6 is left each of its arrays holds what the exit contents say: an input array is never written and was read off
    the entry contents, which the exit contents keep off `main_v59`; the output array `main_v59` holds the write-backs. -/
theorem hF6 (c : Dev nD) (w : Fin 6) : (dat6 (T13 m) c).arrAt w cfg6.N = T14 m c (Pipeline.arrRef spec6 w) := by
  by_cases hw : w = 5
  · subst hw; exact (W14_out m c).symm
  · have hne : Pipeline.arrRef spec6 w ≠ main_v59 := by revert w; decide
    have hin : (cfg6.win w).isOut = false := by revert w; decide
    exact ((dat6 (T13 m) c).arrAt_in w hin _).trans ((A_eq6 (T13 m) c w).trans (W14_of_ne m c _ hne).symm)
/-- Off region 6's arrays the exit contents are the entry contents. -/
theorem hrest6 (c : Dev nD) : ∀ b, b ∉ Finset.univ.image (Pipeline.arrRef spec6) → T14 m c b = T13 m c b :=
  fun b hb => W14_of_ne m c b fun e => hb (Finset.mem_image.mpr ⟨5, Finset.mem_univ _, e.symm⟩)

/-- When region 7 is left each of its arrays holds what the exit contents say: an input array is never written and was read off
    the entry contents, which the exit contents keep off `main_v61`; the output array `main_v61` holds the write-backs. -/
theorem hF7 (c : Dev nD) (w : Fin 4) : (dat7 (T15 m) c).arrAt w cfg7.N = T16 m c (Pipeline.arrRef spec7 w) := by
  by_cases hw : w = 3
  · subst hw; exact (W16_out m c).symm
  · have hne : Pipeline.arrRef spec7 w ≠ main_v61 := by revert w; decide
    have hin : (cfg7.win w).isOut = false := by revert w; decide
    exact ((dat7 (T15 m) c).arrAt_in w hin _).trans ((A_eq7 (T15 m) c w).trans (W16_of_ne m c _ hne).symm)
/-- Off region 7's arrays the exit contents are the entry contents. -/
theorem hrest7 (c : Dev nD) : ∀ b, b ∉ Finset.univ.image (Pipeline.arrRef spec7) → T16 m c b = T15 m c b :=
  fun b hb => W16_of_ne m c b fun e => hb (Finset.mem_image.mpr ⟨3, Finset.mem_univ _, e.symm⟩)

/-! ## The regions as segments -/

-- a library lemma stated over the pinned configuration unifies with the printed one only when unification may unfold plain
-- definitions in a metavariable's type
set_option backward.isDefEq.respectTransparency.types false in
/-- REGION 0 over the thread state: entered from every unscoped buffer at `W3` beside `R`, left at `W4` beside `R`. -/
def reg0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ noPairs noLevel 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := region_entry c (W3 m c)
    ((BIBase.Entails.of_eq (Pipeline.unscopedBufs_held c (W3 m c)).symm).trans
      (Pipeline.arrays_of_unscopedBufs (p := 0) (pcfgs (F := F)) adm (pdats m) launch0.win launch0.arr_whole c
        ((pdats m 0 c).share_full fun _ => rfl) (T3 m c) fun _ => rfl))
    (prefHeld_of_no_table _ rfl c _ _)
    (owesAt_of_owes (pdats m 0 c) 0 rfl rfl)
  hin c := ΦA_of_parts spec0 c
  hout c := by rw [Pipeline.ownSems0_none]; exact parts_of_ΦA spec0 c
  hexit c := region_exit c (W4 m c)
    ((Pipeline.unscopedBufs_of_arrays (p := 0) (pcfgs (F := F)) adm (Ix := Unit) (Name := ℕ) (U := UR sig nD τ) (Lvl := ℕ)
        launch0.win launch0.arr_whole c (pdats m) ((pdats m 0 c).share_full fun _ => rfl)
        (T3 m c) (T4 m c) ((pdats m 0 c).arrAt · cfg0.N) (hF0 m c) (hrest0 m c)).trans
      (BIBase.Entails.of_eq (Pipeline.unscopedBufs_held c (W4 m c))))
    (owes_of_owesAt (pdats m 0 c) (Fin.last _) rfl)

-- a library lemma stated over the pinned configuration unifies with the printed one only when unification may unfold plain
-- definitions in a metavariable's type
set_option backward.isDefEq.respectTransparency.types false in
/-- REGION 1 over the thread state: entered from every unscoped buffer at `W5` beside `R`, left at `W6` beside `R`. -/
def reg1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ noPairs noLevel 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (T5 m c)
  hentry c := region_entry c (W5 m c)
    ((BIBase.Entails.of_eq (Pipeline.unscopedBufs_held c (W5 m c)).symm).trans
      (Pipeline.arrays_of_unscopedBufs (p := 1) (pcfgs (F := F)) adm (pdats m) launch1.win launch1.arr_whole c
        ((pdats m 1 c).share_full fun _ => rfl) (T5 m c) fun _ => rfl))
    (prefHeld_of_no_table _ rfl c _ _)
    (owesAt_of_owes (pdats m 1 c) 0 rfl rfl)
  hin c := ΦA_of_parts spec1 c
  hout c := by rw [Pipeline.ownSems0_none]; exact parts_of_ΦA spec1 c
  hexit c := region_exit c (W6 m c)
    ((Pipeline.unscopedBufs_of_arrays (p := 1) (pcfgs (F := F)) adm (Ix := Unit) (Name := ℕ) (U := UR sig nD τ) (Lvl := ℕ)
        launch1.win launch1.arr_whole c (pdats m) ((pdats m 1 c).share_full fun _ => rfl)
        (T5 m c) (T6 m c) ((pdats m 1 c).arrAt · cfg1.N) (hF1 m c) (hrest1 m c)).trans
      (BIBase.Entails.of_eq (Pipeline.unscopedBufs_held c (W6 m c))))
    (owes_of_owesAt (pdats m 1 c) (Fin.last _) rfl)

-- a library lemma stated over the pinned configuration unifies with the printed one only when unification may unfold plain
-- definitions in a metavariable's type
set_option backward.isDefEq.respectTransparency.types false in
/-- REGION 2 over the thread state: entered from every unscoped buffer at `W6` beside `R`, left at `W7` beside `R`. -/
def reg2 : Pipeline.RegionSeg (pcfgs (F := F)) adm (pdats m) () defs₀ Variants.none noPairs noLevel 2 where
  win := launch2.win.to₀
  block_pos := launch2.block_pos
  stage_whole := launch2.stage_whole
  K := PEmpty
  osem k := k.elim
  ho := Pipeline.OwnSemFacts.none _
  hbody c := (body_obligation2 (T6 m) c).loose
  hwaits := Pipeline.hwaits_of_owed_zero _ _ _ _ noPairs noLevel 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (T6 m c)
  hentry c := region_entry c (W6 m c)
    ((BIBase.Entails.of_eq (Pipeline.unscopedBufs_held c (W6 m c)).symm).trans
      (Pipeline.arrays_of_unscopedBufs (p := 2) (pcfgs (F := F)) adm (pdats m) launch2.win launch2.arr_whole c
        ((pdats m 2 c).share_full fun _ => rfl) (T6 m c) fun _ => rfl))
    (prefHeld_of_no_table _ rfl c _ _)
    (owesAt_of_owes (pdats m 2 c) 0 rfl rfl)
  hin c := (ΦA_of_parts spec2 c).trans (hin2 (T6 m) c)
  hout c := by rw [Pipeline.ownSems0_none]; exact (hout2 (T6 m) c).trans (parts_of_ΦA spec2 c)
  hexit c := region_exit c (W7 m c)
    ((Pipeline.unscopedBufs_of_arrays (p := 2) (pcfgs (F := F)) adm (Ix := Unit) (Name := ℕ) (U := UR sig nD τ) (Lvl := ℕ)
        launch2.win launch2.arr_whole c (pdats m) ((pdats m 2 c).share_full fun _ => rfl)
        (T6 m c) (T7 m c) ((pdats m 2 c).arrAt · cfg2.N) (hF2 m c) (hrest2 m c)).trans
      (BIBase.Entails.of_eq (Pipeline.unscopedBufs_held c (W7 m c))))
    (owes_of_owesAt (pdats m 2 c) (Fin.last _) rfl)

-- a library lemma stated over the pinned configuration unifies with the printed one only when unification may unfold plain
-- definitions in a metavariable's type
set_option backward.isDefEq.respectTransparency.types false in
/-- REGION 3 over the thread state: entered from every unscoped buffer at `W8` beside `R`, left at `W9` beside `R`. -/
def reg3 : Pipeline.RegionSeg (pcfgs (F := F)) adm (pdats m) () defs₀ Variants.none noPairs noLevel 3 where
  win := launch3.win.to₀
  block_pos := launch3.block_pos
  stage_whole := launch3.stage_whole
  K := PEmpty
  osem k := k.elim
  ho := Pipeline.OwnSemFacts.none _
  hbody c := (body_obligation3 (T8 m) c).loose
  hwaits := Pipeline.hwaits_of_owed_zero _ _ _ _ noPairs noLevel 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (T8 m c)
  hentry c := region_entry c (W8 m c)
    ((BIBase.Entails.of_eq (Pipeline.unscopedBufs_held c (W8 m c)).symm).trans
      (Pipeline.arrays_of_unscopedBufs (p := 3) (pcfgs (F := F)) adm (pdats m) launch3.win launch3.arr_whole c
        ((pdats m 3 c).share_full fun _ => rfl) (T8 m c) fun _ => rfl))
    (prefHeld_of_no_table _ rfl c _ _)
    (owesAt_of_owes (pdats m 3 c) 0 rfl rfl)
  hin c := ΦA_of_parts spec3 c
  hout c := by rw [Pipeline.ownSems0_none]; exact parts_of_ΦA spec3 c
  hexit c := region_exit c (W9 m c)
    ((Pipeline.unscopedBufs_of_arrays (p := 3) (pcfgs (F := F)) adm (Ix := Unit) (Name := ℕ) (U := UR sig nD τ) (Lvl := ℕ)
        launch3.win launch3.arr_whole c (pdats m) ((pdats m 3 c).share_full fun _ => rfl)
        (T8 m c) (T9 m c) ((pdats m 3 c).arrAt · cfg3.N) (hF3 m c) (hrest3 m c)).trans
      (BIBase.Entails.of_eq (Pipeline.unscopedBufs_held c (W9 m c))))
    (owes_of_owesAt (pdats m 3 c) (Fin.last _) rfl)

-- a library lemma stated over the pinned configuration unifies with the printed one only when unification may unfold plain
-- definitions in a metavariable's type
set_option backward.isDefEq.respectTransparency.types false in
/-- REGION 4 over the thread state: entered from every unscoped buffer at `W10` beside `R`, left at `W11` beside `R`. -/
def reg4 : Pipeline.RegionSeg (pcfgs (F := F)) adm (pdats m) () defs₀ Variants.none noPairs noLevel 4 where
  win := launch4.win.to₀
  block_pos := launch4.block_pos
  stage_whole := launch4.stage_whole
  K := PEmpty
  osem k := k.elim
  ho := Pipeline.OwnSemFacts.none _
  hbody c := (body_obligation4 (T10 m) c).loose
  hwaits := Pipeline.hwaits_of_owed_zero _ _ _ _ noPairs noLevel 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (T10 m c)
  hentry c := region_entry c (W10 m c)
    ((BIBase.Entails.of_eq (Pipeline.unscopedBufs_held c (W10 m c)).symm).trans
      (Pipeline.arrays_of_unscopedBufs (p := 4) (pcfgs (F := F)) adm (pdats m) launch4.win launch4.arr_whole c
        ((pdats m 4 c).share_full fun _ => rfl) (T10 m c) fun _ => rfl))
    (prefHeld_of_no_table _ rfl c _ _)
    (owesAt_of_owes (pdats m 4 c) 0 rfl rfl)
  hin c := ΦA_of_parts spec4 c
  hout c := by rw [Pipeline.ownSems0_none]; exact parts_of_ΦA spec4 c
  hexit c := region_exit c (W11 m c)
    ((Pipeline.unscopedBufs_of_arrays (p := 4) (pcfgs (F := F)) adm (Ix := Unit) (Name := ℕ) (U := UR sig nD τ) (Lvl := ℕ)
        launch4.win launch4.arr_whole c (pdats m) ((pdats m 4 c).share_full fun _ => rfl)
        (T10 m c) (T11 m c) ((pdats m 4 c).arrAt · cfg4.N) (hF4 m c) (hrest4 m c)).trans
      (BIBase.Entails.of_eq (Pipeline.unscopedBufs_held c (W11 m c))))
    (owes_of_owesAt (pdats m 4 c) (Fin.last _) rfl)

-- a library lemma stated over the pinned configuration unifies with the printed one only when unification may unfold plain
-- definitions in a metavariable's type
set_option backward.isDefEq.respectTransparency.types false in
/-- REGION 5 over the thread state: entered from every unscoped buffer at `W11` beside `R`, left at `W12` beside `R`. -/
def reg5 : Pipeline.RegionSeg (pcfgs (F := F)) adm (pdats m) () defs₀ Variants.none noPairs noLevel 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ noPairs noLevel 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (T11 m c)
  hentry c := region_entry c (W11 m c)
    ((BIBase.Entails.of_eq (Pipeline.unscopedBufs_held c (W11 m c)).symm).trans
      (Pipeline.arrays_of_unscopedBufs (p := 5) (pcfgs (F := F)) adm (pdats m) launch5.win launch5.arr_whole c
        ((pdats m 5 c).share_full fun _ => rfl) (T11 m c) fun _ => rfl))
    (prefHeld_of_no_table _ rfl c _ _)
    (owesAt_of_owes (pdats m 5 c) 0 rfl rfl)
  hin c := (ΦA_of_parts spec5 c).trans (hin5 (T11 m) c)
  hout c := by rw [Pipeline.ownSems0_none]; exact (hout5 (T11 m) c).trans (parts_of_ΦA spec5 c)
  hexit c := region_exit c (W12 m c)
    ((Pipeline.unscopedBufs_of_arrays (p := 5) (pcfgs (F := F)) adm (Ix := Unit) (Name := ℕ) (U := UR sig nD τ) (Lvl := ℕ)
        launch5.win launch5.arr_whole c (pdats m) ((pdats m 5 c).share_full fun _ => rfl)
        (T11 m c) (T12 m c) ((pdats m 5 c).arrAt · cfg5.N) (hF5 m c) (hrest5 m c)).trans
      (BIBase.Entails.of_eq (Pipeline.unscopedBufs_held c (W12 m c))))
    (owes_of_owesAt (pdats m 5 c) (Fin.last _) rfl)

-- a library lemma stated over the pinned configuration unifies with the printed one only when unification may unfold plain
-- definitions in a metavariable's type
set_option backward.isDefEq.respectTransparency.types false in
/-- REGION 6 over the thread state: entered from every unscoped buffer at `W13` beside `R`, left at `W14` beside `R`. -/
def reg6 : Pipeline.RegionSeg (pcfgs (F := F)) adm (pdats m) () defs₀ Variants.none noPairs noLevel 6 where
  win := launch6.win.to₀
  block_pos := launch6.block_pos
  stage_whole := launch6.stage_whole
  K := PEmpty
  osem k := k.elim
  ho := Pipeline.OwnSemFacts.none _
  hbody c := (body_obligation6 (T13 m) c).loose
  hwaits := Pipeline.hwaits_of_owed_zero _ _ _ _ noPairs noLevel 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (T13 m c)
  hentry c := region_entry c (W13 m c)
    ((BIBase.Entails.of_eq (Pipeline.unscopedBufs_held c (W13 m c)).symm).trans
      (Pipeline.arrays_of_unscopedBufs (p := 6) (pcfgs (F := F)) adm (pdats m) launch6.win launch6.arr_whole c
        ((pdats m 6 c).share_full fun _ => rfl) (T13 m c) fun _ => rfl))
    (prefHeld_of_no_table _ rfl c _ _)
    (owesAt_of_owes (pdats m 6 c) 0 rfl rfl)
  hin c := ΦA_of_parts spec6 c
  hout c := by rw [Pipeline.ownSems0_none]; exact parts_of_ΦA spec6 c
  hexit c := region_exit c (W14 m c)
    ((Pipeline.unscopedBufs_of_arrays (p := 6) (pcfgs (F := F)) adm (Ix := Unit) (Name := ℕ) (U := UR sig nD τ) (Lvl := ℕ)
        launch6.win launch6.arr_whole c (pdats m) ((pdats m 6 c).share_full fun _ => rfl)
        (T13 m c) (T14 m c) ((pdats m 6 c).arrAt · cfg6.N) (hF6 m c) (hrest6 m c)).trans
      (BIBase.Entails.of_eq (Pipeline.unscopedBufs_held c (W14 m c))))
    (owes_of_owesAt (pdats m 6 c) (Fin.last _) rfl)

-- a library lemma stated over the pinned configuration unifies with the printed one only when unification may unfold plain
-- definitions in a metavariable's type
set_option backward.isDefEq.respectTransparency.types false in
/-- REGION 7 over the thread state: entered from every unscoped buffer at `W15` beside `R`, left at `W16` beside `R`. -/
def reg7 : Pipeline.RegionSeg (pcfgs (F := F)) adm (pdats m) () defs₀ Variants.none noPairs noLevel 7 where
  win := launch7.win.to₀
  block_pos := launch7.block_pos
  stage_whole := launch7.stage_whole
  K := PEmpty
  osem k := k.elim
  ho := Pipeline.OwnSemFacts.none _
  hbody c := (body_obligation7 (T15 m) c).loose
  hwaits := Pipeline.hwaits_of_owed_zero _ _ _ _ noPairs noLevel 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (T15 m c)
  hentry c := region_entry c (W15 m c)
    ((BIBase.Entails.of_eq (Pipeline.unscopedBufs_held c (W15 m c)).symm).trans
      (Pipeline.arrays_of_unscopedBufs (p := 7) (pcfgs (F := F)) adm (pdats m) launch7.win launch7.arr_whole c
        ((pdats m 7 c).share_full fun _ => rfl) (T15 m c) fun _ => rfl))
    (prefHeld_of_no_table _ rfl c _ _)
    (owesAt_of_owes (pdats m 7 c) 0 rfl rfl)
  hin c := ΦA_of_parts spec7 c
  hout c := by rw [Pipeline.ownSems0_none]; exact parts_of_ΦA spec7 c
  hexit c := region_exit c (W16 m c)
    ((Pipeline.unscopedBufs_of_arrays (p := 7) (pcfgs (F := F)) adm (Ix := Unit) (Name := ℕ) (U := UR sig nD τ) (Lvl := ℕ)
        launch7.win launch7.arr_whole c (pdats m) ((pdats m 7 c).share_full fun _ => rfl)
        (T15 m c) (T16 m c) ((pdats m 7 c).arrAt · cfg7.N) (hF7 m c) (hrest7 m c)).trans
      (BIBase.Entails.of_eq (Pipeline.unscopedBufs_held c (W16 m c))))
    (owes_of_owesAt (pdats m 7 c) (Fin.last _) rfl)

end Cert.KernelIdeal.Hand

end
-- ==== Proof.KI.Run.lean ====
/-
  The launch. @main, run from any memory with every semaphore counter at zero, terminates under every weakly fair schedule, and
  in every final memory each core's result array `main_v63` holds the fold's last contents `W17 m c main_v63` while the ten argument
  arrays hold what they were launched with.

  This is the conditional frame (with the result array named in its post) at: no user index, no level assignment, nothing owed at
  launch, no ghost resource; the launch element of the pipeline library at every pipeline's staging cells; the rest `R` beside the
  buffers at every item's boundary; the eight region records; and, for the frame's unknown contents, the fold itself — so that
  every boundary's valuation is the fold's (`VJ_eq`) and each record is entered and left exactly where the frame asks.
-/
import proofs.«408707_j33406255628688_2_alg».proof.Proof.KI.Segs
import proofs.«408707_j33406255628688_2_alg».proof.Proof.KI.RunV

-- decided memberships and inequalities over the program's references recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipeline library's, at every pipeline's staging cells. -/
abbrev launchElt : UR sig nD τ := initOf (Pipeline.cells cfgs cellOf_inj) (Pipeline.launchToks cfgs cellOf_inj)

/-- The launch element is the library's own, and no core is dealt a ghost resource. -/
theorem launchElt_yields :
    (ownU launchElt : sProp 𝕄) ⊢ |={Set.univ}=> iprop(BI.own (emb₁ launchElt) ∗ bigSep Finset.univ fun _ : Dev nD => (BI.emp : sProp 𝕄)) := by
  have hown : (ownU launchElt : sProp 𝕄) ⊢ BI.own (emb₁ launchElt) := .rfl
  have hnone : (BI.emp : sProp 𝕄) ⊢ bigSep Finset.univ (fun _ : Dev nD => (BI.emp : sProp 𝕄)) := by rw [BI.bigSep_emp_const]
  iintro Hu; imodintro
  isplitl [Hu]
  · iapply hown; iexact Hu
  iapply hnone; iempintro

-- the launch theorem's implicit arguments are found by unifying its conclusion with this one, which takes unfolding plain
-- definitions in a metavariable's type
set_option backward.isDefEq.respectTransparency.types false in
/-- The run, its post read at the conditional frame's last valuation taken at the fold. -/
theorem run_main_at_frame : θ_run defs (onTc (τ := τ) (main (F := F))) ⟨m, fun _ => 0, ρ⟩ (fun r => ∀ c : Dev nD,
      r.2.mem ((c.tc : Thread nD τ).loc main_v63) = V17 m (outsX m) c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine frame_cond_v m emb₁ () Variants.none noPairs noLevel (fun _ _ => rfl) ρ (outsX m) (pdats m)
    0 (fun _ => iprop(emp)) launchElt launchElt_yields (fun _ => R) ?rest0 ?rest8
    (reg0 m) ?pre0 ?post0
    (reg1 m) ?pre1 ?post1
    (reg2 m) ?pre2 ?post2
    (reg3 m) ?pre3 ?post3
    (reg4 m) ?pre4 ?post4
    (reg5 m) ?pre5 ?post5
    (reg6 m) ?pre6 ?post6
    (reg7 m) ?pre7 ?post7
  case rest0 =>
    -- what the launch deals a core, the buffers apart, makes `R`: its generator register and its `owes`, at nothing
    refine Pipeline.initEach noPairs noLevel fun c => ?_
    iintro ⟨⟨-, Howes, -, Hreg, -⟩, -⟩
    imodintro
    isplitl [Hreg]; · iexists _; iexact Hreg
    iexists ∅; iexact Howes
  case rest8 =>
    intro c; iintro ⟨-, Howes⟩; iexact Howes
  case pre0 => intro c; exact .rfl
  case post0 => intro c; rw [V4_eq]; exact .rfl
  case pre1 => intro c; rw [V5_eq]; exact .rfl
  case post1 => intro c; rw [V6_eq]; exact .rfl
  case pre2 => intro c; rw [V6_eq]; exact .rfl
  case post2 => intro c; rw [V7_eq]; exact .rfl
  case pre3 => intro c; rw [V8_eq]; exact .rfl
  case post3 => intro c; rw [V9_eq]; exact .rfl
  case pre4 => intro c; rw [V10_eq]; exact .rfl
  case post4 => intro c; rw [V11_eq]; exact .rfl
  case pre5 => intro c; rw [V11_eq]; exact .rfl
  case post5 => intro c; rw [V12_eq]; exact .rfl
  case pre6 => intro c; rw [V13_eq]; exact .rfl
  case post6 => intro c; rw [V14_eq]; exact .rfl
  case pre7 => intro c; rw [V15_eq]; exact .rfl
  case post7 => intro c; rw [V16_eq]; exact .rfl

/-- THE RUN: every weakly fair execution of @main from memory `m` with zero counters terminates, and every final memory holds, on
    every core, the result array at the fold's last contents and each argument array as launched. -/
theorem run_main : θ_run defs (onTc (τ := τ) (main (F := F))) ⟨m, fun _ => 0, ρ⟩ (fun r => ∀ c : Dev nD,
      r.2.mem ((c.tc : Thread nD τ).loc main_v63) = W17 m c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have hlast : V17 m (outsX m) = W17 m := funext fun c => V17_eq m c
  have h := run_main_at_frame m ρ
  rw [hlast] at h
  exact h

end Cert.KernelIdeal.Hand

end
-- ==== Proof.KB.RegA0.lean ====
/- Region 0 of @main: custom_call 0, the kernel function `cc0__linear_kernel_f32` on pipeline `cfg0`, at a
   parameter `V` (the core's buffer contents when the region is entered). Windows 0, 1, 2 are inputs, window 3 the
   output. The body reads each input block whole, reads the output block (a value nothing uses) and overwrites the
   output block whole with the payload `k0_pay1` of the three input blocks. Hence: after the body each input buffer
   still holds its block and the output buffer holds what one whole-block write of that payload leaves; before the body
   an input buffer holds its block at every point, refetched there or not, because a window that is not refetched has
   not moved its block index; the class's invariant and the core's debt pass through the body unread. -/
import proofs.«408707_j33406255628688_2_alg».proof.Proof.Gen.Kernel.Launch
import proofs.«408707_j33406255628688_2_alg».proof.Proof.Gen.Kernel.Skeleton
import proofs.«408707_j33406255628688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## This region's blocks

Shape and element type of the block of each window (a, b, c: the inputs, windows 0, 1, 2; o: the output, window 3),
and for each the fact that the whole block lies inside itself. Everything below is written over these twelve. -/

local notation "𝔹a" => S1280x256
local notation "𝔼a" => EltTy.f32
local notation "inbA" => inb_S1280x256_S1280x256_0_0
local notation "𝔹b" => S256x512
local notation "𝔼b" => EltTy.f32
local notation "inbB" => inb_S256x512_S256x512_0_0
local notation "𝔹c" => S1x512
local notation "𝔼c" => EltTy.f32
local notation "inbC" => inb_S1x512_S1x512_0_0
local notation "𝔹o" => S1280x512
local notation "𝔼o" => EltTy.f32
local notation "inbO" => inb_S1280x512_S1280x512_0_0

variable (V : (c : Dev nD) → (b : Ref sig .tc) → Buf (Elt F) ((c : Thread nD τ).loc b))

/-! ## The blocks the windows show -/

/-- The block of window `w` at grid point `t`: the window's view of its array there, read in the contents the region
    finds (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes through: each block whole -/

abbrev wholeA0 : Rect 𝔹a := Rect.unit (s := 𝔹a) ![0, 0] (Shape.size 𝔹a) inbA
abbrev wholeB0 : Rect 𝔹b := Rect.unit (s := 𝔹b) ![0, 0] (Shape.size 𝔹b) inbB
abbrev wholeC0 : Rect 𝔹c := Rect.unit (s := 𝔹c) ![0, 0] (Shape.size 𝔹c) inbC
abbrev wholeO0 : Rect 𝔹o := Rect.unit (s := 𝔹o) ![0, 0] (Shape.size 𝔹o) inbO

/-! ## What the body leaves in the output buffer -/

/-- The output buffer after the body, from the three input blocks: the body's single store, of the payload of the three
    loads, through the whole-block rectangle. -/
def out0_3 (x0 : Vec F 𝔹a 𝔼a) (x1 : Vec F 𝔹b 𝔼b) (x2 : Vec F 𝔹c 𝔼c) : Vec F 𝔹o 𝔼o :=
  View.canon [⟨wholeO0, k0_pay1 (View.ld x0 wholeA0) (View.ld x1 wholeB0) (View.ld x2 wholeC0)⟩]

/-- That store is of the whole block, so it alone covers the buffer, whatever it stores. -/
theorem covers0_3 (p : (wholeO0).shape.Idx → Elt F 𝔼o) (y : Shape.Idx 𝔹o) :
    ∃ pc ∈ ([⟨wholeO0, p⟩] : List (View.Piece (Elt F) 𝔹o 𝔼o)), y ∈ pc.1.set :=
  View.cover_of_wholeMem _ (View.Piece.wholeMem_here (by rfl)) y

/-! ## The body as a triple over its four memrefs -/

set_option maxHeartbeats 1000000 in
/-- On whole memrefs, the three inputs' reading `x0 x1 x2` and the output's holding anything, the body runs to a
    continuation that is given the inputs' unchanged and the output's at `out0_3 x0 x1 x2`. -/
theorem sound_kernel0 (c : Dev nD) (E : Set ℕ) (i : grid0.Coords)
    (arg1 : Memref sig .tc .vmem 𝔹a 𝔼a) (harg1 : arg1.IsWhole) (arg2 : Memref sig .tc .vmem 𝔹b 𝔼b) (harg2 : arg2.IsWhole)
    (arg3 : Memref sig .tc .vmem 𝔹c 𝔼c) (harg3 : arg3.IsWhole) (arg4 : Memref sig .tc .vmem 𝔹o 𝔼o) (harg4 : arg4.IsWhole)
    (x0 : Vec F 𝔹a 𝔼a) (x1 : Vec F 𝔹b 𝔼b) (x2 : Vec F 𝔹c 𝔼c) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel_f32 i arg1 harg1 arg2 harg2 arg3 harg3 arg4 harg4) K := by
  simp only [cc0__linear_kernel_f32_eq_skeleton]; unfold cc0__linear_kernel_f32_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers0_3 _)

/-! ## The proof data -/

/-- Pipeline 0's proof data on core `c`. The arrays: as the region finds them. After the body at point `t`: an input's
    buffer at its block, the output's at `out0_3` of the three input blocks there. The invariant is the class's (the
    scoped rest and the generator register, which the body does not touch), nothing is owed, every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- Its arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body finds in the input buffers

Window 0 is refetched at every point, windows 1 and 2 only at the first. Either way the buffer holds the window's
block: where the pipeline does not refetch, the block index is the previous point's, and the body left that block in
place. The blocks tile their arrays (no cut) and the pipeline states no idle point. -/

theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0]; unfold Dat.blockOf iblk0; rw [A_eq0]; try rfl
  refine ((dat0 V c).before_in_eq_fetched 0 rfl (fun _ => rfl) (fun _ _ _ => rfl) hkeep t d).trans ?_
  unfold Dat.fetched Dat.blockOf iblk0; rw [A_eq0]; try rfl

theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := fun s => by
    rw [after0_1]; unfold Dat.blockOf iblk0; rw [A_eq0]; try rfl
  refine ((dat0 V c).before_in_eq_fetched 1 rfl (fun _ => rfl) (fun _ _ _ => rfl) hkeep t d).trans ?_
  unfold Dat.fetched Dat.blockOf iblk0; rw [A_eq0]; try rfl

theorem before0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := fun s => by
    rw [after0_2]; unfold Dat.blockOf iblk0; rw [A_eq0]; try rfl
  refine ((dat0 V c).before_in_eq_fetched 2 rfl (fun _ => rfl) (fun _ _ _ => rfl) hkeep t d).trans ?_
  unfold Dat.fetched Dat.blockOf iblk0; rw [A_eq0]; try rfl

/-! ## The body obligation -/

/-- What the pipeline hands the body at point `t`: the invariant, the debt, and each window's current buffer at what it
    then holds, the four windows one by one. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it takes back: the same at the next point, each buffer at what the body leaves. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at a point: the input buffers hold their blocks, the output buffer something, so the triple applies at the
    three blocks; the invariant and the debt do not depend on the point and are carried over as they are. -/
theorem sound_body0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's loop asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.RegA1.lean ====
/- Region 1 of @main: custom_call 1, the kernel function `cc1__msg_kernel` on pipeline `cfg1`, at a
   parameter `V` (the core's buffer contents when the region is entered). Windows 0, 1, 2 are inputs, window 3 the
   output. The body reads each input block whole, reads the output block (a value nothing uses) and overwrites the
   output block whole with the payload `k1_pay1` of the three input blocks. Hence: after the body each input buffer
   still holds its block and the output buffer holds what one whole-block write of that payload leaves; before the body
   an input buffer holds its block at every point, refetched there or not, because a window that is not refetched has
   not moved its block index; the class's invariant and the core's debt pass through the body unread. -/
import proofs.«408707_j33406255628688_2_alg».proof.Proof.Gen.Kernel.Launch
import proofs.«408707_j33406255628688_2_alg».proof.Proof.Gen.Kernel.Skeleton
import proofs.«408707_j33406255628688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## This region's blocks

Shape and element type of the block of each window (a, b, c: the inputs, windows 0, 1, 2; o: the output, window 3),
and for each the fact that the whole block lies inside itself. Everything below is written over these twelve. -/

local notation "𝔹a" => S1280x512
local notation "𝔼a" => EltTy.f32
local notation "inbA" => inb_S1280x512_S1280x512_0_0
local notation "𝔹b" => S512x512
local notation "𝔼b" => EltTy.bf16
local notation "inbB" => inb_S512x512_S512x512_0_0
local notation "𝔹c" => S1x512
local notation "𝔼c" => EltTy.f32
local notation "inbC" => inb_S1x512_S1x512_0_0
local notation "𝔹o" => S1280x512
local notation "𝔼o" => EltTy.bf16
local notation "inbO" => inb_S1280x512_S1280x512_0_0

variable (V : (c : Dev nD) → (b : Ref sig .tc) → Buf (Elt F) ((c : Thread nD τ).loc b))

/-! ## The blocks the windows show -/

/-- The block of window `w` at grid point `t`: the window's view of its array there, read in the contents the region
    finds (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes through: each block whole -/

abbrev wholeA1 : Rect 𝔹a := Rect.unit (s := 𝔹a) ![0, 0] (Shape.size 𝔹a) inbA
abbrev wholeB1 : Rect 𝔹b := Rect.unit (s := 𝔹b) ![0, 0] (Shape.size 𝔹b) inbB
abbrev wholeC1 : Rect 𝔹c := Rect.unit (s := 𝔹c) ![0, 0] (Shape.size 𝔹c) inbC
abbrev wholeO1 : Rect 𝔹o := Rect.unit (s := 𝔹o) ![0, 0] (Shape.size 𝔹o) inbO

/-! ## What the body leaves in the output buffer -/

/-- The output buffer after the body, from the three input blocks: the body's single store, of the payload of the three
    loads, through the whole-block rectangle. -/
def out1_3 (x0 : Vec F 𝔹a 𝔼a) (x1 : Vec F 𝔹b 𝔼b) (x2 : Vec F 𝔹c 𝔼c) : Vec F 𝔹o 𝔼o :=
  View.canon [⟨wholeO1, k1_pay1 (View.ld x0 wholeA1) (View.ld x1 wholeB1) (View.ld x2 wholeC1)⟩]

/-- That store is of the whole block, so it alone covers the buffer, whatever it stores. -/
theorem covers1_3 (p : (wholeO1).shape.Idx → Elt F 𝔼o) (y : Shape.Idx 𝔹o) :
    ∃ pc ∈ ([⟨wholeO1, p⟩] : List (View.Piece (Elt F) 𝔹o 𝔼o)), y ∈ pc.1.set :=
  View.cover_of_wholeMem _ (View.Piece.wholeMem_here (by rfl)) y

/-! ## The body as a triple over its four memrefs -/

set_option maxHeartbeats 1000000 in
/-- On whole memrefs, the three inputs' reading `x0 x1 x2` and the output's holding anything, the body runs to a
    continuation that is given the inputs' unchanged and the output's at `out1_3 x0 x1 x2`. -/
theorem sound_kernel1 (c : Dev nD) (E : Set ℕ) (i : grid1.Coords)
    (arg1 : Memref sig .tc .vmem 𝔹a 𝔼a) (harg1 : arg1.IsWhole) (arg2 : Memref sig .tc .vmem 𝔹b 𝔼b) (harg2 : arg2.IsWhole)
    (arg3 : Memref sig .tc .vmem 𝔹c 𝔼c) (harg3 : arg3.IsWhole) (arg4 : Memref sig .tc .vmem 𝔹o 𝔼o) (harg4 : arg4.IsWhole)
    (x0 : Vec F 𝔹a 𝔼a) (x1 : Vec F 𝔹b 𝔼b) (x2 : Vec F 𝔹c 𝔼c) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__msg_kernel i arg1 harg1 arg2 harg2 arg3 harg3 arg4 harg4) K := by
  simp only [cc1__msg_kernel_eq_skeleton]; unfold cc1__msg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers1_3 _)

/-! ## The proof data -/

/-- Pipeline 1's proof data on core `c`. The arrays: as the region finds them. After the body at point `t`: an input's
    buffer at its block, the output's at `out1_3` of the three input blocks there. The invariant is the class's (the
    scoped rest and the generator register, which the body does not touch), nothing is owed, every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- Its arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## What the body finds in the input buffers

Window 0 is refetched at every point, windows 1 and 2 only at the first. Either way the buffer holds the window's
block: where the pipeline does not refetch, the block index is the previous point's, and the body left that block in
place. The blocks tile their arrays (no cut) and the pipeline states no idle point. -/

theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := fun s => by
    rw [after1_0]; unfold Dat.blockOf iblk1; rw [A_eq1]; try rfl
  refine ((dat1 V c).before_in_eq_fetched 0 rfl (fun _ => rfl) (fun _ _ _ => rfl) hkeep t d).trans ?_
  unfold Dat.fetched Dat.blockOf iblk1; rw [A_eq1]; try rfl

theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := fun s => by
    rw [after1_1]; unfold Dat.blockOf iblk1; rw [A_eq1]; try rfl
  refine ((dat1 V c).before_in_eq_fetched 1 rfl (fun _ => rfl) (fun _ _ _ => rfl) hkeep t d).trans ?_
  unfold Dat.fetched Dat.blockOf iblk1; rw [A_eq1]; try rfl

theorem before1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := fun s => by
    rw [after1_2]; unfold Dat.blockOf iblk1; rw [A_eq1]; try rfl
  refine ((dat1 V c).before_in_eq_fetched 2 rfl (fun _ => rfl) (fun _ _ _ => rfl) hkeep t d).trans ?_
  unfold Dat.fetched Dat.blockOf iblk1; rw [A_eq1]; try rfl

/-! ## The body obligation -/

/-- What the pipeline hands the body at point `t`: the invariant, the debt, and each window's current buffer at what it
    then holds, the four windows one by one. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it takes back: the same at the next point, each buffer at what the body leaves. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at a point: the input buffers hold their blocks, the output buffer something, so the triple applies at the
    three blocks; the invariant and the debt do not depend on the point and are carried over as they are. -/
theorem sound_body1 (c : Dev nD) (t : Fin cfg1.N) :
    handed1 V c t ⊢ wp frame (wpE (defs₀ (F := F)) Variants.none c none) Set.univ (bodyAt1 t) (fun _ => returned1 V c t) := by
  unfold handed1 returned1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's loop asks of the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.RegJ2.lean ====
/-
  Region 2 of @main: the adjacency product, accumulated over the contraction blocks.

  The grid is 8 × 8; a point (i, k) reads block (i, k) of the adjacency matrix (1280 × 1280) and block (k, 0) of the
  messages (1280 × 512), and the contraction index k runs innermost. An accumulator (1280 × 512, single precision)
  is kept from point to point: at k = 0 it is set to zero, at every point the product of the two blocks is added
  to it, and at k = 7 it is narrowed to half precision and stored as block (i, 0) of the result; off k = 7 the
  result's buffer is left as found and not written back.

  So the body has three control cases, by k: k = 0, 0 < k < 7, k = 7. For each the body's run is stated on whole
  memrefs, with what it leaves in the accumulator (and, at k = 7, in the result's buffer) as a closed term over the
  two input blocks, the accumulator found, and the payloads of the body's stores. `outsAt2` folds these over the 64
  points; the invariant carries the accumulator at `outsAt2`'s second component from each point to the next (at
  k = 0 whatever it holds is overwritten, so the first point needs nothing of it); the proof data, the body
  obligation at every point, and the invariant's two ends follow. Everything is generic in the float semantics.
-/
import proofs.«408707_j33406255628688_2_alg».proof.Proof.Gen.Kernel.Launch
import proofs.«408707_j33406255628688_2_alg».proof.Proof.Gen.Kernel.Skeleton
import proofs.«408707_j33406255628688_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions, decided over the grid -/

/-- The reset branch is taken where the contraction index (grid axis 1) is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The output branch is taken where the contraction index is the last one, 7. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## The body's accesses: every load and store is of a whole buffer -/

abbrev rS2 : Rect S1280x512 := Rect.unit (s := S1280x512) ![0, 0] S1280x512.size inb_S1280x512_S1280x512_0_0
abbrev rA2 : Rect S1280x1280 := Rect.unit (s := S1280x1280) ![0, 0] S1280x1280.size inb_S1280x1280_S1280x1280_0_0

/-- A whole-buffer store covers the accumulator, whatever was stored before it. -/
theorem coverS2 (p0 : rS2.shape.Idx → Elt F .f32) (L : List (View.Piece (Elt F) S1280x512 .f32)) (y : S1280x512.Idx) :
    ∃ pc ∈ ((⟨rS2, p0⟩ : View.Piece (Elt F) S1280x512 .f32) :: L), y ∈ pc.1.set := by
  obtain ⟨pc, hm, hy⟩ := View.cover_of_tiledL ([⟨rS2, p0⟩] : List (View.Piece (Elt F) S1280x512 .f32)) S1280x512.size (by sl_kernel_rfl) y
  exact ⟨pc, List.mem_cons.mpr (Or.inl (List.mem_singleton.mp hm)), hy⟩

/-- A whole-buffer store covers the output block. -/
theorem coverO2 (p0 : rS2.shape.Idx → Elt F .bf16) (L : List (View.Piece (Elt F) S1280x512 .bf16)) (y : S1280x512.Idx) :
    ∃ pc ∈ ((⟨rS2, p0⟩ : View.Piece (Elt F) S1280x512 .bf16) :: L), y ∈ pc.1.set := by
  obtain ⟨pc, hm, hy⟩ := View.cover_of_tiledL ([⟨rS2, p0⟩] : List (View.Piece (Elt F) S1280x512 .bf16)) S1280x512.size (by sl_kernel_rfl) y
  exact ⟨pc, List.mem_cons.mpr (Or.inl (List.mem_singleton.mp hm)), hy⟩

/-! ## What one point leaves, from the input blocks and the accumulator it found -/

/-- The accumulator after a point that RESETS it (k = 0): zeros stored, read back, the product of the two input
    blocks added, stored. Last store first. -/
def accReset2 (x0 : Vec F S1280x1280 .bf16) (x1 : Vec F S1280x512 .bf16) : Vec F S1280x512 .f32 :=
  View.canon [⟨rS2, k2_pay2 (View.ld (View.canon [⟨rS2, k2_pay1 (F := F)⟩]) rS2) (View.ld x0 rA2) (View.ld x1 rS2)⟩, ⟨rS2, k2_pay1 (F := F)⟩]

/-- The accumulator after a point that CARRIES it (k ≠ 0), from what the point before left (`xs`). -/
def accStep2 (x0 : Vec F S1280x1280 .bf16) (x1 : Vec F S1280x512 .bf16) (xs : Vec F S1280x512 .f32) : Vec F S1280x512 .f32 :=
  View.canon [⟨rS2, k2_pay2 (View.ld xs rS2) (View.ld x0 rA2) (View.ld x1 rS2)⟩]

/-- The output block stored at the last contraction step (k = 7): the accumulator just stored, narrowed. -/
def outLast2 (x0 : Vec F S1280x1280 .bf16) (x1 : Vec F S1280x512 .bf16) (xs : Vec F S1280x512 .f32) : Vec F S1280x512 .bf16 :=
  View.canon [⟨rS2, k2_pay3 (View.ld (accStep2 x0 x1 xs) rS2)⟩]

set_option maxHeartbeats 1000000 in
/-- CASE k = 0 (and k ≠ 7): on whole memrefs, the two inputs at their contents, the output at contents handed back
    untouched, the accumulator at ANYTHING, the body runs to the inputs and the output as they were and the
    accumulator at `accReset2` of the input blocks. -/
theorem run2_A (c : Dev nD) (i : grid2.Coords) (aA : Memref sig .tc .vmem S1280x1280 .bf16) (haA : aA.IsWhole) (aG : Memref sig .tc .vmem S1280x512 .bf16) (haG : aG.IsWhole) (aO : Memref sig .tc .vmem S1280x512 .bf16) (haO : aO.IsWhole) (aS : Memref sig .tc .vmem S1280x512 .f32) (haS : aS.IsWhole) (hc0 : cond2_0 i) (hc1 : ¬cond2_1 i)
    (x0 : Vec F S1280x1280 .bf16) (x1 : Vec F S1280x512 .bf16) (xi : Vec F S1280x512 .bf16) (E : Set ℕ) (K : PUnit → sProp 𝕄) :
    iprop(owns (c : Thread nD τ) aA fullShare x0 ∗ owns (c : Thread nD τ) aG fullShare x1 ∗ owns (c : Thread nD τ) aO fullShare xi ∗ (∃ d, owns (c : Thread nD τ) aS fullShare d)
        ∗ (iprop(owns (c : Thread nD τ) aA fullShare x0 ∗ owns (c : Thread nD τ) aG fullShare x1 ∗ owns (c : Thread nD τ) aO fullShare xi ∗ owns (c : Thread nD τ) aS fullShare (accReset2 x0 x1)) -∗ K ⟨⟩))
      ⊢ wp frame (wpE (defs₀ (F := F)) Variants.none c none) E (cc2__adj_matmul_kernel i aA haA aG haG aO haO aS haS) K := by
  simp only [cc2__adj_matmul_kernel_eq_skeleton]; unfold cc2__adj_matmul_kernel_skel
  unfold owns
  iintro ⟨⟨%f0, %hf0, H0⟩, ⟨%f1, %hf1, H1⟩, ⟨%fO, %hfO, HO⟩, ⟨%dS, %fS, -, HS⟩, Hk⟩
  subst hf0; subst hf1; subst hfO
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists fO; isplitr; · ipureintro; rfl
    iexact HO
  iexists _; isplitr
  swap; · iexact HS
  ipureintro
  sl_unfold_run_names
  rw [View.readCov_eq_canon_ld _ _ _ (coverS2 _ _)]
  exact View.read_writes_eq_canon _ _ _ (coverS2 _ _)

set_option maxHeartbeats 1000000 in
/-- CASE k ≠ 0, k ≠ 7: the accumulator is found at what the point before left (`xs`) and left at `accStep2`; the
    output is handed back untouched. -/
theorem run2_B (c : Dev nD) (i : grid2.Coords) (aA : Memref sig .tc .vmem S1280x1280 .bf16) (haA : aA.IsWhole) (aG : Memref sig .tc .vmem S1280x512 .bf16) (haG : aG.IsWhole) (aO : Memref sig .tc .vmem S1280x512 .bf16) (haO : aO.IsWhole) (aS : Memref sig .tc .vmem S1280x512 .f32) (haS : aS.IsWhole) (hc0 : ¬cond2_0 i) (hc1 : ¬cond2_1 i)
    (x0 : Vec F S1280x1280 .bf16) (x1 : Vec F S1280x512 .bf16) (xi : Vec F S1280x512 .bf16) (xs : Vec F S1280x512 .f32) (E : Set ℕ) (K : PUnit → sProp 𝕄) :
    iprop(owns (c : Thread nD τ) aA fullShare x0 ∗ owns (c : Thread nD τ) aG fullShare x1 ∗ owns (c : Thread nD τ) aO fullShare xi ∗ owns (c : Thread nD τ) aS fullShare xs
        ∗ (iprop(owns (c : Thread nD τ) aA fullShare x0 ∗ owns (c : Thread nD τ) aG fullShare x1 ∗ owns (c : Thread nD τ) aO fullShare xi ∗ owns (c : Thread nD τ) aS fullShare (accStep2 x0 x1 xs)) -∗ K ⟨⟩))
      ⊢ wp frame (wpE (defs₀ (F := F)) Variants.none c none) E (cc2__adj_matmul_kernel i aA haA aG haG aO haO aS haS) K := by
  simp only [cc2__adj_matmul_kernel_eq_skeleton]; unfold cc2__adj_matmul_kernel_skel
  unfold owns
  iintro ⟨⟨%f0, %hf0, H0⟩, ⟨%f1, %hf1, H1⟩, ⟨%fO, %hfO, HO⟩, ⟨%fS, %hfS, HS⟩, Hk⟩
  subst hf0; subst hf1; subst hfO; subst hfS
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists fO; isplitr; · ipureintro; rfl
    iexact HO
  iexists _; isplitr
  swap; · iexact HS
  ipureintro
  exact View.read_writes_eq_canon _ _ _ (coverS2 _ _)

set_option maxHeartbeats 1000000 in
/-- CASE k = 7 (so k ≠ 0): the accumulator as in the case before; the output, found at anything, is left at
    `outLast2`: the accumulator just stored, read back and narrowed. -/
theorem run2_C (c : Dev nD) (i : grid2.Coords) (aA : Memref sig .tc .vmem S1280x1280 .bf16) (haA : aA.IsWhole) (aG : Memref sig .tc .vmem S1280x512 .bf16) (haG : aG.IsWhole) (aO : Memref sig .tc .vmem S1280x512 .bf16) (haO : aO.IsWhole) (aS : Memref sig .tc .vmem S1280x512 .f32) (haS : aS.IsWhole) (hc0 : ¬cond2_0 i) (hc1 : cond2_1 i)
    (x0 : Vec F S1280x1280 .bf16) (x1 : Vec F S1280x512 .bf16) (xs : Vec F S1280x512 .f32) (E : Set ℕ) (K : PUnit → sProp 𝕄) :
    iprop(owns (c : Thread nD τ) aA fullShare x0 ∗ owns (c : Thread nD τ) aG fullShare x1 ∗ (∃ d, owns (c : Thread nD τ) aO fullShare d) ∗ owns (c : Thread nD τ) aS fullShare xs
        ∗ (iprop(owns (c : Thread nD τ) aA fullShare x0 ∗ owns (c : Thread nD τ) aG fullShare x1 ∗ owns (c : Thread nD τ) aO fullShare (outLast2 x0 x1 xs) ∗ owns (c : Thread nD τ) aS fullShare (accStep2 x0 x1 xs)) -∗ K ⟨⟩))
      ⊢ wp frame (wpE (defs₀ (F := F)) Variants.none c none) E (cc2__adj_matmul_kernel i aA haA aG haG aO haO aS haS) K := by
  simp only [cc2__adj_matmul_kernel_eq_skeleton]; unfold cc2__adj_matmul_kernel_skel
  unfold owns
  iintro ⟨⟨%f0, %hf0, H0⟩, ⟨%f1, %hf1, H1⟩, ⟨%dO, %fO, -, HO⟩, ⟨%fS, %hfS, HS⟩, Hk⟩
  subst hf0; subst hf1; subst hfS
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_run_names
    rw [View.readCov_eq_canon_ld _ _ _ (coverS2 _ _)]
    exact View.read_writes_eq_canon _ _ _ (coverO2 _ _)
  iexists _; isplitr
  swap; · iexact HS
  ipureintro
  exact View.read_writes_eq_canon _ _ _ (coverS2 _ _)

/-! ## The windows' blocks -/

/-- Window `w`'s block at point `t`, read off its array as the region finds it (`V`): block (i, k) of the
    adjacency for window 0, block (k, 0) of the messages for window 1, block (i, 0) of the result for window 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, for any proof data whose array is `V`'s and
    whose body leaves the block in place: the window is never idle and its blocks tile the array. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## Where the output window is idle -/

/-- The two inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
/-- Off the last contraction step the output window is idle: the body stores nothing into it, -/
theorem idleAt2_2 : ∀ t : Fin cfg2.N, ¬cond2_1 (grid2.coords t) → cfg2.idle 2 (grid2.coords t) = true :=
  (by decide +kernel : ∀ t : Fin grid2.N, ¬cond2_1 (grid2.coords t) → idle2 2 (grid2.coords t) = true)
/-- and the pipeline does not write its block back there. -/
theorem noFlush2_2 : ∀ t : Fin cfg2.N, ¬cond2_1 (grid2.coords t) → (cfg2.win 2).flush t = false :=
  (by decide +kernel : ∀ t : Fin grid2.N, ¬cond2_1 (grid2.coords t) → win2_2.flush t = false)
/-- At the last contraction step it is live. -/
theorem liveAt2_2 : ∀ t : Fin cfg2.N, cond2_1 (grid2.coords t) → cfg2.idle 2 (grid2.coords t) = false :=
  (by decide +kernel : ∀ t : Fin grid2.N, cond2_1 (grid2.coords t) → idle2 2 (grid2.coords t) = false)

/-! ## What the output buffer and the accumulator hold after each point -/

/-- THE ACCUMULATION over the grid, point by point (the contraction index k = n mod 8 innermost): the pair (output
    buffer, accumulator) after the body at position `n`. At k = 0 the accumulator restarts from zeros whatever it held;
    at k ≠ 0 it continues from what position `n - 1` left; at k = 7 the output block is the accumulator narrowed.
    Off k = 7 the output component is a placeholder nothing consults (the window is idle and not written back). -/
def outsAt2 (c : Dev nD) : (n : ℕ) → n < cfg2.N → Vec F S1280x512 .bf16 × Vec F S1280x512 .f32
  | 0, hn => (View.canon [], accReset2 (iblk2 V c 0 ⟨0, hn⟩) (iblk2 V c 1 ⟨0, hn⟩))
  | n + 1, hn =>
    if (n + 1) % 8 = 0 then
      (View.canon [], accReset2 (iblk2 V c 0 ⟨n + 1, hn⟩) (iblk2 V c 1 ⟨n + 1, hn⟩))
    else if (n + 1) % 8 = 7 then
      (outLast2 (iblk2 V c 0 ⟨n + 1, hn⟩) (iblk2 V c 1 ⟨n + 1, hn⟩) (outsAt2 c n (Nat.lt_of_succ_lt hn)).2,
        accStep2 (iblk2 V c 0 ⟨n + 1, hn⟩) (iblk2 V c 1 ⟨n + 1, hn⟩) (outsAt2 c n (Nat.lt_of_succ_lt hn)).2)
    else
      (View.canon [], accStep2 (iblk2 V c 0 ⟨n + 1, hn⟩) (iblk2 V c 1 ⟨n + 1, hn⟩) (outsAt2 c n (Nat.lt_of_succ_lt hn)).2)

/-- At a point with k = 0: the accumulator restarted on this point's blocks. -/
theorem outsAt2_A (c : Dev nD) (t : Fin cfg2.N) (h0 : t.val % 8 = 0) :
    outsAt2 V c t.val t.isLt = (View.canon [], accReset2 (iblk2 V c 0 t) (iblk2 V c 1 t)) := by
  obtain ⟨n, hn⟩ := t
  cases n with
  | zero => exact rfl
  | succ n => exact (if_pos h0).trans rfl

/-- At a point with 0 < k < 7: the accumulator continued from the point before. -/
theorem outsAt2_B (c : Dev nD) (t : Fin cfg2.N) (h0 : ¬t.val % 8 = 0) (h1 : ¬t.val % 8 = 7) :
    outsAt2 V c t.val t.isLt = (View.canon [], accStep2 (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h1).trans rfl)

/-- At a point with k = 7: the same accumulator, and the output block read off it. -/
theorem outsAt2_C (c : Dev nD) (t : Fin cfg2.N) (h1 : t.val % 8 = 7) :
    outsAt2 V c t.val t.isLt = (outLast2 (iblk2 V c 0 t) (iblk2 V c 1 t) (outsAt2 V c (t.val - 1) (Nat.lt_of_le_of_lt (Nat.sub_le _ _) t.isLt)).2,
      accStep2 (iblk2 V c 0 t) (iblk2 V c 1 t) (outsAt2 V c (t.val - 1) (Nat.lt_of_le_of_lt (Nat.sub_le _ _) t.isLt)).2) := by
  obtain ⟨n, hn⟩ := t
  have h0 : ¬(n % 8 = 0) := fun h => by dsimp only at h1; omega
  cases n with
  | zero => exact absurd (Nat.zero_mod _) h0
  | succ n => exact (if_neg h0).trans ((if_pos h1).trans rfl)

/-! ## The region invariant -/

/-- The accumulator: a whole scoped buffer of the kernel's own, passed beside the windows. -/
abbrev scM2 : Memref sig .tc .vmem S1280x512 .f32 := Memref.whole cc2_scratch0
/-- Every other scoped buffer of the core that is no staging buffer of this call, each at some contents, unopened. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the accumulator taken out as a memref owned at some contents. -/
theorem PhiA2_eq (c : Dev nD) :
    (Pipeline.ΦA spec2 c : sProp 𝕄)
      = iprop(iprop(iprop((∃ d, owns (c : Thread nD τ) scM2 fullShare d)) ∗ rest2 (F := F) c) ∗ (∃ r, prngReg c r)) := by
  unfold Pipeline.ΦA; rw [scopedRest2_split]; simp only [scM2, rest2, owns_whole]; try rfl

/-- The invariant before position `n`: before the first point the class's (the accumulator at anything); afterwards
    the accumulator at what the point before left, beside the other scoped buffers and the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ rest2 (F := F) c) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- Each window's current staging memref at point `t`, spelled as the pipeline passes it to the body. -/
abbrev ms2_0 (t : Fin cfg2.N) : Memref sig .tc .vmem S1280x1280 .bf16 := win2_0.stage (cfg2.slots t 0)
abbrev ms2_1 (t : Fin cfg2.N) : Memref sig .tc .vmem S1280x512 .bf16 := win2_1.stage (cfg2.slots t 1)
abbrev ms2_2 (t : Fin cfg2.N) : Memref sig .tc .vmem S1280x512 .bf16 := win2_2.stage (cfg2.slots t 2)

/-- What the body is called with at point `t`: the invariant, what the core owes, each window's buffer at what it
    then holds, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the closed forms of the two conditions say which of
    the three control cases the point is in. At k = 0 the accumulator is handed over at whatever it holds (the class's
    invariant before the first point, the previous row block's last value afterwards) and comes back restarted; at
    k ≠ 0 it is handed over at what the point before left and comes back continued; the output window is handed back as
    found off k = 7 and at the narrowed accumulator at k = 7. The other scoped buffers, the generator register and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 64 := lt_of_lt_of_eq t.isLt (show cfg2.N = 64 from N_2)
  by_cases h0 : t.val % 8 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [outsAt2_A V c t h0]; dsimp only
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%dO, HO⟩⟩
      iapply (run2_A c (grid2.coords t) _ _ _ _ _ _ _ _ hc0 hc1 (iblk2 V c 0 t) (iblk2 V c 1 t) _ Set.univ _)
      isplitl [H0]; · iexact H0
      isplitl [H1]; · iexact H1
      isplitl [HO]; · iexact HO
      isplitl [HS]; · iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HO
    · rw [PhiS2_castSucc V c t, PhiS2_pos V c _ _ hz]
      iintro ⟨⟨⟨HS, HR⟩, Hg⟩, Ho, ⟨%d0, H0⟩, ⟨%d1, H1⟩, ⟨%dO, HO⟩⟩
      iapply (run2_A c (grid2.coords t) _ _ _ _ _ _ _ _ hc0 hc1 (iblk2 V c 0 t) (iblk2 V c 1 t) _ Set.univ _)
      isplitl [H0]; · iexact H0
      isplitl [H1]; · iexact H1
      isplitl [HO]; · iexact HO
      isplitl [HS]; · iexists _; iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HO
  · have hc0 : ¬cond2_0 (grid2.coords t) := fun h => h0 ((hcond2_0 t).mp h)
    have hz : t.val ≠ 0 := fun h => h0 (by rw [h])
    by_cases h1 : t.val % 8 = 7
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [outsAt2_C V c t h1]; dsimp only
      rw [PhiS2_castSucc V c t, PhiS2_pos V c _ _ hz]
      iintro ⟨⟨⟨HS, HR⟩, Hg⟩, Ho, ⟨%d0, H0⟩, ⟨%d1, H1⟩, ⟨%dO, HO⟩⟩
      iapply (run2_C c (grid2.coords t) _ _ _ _ _ _ _ _ hc0 hc1 (iblk2 V c 0 t) (iblk2 V c 1 t) _ Set.univ _)
      isplitl [H0]; · iexact H0
      isplitl [H1]; · iexact H1
      isplitl [HO]; · iexists _; iexact HO
      isplitl [HS]; · iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact HO
    · have hc1 : ¬cond2_1 (grid2.coords t) := fun h => h1 ((hcond2_1 t).mp h)
      rw [Dat.leavesExact_idle (dat2 V c) 2 t (idleAt2_2 t hc1) (noFlush2_2 t hc1)]
      rw [outsAt2_B V c t h0 h1]; dsimp only
      rw [PhiS2_castSucc V c t, PhiS2_pos V c _ _ hz]
      iintro ⟨⟨⟨HS, HR⟩, Hg⟩, Ho, ⟨%d0, H0⟩, ⟨%d1, H1⟩, ⟨%dO, HO⟩⟩
      iapply (run2_B c (grid2.coords t) _ _ _ _ _ _ _ _ hc0 hc1 (iblk2 V c 0 t) (iblk2 V c 1 t) _ _ Set.univ _)
      isplitl [H0]; · iexact H0
      isplitl [H1]; · iexact H1
      isplitl [HO]; · iexact HO
      isplitl [HS]; · iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HO

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.KB.RegU3.lean ====
/-
  Region 3 of @main: the node update. At each of the eight row blocks the body reads five staged blocks — the
  block's rows of the node features (f32) and of the aggregated messages (bf16), the two square weight matrices
  (bf16) and the bias row (f32) — and overwrites the staged output block, whole, by

      max (trunc (features) · W_self + messages · W_nbr + bias, 0).

  It also reads the output block once before overwriting it; nothing depends on what that read returns, so the
  block may hold anything when the body starts.

  Stated at the contents V of the core's buffers when the region is entered:
    * every input window's staging buffer holds that window's block of V at every grid point. The features and
      the messages are fetched at each point. The weights and the bias are fetched at the first point only; their
      block index is constant over the grid, so the block staged first is the block of every later point;
    * the output buffer after the body is the single whole store's payload of the five input blocks;
    * the body's Hoare triple, the pipeline's proof data and the body obligation at a generic grid point.
-/
import proofs.«408707_j33406255628688_2_alg».proof.Proof.Gen.Kernel.Launch
import proofs.«408707_j33406255628688_2_alg».proof.Proof.Gen.Kernel.Skeleton
import proofs.«408707_j33406255628688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 1280 × 512 rectangle is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- Window `w`'s block at grid point `t`: the window's array, as the region finds it, read through the block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's rectangles: each access is the whole of its staging buffer -/

/-- A whole 1280 × 512 block: the features, the messages and the output. -/
abbrev rect3_rows : Rect S1280x512 := Rect.unit (s := S1280x512) ![0, 0] S1280x512.size inb_S1280x512_S1280x512_0_0
/-- A whole 512 × 512 weight matrix. -/
abbrev rect3_wt : Rect S512x512 := Rect.unit (s := S512x512) ![0, 0] S512x512.size inb_S512x512_S512x512_0_0
/-- The whole 1 × 512 bias row. -/
abbrev rect3_bias : Rect S1x512 := Rect.unit (s := S1x512) ![0, 0] S1x512.size inb_S1x512_S1x512_0_0

/-! ## What the body leaves in the output buffer -/

/-- The output buffer after the body, as a function of the five input blocks: one store, through the whole
    rectangle, of the update's payload at what the five loads read. -/
def out3_5 (x0 : Vec F S1280x512 .f32) (x1 : Vec F S1280x512 .bf16) (x2 x3 : Vec F S512x512 .bf16) (x4 : Vec F S1x512 .f32) :
    Vec F S1280x512 .f32 :=
  View.canon [⟨rect3_rows,
    k3_pay1 (View.ld x0 rect3_rows) (View.ld x1 rect3_rows) (View.ld x2 rect3_wt) (View.ld x3 rect3_wt) (View.ld x4 rect3_bias)⟩]

/-- The single store's rectangle is the whole block, so every index of the block lies in it. -/
theorem cover3_5 (p : Vec F S1280x512 .f32) (y : S1280x512.Idx) :
    ∃ pc ∈ ([⟨rect3_rows, p⟩] : List (View.Piece (Elt F) S1280x512 .f32)), y ∈ pc.1.set :=
  View.cover_of_tiled [⟨rect3_rows, p⟩] S1280x512.size (by rfl) y

/-! ## The body's triple -/

set_option maxHeartbeats 1000000 in
/-- The body on whole staging memrefs: the five inputs at read contents `x0 … x4`, the output at anything. It runs to
    the continuation with the inputs as they were and the output at `out3_5` of them. The read of the output before
    the store consumes nothing and its value is dropped. -/
theorem sound_kernel3 (c : Dev nD) (E : Set ℕ) (i : grid3.Coords)
    (arg1 : Memref sig .tc .vmem S1280x512 .f32) (harg1 : arg1.IsWhole)
    (arg2 : Memref sig .tc .vmem S1280x512 .bf16) (harg2 : arg2.IsWhole)
    (arg3 : Memref sig .tc .vmem S512x512 .bf16) (harg3 : arg3.IsWhole)
    (arg4 : Memref sig .tc .vmem S512x512 .bf16) (harg4 : arg4.IsWhole)
    (arg5 : Memref sig .tc .vmem S1x512 .f32) (harg5 : arg5.IsWhole)
    (arg6 : Memref sig .tc .vmem S1280x512 .f32) (harg6 : arg6.IsWhole)
    (x0 : Vec F S1280x512 .f32) (x1 : Vec F S1280x512 .bf16) (x2 x3 : Vec F S512x512 .bf16) (x4 : Vec F S1x512 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare x4
              ∗ owns (c : Thread nD τ) arg6 fullShare (out3_5 x0 x1 x2 x3 x4)) -∗ K ⟨⟩))
      ⊢ wp frame (wpE (defs₀ (F := F)) Variants.none c none) E
          (cc3__update_kernel i arg1 harg1 arg2 harg2 arg3 harg3 arg4 harg4 arg5 harg5 arg6 harg6) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the region's pipeline on core `c`: the arrays as the region finds them; after the body at point
    `t` each input buffer at its block and the output buffer at `out3_5` of the five blocks; the invariant is
    the untouched rest; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- Each window's array in the proof data is `V`'s buffer for that window's reference. -/
theorem A_eq3 (c : Dev nD) (w : Fin cfg3.W) : (dat3 V c).A w = V c (Pipeline.arrRef spec3 w) := by
  dsimp only [dat3]

/-- The contents after the body, one equation per window (an input keeps its block; the output gets the payload). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by
  dsimp only [dat3]

/-! ## What the body finds in each input buffer

An input window is not an output, is idle nowhere and is not clipped, and the body leaves its block in place; so at
every point its buffer holds the block a fetch there would bring, fetched there or not. For the features and the
messages every point fetches. For the weights and the bias only the first point does, and at a later point the
buffer still holds the first point's block, which is that point's block because the block index has not moved. -/

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-! ## The body obligation at a generic point -/

/-- What the body is handed at point `t`: the invariant, what the core owes, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What the body returns at point `t`: the invariant and the debt at the next point, each buffer at what the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the five input buffers hold their blocks, so the body's triple applies at those blocks;
    the invariant and what the core owes are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's loop asks of the body, in the library's form: its window products are six-fold
    chains, and under them it is the triple above at each grid point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.KB.RegA4.lean ====
/- Region 4 of @main: custom_call 4, the kernel function `cc4__msg_kernel` on pipeline `cfg4`, at a
   parameter `V` (the core's buffer contents when the region is entered). Windows 0, 1, 2 are inputs, window 3 the
   output. The body reads each input block whole, reads the output block (a value nothing uses) and overwrites the
   output block whole with the payload `k4_pay1` of the three input blocks. Hence: after the body each input buffer
   still holds its block and the output buffer holds what one whole-block write of that payload leaves; before the body
   an input buffer holds its block at every point, refetched there or not, because a window that is not refetched has
   not moved its block index; the class's invariant and the core's debt pass through the body unread. -/
import proofs.«408707_j33406255628688_2_alg».proof.Proof.Gen.Kernel.Launch
import proofs.«408707_j33406255628688_2_alg».proof.Proof.Gen.Kernel.Skeleton
import proofs.«408707_j33406255628688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## This region's blocks

Shape and element type of the block of each window (a, b, c: the inputs, windows 0, 1, 2; o: the output, window 3),
and for each the fact that the whole block lies inside itself. Everything below is written over these twelve. -/

local notation "𝔹a" => S1280x512
local notation "𝔼a" => EltTy.f32
local notation "inbA" => inb_S1280x512_S1280x512_0_0
local notation "𝔹b" => S512x512
local notation "𝔼b" => EltTy.bf16
local notation "inbB" => inb_S512x512_S512x512_0_0
local notation "𝔹c" => S1x512
local notation "𝔼c" => EltTy.f32
local notation "inbC" => inb_S1x512_S1x512_0_0
local notation "𝔹o" => S1280x512
local notation "𝔼o" => EltTy.bf16
local notation "inbO" => inb_S1280x512_S1280x512_0_0

variable (V : (c : Dev nD) → (b : Ref sig .tc) → Buf (Elt F) ((c : Thread nD τ).loc b))

/-! ## The blocks the windows show -/

/-- The block of window `w` at grid point `t`: the window's view of its array there, read in the contents the region
    finds (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The rectangles the body reads and writes through: each block whole -/

abbrev wholeA4 : Rect 𝔹a := Rect.unit (s := 𝔹a) ![0, 0] (Shape.size 𝔹a) inbA
abbrev wholeB4 : Rect 𝔹b := Rect.unit (s := 𝔹b) ![0, 0] (Shape.size 𝔹b) inbB
abbrev wholeC4 : Rect 𝔹c := Rect.unit (s := 𝔹c) ![0, 0] (Shape.size 𝔹c) inbC
abbrev wholeO4 : Rect 𝔹o := Rect.unit (s := 𝔹o) ![0, 0] (Shape.size 𝔹o) inbO

/-! ## What the body leaves in the output buffer -/

/-- The output buffer after the body, from the three input blocks: the body's single store, of the payload of the three
    loads, through the whole-block rectangle. -/
def out4_3 (x0 : Vec F 𝔹a 𝔼a) (x1 : Vec F 𝔹b 𝔼b) (x2 : Vec F 𝔹c 𝔼c) : Vec F 𝔹o 𝔼o :=
  View.canon [⟨wholeO4, k4_pay1 (View.ld x0 wholeA4) (View.ld x1 wholeB4) (View.ld x2 wholeC4)⟩]

/-- That store is of the whole block, so it alone covers the buffer, whatever it stores. -/
theorem covers4_3 (p : (wholeO4).shape.Idx → Elt F 𝔼o) (y : Shape.Idx 𝔹o) :
    ∃ pc ∈ ([⟨wholeO4, p⟩] : List (View.Piece (Elt F) 𝔹o 𝔼o)), y ∈ pc.1.set :=
  View.cover_of_wholeMem _ (View.Piece.wholeMem_here (by rfl)) y

/-! ## The body as a triple over its four memrefs -/

set_option maxHeartbeats 1000000 in
/-- On whole memrefs, the three inputs' reading `x0 x1 x2` and the output's holding anything, the body runs to a
    continuation that is given the inputs' unchanged and the output's at `out4_3 x0 x1 x2`. -/
theorem sound_kernel4 (c : Dev nD) (E : Set ℕ) (i : grid4.Coords)
    (arg1 : Memref sig .tc .vmem 𝔹a 𝔼a) (harg1 : arg1.IsWhole) (arg2 : Memref sig .tc .vmem 𝔹b 𝔼b) (harg2 : arg2.IsWhole)
    (arg3 : Memref sig .tc .vmem 𝔹c 𝔼c) (harg3 : arg3.IsWhole) (arg4 : Memref sig .tc .vmem 𝔹o 𝔼o) (harg4 : arg4.IsWhole)
    (x0 : Vec F 𝔹a 𝔼a) (x1 : Vec F 𝔹b 𝔼b) (x2 : Vec F 𝔹c 𝔼c) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__msg_kernel i arg1 harg1 arg2 harg2 arg3 harg3 arg4 harg4) K := by
  simp only [cc4__msg_kernel_eq_skeleton]; unfold cc4__msg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers4_3 _)

/-! ## The proof data -/

/-- Pipeline 4's proof data on core `c`. The arrays: as the region finds them. After the body at point `t`: an input's
    buffer at its block, the output's at `out4_3` of the three input blocks there. The invariant is the class's (the
    scoped rest and the generator register, which the body does not touch), nothing is owed, every share is full. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- Its arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-! ## What the body finds in the input buffers

Window 0 is refetched at every point, windows 1 and 2 only at the first. Either way the buffer holds the window's
block: where the pipeline does not refetch, the block index is the previous point's, and the body left that block in
place. The blocks tile their arrays (no cut) and the pipeline states no idle point. -/

theorem before4_0 (c : Dev nD) (t : Fin cfg4.N) (d) : (dat4 V c).before 0 t d = iblk4 V c 0 t := by
  have hkeep : ∀ s, (cfg4.win 0).cut (cfg4.grid.coords s) ((dat4 V c).after 0 s) = (dat4 V c).blockOf 0 s := fun s => by
    rw [after4_0]; unfold Dat.blockOf iblk4; rw [A_eq4]; try rfl
  refine ((dat4 V c).before_in_eq_fetched 0 rfl (fun _ => rfl) (fun _ _ _ => rfl) hkeep t d).trans ?_
  unfold Dat.fetched Dat.blockOf iblk4; rw [A_eq4]; try rfl

theorem before4_1 (c : Dev nD) (t : Fin cfg4.N) (d) : (dat4 V c).before 1 t d = iblk4 V c 1 t := by
  have hkeep : ∀ s, (cfg4.win 1).cut (cfg4.grid.coords s) ((dat4 V c).after 1 s) = (dat4 V c).blockOf 1 s := fun s => by
    rw [after4_1]; unfold Dat.blockOf iblk4; rw [A_eq4]; try rfl
  refine ((dat4 V c).before_in_eq_fetched 1 rfl (fun _ => rfl) (fun _ _ _ => rfl) hkeep t d).trans ?_
  unfold Dat.fetched Dat.blockOf iblk4; rw [A_eq4]; try rfl

theorem before4_2 (c : Dev nD) (t : Fin cfg4.N) (d) : (dat4 V c).before 2 t d = iblk4 V c 2 t := by
  have hkeep : ∀ s, (cfg4.win 2).cut (cfg4.grid.coords s) ((dat4 V c).after 2 s) = (dat4 V c).blockOf 2 s := fun s => by
    rw [after4_2]; unfold Dat.blockOf iblk4; rw [A_eq4]; try rfl
  refine ((dat4 V c).before_in_eq_fetched 2 rfl (fun _ => rfl) (fun _ _ _ => rfl) hkeep t d).trans ?_
  unfold Dat.fetched Dat.blockOf iblk4; rw [A_eq4]; try rfl

/-! ## The body obligation -/

/-- What the pipeline hands the body at point `t`: the invariant, the debt, and each window's current buffer at what it
    then holds, the four windows one by one. -/
def handed4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- What it takes back: the same at the next point, each buffer at what the body leaves. -/
def returned4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at a point: the input buffers hold their blocks, the output buffer something, so the triple applies at the
    three blocks; the invariant and the debt do not depend on the point and are carried over as they are. -/
theorem sound_body4 (c : Dev nD) (t : Fin cfg4.N) :
    handed4 V c t ⊢ wp frame (wpE (defs₀ (F := F)) Variants.none c none) Set.univ (bodyAt4 t) (fun _ => returned4 V c t) := by
  unfold handed4 returned4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's loop asks of the body, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.RegJ5.lean ====
/-
  Region 5 of @main: the adjacency product, accumulated over the contraction blocks.

  The grid is 8 × 8; a point (i, k) reads block (i, k) of the adjacency matrix (1280 × 1280) and block (k, 0) of the
  messages (1280 × 512), and the contraction index k runs innermost. An accumulator (1280 × 512, single precision)
  is kept from point to point: at k = 0 it is set to zero, at every point the product of the two blocks is added
  to it, and at k = 7 it is narrowed to half precision and stored as block (i, 0) of the result; off k = 7 the
  result's buffer is left as found and not written back.

  So the body has three control cases, by k: k = 0, 0 < k < 7, k = 7. For each the body's run is stated on whole
  memrefs, with what it leaves in the accumulator (and, at k = 7, in the result's buffer) as a closed term over the
  two input blocks, the accumulator found, and the payloads of the body's stores. `outsAt5` folds these over the 64
  points; the invariant carries the accumulator at `outsAt5`'s second component from each point to the next (at
  k = 0 whatever it holds is overwritten, so the first point needs nothing of it); the proof data, the body
  obligation at every point, and the invariant's two ends follow. Everything is generic in the float semantics.
-/
import proofs.«408707_j33406255628688_2_alg».proof.Proof.Gen.Kernel.Launch
import proofs.«408707_j33406255628688_2_alg».proof.Proof.Gen.Kernel.Skeleton
import proofs.«408707_j33406255628688_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions, decided over the grid -/

/-- The reset branch is taken where the contraction index (grid axis 1) is 0. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 8 = 0 :=
  (by decide +kernel : ∀ t : Fin grid5.N, cond5_0 (grid5.coords t) ↔ t.val % 8 = 0)
/-- The output branch is taken where the contraction index is the last one, 7. -/
abbrev cond5_1 (i : grid5.Coords) : Prop := k5_cond2 i = 1#1
theorem hcond5_1 : ∀ t : Fin cfg5.N, cond5_1 (grid5.coords t) ↔ t.val % 8 = 7 :=
  (by decide +kernel : ∀ t : Fin grid5.N, cond5_1 (grid5.coords t) ↔ t.val % 8 = 7)

/-! ## The body's accesses: every load and store is of a whole buffer -/

abbrev rS5 : Rect S1280x512 := Rect.unit (s := S1280x512) ![0, 0] S1280x512.size inb_S1280x512_S1280x512_0_0
abbrev rA5 : Rect S1280x1280 := Rect.unit (s := S1280x1280) ![0, 0] S1280x1280.size inb_S1280x1280_S1280x1280_0_0

/-- A whole-buffer store covers the accumulator, whatever was stored before it. -/
theorem coverS5 (p0 : rS5.shape.Idx → Elt F .f32) (L : List (View.Piece (Elt F) S1280x512 .f32)) (y : S1280x512.Idx) :
    ∃ pc ∈ ((⟨rS5, p0⟩ : View.Piece (Elt F) S1280x512 .f32) :: L), y ∈ pc.1.set := by
  obtain ⟨pc, hm, hy⟩ := View.cover_of_tiledL ([⟨rS5, p0⟩] : List (View.Piece (Elt F) S1280x512 .f32)) S1280x512.size (by sl_kernel_rfl) y
  exact ⟨pc, List.mem_cons.mpr (Or.inl (List.mem_singleton.mp hm)), hy⟩

/-- A whole-buffer store covers the output block. -/
theorem coverO5 (p0 : rS5.shape.Idx → Elt F .bf16) (L : List (View.Piece (Elt F) S1280x512 .bf16)) (y : S1280x512.Idx) :
    ∃ pc ∈ ((⟨rS5, p0⟩ : View.Piece (Elt F) S1280x512 .bf16) :: L), y ∈ pc.1.set := by
  obtain ⟨pc, hm, hy⟩ := View.cover_of_tiledL ([⟨rS5, p0⟩] : List (View.Piece (Elt F) S1280x512 .bf16)) S1280x512.size (by sl_kernel_rfl) y
  exact ⟨pc, List.mem_cons.mpr (Or.inl (List.mem_singleton.mp hm)), hy⟩

/-! ## What one point leaves, from the input blocks and the accumulator it found -/

/-- The accumulator after a point that RESETS it (k = 0): zeros stored, read back, the product of the two input
    blocks added, stored. Last store first. -/
def accReset5 (x0 : Vec F S1280x1280 .bf16) (x1 : Vec F S1280x512 .bf16) : Vec F S1280x512 .f32 :=
  View.canon [⟨rS5, k5_pay2 (View.ld (View.canon [⟨rS5, k5_pay1 (F := F)⟩]) rS5) (View.ld x0 rA5) (View.ld x1 rS5)⟩, ⟨rS5, k5_pay1 (F := F)⟩]

/-- The accumulator after a point that CARRIES it (k ≠ 0), from what the point before left (`xs`). -/
def accStep5 (x0 : Vec F S1280x1280 .bf16) (x1 : Vec F S1280x512 .bf16) (xs : Vec F S1280x512 .f32) : Vec F S1280x512 .f32 :=
  View.canon [⟨rS5, k5_pay2 (View.ld xs rS5) (View.ld x0 rA5) (View.ld x1 rS5)⟩]

/-- The output block stored at the last contraction step (k = 7): the accumulator just stored, narrowed. -/
def outLast5 (x0 : Vec F S1280x1280 .bf16) (x1 : Vec F S1280x512 .bf16) (xs : Vec F S1280x512 .f32) : Vec F S1280x512 .bf16 :=
  View.canon [⟨rS5, k5_pay3 (View.ld (accStep5 x0 x1 xs) rS5)⟩]

set_option maxHeartbeats 1000000 in
/-- CASE k = 0 (and k ≠ 7): on whole memrefs, the two inputs at their contents, the output at contents handed back
    untouched, the accumulator at ANYTHING, the body runs to the inputs and the output as they were and the
    accumulator at `accReset5` of the input blocks. -/
theorem run5_A (c : Dev nD) (i : grid5.Coords) (aA : Memref sig .tc .vmem S1280x1280 .bf16) (haA : aA.IsWhole) (aG : Memref sig .tc .vmem S1280x512 .bf16) (haG : aG.IsWhole) (aO : Memref sig .tc .vmem S1280x512 .bf16) (haO : aO.IsWhole) (aS : Memref sig .tc .vmem S1280x512 .f32) (haS : aS.IsWhole) (hc0 : cond5_0 i) (hc1 : ¬cond5_1 i)
    (x0 : Vec F S1280x1280 .bf16) (x1 : Vec F S1280x512 .bf16) (xi : Vec F S1280x512 .bf16) (E : Set ℕ) (K : PUnit → sProp 𝕄) :
    iprop(owns (c : Thread nD τ) aA fullShare x0 ∗ owns (c : Thread nD τ) aG fullShare x1 ∗ owns (c : Thread nD τ) aO fullShare xi ∗ (∃ d, owns (c : Thread nD τ) aS fullShare d)
        ∗ (iprop(owns (c : Thread nD τ) aA fullShare x0 ∗ owns (c : Thread nD τ) aG fullShare x1 ∗ owns (c : Thread nD τ) aO fullShare xi ∗ owns (c : Thread nD τ) aS fullShare (accReset5 x0 x1)) -∗ K ⟨⟩))
      ⊢ wp frame (wpE (defs₀ (F := F)) Variants.none c none) E (cc5__adj_matmul_kernel i aA haA aG haG aO haO aS haS) K := by
  simp only [cc5__adj_matmul_kernel_eq_skeleton]; unfold cc5__adj_matmul_kernel_skel
  unfold owns
  iintro ⟨⟨%f0, %hf0, H0⟩, ⟨%f1, %hf1, H1⟩, ⟨%fO, %hfO, HO⟩, ⟨%dS, %fS, -, HS⟩, Hk⟩
  subst hf0; subst hf1; subst hfO
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists fO; isplitr; · ipureintro; rfl
    iexact HO
  iexists _; isplitr
  swap; · iexact HS
  ipureintro
  sl_unfold_run_names
  rw [View.readCov_eq_canon_ld _ _ _ (coverS5 _ _)]
  exact View.read_writes_eq_canon _ _ _ (coverS5 _ _)

set_option maxHeartbeats 1000000 in
/-- CASE k ≠ 0, k ≠ 7: the accumulator is found at what the point before left (`xs`) and left at `accStep5`; the
    output is handed back untouched. -/
theorem run5_B (c : Dev nD) (i : grid5.Coords) (aA : Memref sig .tc .vmem S1280x1280 .bf16) (haA : aA.IsWhole) (aG : Memref sig .tc .vmem S1280x512 .bf16) (haG : aG.IsWhole) (aO : Memref sig .tc .vmem S1280x512 .bf16) (haO : aO.IsWhole) (aS : Memref sig .tc .vmem S1280x512 .f32) (haS : aS.IsWhole) (hc0 : ¬cond5_0 i) (hc1 : ¬cond5_1 i)
    (x0 : Vec F S1280x1280 .bf16) (x1 : Vec F S1280x512 .bf16) (xi : Vec F S1280x512 .bf16) (xs : Vec F S1280x512 .f32) (E : Set ℕ) (K : PUnit → sProp 𝕄) :
    iprop(owns (c : Thread nD τ) aA fullShare x0 ∗ owns (c : Thread nD τ) aG fullShare x1 ∗ owns (c : Thread nD τ) aO fullShare xi ∗ owns (c : Thread nD τ) aS fullShare xs
        ∗ (iprop(owns (c : Thread nD τ) aA fullShare x0 ∗ owns (c : Thread nD τ) aG fullShare x1 ∗ owns (c : Thread nD τ) aO fullShare xi ∗ owns (c : Thread nD τ) aS fullShare (accStep5 x0 x1 xs)) -∗ K ⟨⟩))
      ⊢ wp frame (wpE (defs₀ (F := F)) Variants.none c none) E (cc5__adj_matmul_kernel i aA haA aG haG aO haO aS haS) K := by
  simp only [cc5__adj_matmul_kernel_eq_skeleton]; unfold cc5__adj_matmul_kernel_skel
  unfold owns
  iintro ⟨⟨%f0, %hf0, H0⟩, ⟨%f1, %hf1, H1⟩, ⟨%fO, %hfO, HO⟩, ⟨%fS, %hfS, HS⟩, Hk⟩
  subst hf0; subst hf1; subst hfO; subst hfS
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists fO; isplitr; · ipureintro; rfl
    iexact HO
  iexists _; isplitr
  swap; · iexact HS
  ipureintro
  exact View.read_writes_eq_canon _ _ _ (coverS5 _ _)

set_option maxHeartbeats 1000000 in
/-- CASE k = 7 (so k ≠ 0): the accumulator as in the case before; the output, found at anything, is left at
    `outLast5`: the accumulator just stored, read back and narrowed. -/
theorem run5_C (c : Dev nD) (i : grid5.Coords) (aA : Memref sig .tc .vmem S1280x1280 .bf16) (haA : aA.IsWhole) (aG : Memref sig .tc .vmem S1280x512 .bf16) (haG : aG.IsWhole) (aO : Memref sig .tc .vmem S1280x512 .bf16) (haO : aO.IsWhole) (aS : Memref sig .tc .vmem S1280x512 .f32) (haS : aS.IsWhole) (hc0 : ¬cond5_0 i) (hc1 : cond5_1 i)
    (x0 : Vec F S1280x1280 .bf16) (x1 : Vec F S1280x512 .bf16) (xs : Vec F S1280x512 .f32) (E : Set ℕ) (K : PUnit → sProp 𝕄) :
    iprop(owns (c : Thread nD τ) aA fullShare x0 ∗ owns (c : Thread nD τ) aG fullShare x1 ∗ (∃ d, owns (c : Thread nD τ) aO fullShare d) ∗ owns (c : Thread nD τ) aS fullShare xs
        ∗ (iprop(owns (c : Thread nD τ) aA fullShare x0 ∗ owns (c : Thread nD τ) aG fullShare x1 ∗ owns (c : Thread nD τ) aO fullShare (outLast5 x0 x1 xs) ∗ owns (c : Thread nD τ) aS fullShare (accStep5 x0 x1 xs)) -∗ K ⟨⟩))
      ⊢ wp frame (wpE (defs₀ (F := F)) Variants.none c none) E (cc5__adj_matmul_kernel i aA haA aG haG aO haO aS haS) K := by
  simp only [cc5__adj_matmul_kernel_eq_skeleton]; unfold cc5__adj_matmul_kernel_skel
  unfold owns
  iintro ⟨⟨%f0, %hf0, H0⟩, ⟨%f1, %hf1, H1⟩, ⟨%dO, %fO, -, HO⟩, ⟨%fS, %hfS, HS⟩, Hk⟩
  subst hf0; subst hf1; subst hfS
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_run_names
    rw [View.readCov_eq_canon_ld _ _ _ (coverS5 _ _)]
    exact View.read_writes_eq_canon _ _ _ (coverO5 _ _)
  iexists _; isplitr
  swap; · iexact HS
  ipureintro
  exact View.read_writes_eq_canon _ _ _ (coverS5 _ _)

/-! ## The windows' blocks -/

/-- Window `w`'s block at point `t`, read off its array as the region finds it (`V`): block (i, k) of the
    adjacency for window 0, block (k, 0) of the messages for window 1, block (i, 0) of the result for window 2. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, for any proof data whose array is `V`'s and
    whose body leaves the block in place: the window is never idle and its blocks tile the array. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## Where the output window is idle -/

/-- The two inputs are never idle. -/
theorem liveAt5_0 : ∀ t : Fin cfg5.N, cfg5.idle 0 (grid5.coords t) = false := fun _ => rfl
theorem liveAt5_1 : ∀ t : Fin cfg5.N, cfg5.idle 1 (grid5.coords t) = false := fun _ => rfl
/-- Off the last contraction step the output window is idle: the body stores nothing into it, -/
theorem idleAt5_2 : ∀ t : Fin cfg5.N, ¬cond5_1 (grid5.coords t) → cfg5.idle 2 (grid5.coords t) = true :=
  (by decide +kernel : ∀ t : Fin grid5.N, ¬cond5_1 (grid5.coords t) → idle5 2 (grid5.coords t) = true)
/-- and the pipeline does not write its block back there. -/
theorem noFlush5_2 : ∀ t : Fin cfg5.N, ¬cond5_1 (grid5.coords t) → (cfg5.win 2).flush t = false :=
  (by decide +kernel : ∀ t : Fin grid5.N, ¬cond5_1 (grid5.coords t) → win5_2.flush t = false)
/-- At the last contraction step it is live. -/
theorem liveAt5_2 : ∀ t : Fin cfg5.N, cond5_1 (grid5.coords t) → cfg5.idle 2 (grid5.coords t) = false :=
  (by decide +kernel : ∀ t : Fin grid5.N, cond5_1 (grid5.coords t) → idle5 2 (grid5.coords t) = false)

/-! ## What the output buffer and the accumulator hold after each point -/

/-- THE ACCUMULATION over the grid, point by point (the contraction index k = n mod 8 innermost): the pair (output
    buffer, accumulator) after the body at position `n`. At k = 0 the accumulator restarts from zeros whatever it held;
    at k ≠ 0 it continues from what position `n - 1` left; at k = 7 the output block is the accumulator narrowed.
    Off k = 7 the output component is a placeholder nothing consults (the window is idle and not written back). -/
def outsAt5 (c : Dev nD) : (n : ℕ) → n < cfg5.N → Vec F S1280x512 .bf16 × Vec F S1280x512 .f32
  | 0, hn => (View.canon [], accReset5 (iblk5 V c 0 ⟨0, hn⟩) (iblk5 V c 1 ⟨0, hn⟩))
  | n + 1, hn =>
    if (n + 1) % 8 = 0 then
      (View.canon [], accReset5 (iblk5 V c 0 ⟨n + 1, hn⟩) (iblk5 V c 1 ⟨n + 1, hn⟩))
    else if (n + 1) % 8 = 7 then
      (outLast5 (iblk5 V c 0 ⟨n + 1, hn⟩) (iblk5 V c 1 ⟨n + 1, hn⟩) (outsAt5 c n (Nat.lt_of_succ_lt hn)).2,
        accStep5 (iblk5 V c 0 ⟨n + 1, hn⟩) (iblk5 V c 1 ⟨n + 1, hn⟩) (outsAt5 c n (Nat.lt_of_succ_lt hn)).2)
    else
      (View.canon [], accStep5 (iblk5 V c 0 ⟨n + 1, hn⟩) (iblk5 V c 1 ⟨n + 1, hn⟩) (outsAt5 c n (Nat.lt_of_succ_lt hn)).2)

/-- At a point with k = 0: the accumulator restarted on this point's blocks. -/
theorem outsAt5_A (c : Dev nD) (t : Fin cfg5.N) (h0 : t.val % 8 = 0) :
    outsAt5 V c t.val t.isLt = (View.canon [], accReset5 (iblk5 V c 0 t) (iblk5 V c 1 t)) := by
  obtain ⟨n, hn⟩ := t
  cases n with
  | zero => exact rfl
  | succ n => exact (if_pos h0).trans rfl

/-- At a point with 0 < k < 7: the accumulator continued from the point before. -/
theorem outsAt5_B (c : Dev nD) (t : Fin cfg5.N) (h0 : ¬t.val % 8 = 0) (h1 : ¬t.val % 8 = 7) :
    outsAt5 V c t.val t.isLt = (View.canon [], accStep5 (iblk5 V c 0 t) (iblk5 V c 1 t) (outsAt5 V c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h1).trans rfl)

/-- At a point with k = 7: the same accumulator, and the output block read off it. -/
theorem outsAt5_C (c : Dev nD) (t : Fin cfg5.N) (h1 : t.val % 8 = 7) :
    outsAt5 V c t.val t.isLt = (outLast5 (iblk5 V c 0 t) (iblk5 V c 1 t) (outsAt5 V c (t.val - 1) (Nat.lt_of_le_of_lt (Nat.sub_le _ _) t.isLt)).2,
      accStep5 (iblk5 V c 0 t) (iblk5 V c 1 t) (outsAt5 V c (t.val - 1) (Nat.lt_of_le_of_lt (Nat.sub_le _ _) t.isLt)).2) := by
  obtain ⟨n, hn⟩ := t
  have h0 : ¬(n % 8 = 0) := fun h => by dsimp only at h1; omega
  cases n with
  | zero => exact absurd (Nat.zero_mod _) h0
  | succ n => exact (if_neg h0).trans ((if_pos h1).trans rfl)

/-! ## The region invariant -/

/-- The accumulator: a whole scoped buffer of the kernel's own, passed beside the windows. -/
abbrev scM5 : Memref sig .tc .vmem S1280x512 .f32 := Memref.whole cc5_scratch0
/-- Every other scoped buffer of the core that is no staging buffer of this call, each at some contents, unopened. -/
abbrev rest5 (c : Dev nD) : sProp 𝕄 :=
  Pipeline.scopedRestBut (Ix := Unit) (Name := ℕ) (U := UR sig nD τ) (Lvl := ℕ) (Val := Elt F) spec5 c [cc5_scratch0]

/-- The class's invariant with the accumulator taken out as a memref owned at some contents. -/
theorem PhiA5_eq (c : Dev nD) :
    (Pipeline.ΦA spec5 c : sProp 𝕄)
      = iprop(iprop(iprop((∃ d, owns (c : Thread nD τ) scM5 fullShare d)) ∗ rest5 (F := F) c) ∗ (∃ r, prngReg c r)) := by
  unfold Pipeline.ΦA; rw [scopedRest5_split]; simp only [scM5, rest5, owns_whole]; try rfl

/-- The invariant before position `n`: before the first point the class's (the accumulator at anything); afterwards
    the accumulator at what the point before left, beside the other scoped buffers and the generator register. -/
def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare ((outsAt5 V c n hn).2) ∗ rest5 (F := F) c) ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ rest5 (F := F) c) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt5`'s first component; the invariant `PhiS5`; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- Each window's current staging memref at point `t`, spelled as the pipeline passes it to the body. -/
abbrev ms5_0 (t : Fin cfg5.N) : Memref sig .tc .vmem S1280x1280 .bf16 := win5_0.stage (cfg5.slots t 0)
abbrev ms5_1 (t : Fin cfg5.N) : Memref sig .tc .vmem S1280x512 .bf16 := win5_1.stage (cfg5.slots t 1)
abbrev ms5_2 (t : Fin cfg5.N) : Memref sig .tc .vmem S1280x512 .bf16 := win5_2.stage (cfg5.slots t 2)

/-- What the body is called with at point `t`: the invariant, what the core owes, each window's buffer at what it
    then holds, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point. The inputs' memrefs hold their blocks; the closed forms of the two conditions say which of
    the three control cases the point is in. At k = 0 the accumulator is handed over at whatever it holds (the class's
    invariant before the first point, the previous row block's last value afterwards) and comes back restarted; at
    k ≠ 0 it is handed over at what the point before left and comes back continued; the output window is handed back as
    found off k = 7 and at the narrowed accumulator at k = 7. The other scoped buffers, the generator register and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  have hN : t.val < 64 := lt_of_lt_of_eq t.isLt (show cfg5.N = 64 from N_5)
  by_cases h0 : t.val % 8 = 0
  · have hc0 : cond5_0 (grid5.coords t) := (hcond5_0 t).mpr h0
    have hc1 : ¬cond5_1 (grid5.coords t) := fun h => by have := (hcond5_1 t).mp h; omega
    rw [Dat.leavesExact_idle (dat5 V c) 2 t (idleAt5_2 t hc1) (noFlush5_2 t hc1)]
    rw [outsAt5_A V c t h0]; dsimp only
    by_cases hz : t.val = 0
    · rw [PhiS5_castSucc V c t, PhiS5_zero V c _ _ hz, PhiA5_eq]
      iintro ⟨⟨⟨HS, HR⟩, Hg⟩, Ho, ⟨%d0, H0⟩, ⟨%d1, H1⟩, ⟨%dO, HO⟩⟩
      iapply (run5_A c (grid5.coords t) _ _ _ _ _ _ _ _ hc0 hc1 (iblk5 V c 0 t) (iblk5 V c 1 t) _ Set.univ _)
      isplitl [H0]; · iexact H0
      isplitl [H1]; · iexact H1
      isplitl [HO]; · iexact HO
      isplitl [HS]; · iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HO
    · rw [PhiS5_castSucc V c t, PhiS5_pos V c _ _ hz]
      iintro ⟨⟨⟨HS, HR⟩, Hg⟩, Ho, ⟨%d0, H0⟩, ⟨%d1, H1⟩, ⟨%dO, HO⟩⟩
      iapply (run5_A c (grid5.coords t) _ _ _ _ _ _ _ _ hc0 hc1 (iblk5 V c 0 t) (iblk5 V c 1 t) _ Set.univ _)
      isplitl [H0]; · iexact H0
      isplitl [H1]; · iexact H1
      isplitl [HO]; · iexact HO
      isplitl [HS]; · iexists _; iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HO
  · have hc0 : ¬cond5_0 (grid5.coords t) := fun h => h0 ((hcond5_0 t).mp h)
    have hz : t.val ≠ 0 := fun h => h0 (by rw [h])
    by_cases h1 : t.val % 8 = 7
    · have hc1 : cond5_1 (grid5.coords t) := (hcond5_1 t).mpr h1
      rw [show (dat5 V c).leavesExact 2 t = owns (c : Thread nD τ) (ms5_2 t) fullShare ((dat5 V c).after 2 t) from by
        unfold Dat.leavesExact; rw [liveAt5_2 t hc1], after5_2]
      rw [outsAt5_C V c t h1]; dsimp only
      rw [PhiS5_castSucc V c t, PhiS5_pos V c _ _ hz]
      iintro ⟨⟨⟨HS, HR⟩, Hg⟩, Ho, ⟨%d0, H0⟩, ⟨%d1, H1⟩, ⟨%dO, HO⟩⟩
      iapply (run5_C c (grid5.coords t) _ _ _ _ _ _ _ _ hc0 hc1 (iblk5 V c 0 t) (iblk5 V c 1 t) _ Set.univ _)
      isplitl [H0]; · iexact H0
      isplitl [H1]; · iexact H1
      isplitl [HO]; · iexists _; iexact HO
      isplitl [HS]; · iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact HO
    · have hc1 : ¬cond5_1 (grid5.coords t) := fun h => h1 ((hcond5_1 t).mp h)
      rw [Dat.leavesExact_idle (dat5 V c) 2 t (idleAt5_2 t hc1) (noFlush5_2 t hc1)]
      rw [outsAt5_B V c t h0 h1]; dsimp only
      rw [PhiS5_castSucc V c t, PhiS5_pos V c _ _ hz]
      iintro ⟨⟨⟨HS, HR⟩, Hg⟩, Ho, ⟨%d0, H0⟩, ⟨%d1, H1⟩, ⟨%dO, HO⟩⟩
      iapply (run5_B c (grid5.coords t) _ _ _ _ _ _ _ _ hc0 hc1 (iblk5 V c 0 t) (iblk5 V c 1 t) _ _ Set.univ _)
      isplitl [H0]; · iexact H0
      isplitl [H1]; · iexact H1
      isplitl [HO]; · iexact HO
      isplitl [HS]; · iexact HS
      iintro ⟨H0, H1, HO, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HO

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the class's back: the accumulator's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS, HR⟩, Hg⟩
  isplitl [HS HR]
  · isplitl [HS]
    · iexists _; iexact HS
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 64 := N_5; omega)

end Cert.Kernel.Hand

end
-- ==== Proof.KB.RegU6.lean ====
/-
  Region 6 of @main: the node update. At each of the eight row blocks the body reads five staged blocks — the
  block's rows of the node features (f32) and of the aggregated messages (bf16), the two square weight matrices
  (bf16) and the bias row (f32) — and overwrites the staged output block, whole, by

      max (trunc (features) · W_self + messages · W_nbr + bias, 0).

  It also reads the output block once before overwriting it; nothing depends on what that read returns, so the
  block may hold anything when the body starts.

  Stated at the contents V of the core's buffers when the region is entered:
    * every input window's staging buffer holds that window's block of V at every grid point. The features and
      the messages are fetched at each point. The weights and the bias are fetched at the first point only; their
      block index is constant over the grid, so the block staged first is the block of every later point;
    * the output buffer after the body is the single whole store's payload of the five input blocks;
    * the body's Hoare triple, the pipeline's proof data and the body obligation at a generic grid point.
-/
import proofs.«408707_j33406255628688_2_alg».proof.Proof.Gen.Kernel.Launch
import proofs.«408707_j33406255628688_2_alg».proof.Proof.Gen.Kernel.Skeleton
import proofs.«408707_j33406255628688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 1280 × 512 rectangle is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- Window `w`'s block at grid point `t`: the window's array, as the region finds it, read through the block's view. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's rectangles: each access is the whole of its staging buffer -/

/-- A whole 1280 × 512 block: the features, the messages and the output. -/
abbrev rect6_rows : Rect S1280x512 := Rect.unit (s := S1280x512) ![0, 0] S1280x512.size inb_S1280x512_S1280x512_0_0
/-- A whole 512 × 512 weight matrix. -/
abbrev rect6_wt : Rect S512x512 := Rect.unit (s := S512x512) ![0, 0] S512x512.size inb_S512x512_S512x512_0_0
/-- The whole 1 × 512 bias row. -/
abbrev rect6_bias : Rect S1x512 := Rect.unit (s := S1x512) ![0, 0] S1x512.size inb_S1x512_S1x512_0_0

/-! ## What the body leaves in the output buffer -/

/-- The output buffer after the body, as a function of the five input blocks: one store, through the whole
    rectangle, of the update's payload at what the five loads read. -/
def out6_5 (x0 : Vec F S1280x512 .f32) (x1 : Vec F S1280x512 .bf16) (x2 x3 : Vec F S512x512 .bf16) (x4 : Vec F S1x512 .f32) :
    Vec F S1280x512 .f32 :=
  View.canon [⟨rect6_rows,
    k6_pay1 (View.ld x0 rect6_rows) (View.ld x1 rect6_rows) (View.ld x2 rect6_wt) (View.ld x3 rect6_wt) (View.ld x4 rect6_bias)⟩]

/-- The single store's rectangle is the whole block, so every index of the block lies in it. -/
theorem cover6_5 (p : Vec F S1280x512 .f32) (y : S1280x512.Idx) :
    ∃ pc ∈ ([⟨rect6_rows, p⟩] : List (View.Piece (Elt F) S1280x512 .f32)), y ∈ pc.1.set :=
  View.cover_of_tiled [⟨rect6_rows, p⟩] S1280x512.size (by rfl) y

/-! ## The body's triple -/

set_option maxHeartbeats 1000000 in
/-- The body on whole staging memrefs: the five inputs at read contents `x0 … x4`, the output at anything. It runs to
    the continuation with the inputs as they were and the output at `out6_5` of them. The read of the output before
    the store consumes nothing and its value is dropped. -/
theorem sound_kernel6 (c : Dev nD) (E : Set ℕ) (i : grid6.Coords)
    (arg1 : Memref sig .tc .vmem S1280x512 .f32) (harg1 : arg1.IsWhole)
    (arg2 : Memref sig .tc .vmem S1280x512 .bf16) (harg2 : arg2.IsWhole)
    (arg3 : Memref sig .tc .vmem S512x512 .bf16) (harg3 : arg3.IsWhole)
    (arg4 : Memref sig .tc .vmem S512x512 .bf16) (harg4 : arg4.IsWhole)
    (arg5 : Memref sig .tc .vmem S1x512 .f32) (harg5 : arg5.IsWhole)
    (arg6 : Memref sig .tc .vmem S1280x512 .f32) (harg6 : arg6.IsWhole)
    (x0 : Vec F S1280x512 .f32) (x1 : Vec F S1280x512 .bf16) (x2 x3 : Vec F S512x512 .bf16) (x4 : Vec F S1x512 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare x4
              ∗ owns (c : Thread nD τ) arg6 fullShare (out6_5 x0 x1 x2 x3 x4)) -∗ K ⟨⟩))
      ⊢ wp frame (wpE (defs₀ (F := F)) Variants.none c none) E
          (cc6__update_kernel i arg1 harg1 arg2 harg2 arg3 harg3 arg4 harg4 arg5 harg5 arg6 harg6) K := by
  simp only [cc6__update_kernel_eq_skeleton]; unfold cc6__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of the region's pipeline on core `c`: the arrays as the region finds them; after the body at point
    `t` each input buffer at its block and the output buffer at `out6_5` of the five blocks; the invariant is
    the untouched rest; full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- Each window's array in the proof data is `V`'s buffer for that window's reference. -/
theorem A_eq6 (c : Dev nD) (w : Fin cfg6.W) : (dat6 V c).A w = V c (Pipeline.arrRef spec6 w) := by
  dsimp only [dat6]

/-- The contents after the body, one equation per window (an input keeps its block; the output gets the payload). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

/-! ## What the body finds in each input buffer

An input window is not an output, is idle nowhere and is not clipped, and the body leaves its block in place; so at
every point its buffer holds the block a fetch there would bring, fetched there or not. For the features and the
messages every point fetches. For the weights and the bias only the first point does, and at a later point the
buffer still holds the first point's block, which is that point's block because the block index has not moved. -/

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)

/-! ## The body obligation at a generic point -/

/-- What the body is handed at point `t`: the invariant, what the core owes, and each window's current buffer. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What the body returns at point `t`: the invariant and the debt at the next point, each buffer at what the body leaves. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the five input buffers hold their blocks, so the body's triple applies at those blocks;
    the invariant and what the core owes are not touched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's loop asks of the body, in the library's form: its window products are six-fold
    chains, and under them it is the triple above at each grid point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.KB.RegA7.lean ====
/- Region 7 of @main: custom_call 7, the kernel function `cc7__linear_kernel_f32` on pipeline `cfg7`, at a
   parameter `V` (the core's buffer contents when the region is entered). Windows 0, 1, 2 are inputs, window 3 the
   output. The body reads each input block whole, reads the output block (a value nothing uses) and overwrites the
   output block whole with the payload `k7_pay1` of the three input blocks. Hence: after the body each input buffer
   still holds its block and the output buffer holds what one whole-block write of that payload leaves; before the body
   an input buffer holds its block at every point, refetched there or not, because a window that is not refetched has
   not moved its block index; the class's invariant and the core's debt pass through the body unread. -/
import proofs.«408707_j33406255628688_2_alg».proof.Proof.Gen.Kernel.Launch
import proofs.«408707_j33406255628688_2_alg».proof.Proof.Gen.Kernel.Skeleton
import proofs.«408707_j33406255628688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## This region's blocks

Shape and element type of the block of each window (a, b, c: the inputs, windows 0, 1, 2; o: the output, window 3),
and for each the fact that the whole block lies inside itself. Everything below is written over these twelve. -/

local notation "𝔹a" => S1280x512
local notation "𝔼a" => EltTy.f32
local notation "inbA" => inb_S1280x512_S1280x512_0_0
local notation "𝔹b" => S512x1
local notation "𝔼b" => EltTy.f32
local notation "inbB" => inb_S512x1_S512x1_0_0
local notation "𝔹c" => S1x1
local notation "𝔼c" => EltTy.f32
local notation "inbC" => inb_S1x1_S1x1_0_0
local notation "𝔹o" => S1280x1
local notation "𝔼o" => EltTy.f32
local notation "inbO" => inb_S1280x1_S1280x1_0_0

variable (V : (c : Dev nD) → (b : Ref sig .tc) → Buf (Elt F) ((c : Thread nD τ).loc b))

/-! ## The blocks the windows show -/

/-- The block of window `w` at grid point `t`: the window's view of its array there, read in the contents the region
    finds (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The rectangles the body reads and writes through: each block whole -/

abbrev wholeA7 : Rect 𝔹a := Rect.unit (s := 𝔹a) ![0, 0] (Shape.size 𝔹a) inbA
abbrev wholeB7 : Rect 𝔹b := Rect.unit (s := 𝔹b) ![0, 0] (Shape.size 𝔹b) inbB
abbrev wholeC7 : Rect 𝔹c := Rect.unit (s := 𝔹c) ![0, 0] (Shape.size 𝔹c) inbC
abbrev wholeO7 : Rect 𝔹o := Rect.unit (s := 𝔹o) ![0, 0] (Shape.size 𝔹o) inbO

/-! ## What the body leaves in the output buffer -/

/-- The output buffer after the body, from the three input blocks: the body's single store, of the payload of the three
    loads, through the whole-block rectangle. -/
def out7_3 (x0 : Vec F 𝔹a 𝔼a) (x1 : Vec F 𝔹b 𝔼b) (x2 : Vec F 𝔹c 𝔼c) : Vec F 𝔹o 𝔼o :=
  View.canon [⟨wholeO7, k7_pay1 (View.ld x0 wholeA7) (View.ld x1 wholeB7) (View.ld x2 wholeC7)⟩]

/-- That store is of the whole block, so it alone covers the buffer, whatever it stores. -/
theorem covers7_3 (p : (wholeO7).shape.Idx → Elt F 𝔼o) (y : Shape.Idx 𝔹o) :
    ∃ pc ∈ ([⟨wholeO7, p⟩] : List (View.Piece (Elt F) 𝔹o 𝔼o)), y ∈ pc.1.set :=
  View.cover_of_wholeMem _ (View.Piece.wholeMem_here (by rfl)) y

/-! ## The body as a triple over its four memrefs -/

set_option maxHeartbeats 1000000 in
/-- On whole memrefs, the three inputs' reading `x0 x1 x2` and the output's holding anything, the body runs to a
    continuation that is given the inputs' unchanged and the output's at `out7_3 x0 x1 x2`. -/
theorem sound_kernel7 (c : Dev nD) (E : Set ℕ) (i : grid7.Coords)
    (arg1 : Memref sig .tc .vmem 𝔹a 𝔼a) (harg1 : arg1.IsWhole) (arg2 : Memref sig .tc .vmem 𝔹b 𝔼b) (harg2 : arg2.IsWhole)
    (arg3 : Memref sig .tc .vmem 𝔹c 𝔼c) (harg3 : arg3.IsWhole) (arg4 : Memref sig .tc .vmem 𝔹o 𝔼o) (harg4 : arg4.IsWhole)
    (x0 : Vec F 𝔹a 𝔼a) (x1 : Vec F 𝔹b 𝔼b) (x2 : Vec F 𝔹c 𝔼c) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__linear_kernel_f32 i arg1 harg1 arg2 harg2 arg3 harg3 arg4 harg4) K := by
  simp only [cc7__linear_kernel_f32_eq_skeleton]; unfold cc7__linear_kernel_f32_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers7_3 _)

/-! ## The proof data -/

/-- Pipeline 7's proof data on core `c`. The arrays: as the region finds them. After the body at point `t`: an input's
    buffer at its block, the output's at `out7_3` of the three input blocks there. The invariant is the class's (the
    scoped rest and the generator register, which the body does not touch), nothing is owed, every share is full. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- Its arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-! ## What the body finds in the input buffers

Window 0 is refetched at every point, windows 1 and 2 only at the first. Either way the buffer holds the window's
block: where the pipeline does not refetch, the block index is the previous point's, and the body left that block in
place. The blocks tile their arrays (no cut) and the pipeline states no idle point. -/

theorem before7_0 (c : Dev nD) (t : Fin cfg7.N) (d) : (dat7 V c).before 0 t d = iblk7 V c 0 t := by
  have hkeep : ∀ s, (cfg7.win 0).cut (cfg7.grid.coords s) ((dat7 V c).after 0 s) = (dat7 V c).blockOf 0 s := fun s => by
    rw [after7_0]; unfold Dat.blockOf iblk7; rw [A_eq7]; try rfl
  refine ((dat7 V c).before_in_eq_fetched 0 rfl (fun _ => rfl) (fun _ _ _ => rfl) hkeep t d).trans ?_
  unfold Dat.fetched Dat.blockOf iblk7; rw [A_eq7]; try rfl

theorem before7_1 (c : Dev nD) (t : Fin cfg7.N) (d) : (dat7 V c).before 1 t d = iblk7 V c 1 t := by
  have hkeep : ∀ s, (cfg7.win 1).cut (cfg7.grid.coords s) ((dat7 V c).after 1 s) = (dat7 V c).blockOf 1 s := fun s => by
    rw [after7_1]; unfold Dat.blockOf iblk7; rw [A_eq7]; try rfl
  refine ((dat7 V c).before_in_eq_fetched 1 rfl (fun _ => rfl) (fun _ _ _ => rfl) hkeep t d).trans ?_
  unfold Dat.fetched Dat.blockOf iblk7; rw [A_eq7]; try rfl

theorem before7_2 (c : Dev nD) (t : Fin cfg7.N) (d) : (dat7 V c).before 2 t d = iblk7 V c 2 t := by
  have hkeep : ∀ s, (cfg7.win 2).cut (cfg7.grid.coords s) ((dat7 V c).after 2 s) = (dat7 V c).blockOf 2 s := fun s => by
    rw [after7_2]; unfold Dat.blockOf iblk7; rw [A_eq7]; try rfl
  refine ((dat7 V c).before_in_eq_fetched 2 rfl (fun _ => rfl) (fun _ _ _ => rfl) hkeep t d).trans ?_
  unfold Dat.fetched Dat.blockOf iblk7; rw [A_eq7]; try rfl

/-! ## The body obligation -/

/-- What the pipeline hands the body at point `t`: the invariant, the debt, and each window's current buffer at what it
    then holds, the four windows one by one. -/
def handed7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- What it takes back: the same at the next point, each buffer at what the body leaves. -/
def returned7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at a point: the input buffers hold their blocks, the output buffer something, so the triple applies at the
    three blocks; the invariant and the debt do not depend on the point and are carried over as they are. -/
theorem sound_body7 (c : Dev nD) (t : Fin cfg7.N) :
    handed7 V c t ⊢ wp frame (wpE (defs₀ (F := F)) Variants.none c none) Set.univ (bodyAt7 t) (fun _ => returned7 V c t) := by
  unfold handed7 returned7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's loop asks of the body, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Fold.lean ====
/-
  The fold of the buffers' contents through @main, with nothing left unknown.

  Between two items of @main every unscoped buffer of a core holds a definite value. The launch contents pass through
  the first three host stretches (`W3`); a kernel region changes exactly one buffer, its output window's array, and
  leaves there the array after the write-backs of all its grid points (`Dat.arrAt … N` of the region's proof data taken
  at the contents the region is entered from); a host stretch maps the contents by `StableHlo.after`. This gives
  `W3 … W17`, the same recursion as the valuations `V3 … V17` of the conditional frame, whose unknowns `outs J r c`
  are here the fold itself (`outsX`); `VJ_eq` says so at every item. The proof data family `pdats` takes each region's
  data at the fold's contents at that region's entry.
-/
import proofs.«408707_j33406255628688_2_alg».proof.Proof.KB.RegA0
import proofs.«408707_j33406255628688_2_alg».proof.Proof.KB.RegA1
import proofs.«408707_j33406255628688_2_alg».proof.Proof.KB.RegJ2
import proofs.«408707_j33406255628688_2_alg».proof.Proof.KB.RegU3
import proofs.«408707_j33406255628688_2_alg».proof.Proof.KB.RegA4
import proofs.«408707_j33406255628688_2_alg».proof.Proof.KB.RegJ5
import proofs.«408707_j33406255628688_2_alg».proof.Proof.KB.RegU6
import proofs.«408707_j33406255628688_2_alg».proof.Proof.KB.RegA7
import proofs.«408707_j33406255628688_2_alg».proof.Proof.Gen.Kernel.Regions

-- decided memberships and inequalities over the program's references recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The contents at each item's boundary -/

/-- Core `c`'s unscoped buffers when region 0 is entered: the launch contents after the first three host stretches. -/
abbrev W3 (c : Dev nD) : Valuation τ sig (Elt F) := V3 m c
/-- The same read at the TensorCore's references (what region 0's proof data take). -/
abbrev T3 : (c : Dev nD) → (b : Ref sig .tc) → Buf (Elt F) ((c : Thread nD τ).loc b) := fun c b => W3 m c b

/-- What region 0 leaves in its output array `main_v23`: the array after the write-backs of all its grid points. -/
def o23 (c : Dev nD) : Buf (Elt F) ((c : Thread nD τ).loc main_v23) := (dat0 (T3 m) c).arrAt 3 cfg0.N
/-- Core `c`'s unscoped buffers when region 0 is left: `main_v23` at what the region leaves, every other buffer as entered. -/
def W4 (c : Dev nD) : Valuation τ sig (Elt F) := Function.update (W3 m c) main_v23 (o23 m c)
/-- The same read at the TensorCore's references. -/
abbrev T4 : (c : Dev nD) → (b : Ref sig .tc) → Buf (Elt F) ((c : Thread nD τ).loc b) := fun c b => W4 m c b

/-- Core `c`'s unscoped buffers after the host stretch `hostOps1`. -/
abbrev W5 (c : Dev nD) : Valuation τ sig (Elt F) := StableHlo.after hostOps1 (W4 m c)
/-- The same read at the TensorCore's references. -/
abbrev T5 : (c : Dev nD) → (b : Ref sig .tc) → Buf (Elt F) ((c : Thread nD τ).loc b) := fun c b => W5 m c b

/-- What region 1 leaves in its output array `main_v30`: the array after the write-backs of all its grid points. -/
def o30 (c : Dev nD) : Buf (Elt F) ((c : Thread nD τ).loc main_v30) := (dat1 (T5 m) c).arrAt 3 cfg1.N
/-- Core `c`'s unscoped buffers when region 1 is left: `main_v30` at what the region leaves, every other buffer as entered. -/
def W6 (c : Dev nD) : Valuation τ sig (Elt F) := Function.update (W5 m c) main_v30 (o30 m c)
/-- The same read at the TensorCore's references. -/
abbrev T6 : (c : Dev nD) → (b : Ref sig .tc) → Buf (Elt F) ((c : Thread nD τ).loc b) := fun c b => W6 m c b

/-- What region 2 leaves in its output array `main_v31`: the array after the write-backs of all its grid points. -/
def o31 (c : Dev nD) : Buf (Elt F) ((c : Thread nD τ).loc main_v31) := (dat2 (T6 m) c).arrAt 2 cfg2.N
/-- Core `c`'s unscoped buffers when region 2 is left: `main_v31` at what the region leaves, every other buffer as entered. -/
def W7 (c : Dev nD) : Valuation τ sig (Elt F) := Function.update (W6 m c) main_v31 (o31 m c)
/-- The same read at the TensorCore's references. -/
abbrev T7 : (c : Dev nD) → (b : Ref sig .tc) → Buf (Elt F) ((c : Thread nD τ).loc b) := fun c b => W7 m c b

/-- Core `c`'s unscoped buffers after the host stretch `hostOps3`. -/
abbrev W8 (c : Dev nD) : Valuation τ sig (Elt F) := StableHlo.after hostOps3 (W7 m c)
/-- The same read at the TensorCore's references. -/
abbrev T8 : (c : Dev nD) → (b : Ref sig .tc) → Buf (Elt F) ((c : Thread nD τ).loc b) := fun c b => W8 m c b

/-- What region 3 leaves in its output array `main_v41`: the array after the write-backs of all its grid points. -/
def o41 (c : Dev nD) : Buf (Elt F) ((c : Thread nD τ).loc main_v41) := (dat3 (T8 m) c).arrAt 5 cfg3.N
/-- Core `c`'s unscoped buffers when region 3 is left: `main_v41` at what the region leaves, every other buffer as entered. -/
def W9 (c : Dev nD) : Valuation τ sig (Elt F) := Function.update (W8 m c) main_v41 (o41 m c)
/-- The same read at the TensorCore's references. -/
abbrev T9 : (c : Dev nD) → (b : Ref sig .tc) → Buf (Elt F) ((c : Thread nD τ).loc b) := fun c b => W9 m c b

/-- Core `c`'s unscoped buffers after the host stretch `hostOps4`. -/
abbrev W10 (c : Dev nD) : Valuation τ sig (Elt F) := StableHlo.after hostOps4 (W9 m c)
/-- The same read at the TensorCore's references. -/
abbrev T10 : (c : Dev nD) → (b : Ref sig .tc) → Buf (Elt F) ((c : Thread nD τ).loc b) := fun c b => W10 m c b

/-- What region 4 leaves in its output array `main_v48`: the array after the write-backs of all its grid points. -/
def o48 (c : Dev nD) : Buf (Elt F) ((c : Thread nD τ).loc main_v48) := (dat4 (T10 m) c).arrAt 3 cfg4.N
/-- Core `c`'s unscoped buffers when region 4 is left: `main_v48` at what the region leaves, every other buffer as entered. -/
def W11 (c : Dev nD) : Valuation τ sig (Elt F) := Function.update (W10 m c) main_v48 (o48 m c)
/-- The same read at the TensorCore's references. -/
abbrev T11 : (c : Dev nD) → (b : Ref sig .tc) → Buf (Elt F) ((c : Thread nD τ).loc b) := fun c b => W11 m c b

/-- What region 5 leaves in its output array `main_v49`: the array after the write-backs of all its grid points. -/
def o49 (c : Dev nD) : Buf (Elt F) ((c : Thread nD τ).loc main_v49) := (dat5 (T11 m) c).arrAt 2 cfg5.N
/-- Core `c`'s unscoped buffers when region 5 is left: `main_v49` at what the region leaves, every other buffer as entered. -/
def W12 (c : Dev nD) : Valuation τ sig (Elt F) := Function.update (W11 m c) main_v49 (o49 m c)
/-- The same read at the TensorCore's references. -/
abbrev T12 : (c : Dev nD) → (b : Ref sig .tc) → Buf (Elt F) ((c : Thread nD τ).loc b) := fun c b => W12 m c b

/-- Core `c`'s unscoped buffers after the host stretch `hostOps6`. -/
abbrev W13 (c : Dev nD) : Valuation τ sig (Elt F) := StableHlo.after hostOps6 (W12 m c)
/-- The same read at the TensorCore's references. -/
abbrev T13 : (c : Dev nD) → (b : Ref sig .tc) → Buf (Elt F) ((c : Thread nD τ).loc b) := fun c b => W13 m c b

/-- What region 6 leaves in its output array `main_v59`: the array after the write-backs of all its grid points. -/
def o59 (c : Dev nD) : Buf (Elt F) ((c : Thread nD τ).loc main_v59) := (dat6 (T13 m) c).arrAt 5 cfg6.N
/-- Core `c`'s unscoped buffers when region 6 is left: `main_v59` at what the region leaves, every other buffer as entered. -/
def W14 (c : Dev nD) : Valuation τ sig (Elt F) := Function.update (W13 m c) main_v59 (o59 m c)
/-- The same read at the TensorCore's references. -/
abbrev T14 : (c : Dev nD) → (b : Ref sig .tc) → Buf (Elt F) ((c : Thread nD τ).loc b) := fun c b => W14 m c b

/-- Core `c`'s unscoped buffers after the host stretch `hostOps7`. -/
abbrev W15 (c : Dev nD) : Valuation τ sig (Elt F) := StableHlo.after hostOps7 (W14 m c)
/-- The same read at the TensorCore's references. -/
abbrev T15 : (c : Dev nD) → (b : Ref sig .tc) → Buf (Elt F) ((c : Thread nD τ).loc b) := fun c b => W15 m c b

/-- What region 7 leaves in its output array `main_v61`: the array after the write-backs of all its grid points. -/
def o61 (c : Dev nD) : Buf (Elt F) ((c : Thread nD τ).loc main_v61) := (dat7 (T15 m) c).arrAt 3 cfg7.N
/-- Core `c`'s unscoped buffers when region 7 is left: `main_v61` at what the region leaves, every other buffer as entered. -/
def W16 (c : Dev nD) : Valuation τ sig (Elt F) := Function.update (W15 m c) main_v61 (o61 m c)
/-- The same read at the TensorCore's references. -/
abbrev T16 : (c : Dev nD) → (b : Ref sig .tc) → Buf (Elt F) ((c : Thread nD τ).loc b) := fun c b => W16 m c b

/-- Core `c`'s unscoped buffers after the host stretch `hostOps8`. -/
abbrev W17 (c : Dev nD) : Valuation τ sig (Elt F) := StableHlo.after hostOps8 (W16 m c)

/-! ## The conditional frame's unknowns, read off the fold -/

/-- What the regions leave, as the conditional frame's valuations take it: at the point after a region, the fold's contents
    there (the frame reads `outs J r c` only at a region's output array `r`, after that region). -/
def outsX : Outs (F := F) := fun J r c =>
  match J with
  | 4 => W4 m c r
  | 6 => W6 m c r
  | 7 => W7 m c r
  | 9 => W9 m c r
  | 11 => W11 m c r
  | 12 => W12 m c r
  | 14 => W14 m c r
  | 16 => W16 m c r
  | _ => W3 m c r

/-! ## The conditional frame's valuations at these unknowns are the fold -/

theorem V4_eq (c : Dev nD) : V4 m (outsX m) c = W4 m c := by
  show Function.update (V3 m c) main_v23 (W4 m c main_v23) = W4 m c
  unfold W4; rw [Function.update_self]
theorem V5_eq (c : Dev nD) : V5 m (outsX m) c = W5 m c := congrArg (StableHlo.after hostOps1) (V4_eq m c)

theorem V6_eq (c : Dev nD) : V6 m (outsX m) c = W6 m c := by
  show Function.update (V5 m (outsX m) c) main_v30 (W6 m c main_v30) = W6 m c
  rw [V5_eq]; unfold W6; rw [Function.update_self]

theorem V7_eq (c : Dev nD) : V7 m (outsX m) c = W7 m c := by
  show Function.update (V6 m (outsX m) c) main_v31 (W7 m c main_v31) = W7 m c
  rw [V6_eq]; unfold W7; rw [Function.update_self]
theorem V8_eq (c : Dev nD) : V8 m (outsX m) c = W8 m c := congrArg (StableHlo.after hostOps3) (V7_eq m c)

theorem V9_eq (c : Dev nD) : V9 m (outsX m) c = W9 m c := by
  show Function.update (V8 m (outsX m) c) main_v41 (W9 m c main_v41) = W9 m c
  rw [V8_eq]; unfold W9; rw [Function.update_self]
theorem V10_eq (c : Dev nD) : V10 m (outsX m) c = W10 m c := congrArg (StableHlo.after hostOps4) (V9_eq m c)

theorem V11_eq (c : Dev nD) : V11 m (outsX m) c = W11 m c := by
  show Function.update (V10 m (outsX m) c) main_v48 (W11 m c main_v48) = W11 m c
  rw [V10_eq]; unfold W11; rw [Function.update_self]

theorem V12_eq (c : Dev nD) : V12 m (outsX m) c = W12 m c := by
  show Function.update (V11 m (outsX m) c) main_v49 (W12 m c main_v49) = W12 m c
  rw [V11_eq]; unfold W12; rw [Function.update_self]
theorem V13_eq (c : Dev nD) : V13 m (outsX m) c = W13 m c := congrArg (StableHlo.after hostOps6) (V12_eq m c)

theorem V14_eq (c : Dev nD) : V14 m (outsX m) c = W14 m c := by
  show Function.update (V13 m (outsX m) c) main_v59 (W14 m c main_v59) = W14 m c
  rw [V13_eq]; unfold W14; rw [Function.update_self]
theorem V15_eq (c : Dev nD) : V15 m (outsX m) c = W15 m c := congrArg (StableHlo.after hostOps7) (V14_eq m c)

theorem V16_eq (c : Dev nD) : V16 m (outsX m) c = W16 m c := by
  show Function.update (V15 m (outsX m) c) main_v61 (W16 m c main_v61) = W16 m c
  rw [V15_eq]; unfold W16; rw [Function.update_self]
theorem V17_eq (c : Dev nD) : V17 m (outsX m) c = W17 m c := congrArg (StableHlo.after hostOps8) (V16_eq m c)

/-! ## A region's exit contents, read at a reference -/

/-- At its output array the exit contents of region 0 are what the region leaves, -/
theorem W4_out (c : Dev nD) : W4 m c main_v23 = o23 m c := by unfold W4; exact Function.update_self _ _ _
/-- and at every other reference they are the entry contents. -/
theorem W4_of_ne (c : Dev nD) (b : Ref sig .tc) (h : b ≠ main_v23) : W4 m c b = W3 m c b := by
  unfold W4; exact Function.update_of_ne (StableHlo.devRef_ne_of_ne h) _ _

/-- At its output array the exit contents of region 1 are what the region leaves, -/
theorem W6_out (c : Dev nD) : W6 m c main_v30 = o30 m c := by unfold W6; exact Function.update_self _ _ _
/-- and at every other reference they are the entry contents. -/
theorem W6_of_ne (c : Dev nD) (b : Ref sig .tc) (h : b ≠ main_v30) : W6 m c b = W5 m c b := by
  unfold W6; exact Function.update_of_ne (StableHlo.devRef_ne_of_ne h) _ _

/-- At its output array the exit contents of region 2 are what the region leaves, -/
theorem W7_out (c : Dev nD) : W7 m c main_v31 = o31 m c := by unfold W7; exact Function.update_self _ _ _
/-- and at every other reference they are the entry contents. -/
theorem W7_of_ne (c : Dev nD) (b : Ref sig .tc) (h : b ≠ main_v31) : W7 m c b = W6 m c b := by
  unfold W7; exact Function.update_of_ne (StableHlo.devRef_ne_of_ne h) _ _

/-- At its output array the exit contents of region 3 are what the region leaves, -/
theorem W9_out (c : Dev nD) : W9 m c main_v41 = o41 m c := by unfold W9; exact Function.update_self _ _ _
/-- and at every other reference they are the entry contents. -/
theorem W9_of_ne (c : Dev nD) (b : Ref sig .tc) (h : b ≠ main_v41) : W9 m c b = W8 m c b := by
  unfold W9; exact Function.update_of_ne (StableHlo.devRef_ne_of_ne h) _ _

/-- At its output array the exit contents of region 4 are what the region leaves, -/
theorem W11_out (c : Dev nD) : W11 m c main_v48 = o48 m c := by unfold W11; exact Function.update_self _ _ _
/-- and at every other reference they are the entry contents. -/
theorem W11_of_ne (c : Dev nD) (b : Ref sig .tc) (h : b ≠ main_v48) : W11 m c b = W10 m c b := by
  unfold W11; exact Function.update_of_ne (StableHlo.devRef_ne_of_ne h) _ _

/-- At its output array the exit contents of region 5 are what the region leaves, -/
theorem W12_out (c : Dev nD) : W12 m c main_v49 = o49 m c := by unfold W12; exact Function.update_self _ _ _
/-- and at every other reference they are the entry contents. -/
theorem W12_of_ne (c : Dev nD) (b : Ref sig .tc) (h : b ≠ main_v49) : W12 m c b = W11 m c b := by
  unfold W12; exact Function.update_of_ne (StableHlo.devRef_ne_of_ne h) _ _

/-- At its output array the exit contents of region 6 are what the region leaves, -/
theorem W14_out (c : Dev nD) : W14 m c main_v59 = o59 m c := by unfold W14; exact Function.update_self _ _ _
/-- and at every other reference they are the entry contents. -/
theorem W14_of_ne (c : Dev nD) (b : Ref sig .tc) (h : b ≠ main_v59) : W14 m c b = W13 m c b := by
  unfold W14; exact Function.update_of_ne (StableHlo.devRef_ne_of_ne h) _ _

/-- At its output array the exit contents of region 7 are what the region leaves, -/
theorem W16_out (c : Dev nD) : W16 m c main_v61 = o61 m c := by unfold W16; exact Function.update_self _ _ _
/-- and at every other reference they are the entry contents. -/
theorem W16_of_ne (c : Dev nD) (b : Ref sig .tc) (h : b ≠ main_v61) : W16 m c b = W15 m c b := by
  unfold W16; exact Function.update_of_ne (StableHlo.devRef_ne_of_ne h) _ _

/-! ## The proof data family -/

/-- Every region's proof data, each at the fold's contents at its region's entry: a literal `match`, so that the family at a
    numeral reduces to that region's data. -/
def pdats : (p : Fin 8) → (c : Dev nD) → Dat τ (Elt F) Unit ℕ (UR sig nD τ) ℕ (cfgs p) c
  | ⟨0, _⟩ => fun c => dat0 (T3 m) c
  | ⟨1, _⟩ => fun c => dat1 (T5 m) c
  | ⟨2, _⟩ => fun c => dat2 (T6 m) c
  | ⟨3, _⟩ => fun c => dat3 (T8 m) c
  | ⟨4, _⟩ => fun c => dat4 (T10 m) c
  | ⟨5, _⟩ => fun c => dat5 (T11 m) c
  | ⟨6, _⟩ => fun c => dat6 (T13 m) c
  | ⟨7, _⟩ => fun c => dat7 (T15 m) c

end Cert.Kernel.Hand

end
-- ==== Proof.KB.Segs.lean ====
/-
  The eight kernel regions of @main as segments over the thread state.

  Between two items a core holds every unscoped buffer whole at the fold's contents there (`W3 … W17`) beside a rest `R`:
  its generator register at some state and its `owes` at nothing. A region is entered from that state at its entry contents and
  left at it at its exit contents. At entry the region's windowed arrays are split out of the unscoped buffers, at the contents its
  proof data name; at exit they are put back at the contents updated at the output array — every input array is never written
  (`Dat.arrAt_in`), the output array holds the write-backs of all grid points, every other buffer bypasses the region. The
  generator register goes into the region's invariant and comes back; nothing is owed at any point; no region has a semaphore
  of its own.
-/
import proofs.«408707_j33406255628688_2_alg».proof.Proof.KB.Fold

-- decided memberships and inequalities over the program's references recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no pair is assigned a level. -/
abbrev noPairs : GSem nD τ sig → Finset Unit := fun _ => ∅
abbrev noLevel : GSem nD τ sig → Unit → ℕ := fun _ _ => 0

/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)

/-! ## What every region does at its entry and at its exit

The eight records below differ in their configuration, their proof data and the contents they are entered from and left at;
what they do with the thread state is the same, and is proved here once, over abstract pieces. -/

section Protocol

variable {cfg : Pipeline.Cfg sig Λ₀} {c : Dev nD} (dat : Dat τ (Elt F) Unit ℕ (UR sig nD τ) ℕ cfg c)

/-- A core that owes nothing, whatever pairs it has recorded, is what a pipeline holds before point `t` when it owes nothing
    there and bounds the recorded pairs by everything. -/
theorem owesAt_of_owes (t : Fin (cfg.N + 1)) (howed : dat.owed t = 0) (hrec : dat.recorded t = Set.univ) (W) :
    owes (c : Thread nD τ) (0 : CellTallies nD τ sig Unit) W ⊢ (dat.owesAt () t : sProp 𝕄) := by
  show _ ⊢ iprop(∃ W', ⌜↑W' ⊆ dat.bound () t⌝ ∗ owes (c : Thread nD τ) (dat.owed t) W')
  rw [howed]
  iintro H; iexists W
  isplitr
  · ipureintro; intro x _; exact Or.inl (hrec ▸ Set.mem_univ x)
  iexact H

/-- Conversely such a pipeline's `owes` before `t` is the core owing nothing, at some recorded set. -/
theorem owes_of_owesAt (t : Fin (cfg.N + 1)) (howed : dat.owed t = 0) :
    (dat.owesAt () t : sProp 𝕄) ⊢ iprop(∃ W, owes (c : Thread nD τ) (0 : CellTallies nD τ sig Unit) W) := by
  show iprop(∃ W', ⌜↑W' ⊆ dat.bound () t⌝ ∗ owes (c : Thread nD τ) (dat.owed t) W') ⊢ _
  rw [howed]
  iintro ⟨%W, -, H⟩; iexists W; iexact H

end Protocol

/-- A pipeline without prefetched tables holds no table: the tables' part of an entry is trivial. -/
theorem prefHeld_of_no_table (pre : Pipeline.Prefetch sig) (hK : pre.K = 0) (c : Dev nD) (q : Fin pre.K → PosShare TreeShare) (v : pre.Contents (Elt F)) :
    (BI.emp : sProp 𝕄) ⊢ Pipeline.prefHeld pre c q v := by
  unfold Pipeline.prefHeld
  rw [Finset.eq_empty_of_forall_notMem (s := (Finset.univ : Finset (Fin pre.K))) fun k _ => by have := k.isLt; omega, BI.bigSep_empty]

/-- ENTRY of a region, over abstract pieces: the thread state is every unscoped buffer at `V` beside `R`; given that those
    buffers split into the region's arrays `A` and the rest `Z`, that the tables' part `Pt` is trivial and that the core owing
    nothing is the pipeline's first `owes` `O`, the state (with anything `S` beside it, dropped) sorts into the five parts a
    region's entry asks for, the generator register apart. -/
theorem region_entry (c : Dev nD) (V : Valuation τ sig (Elt F)) {A Z Pt O S : sProp 𝕄}
    (hsplit : StableHlo.held (c : Thread nD τ) (Pipeline.ucRefs τ sig) V ⊢ iprop(A ∗ Z))
    (hPt : (BI.emp : sProp 𝕄) ⊢ Pt)
    (hO : ∀ W, owes (c : Thread nD τ) (0 : CellTallies nD τ sig Unit) W ⊢ O) :
    iprop((StableHlo.held (c : Thread nD τ) (Pipeline.ucRefs τ sig) V ∗ R c) ∗ S)
      ⊢ |={Set.univ}=> iprop(A ∗ Pt ∗ O ∗ (∃ r, prngReg c r) ∗ Z) := by
  iintro ⟨⟨Hheld, Hreg, Howes⟩, -⟩
  icases Howes with ⟨%W, Howes⟩
  ihave Hparts := hsplit $$ Hheld
  icases Hparts with ⟨HA, HZ⟩
  imodintro
  isplitl [HA]; · iexact HA
  isplitr; · iapply hPt; iempintro
  isplitl [Howes]; · iapply (hO W); iexact Howes
  isplitl [Hreg]; · iexact Hreg
  iexact HZ

/-- EXIT of a region, over abstract pieces: the arrays `A` at their last contents and the bypassed rest `Z` make every
    unscoped buffer at `V'`; the pipeline's last `owes` `O` is the core owing nothing; with the generator register they are the
    thread state at `V'`. -/
theorem region_exit (c : Dev nD) (V' : Valuation τ sig (Elt F)) {A Z O : sProp 𝕄}
    (hjoin : iprop(A ∗ Z) ⊢ StableHlo.held (c : Thread nD τ) (Pipeline.ucRefs τ sig) V')
    (hO : O ⊢ iprop(∃ W, owes (c : Thread nD τ) (0 : CellTallies nD τ sig Unit) W)) :
    iprop(A ∗ O ∗ (∃ r, prngReg c r) ∗ Z)
      ⊢ |={Set.univ}=> iprop(StableHlo.held (c : Thread nD τ) (Pipeline.ucRefs τ sig) V' ∗ R c) := by
  iintro ⟨HA, HO, Hreg, HZ⟩
  imodintro
  isplitl [HA HZ]
  · iapply hjoin; isplitl [HA]; · iexact HA
    iexact HZ
  isplitl [Hreg]; · iexact Hreg
  iapply hO; iexact HO

/-- The generator register and the scoped buffers no window stages make the class invariant (the tables' part dropped), -/
theorem ΦA_of_parts {gr W : Nat} (win : Fin W → Pipeline.WinSpec sig gr) (c : Dev nD) {Pt : sProp 𝕄} :
    iprop((∃ r, prngReg c r) ∗ Pt ∗ Pipeline.scopedRest win c) ⊢ (Pipeline.ΦA win c : sProp 𝕄) := by
  unfold Pipeline.ΦA
  iintro ⟨Hreg, -, Hsc⟩
  isplitl [Hsc]; · iexact Hsc
  iexact Hreg

/-- and the class invariant gives them back (no semaphore of the kernel's own: nothing in their place). -/
theorem parts_of_ΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hsc, Hreg⟩
  isplitl [Hreg]; · iexact Hreg
  isplitr; · iempintro
  iexact Hsc

/-! ## The arrays at a region's exit -/

/-- When region 0 is left each of its arrays holds what the exit contents say: an input array is never written and was read off
    the entry contents, which the exit contents keep off `main_v23`; the output array `main_v23` holds the write-backs. -/
theorem hF0 (c : Dev nD) (w : Fin 4) : (dat0 (T3 m) c).arrAt w cfg0.N = T4 m c (Pipeline.arrRef spec0 w) := by
  by_cases hw : w = 3
  · subst hw; exact (W4_out m c).symm
  · have hne : Pipeline.arrRef spec0 w ≠ main_v23 := by revert w; decide
    have hin : (cfg0.win w).isOut = false := by revert w; decide
    exact ((dat0 (T3 m) c).arrAt_in w hin _).trans ((A_eq0 (T3 m) c w).trans (W4_of_ne m c _ hne).symm)
/-- Off region 0's arrays the exit contents are the entry contents. -/
theorem hrest0 (c : Dev nD) : ∀ b, b ∉ Finset.univ.image (Pipeline.arrRef spec0) → T4 m c b = T3 m c b :=
  fun b hb => W4_of_ne m c b fun e => hb (Finset.mem_image.mpr ⟨3, Finset.mem_univ _, e.symm⟩)

/-- When region 1 is left each of its arrays holds what the exit contents say: an input array is never written and was read off
    the entry contents, which the exit contents keep off `main_v30`; the output array `main_v30` holds the write-backs. -/
theorem hF1 (c : Dev nD) (w : Fin 4) : (dat1 (T5 m) c).arrAt w cfg1.N = T6 m c (Pipeline.arrRef spec1 w) := by
  by_cases hw : w = 3
  · subst hw; exact (W6_out m c).symm
  · have hne : Pipeline.arrRef spec1 w ≠ main_v30 := by revert w; decide
    have hin : (cfg1.win w).isOut = false := by revert w; decide
    exact ((dat1 (T5 m) c).arrAt_in w hin _).trans ((A_eq1 (T5 m) c w).trans (W6_of_ne m c _ hne).symm)
/-- Off region 1's arrays the exit contents are the entry contents. -/
theorem hrest1 (c : Dev nD) : ∀ b, b ∉ Finset.univ.image (Pipeline.arrRef spec1) → T6 m c b = T5 m c b :=
  fun b hb => W6_of_ne m c b fun e => hb (Finset.mem_image.mpr ⟨3, Finset.mem_univ _, e.symm⟩)

/-- When region 2 is left each of its arrays holds what the exit contents say: an input array is never written and was read off
    the entry contents, which the exit contents keep off `main_v31`; the output array `main_v31` holds the write-backs. -/
theorem hF2 (c : Dev nD) (w : Fin 3) : (dat2 (T6 m) c).arrAt w cfg2.N = T7 m c (Pipeline.arrRef spec2 w) := by
  by_cases hw : w = 2
  · subst hw; exact (W7_out m c).symm
  · have hne : Pipeline.arrRef spec2 w ≠ main_v31 := by revert w; decide
    have hin : (cfg2.win w).isOut = false := by revert w; decide
    exact ((dat2 (T6 m) c).arrAt_in w hin _).trans ((A_eq2 (T6 m) c w).trans (W7_of_ne m c _ hne).symm)
/-- Off region 2's arrays the exit contents are the entry contents. -/
theorem hrest2 (c : Dev nD) : ∀ b, b ∉ Finset.univ.image (Pipeline.arrRef spec2) → T7 m c b = T6 m c b :=
  fun b hb => W7_of_ne m c b fun e => hb (Finset.mem_image.mpr ⟨2, Finset.mem_univ _, e.symm⟩)

/-- When region 3 is left each of its arrays holds what the exit contents say: an input array is never written and was read off
    the entry contents, which the exit contents keep off `main_v41`; the output array `main_v41` holds the write-backs. -/
theorem hF3 (c : Dev nD) (w : Fin 6) : (dat3 (T8 m) c).arrAt w cfg3.N = T9 m c (Pipeline.arrRef spec3 w) := by
  by_cases hw : w = 5
  · subst hw; exact (W9_out m c).symm
  · have hne : Pipeline.arrRef spec3 w ≠ main_v41 := by revert w; decide
    have hin : (cfg3.win w).isOut = false := by revert w; decide
    exact ((dat3 (T8 m) c).arrAt_in w hin _).trans ((A_eq3 (T8 m) c w).trans (W9_of_ne m c _ hne).symm)
/-- Off region 3's arrays the exit contents are the entry contents. -/
theorem hrest3 (c : Dev nD) : ∀ b, b ∉ Finset.univ.image (Pipeline.arrRef spec3) → T9 m c b = T8 m c b :=
  fun b hb => W9_of_ne m c b fun e => hb (Finset.mem_image.mpr ⟨5, Finset.mem_univ _, e.symm⟩)

/-- When region 4 is left each of its arrays holds what the exit contents say: an input array is never written and was read off
    the entry contents, which the exit contents keep off `main_v48`; the output array `main_v48` holds the write-backs. -/
theorem hF4 (c : Dev nD) (w : Fin 4) : (dat4 (T10 m) c).arrAt w cfg4.N = T11 m c (Pipeline.arrRef spec4 w) := by
  by_cases hw : w = 3
  · subst hw; exact (W11_out m c).symm
  · have hne : Pipeline.arrRef spec4 w ≠ main_v48 := by revert w; decide
    have hin : (cfg4.win w).isOut = false := by revert w; decide
    exact ((dat4 (T10 m) c).arrAt_in w hin _).trans ((A_eq4 (T10 m) c w).trans (W11_of_ne m c _ hne).symm)
/-- Off region 4's arrays the exit contents are the entry contents. -/
theorem hrest4 (c : Dev nD) : ∀ b, b ∉ Finset.univ.image (Pipeline.arrRef spec4) → T11 m c b = T10 m c b :=
  fun b hb => W11_of_ne m c b fun e => hb (Finset.mem_image.mpr ⟨3, Finset.mem_univ _, e.symm⟩)

/-- When region 5 is left each of its arrays holds what the exit contents say: an input array is never written and was read off
    the entry contents, which the exit contents keep off `main_v49`; the output array `main_v49` holds the write-backs. -/
theorem hF5 (c : Dev nD) (w : Fin 3) : (dat5 (T11 m) c).arrAt w cfg5.N = T12 m c (Pipeline.arrRef spec5 w) := by
  by_cases hw : w = 2
  · subst hw; exact (W12_out m c).symm
  · have hne : Pipeline.arrRef spec5 w ≠ main_v49 := by revert w; decide
    have hin : (cfg5.win w).isOut = false := by revert w; decide
    exact ((dat5 (T11 m) c).arrAt_in w hin _).trans ((A_eq5 (T11 m) c w).trans (W12_of_ne m c _ hne).symm)
/-- Off region 5's arrays the exit contents are the entry contents. -/
theorem hrest5 (c : Dev nD) : ∀ b, b ∉ Finset.univ.image (Pipeline.arrRef spec5) → T12 m c b = T11 m c b :=
  fun b hb => W12_of_ne m c b fun e => hb (Finset.mem_image.mpr ⟨2, Finset.mem_univ _, e.symm⟩)

/-- When region 6 is left each of its arrays holds what the exit contents say: an input array is never written and was read off
    the entry contents, which the exit contents keep off `main_v59`; the output array `main_v59` holds the write-backs. -/
theorem hF6 (c : Dev nD) (w : Fin 6) : (dat6 (T13 m) c).arrAt w cfg6.N = T14 m c (Pipeline.arrRef spec6 w) := by
  by_cases hw : w = 5
  · subst hw; exact (W14_out m c).symm
  · have hne : Pipeline.arrRef spec6 w ≠ main_v59 := by revert w; decide
    have hin : (cfg6.win w).isOut = false := by revert w; decide
    exact ((dat6 (T13 m) c).arrAt_in w hin _).trans ((A_eq6 (T13 m) c w).trans (W14_of_ne m c _ hne).symm)
/-- Off region 6's arrays the exit contents are the entry contents. -/
theorem hrest6 (c : Dev nD) : ∀ b, b ∉ Finset.univ.image (Pipeline.arrRef spec6) → T14 m c b = T13 m c b :=
  fun b hb => W14_of_ne m c b fun e => hb (Finset.mem_image.mpr ⟨5, Finset.mem_univ _, e.symm⟩)

/-- When region 7 is left each of its arrays holds what the exit contents say: an input array is never written and was read off
    the entry contents, which the exit contents keep off `main_v61`; the output array `main_v61` holds the write-backs. -/
theorem hF7 (c : Dev nD) (w : Fin 4) : (dat7 (T15 m) c).arrAt w cfg7.N = T16 m c (Pipeline.arrRef spec7 w) := by
  by_cases hw : w = 3
  · subst hw; exact (W16_out m c).symm
  · have hne : Pipeline.arrRef spec7 w ≠ main_v61 := by revert w; decide
    have hin : (cfg7.win w).isOut = false := by revert w; decide
    exact ((dat7 (T15 m) c).arrAt_in w hin _).trans ((A_eq7 (T15 m) c w).trans (W16_of_ne m c _ hne).symm)
/-- Off region 7's arrays the exit contents are the entry contents. -/
theorem hrest7 (c : Dev nD) : ∀ b, b ∉ Finset.univ.image (Pipeline.arrRef spec7) → T16 m c b = T15 m c b :=
  fun b hb => W16_of_ne m c b fun e => hb (Finset.mem_image.mpr ⟨3, Finset.mem_univ _, e.symm⟩)

/-! ## The regions as segments -/

-- a library lemma stated over the pinned configuration unifies with the printed one only when unification may unfold plain
-- definitions in a metavariable's type
set_option backward.isDefEq.respectTransparency.types false in
/-- REGION 0 over the thread state: entered from every unscoped buffer at `W3` beside `R`, left at `W4` beside `R`. -/
def reg0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ noPairs noLevel 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := region_entry c (W3 m c)
    ((BIBase.Entails.of_eq (Pipeline.unscopedBufs_held c (W3 m c)).symm).trans
      (Pipeline.arrays_of_unscopedBufs (p := 0) (pcfgs (F := F)) adm (pdats m) launch0.win launch0.arr_whole c
        ((pdats m 0 c).share_full fun _ => rfl) (T3 m c) fun _ => rfl))
    (prefHeld_of_no_table _ rfl c _ _)
    (owesAt_of_owes (pdats m 0 c) 0 rfl rfl)
  hin c := ΦA_of_parts spec0 c
  hout c := by rw [Pipeline.ownSems0_none]; exact parts_of_ΦA spec0 c
  hexit c := region_exit c (W4 m c)
    ((Pipeline.unscopedBufs_of_arrays (p := 0) (pcfgs (F := F)) adm (Ix := Unit) (Name := ℕ) (U := UR sig nD τ) (Lvl := ℕ)
        launch0.win launch0.arr_whole c (pdats m) ((pdats m 0 c).share_full fun _ => rfl)
        (T3 m c) (T4 m c) ((pdats m 0 c).arrAt · cfg0.N) (hF0 m c) (hrest0 m c)).trans
      (BIBase.Entails.of_eq (Pipeline.unscopedBufs_held c (W4 m c))))
    (owes_of_owesAt (pdats m 0 c) (Fin.last _) rfl)

-- a library lemma stated over the pinned configuration unifies with the printed one only when unification may unfold plain
-- definitions in a metavariable's type
set_option backward.isDefEq.respectTransparency.types false in
/-- REGION 1 over the thread state: entered from every unscoped buffer at `W5` beside `R`, left at `W6` beside `R`. -/
def reg1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ noPairs noLevel 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (T5 m c)
  hentry c := region_entry c (W5 m c)
    ((BIBase.Entails.of_eq (Pipeline.unscopedBufs_held c (W5 m c)).symm).trans
      (Pipeline.arrays_of_unscopedBufs (p := 1) (pcfgs (F := F)) adm (pdats m) launch1.win launch1.arr_whole c
        ((pdats m 1 c).share_full fun _ => rfl) (T5 m c) fun _ => rfl))
    (prefHeld_of_no_table _ rfl c _ _)
    (owesAt_of_owes (pdats m 1 c) 0 rfl rfl)
  hin c := ΦA_of_parts spec1 c
  hout c := by rw [Pipeline.ownSems0_none]; exact parts_of_ΦA spec1 c
  hexit c := region_exit c (W6 m c)
    ((Pipeline.unscopedBufs_of_arrays (p := 1) (pcfgs (F := F)) adm (Ix := Unit) (Name := ℕ) (U := UR sig nD τ) (Lvl := ℕ)
        launch1.win launch1.arr_whole c (pdats m) ((pdats m 1 c).share_full fun _ => rfl)
        (T5 m c) (T6 m c) ((pdats m 1 c).arrAt · cfg1.N) (hF1 m c) (hrest1 m c)).trans
      (BIBase.Entails.of_eq (Pipeline.unscopedBufs_held c (W6 m c))))
    (owes_of_owesAt (pdats m 1 c) (Fin.last _) rfl)

-- a library lemma stated over the pinned configuration unifies with the printed one only when unification may unfold plain
-- definitions in a metavariable's type
set_option backward.isDefEq.respectTransparency.types false in
/-- REGION 2 over the thread state: entered from every unscoped buffer at `W6` beside `R`, left at `W7` beside `R`. -/
def reg2 : Pipeline.RegionSeg (pcfgs (F := F)) adm (pdats m) () defs₀ Variants.none noPairs noLevel 2 where
  win := launch2.win.to₀
  block_pos := launch2.block_pos
  stage_whole := launch2.stage_whole
  K := PEmpty
  osem k := k.elim
  ho := Pipeline.OwnSemFacts.none _
  hbody c := (body_obligation2 (T6 m) c).loose
  hwaits := Pipeline.hwaits_of_owed_zero _ _ _ _ noPairs noLevel 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (T6 m c)
  hentry c := region_entry c (W6 m c)
    ((BIBase.Entails.of_eq (Pipeline.unscopedBufs_held c (W6 m c)).symm).trans
      (Pipeline.arrays_of_unscopedBufs (p := 2) (pcfgs (F := F)) adm (pdats m) launch2.win launch2.arr_whole c
        ((pdats m 2 c).share_full fun _ => rfl) (T6 m c) fun _ => rfl))
    (prefHeld_of_no_table _ rfl c _ _)
    (owesAt_of_owes (pdats m 2 c) 0 rfl rfl)
  hin c := (ΦA_of_parts spec2 c).trans (hin2 (T6 m) c)
  hout c := by rw [Pipeline.ownSems0_none]; exact (hout2 (T6 m) c).trans (parts_of_ΦA spec2 c)
  hexit c := region_exit c (W7 m c)
    ((Pipeline.unscopedBufs_of_arrays (p := 2) (pcfgs (F := F)) adm (Ix := Unit) (Name := ℕ) (U := UR sig nD τ) (Lvl := ℕ)
        launch2.win launch2.arr_whole c (pdats m) ((pdats m 2 c).share_full fun _ => rfl)
        (T6 m c) (T7 m c) ((pdats m 2 c).arrAt · cfg2.N) (hF2 m c) (hrest2 m c)).trans
      (BIBase.Entails.of_eq (Pipeline.unscopedBufs_held c (W7 m c))))
    (owes_of_owesAt (pdats m 2 c) (Fin.last _) rfl)

-- a library lemma stated over the pinned configuration unifies with the printed one only when unification may unfold plain
-- definitions in a metavariable's type
set_option backward.isDefEq.respectTransparency.types false in
/-- REGION 3 over the thread state: entered from every unscoped buffer at `W8` beside `R`, left at `W9` beside `R`. -/
def reg3 : Pipeline.RegionSeg (pcfgs (F := F)) adm (pdats m) () defs₀ Variants.none noPairs noLevel 3 where
  win := launch3.win.to₀
  block_pos := launch3.block_pos
  stage_whole := launch3.stage_whole
  K := PEmpty
  osem k := k.elim
  ho := Pipeline.OwnSemFacts.none _
  hbody c := (body_obligation3 (T8 m) c).loose
  hwaits := Pipeline.hwaits_of_owed_zero _ _ _ _ noPairs noLevel 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (T8 m c)
  hentry c := region_entry c (W8 m c)
    ((BIBase.Entails.of_eq (Pipeline.unscopedBufs_held c (W8 m c)).symm).trans
      (Pipeline.arrays_of_unscopedBufs (p := 3) (pcfgs (F := F)) adm (pdats m) launch3.win launch3.arr_whole c
        ((pdats m 3 c).share_full fun _ => rfl) (T8 m c) fun _ => rfl))
    (prefHeld_of_no_table _ rfl c _ _)
    (owesAt_of_owes (pdats m 3 c) 0 rfl rfl)
  hin c := ΦA_of_parts spec3 c
  hout c := by rw [Pipeline.ownSems0_none]; exact parts_of_ΦA spec3 c
  hexit c := region_exit c (W9 m c)
    ((Pipeline.unscopedBufs_of_arrays (p := 3) (pcfgs (F := F)) adm (Ix := Unit) (Name := ℕ) (U := UR sig nD τ) (Lvl := ℕ)
        launch3.win launch3.arr_whole c (pdats m) ((pdats m 3 c).share_full fun _ => rfl)
        (T8 m c) (T9 m c) ((pdats m 3 c).arrAt · cfg3.N) (hF3 m c) (hrest3 m c)).trans
      (BIBase.Entails.of_eq (Pipeline.unscopedBufs_held c (W9 m c))))
    (owes_of_owesAt (pdats m 3 c) (Fin.last _) rfl)

-- a library lemma stated over the pinned configuration unifies with the printed one only when unification may unfold plain
-- definitions in a metavariable's type
set_option backward.isDefEq.respectTransparency.types false in
/-- REGION 4 over the thread state: entered from every unscoped buffer at `W10` beside `R`, left at `W11` beside `R`. -/
def reg4 : Pipeline.RegionSeg (pcfgs (F := F)) adm (pdats m) () defs₀ Variants.none noPairs noLevel 4 where
  win := launch4.win.to₀
  block_pos := launch4.block_pos
  stage_whole := launch4.stage_whole
  K := PEmpty
  osem k := k.elim
  ho := Pipeline.OwnSemFacts.none _
  hbody c := (body_obligation4 (T10 m) c).loose
  hwaits := Pipeline.hwaits_of_owed_zero _ _ _ _ noPairs noLevel 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (T10 m c)
  hentry c := region_entry c (W10 m c)
    ((BIBase.Entails.of_eq (Pipeline.unscopedBufs_held c (W10 m c)).symm).trans
      (Pipeline.arrays_of_unscopedBufs (p := 4) (pcfgs (F := F)) adm (pdats m) launch4.win launch4.arr_whole c
        ((pdats m 4 c).share_full fun _ => rfl) (T10 m c) fun _ => rfl))
    (prefHeld_of_no_table _ rfl c _ _)
    (owesAt_of_owes (pdats m 4 c) 0 rfl rfl)
  hin c := ΦA_of_parts spec4 c
  hout c := by rw [Pipeline.ownSems0_none]; exact parts_of_ΦA spec4 c
  hexit c := region_exit c (W11 m c)
    ((Pipeline.unscopedBufs_of_arrays (p := 4) (pcfgs (F := F)) adm (Ix := Unit) (Name := ℕ) (U := UR sig nD τ) (Lvl := ℕ)
        launch4.win launch4.arr_whole c (pdats m) ((pdats m 4 c).share_full fun _ => rfl)
        (T10 m c) (T11 m c) ((pdats m 4 c).arrAt · cfg4.N) (hF4 m c) (hrest4 m c)).trans
      (BIBase.Entails.of_eq (Pipeline.unscopedBufs_held c (W11 m c))))
    (owes_of_owesAt (pdats m 4 c) (Fin.last _) rfl)

-- a library lemma stated over the pinned configuration unifies with the printed one only when unification may unfold plain
-- definitions in a metavariable's type
set_option backward.isDefEq.respectTransparency.types false in
/-- REGION 5 over the thread state: entered from every unscoped buffer at `W11` beside `R`, left at `W12` beside `R`. -/
def reg5 : Pipeline.RegionSeg (pcfgs (F := F)) adm (pdats m) () defs₀ Variants.none noPairs noLevel 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ noPairs noLevel 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (T11 m c)
  hentry c := region_entry c (W11 m c)
    ((BIBase.Entails.of_eq (Pipeline.unscopedBufs_held c (W11 m c)).symm).trans
      (Pipeline.arrays_of_unscopedBufs (p := 5) (pcfgs (F := F)) adm (pdats m) launch5.win launch5.arr_whole c
        ((pdats m 5 c).share_full fun _ => rfl) (T11 m c) fun _ => rfl))
    (prefHeld_of_no_table _ rfl c _ _)
    (owesAt_of_owes (pdats m 5 c) 0 rfl rfl)
  hin c := (ΦA_of_parts spec5 c).trans (hin5 (T11 m) c)
  hout c := by rw [Pipeline.ownSems0_none]; exact (hout5 (T11 m) c).trans (parts_of_ΦA spec5 c)
  hexit c := region_exit c (W12 m c)
    ((Pipeline.unscopedBufs_of_arrays (p := 5) (pcfgs (F := F)) adm (Ix := Unit) (Name := ℕ) (U := UR sig nD τ) (Lvl := ℕ)
        launch5.win launch5.arr_whole c (pdats m) ((pdats m 5 c).share_full fun _ => rfl)
        (T11 m c) (T12 m c) ((pdats m 5 c).arrAt · cfg5.N) (hF5 m c) (hrest5 m c)).trans
      (BIBase.Entails.of_eq (Pipeline.unscopedBufs_held c (W12 m c))))
    (owes_of_owesAt (pdats m 5 c) (Fin.last _) rfl)

-- a library lemma stated over the pinned configuration unifies with the printed one only when unification may unfold plain
-- definitions in a metavariable's type
set_option backward.isDefEq.respectTransparency.types false in
/-- REGION 6 over the thread state: entered from every unscoped buffer at `W13` beside `R`, left at `W14` beside `R`. -/
def reg6 : Pipeline.RegionSeg (pcfgs (F := F)) adm (pdats m) () defs₀ Variants.none noPairs noLevel 6 where
  win := launch6.win.to₀
  block_pos := launch6.block_pos
  stage_whole := launch6.stage_whole
  K := PEmpty
  osem k := k.elim
  ho := Pipeline.OwnSemFacts.none _
  hbody c := (body_obligation6 (T13 m) c).loose
  hwaits := Pipeline.hwaits_of_owed_zero _ _ _ _ noPairs noLevel 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (T13 m c)
  hentry c := region_entry c (W13 m c)
    ((BIBase.Entails.of_eq (Pipeline.unscopedBufs_held c (W13 m c)).symm).trans
      (Pipeline.arrays_of_unscopedBufs (p := 6) (pcfgs (F := F)) adm (pdats m) launch6.win launch6.arr_whole c
        ((pdats m 6 c).share_full fun _ => rfl) (T13 m c) fun _ => rfl))
    (prefHeld_of_no_table _ rfl c _ _)
    (owesAt_of_owes (pdats m 6 c) 0 rfl rfl)
  hin c := ΦA_of_parts spec6 c
  hout c := by rw [Pipeline.ownSems0_none]; exact parts_of_ΦA spec6 c
  hexit c := region_exit c (W14 m c)
    ((Pipeline.unscopedBufs_of_arrays (p := 6) (pcfgs (F := F)) adm (Ix := Unit) (Name := ℕ) (U := UR sig nD τ) (Lvl := ℕ)
        launch6.win launch6.arr_whole c (pdats m) ((pdats m 6 c).share_full fun _ => rfl)
        (T13 m c) (T14 m c) ((pdats m 6 c).arrAt · cfg6.N) (hF6 m c) (hrest6 m c)).trans
      (BIBase.Entails.of_eq (Pipeline.unscopedBufs_held c (W14 m c))))
    (owes_of_owesAt (pdats m 6 c) (Fin.last _) rfl)

-- a library lemma stated over the pinned configuration unifies with the printed one only when unification may unfold plain
-- definitions in a metavariable's type
set_option backward.isDefEq.respectTransparency.types false in
/-- REGION 7 over the thread state: entered from every unscoped buffer at `W15` beside `R`, left at `W16` beside `R`. -/
def reg7 : Pipeline.RegionSeg (pcfgs (F := F)) adm (pdats m) () defs₀ Variants.none noPairs noLevel 7 where
  win := launch7.win.to₀
  block_pos := launch7.block_pos
  stage_whole := launch7.stage_whole
  K := PEmpty
  osem k := k.elim
  ho := Pipeline.OwnSemFacts.none _
  hbody c := (body_obligation7 (T15 m) c).loose
  hwaits := Pipeline.hwaits_of_owed_zero _ _ _ _ noPairs noLevel 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (T15 m c)
  hentry c := region_entry c (W15 m c)
    ((BIBase.Entails.of_eq (Pipeline.unscopedBufs_held c (W15 m c)).symm).trans
      (Pipeline.arrays_of_unscopedBufs (p := 7) (pcfgs (F := F)) adm (pdats m) launch7.win launch7.arr_whole c
        ((pdats m 7 c).share_full fun _ => rfl) (T15 m c) fun _ => rfl))
    (prefHeld_of_no_table _ rfl c _ _)
    (owesAt_of_owes (pdats m 7 c) 0 rfl rfl)
  hin c := ΦA_of_parts spec7 c
  hout c := by rw [Pipeline.ownSems0_none]; exact parts_of_ΦA spec7 c
  hexit c := region_exit c (W16 m c)
    ((Pipeline.unscopedBufs_of_arrays (p := 7) (pcfgs (F := F)) adm (Ix := Unit) (Name := ℕ) (U := UR sig nD τ) (Lvl := ℕ)
        launch7.win launch7.arr_whole c (pdats m) ((pdats m 7 c).share_full fun _ => rfl)
        (T15 m c) (T16 m c) ((pdats m 7 c).arrAt · cfg7.N) (hF7 m c) (hrest7 m c)).trans
      (BIBase.Entails.of_eq (Pipeline.unscopedBufs_held c (W16 m c))))
    (owes_of_owesAt (pdats m 7 c) (Fin.last _) rfl)

end Cert.Kernel.Hand

end
-- ==== Proof.KB.Run.lean ====
/-
  The launch. @main, run from any memory with every semaphore counter at zero, terminates under every weakly fair schedule, and
  in every final memory each core's result array `main_v63` holds the fold's last contents `W17 m c main_v63` while the ten argument
  arrays hold what they were launched with.

  This is the conditional frame (with the result array named in its post) at: no user index, no level assignment, nothing owed at
  launch, no ghost resource; the launch element of the pipeline library at every pipeline's staging cells; the rest `R` beside the
  buffers at every item's boundary; the eight region records; and, for the frame's unknown contents, the fold itself — so that
  every boundary's valuation is the fold's (`VJ_eq`) and each record is entered and left exactly where the frame asks.
-/
import proofs.«408707_j33406255628688_2_alg».proof.Proof.KB.Segs
import proofs.«408707_j33406255628688_2_alg».proof.Proof.KB.RunV

-- decided memberships and inequalities over the program's references recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipeline library's, at every pipeline's staging cells. -/
abbrev launchElt : UR sig nD τ := initOf (Pipeline.cells cfgs cellOf_inj) (Pipeline.launchToks cfgs cellOf_inj)

/-- The launch element is the library's own, and no core is dealt a ghost resource. -/
theorem launchElt_yields :
    (ownU launchElt : sProp 𝕄) ⊢ |={Set.univ}=> iprop(BI.own (emb₁ launchElt) ∗ bigSep Finset.univ fun _ : Dev nD => (BI.emp : sProp 𝕄)) := by
  have hown : (ownU launchElt : sProp 𝕄) ⊢ BI.own (emb₁ launchElt) := .rfl
  have hnone : (BI.emp : sProp 𝕄) ⊢ bigSep Finset.univ (fun _ : Dev nD => (BI.emp : sProp 𝕄)) := by rw [BI.bigSep_emp_const]
  iintro Hu; imodintro
  isplitl [Hu]
  · iapply hown; iexact Hu
  iapply hnone; iempintro

-- the launch theorem's implicit arguments are found by unifying its conclusion with this one, which takes unfolding plain
-- definitions in a metavariable's type
set_option backward.isDefEq.respectTransparency.types false in
/-- The run, its post read at the conditional frame's last valuation taken at the fold. -/
theorem run_main_at_frame : θ_run defs (onTc (τ := τ) (main (F := F))) ⟨m, fun _ => 0, ρ⟩ (fun r => ∀ c : Dev nD,
      r.2.mem ((c.tc : Thread nD τ).loc main_v63) = V17 m (outsX m) c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine frame_cond_v m emb₁ () Variants.none noPairs noLevel (fun _ _ => rfl) ρ (outsX m) (pdats m)
    0 (fun _ => iprop(emp)) launchElt launchElt_yields (fun _ => R) ?rest0 ?rest8
    (reg0 m) ?pre0 ?post0
    (reg1 m) ?pre1 ?post1
    (reg2 m) ?pre2 ?post2
    (reg3 m) ?pre3 ?post3
    (reg4 m) ?pre4 ?post4
    (reg5 m) ?pre5 ?post5
    (reg6 m) ?pre6 ?post6
    (reg7 m) ?pre7 ?post7
  case rest0 =>
    -- what the launch deals a core, the buffers apart, makes `R`: its generator register and its `owes`, at nothing
    refine Pipeline.initEach noPairs noLevel fun c => ?_
    iintro ⟨⟨-, Howes, -, Hreg, -⟩, -⟩
    imodintro
    isplitl [Hreg]; · iexists _; iexact Hreg
    iexists ∅; iexact Howes
  case rest8 =>
    intro c; iintro ⟨-, Howes⟩; iexact Howes
  case pre0 => intro c; exact .rfl
  case post0 => intro c; rw [V4_eq]; exact .rfl
  case pre1 => intro c; rw [V5_eq]; exact .rfl
  case post1 => intro c; rw [V6_eq]; exact .rfl
  case pre2 => intro c; rw [V6_eq]; exact .rfl
  case post2 => intro c; rw [V7_eq]; exact .rfl
  case pre3 => intro c; rw [V8_eq]; exact .rfl
  case post3 => intro c; rw [V9_eq]; exact .rfl
  case pre4 => intro c; rw [V10_eq]; exact .rfl
  case post4 => intro c; rw [V11_eq]; exact .rfl
  case pre5 => intro c; rw [V11_eq]; exact .rfl
  case post5 => intro c; rw [V12_eq]; exact .rfl
  case pre6 => intro c; rw [V13_eq]; exact .rfl
  case post6 => intro c; rw [V14_eq]; exact .rfl
  case pre7 => intro c; rw [V15_eq]; exact .rfl
  case post7 => intro c; rw [V16_eq]; exact .rfl

/-- THE RUN: every weakly fair execution of @main from memory `m` with zero counters terminates, and every final memory holds, on
    every core, the result array at the fold's last contents and each argument array as launched. -/
theorem run_main : θ_run defs (onTc (τ := τ) (main (F := F))) ⟨m, fun _ => 0, ρ⟩ (fun r => ∀ c : Dev nD,
      r.2.mem ((c.tc : Thread nD τ).loc main_v63) = W17 m c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have hlast : V17 m (outsX m) = W17 m := funext fun c => V17_eq m c
  have h := run_main_at_frame m ρ
  rw [hlast] at h
  exact h

end Cert.Kernel.Hand

end
-- ==== Proof.KV.Pay.lean ====
/-
  The arithmetic of each kernel body read at one element, over the extended reals.

  Every body is a dense layer on whole blocks: one or two matrix products into a zero accumulator, a bias row
  broadcast down the rows, and (all but the last) a rectifier `max · 0`; the adjacency body adds one product to the
  carried sum.  Read at the element `(p, q)` a product is the sum over the contracted coordinate `t` of the left
  operand at `(p, t)` times the right at `(t, q)`; the same-shape casts and the changes of float format are the
  identity on extended reals; the zero word is `0`.
-/
import proofs.«408707_j33406255628688_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Idealize.ShloMosaic Idealize.ShloMosaic.ValueIdx Idealize.SL.Sem

/-! ## The product [1280, 256] × [256, 512] at an element -/

theorem lhs_d0_0 (i : S1280x512.Idx) (q : dot_S1280x256_S256x512_S1280x512_1_0_0_1_n_n.contr.Idx) :
    (dot_S1280x256_S256x512_S1280x512_1_0_0_1_n_n.lhsIdx i q 0).val = (i 0).val := by
  unfold DotDims.lhsIdx
  rw [dif_neg (show ¬(0 : Fin S1280x256.rank) ∈ dot_S1280x256_S256x512_S1280x512_1_0_0_1_n_n.lhsBatch by decide), dif_pos (show (0 : Fin S1280x256.rank) ∈ dot_S1280x256_S256x512_S1280x512_1_0_0_1_n_n.lhsNonContracting by decide)]
  rfl
theorem lhs_d0_1 (i : S1280x512.Idx) (q : dot_S1280x256_S256x512_S1280x512_1_0_0_1_n_n.contr.Idx) :
    (dot_S1280x256_S256x512_S1280x512_1_0_0_1_n_n.lhsIdx i q 1).val = (q ⟨0, by decide⟩).val :=
  dot_S1280x256_S256x512_S1280x512_1_0_0_1_n_n.lhsIdx_val_of_single rfl i q
theorem rhs_d0_0 (i : S1280x512.Idx) (q : dot_S1280x256_S256x512_S1280x512_1_0_0_1_n_n.contr.Idx) :
    (dot_S1280x256_S256x512_S1280x512_1_0_0_1_n_n.rhsIdx i q 0).val = (q ⟨0, by decide⟩).val :=
  dot_S1280x256_S256x512_S1280x512_1_0_0_1_n_n.rhsIdx_val_of_single rfl i q
theorem rhs_d0_1 (i : S1280x512.Idx) (q : dot_S1280x256_S256x512_S1280x512_1_0_0_1_n_n.contr.Idx) :
    (dot_S1280x256_S256x512_S1280x512_1_0_0_1_n_n.rhsIdx i q 1).val = (i 1).val := by
  unfold DotDims.rhsIdx
  rw [dif_neg (show ¬(1 : Fin S256x512.rank) ∈ dot_S1280x256_S256x512_S1280x512_1_0_0_1_n_n.rhsBatch by decide), dif_pos (show (1 : Fin S256x512.rank) ∈ dot_S1280x256_S256x512_S1280x512_1_0_0_1_n_n.rhsNonContracting by decide)]
  rfl

/-- The product into the zero accumulator at `(p, q)`: the sum over the 256 contracted coordinates. -/
theorem mm0 {φ₁ φ₂ : FTy} (prec : Option ContractPrecision) (a : FVec Ideal S1280x256 φ₁) (b : FVec Ideal S256x512 φ₂)
    (p : Fin 1280) (q : Fin 512) :
    matmul (F := Ideal) dot_S1280x256_S256x512_S1280x512_1_0_0_1_n_n prec a b (constant (F := Ideal) S1280x512 .f32 0x00000000#32) (ix2 p q)
      = ∑ t : Fin 256, a (ix2 p t) * b (ix2 t q) := by
  simp only [matmul]
  rw [Ideal.matmul_constant_zero_apply, ← Equiv.sum_comp (contrEquiv1 dot_S1280x256_S256x512_S1280x512_1_0_0_1_n_n 256 rfl rfl).symm]
  refine Finset.sum_congr rfl fun k _ => ?_
  have hk := contrEquiv1_symm_val dot_S1280x256_S256x512_S1280x512_1_0_0_1_n_n 256 rfl rfl k
  have el : dot_S1280x256_S256x512_S1280x512_1_0_0_1_n_n.lhsIdx (ix2 p q) ((contrEquiv1 dot_S1280x256_S256x512_S1280x512_1_0_0_1_n_n 256 rfl rfl).symm k) = ix2 p k := funext fun a => Fin.ext (by
    match a with
    | ⟨0, _⟩ => exact lhs_d0_0 _ _
    | ⟨1, _⟩ => exact (lhs_d0_1 _ _).trans hk)
  have er : dot_S1280x256_S256x512_S1280x512_1_0_0_1_n_n.rhsIdx (ix2 p q) ((contrEquiv1 dot_S1280x256_S256x512_S1280x512_1_0_0_1_n_n 256 rfl rfl).symm k) = ix2 k q := funext fun a => Fin.ext (by
    match a with
    | ⟨0, _⟩ => exact (rhs_d0_0 _ _).trans hk
    | ⟨1, _⟩ => exact rhs_d0_1 _ _)
  rw [el, er]

/-! ## The product [1280, 512] × [512, 512] at an element -/

theorem lhs_d1_0 (i : S1280x512.Idx) (q : dot_S1280x512_S512x512_S1280x512_1_0_0_1_n_n.contr.Idx) :
    (dot_S1280x512_S512x512_S1280x512_1_0_0_1_n_n.lhsIdx i q 0).val = (i 0).val := by
  unfold DotDims.lhsIdx
  rw [dif_neg (show ¬(0 : Fin S1280x512.rank) ∈ dot_S1280x512_S512x512_S1280x512_1_0_0_1_n_n.lhsBatch by decide), dif_pos (show (0 : Fin S1280x512.rank) ∈ dot_S1280x512_S512x512_S1280x512_1_0_0_1_n_n.lhsNonContracting by decide)]
  rfl
theorem lhs_d1_1 (i : S1280x512.Idx) (q : dot_S1280x512_S512x512_S1280x512_1_0_0_1_n_n.contr.Idx) :
    (dot_S1280x512_S512x512_S1280x512_1_0_0_1_n_n.lhsIdx i q 1).val = (q ⟨0, by decide⟩).val :=
  dot_S1280x512_S512x512_S1280x512_1_0_0_1_n_n.lhsIdx_val_of_single rfl i q
theorem rhs_d1_0 (i : S1280x512.Idx) (q : dot_S1280x512_S512x512_S1280x512_1_0_0_1_n_n.contr.Idx) :
    (dot_S1280x512_S512x512_S1280x512_1_0_0_1_n_n.rhsIdx i q 0).val = (q ⟨0, by decide⟩).val :=
  dot_S1280x512_S512x512_S1280x512_1_0_0_1_n_n.rhsIdx_val_of_single rfl i q
theorem rhs_d1_1 (i : S1280x512.Idx) (q : dot_S1280x512_S512x512_S1280x512_1_0_0_1_n_n.contr.Idx) :
    (dot_S1280x512_S512x512_S1280x512_1_0_0_1_n_n.rhsIdx i q 1).val = (i 1).val := by
  unfold DotDims.rhsIdx
  rw [dif_neg (show ¬(1 : Fin S512x512.rank) ∈ dot_S1280x512_S512x512_S1280x512_1_0_0_1_n_n.rhsBatch by decide), dif_pos (show (1 : Fin S512x512.rank) ∈ dot_S1280x512_S512x512_S1280x512_1_0_0_1_n_n.rhsNonContracting by decide)]
  rfl

/-- The product into the zero accumulator at `(p, q)`: the sum over the 512 contracted coordinates. -/
theorem mm1 {φ₁ φ₂ : FTy} (prec : Option ContractPrecision) (a : FVec Ideal S1280x512 φ₁) (b : FVec Ideal S512x512 φ₂)
    (p : Fin 1280) (q : Fin 512) :
    matmul (F := Ideal) dot_S1280x512_S512x512_S1280x512_1_0_0_1_n_n prec a b (constant (F := Ideal) S1280x512 .f32 0x00000000#32) (ix2 p q)
      = ∑ t : Fin 512, a (ix2 p t) * b (ix2 t q) := by
  simp only [matmul]
  rw [Ideal.matmul_constant_zero_apply, ← Equiv.sum_comp (contrEquiv1 dot_S1280x512_S512x512_S1280x512_1_0_0_1_n_n 512 rfl rfl).symm]
  refine Finset.sum_congr rfl fun k _ => ?_
  have hk := contrEquiv1_symm_val dot_S1280x512_S512x512_S1280x512_1_0_0_1_n_n 512 rfl rfl k
  have el : dot_S1280x512_S512x512_S1280x512_1_0_0_1_n_n.lhsIdx (ix2 p q) ((contrEquiv1 dot_S1280x512_S512x512_S1280x512_1_0_0_1_n_n 512 rfl rfl).symm k) = ix2 p k := funext fun a => Fin.ext (by
    match a with
    | ⟨0, _⟩ => exact lhs_d1_0 _ _
    | ⟨1, _⟩ => exact (lhs_d1_1 _ _).trans hk)
  have er : dot_S1280x512_S512x512_S1280x512_1_0_0_1_n_n.rhsIdx (ix2 p q) ((contrEquiv1 dot_S1280x512_S512x512_S1280x512_1_0_0_1_n_n 512 rfl rfl).symm k) = ix2 k q := funext fun a => Fin.ext (by
    match a with
    | ⟨0, _⟩ => exact (rhs_d1_0 _ _).trans hk
    | ⟨1, _⟩ => exact rhs_d1_1 _ _)
  rw [el, er]

/-! ## The product [1280, 1280] × [1280, 512] at an element -/

theorem lhs_d2_0 (i : S1280x512.Idx) (q : dot_S1280x1280_S1280x512_S1280x512_1_0_0_1_n_n.contr.Idx) :
    (dot_S1280x1280_S1280x512_S1280x512_1_0_0_1_n_n.lhsIdx i q 0).val = (i 0).val := by
  unfold DotDims.lhsIdx
  rw [dif_neg (show ¬(0 : Fin S1280x1280.rank) ∈ dot_S1280x1280_S1280x512_S1280x512_1_0_0_1_n_n.lhsBatch by decide), dif_pos (show (0 : Fin S1280x1280.rank) ∈ dot_S1280x1280_S1280x512_S1280x512_1_0_0_1_n_n.lhsNonContracting by decide)]
  rfl
theorem lhs_d2_1 (i : S1280x512.Idx) (q : dot_S1280x1280_S1280x512_S1280x512_1_0_0_1_n_n.contr.Idx) :
    (dot_S1280x1280_S1280x512_S1280x512_1_0_0_1_n_n.lhsIdx i q 1).val = (q ⟨0, by decide⟩).val :=
  dot_S1280x1280_S1280x512_S1280x512_1_0_0_1_n_n.lhsIdx_val_of_single rfl i q
theorem rhs_d2_0 (i : S1280x512.Idx) (q : dot_S1280x1280_S1280x512_S1280x512_1_0_0_1_n_n.contr.Idx) :
    (dot_S1280x1280_S1280x512_S1280x512_1_0_0_1_n_n.rhsIdx i q 0).val = (q ⟨0, by decide⟩).val :=
  dot_S1280x1280_S1280x512_S1280x512_1_0_0_1_n_n.rhsIdx_val_of_single rfl i q
theorem rhs_d2_1 (i : S1280x512.Idx) (q : dot_S1280x1280_S1280x512_S1280x512_1_0_0_1_n_n.contr.Idx) :
    (dot_S1280x1280_S1280x512_S1280x512_1_0_0_1_n_n.rhsIdx i q 1).val = (i 1).val := by
  unfold DotDims.rhsIdx
  rw [dif_neg (show ¬(1 : Fin S1280x512.rank) ∈ dot_S1280x1280_S1280x512_S1280x512_1_0_0_1_n_n.rhsBatch by decide), dif_pos (show (1 : Fin S1280x512.rank) ∈ dot_S1280x1280_S1280x512_S1280x512_1_0_0_1_n_n.rhsNonContracting by decide)]
  rfl

/-- The product into the zero accumulator at `(p, q)`: the sum over the 1280 contracted coordinates. -/
theorem mm2 {φ₁ φ₂ : FTy} (prec : Option ContractPrecision) (a : FVec Ideal S1280x1280 φ₁) (b : FVec Ideal S1280x512 φ₂)
    (p : Fin 1280) (q : Fin 512) :
    matmul (F := Ideal) dot_S1280x1280_S1280x512_S1280x512_1_0_0_1_n_n prec a b (constant (F := Ideal) S1280x512 .f32 0x00000000#32) (ix2 p q)
      = ∑ t : Fin 1280, a (ix2 p t) * b (ix2 t q) := by
  simp only [matmul]
  rw [Ideal.matmul_constant_zero_apply, ← Equiv.sum_comp (contrEquiv1 dot_S1280x1280_S1280x512_S1280x512_1_0_0_1_n_n 1280 rfl rfl).symm]
  refine Finset.sum_congr rfl fun k _ => ?_
  have hk := contrEquiv1_symm_val dot_S1280x1280_S1280x512_S1280x512_1_0_0_1_n_n 1280 rfl rfl k
  have el : dot_S1280x1280_S1280x512_S1280x512_1_0_0_1_n_n.lhsIdx (ix2 p q) ((contrEquiv1 dot_S1280x1280_S1280x512_S1280x512_1_0_0_1_n_n 1280 rfl rfl).symm k) = ix2 p k := funext fun a => Fin.ext (by
    match a with
    | ⟨0, _⟩ => exact lhs_d2_0 _ _
    | ⟨1, _⟩ => exact (lhs_d2_1 _ _).trans hk)
  have er : dot_S1280x1280_S1280x512_S1280x512_1_0_0_1_n_n.rhsIdx (ix2 p q) ((contrEquiv1 dot_S1280x1280_S1280x512_S1280x512_1_0_0_1_n_n 1280 rfl rfl).symm k) = ix2 k q := funext fun a => Fin.ext (by
    match a with
    | ⟨0, _⟩ => exact (rhs_d2_0 _ _).trans hk
    | ⟨1, _⟩ => exact rhs_d2_1 _ _)
  rw [el, er]

/-! ## The product [1280, 512] × [512, 1] at an element -/

theorem lhs_d7_0 (i : S1280x1.Idx) (q : dot_S1280x512_S512x1_S1280x1_1_0_0_1_n_n.contr.Idx) :
    (dot_S1280x512_S512x1_S1280x1_1_0_0_1_n_n.lhsIdx i q 0).val = (i 0).val := by
  unfold DotDims.lhsIdx
  rw [dif_neg (show ¬(0 : Fin S1280x512.rank) ∈ dot_S1280x512_S512x1_S1280x1_1_0_0_1_n_n.lhsBatch by decide), dif_pos (show (0 : Fin S1280x512.rank) ∈ dot_S1280x512_S512x1_S1280x1_1_0_0_1_n_n.lhsNonContracting by decide)]
  rfl
theorem lhs_d7_1 (i : S1280x1.Idx) (q : dot_S1280x512_S512x1_S1280x1_1_0_0_1_n_n.contr.Idx) :
    (dot_S1280x512_S512x1_S1280x1_1_0_0_1_n_n.lhsIdx i q 1).val = (q ⟨0, by decide⟩).val :=
  dot_S1280x512_S512x1_S1280x1_1_0_0_1_n_n.lhsIdx_val_of_single rfl i q
theorem rhs_d7_0 (i : S1280x1.Idx) (q : dot_S1280x512_S512x1_S1280x1_1_0_0_1_n_n.contr.Idx) :
    (dot_S1280x512_S512x1_S1280x1_1_0_0_1_n_n.rhsIdx i q 0).val = (q ⟨0, by decide⟩).val :=
  dot_S1280x512_S512x1_S1280x1_1_0_0_1_n_n.rhsIdx_val_of_single rfl i q
theorem rhs_d7_1 (i : S1280x1.Idx) (q : dot_S1280x512_S512x1_S1280x1_1_0_0_1_n_n.contr.Idx) :
    (dot_S1280x512_S512x1_S1280x1_1_0_0_1_n_n.rhsIdx i q 1).val = (i 1).val := by
  unfold DotDims.rhsIdx
  rw [dif_neg (show ¬(1 : Fin S512x1.rank) ∈ dot_S1280x512_S512x1_S1280x1_1_0_0_1_n_n.rhsBatch by decide), dif_pos (show (1 : Fin S512x1.rank) ∈ dot_S1280x512_S512x1_S1280x1_1_0_0_1_n_n.rhsNonContracting by decide)]
  rfl

/-- The product into the zero accumulator at `(p, c)`, `c` the one column: the sum over the 512 contracted coordinates. -/
theorem mm7 {φ₁ φ₂ : FTy} (prec : Option ContractPrecision) (a : FVec Ideal S1280x512 φ₁) (b : FVec Ideal S512x1 φ₂)
    (p : Fin 1280) (c : Fin 1) :
    matmul (F := Ideal) dot_S1280x512_S512x1_S1280x1_1_0_0_1_n_n prec a b (constant (F := Ideal) S1280x1 .f32 0x00000000#32) (ix2 p c)
      = ∑ t : Fin 512, a (ix2 p t) * b (ix2 t c) := by
  simp only [matmul]
  rw [Ideal.matmul_constant_zero_apply, ← Equiv.sum_comp (contrEquiv1 dot_S1280x512_S512x1_S1280x1_1_0_0_1_n_n 512 rfl rfl).symm]
  refine Finset.sum_congr rfl fun k _ => ?_
  have hk := contrEquiv1_symm_val dot_S1280x512_S512x1_S1280x1_1_0_0_1_n_n 512 rfl rfl k
  have el : dot_S1280x512_S512x1_S1280x1_1_0_0_1_n_n.lhsIdx (ix2 p c) ((contrEquiv1 dot_S1280x512_S512x1_S1280x1_1_0_0_1_n_n 512 rfl rfl).symm k) = ix2 p k := funext fun a => Fin.ext (by
    match a with
    | ⟨0, _⟩ => exact lhs_d7_0 _ _
    | ⟨1, _⟩ => exact (lhs_d7_1 _ _).trans hk)
  have er : dot_S1280x512_S512x1_S1280x1_1_0_0_1_n_n.rhsIdx (ix2 p c) ((contrEquiv1 dot_S1280x512_S512x1_S1280x1_1_0_0_1_n_n 512 rfl rfl).symm k) = ix2 k c := funext fun a => Fin.ext (by
    match a with
    | ⟨0, _⟩ => exact (rhs_d7_0 _ _).trans hk
    | ⟨1, _⟩ => exact rhs_d7_1 _ _)
  rw [el, er]

/-! ## The payloads at an element -/

/-- The first linear layer: `max (x · W + b) 0`. -/
theorem pay0 (x0 : Vec Ideal S1280x256 .f32) (x1 : Vec Ideal S256x512 .f32) (x2 : Vec Ideal S1x512 .f32)
    (p : Fin 1280) (q : Fin 512) :
    k0_pay1 (F := Ideal) x0 x1 x2 (ix2 p q)
      = max (∑ t : Fin 256, x0 (ix2 p t) * x1 (ix2 t q) + x2 (ix2 (0 : Fin 1) q)) 0 := by
  unfold k0_pay1
  rw [maximumf_apply, addf_apply, broadcast_apply, Ideal.ofBits_def, Ideal.ofBits_zero_f32, shapeCast_self, shapeCast_self, mm0,
    broadcastTo_1b_ab_apply]

/-- The adjacency body's start value: zero everywhere. -/
theorem pay2_1 (p : Fin 1280) (q : Fin 512) : (k2_pay1 (F := Ideal)) (ix2 p q) = 0 := by
  unfold k2_pay1
  rw [shapeCast_self, broadcast_apply, Ideal.ofBits_def, Ideal.ofBits_zero_f32]

/-- The adjacency body's flush: the carried sum, the format change being the identity. -/
theorem pay2_3 (acc : Vec Ideal S1280x512 .f32) (p : Fin 1280) (q : Fin 512) :
    k2_pay3 (F := Ideal) acc (ix2 p q) = acc (ix2 p q) := by
  unfold k2_pay3
  rw [truncf_apply]

/-- The message layer of the first round: `max (h · W + b) 0`, the format changes being the identity. -/
theorem pay1 (x0 : Vec Ideal S1280x512 .f32) (x1 : Vec Ideal S512x512 .bf16) (x2 : Vec Ideal S1x512 .f32)
    (p : Fin 1280) (q : Fin 512) :
    k1_pay1 (F := Ideal) x0 x1 x2 (ix2 p q)
      = max (∑ t : Fin 512, x0 (ix2 p t) * x1 (ix2 t q) + x2 (ix2 (0 : Fin 1) q)) 0 := by
  unfold k1_pay1
  rw [truncf_apply, maximumf_apply, addf_apply, broadcast_apply, Ideal.ofBits_def, Ideal.ofBits_zero_f32, mm1,
    broadcastTo_1b_ab_apply]
  simp only [truncf_apply, shapeCast_self]

/-- The message layer of the second round. -/
theorem pay4 (x0 : Vec Ideal S1280x512 .f32) (x1 : Vec Ideal S512x512 .bf16) (x2 : Vec Ideal S1x512 .f32)
    (p : Fin 1280) (q : Fin 512) :
    k4_pay1 (F := Ideal) x0 x1 x2 (ix2 p q)
      = max (∑ t : Fin 512, x0 (ix2 p t) * x1 (ix2 t q) + x2 (ix2 (0 : Fin 1) q)) 0 := by
  unfold k4_pay1
  rw [truncf_apply, maximumf_apply, addf_apply, broadcast_apply, Ideal.ofBits_def, Ideal.ofBits_zero_f32, mm1,
    broadcastTo_1b_ab_apply]
  simp only [truncf_apply, shapeCast_self]

/-- The adjacency body's step: the carried sum plus one block product. -/
theorem pay2_2 (acc : Vec Ideal S1280x512 .f32) (a : Vec Ideal S1280x1280 .bf16) (g : Vec Ideal S1280x512 .bf16)
    (p : Fin 1280) (q : Fin 512) :
    k2_pay2 (F := Ideal) acc a g (ix2 p q)
      = acc (ix2 p q) + ∑ s : Fin 1280, a (ix2 p s) * g (ix2 s q) := by
  unfold k2_pay2
  rw [shapeCast_self, addf_apply, shapeCast_self, shapeCast_self, mm2]

/-- The second adjacency body: start value, step and flush as the first. -/
theorem pay5_1 (p : Fin 1280) (q : Fin 512) : (k5_pay1 (F := Ideal)) (ix2 p q) = 0 := by
  unfold k5_pay1
  rw [shapeCast_self, broadcast_apply, Ideal.ofBits_def, Ideal.ofBits_zero_f32]

theorem pay5_2 (acc : Vec Ideal S1280x512 .f32) (a : Vec Ideal S1280x1280 .bf16) (g : Vec Ideal S1280x512 .bf16)
    (p : Fin 1280) (q : Fin 512) :
    k5_pay2 (F := Ideal) acc a g (ix2 p q)
      = acc (ix2 p q) + ∑ s : Fin 1280, a (ix2 p s) * g (ix2 s q) := by
  unfold k5_pay2
  rw [shapeCast_self, addf_apply, shapeCast_self, shapeCast_self, mm2]

theorem pay5_3 (acc : Vec Ideal S1280x512 .f32) (p : Fin 1280) (q : Fin 512) :
    k5_pay3 (F := Ideal) acc (ix2 p q) = acc (ix2 p q) := by
  unfold k5_pay3
  rw [truncf_apply]

/-- The update layer of the first round: `max ((h · W₁ + m · W₂) + b) 0`, two products added before the bias. -/
theorem pay3 (x0 : Vec Ideal S1280x512 .f32) (x1 : Vec Ideal S1280x512 .bf16) (x2 : Vec Ideal S512x512 .bf16)
    (x3 : Vec Ideal S512x512 .bf16) (x4 : Vec Ideal S1x512 .f32) (p : Fin 1280) (q : Fin 512) :
    k3_pay1 (F := Ideal) x0 x1 x2 x3 x4 (ix2 p q)
      = max (((∑ t : Fin 512, x0 (ix2 p t) * x2 (ix2 t q)) + (∑ t : Fin 512, x1 (ix2 p t) * x3 (ix2 t q)))
          + x4 (ix2 (0 : Fin 1) q)) 0 := by
  unfold k3_pay1
  rw [maximumf_apply, addf_apply, addf_apply, broadcast_apply, Ideal.ofBits_def, Ideal.ofBits_zero_f32, mm1, mm1,
    broadcastTo_1b_ab_apply]
  simp only [truncf_apply, shapeCast_self]

/-- The update layer of the second round. -/
theorem pay6 (x0 : Vec Ideal S1280x512 .f32) (x1 : Vec Ideal S1280x512 .bf16) (x2 : Vec Ideal S512x512 .bf16)
    (x3 : Vec Ideal S512x512 .bf16) (x4 : Vec Ideal S1x512 .f32) (p : Fin 1280) (q : Fin 512) :
    k6_pay1 (F := Ideal) x0 x1 x2 x3 x4 (ix2 p q)
      = max (((∑ t : Fin 512, x0 (ix2 p t) * x2 (ix2 t q)) + (∑ t : Fin 512, x1 (ix2 p t) * x3 (ix2 t q)))
          + x4 (ix2 (0 : Fin 1) q)) 0 := by
  unfold k6_pay1
  rw [maximumf_apply, addf_apply, addf_apply, broadcast_apply, Ideal.ofBits_def, Ideal.ofBits_zero_f32, mm1, mm1,
    broadcastTo_1b_ab_apply]
  simp only [truncf_apply, shapeCast_self]

/-- The last linear layer, one output column and no rectifier: `h · w + b`. -/
theorem pay7 (x0 : Vec Ideal S1280x512 .f32) (x1 : Vec Ideal S512x1 .f32) (x2 : Vec Ideal S1x1 .f32) (p : Fin 1280) :
    k7_pay1 (F := Ideal) x0 x1 x2 (ix2 p (0 : Fin 1))
      = (∑ t : Fin 512, x0 (ix2 p t) * x1 (ix2 t (0 : Fin 1))) + x2 (ix2 (0 : Fin 1) (0 : Fin 1)) := by
  unfold k7_pay1
  rw [addf_apply, shapeCast_self, shapeCast_self, mm7, broadcastTo_1b_ab_apply]

end Cert.KernelIdeal.Val

end
-- ==== Proof.KV.Fin0.lean ====
/-
  The first dense layer's result array, entry by entry.

  The region walks the 10240 padded rows in eight blocks of 1280. At grid point t the body reads rows
  1280 t … 1280 t + 1279 of the features, the whole weight matrix and the whole bias row, and writes rows
  1280 t … 1280 t + 1279 of the result: entry (p, q) of what it writes is max (∑ₖ x (1280 t + p, k) · W (k, q) + b q) 0.
  So each point writes its own block of ONE array, the layer applied to the arrays the region finds, and the eight
  blocks cover that array: after the write-backs the result array is the layer's, at every entry.
-/
import proofs.«408707_j33406255628688_2_alg».proof.Proof.KI.RegA0
import proofs.«408707_j33406255628688_2_alg».proof.Proof.KV.Pay
import Idealize.ShloMosaic.Lib.Pipeline.Value
import Idealize.ShloMosaic.Lib.ValueIdx
import Mathlib.Algebra.BigOperators.Group.Finset.Basic

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays and the blocks, each at its literal type -/

/-- The padded features as the region finds them. -/
abbrev featArr0 (c : Dev nD) : Vec Ideal S10240x256 .f32 := V c main_v4
/-- The weights as the region finds them. -/
abbrev wtArr0 (c : Dev nD) : Vec Ideal S256x512 .f32 := V c main_arg2
/-- The bias row as the region finds it. -/
abbrev biasArr0 (c : Dev nD) : Vec Ideal S1x512 .f32 := V c main_v22
/-- The result array after the region's write-backs. -/
abbrev outArr0 (c : Dev nD) : Vec Ideal S10240x512 .f32 := (dat0 (F := Ideal) V c).arrAt 3 cfg0.N
/-- The features' block at grid point t. -/
abbrev featBlk0 (c : Dev nD) (t : Fin cfg0.N) : Vec Ideal S1280x256 .f32 := iblk0 V c 0 t
/-- The weights' block at grid point t. -/
abbrev wtBlk0 (c : Dev nD) (t : Fin cfg0.N) : Vec Ideal S256x512 .f32 := iblk0 V c 1 t
/-- The bias row's block at grid point t. -/
abbrev biasBlk0 (c : Dev nD) (t : Fin cfg0.N) : Vec Ideal S1x512 .f32 := iblk0 V c 2 t

/-! ## The layer, entry by entry -/

/-- Entry (r, q) of the layer: row r of the padded features against column q of the weights, the bias added, rectified. -/
def dense0 (c : Dev nD) (r : Fin 10240) (q : Fin 512) : EReal :=
  max (∑ k : Fin 256, featArr0 V c (ix2 r k) * wtArr0 V c (ix2 k q) + biasArr0 V c (ix2 (0 : Fin 1) q)) 0

/-- The layer's whole result, as one array over the arrays the region finds. -/
def denseArr0 (c : Dev nD) : Vec Ideal S10240x512 .f32 := fun i => dense0 V c (i 0) (i 1)

/-- The body's loads and its store start at the corner of their blocks. -/
theorem offsets0 : (![0, 0] : Fin 2 → Nat) = fun _ => 0 := funext fun a => by fin_cases a <;> rfl

/-- The grid has eight points. -/
theorem lt8_0 (t : Fin cfg0.N) : t.val < 8 := t.isLt.trans_eq N_0
/-- The n-th of them. -/
def pt0 (n : ℕ) (h : n < 8) : Fin cfg0.N := ⟨n, h.trans_eq N_0.symm⟩

/-- Where each window's block sits at grid point t: the features' and the result's row blocks move with the point, one
    block of 1280 rows per point, and the weights and the bias stay whole. -/
theorem place0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The blocks read off the arrays -/

/-- Row p of the features' block at point t is row 1280 t + p of the padded features. -/
theorem rows0 (c : Dev nD) (t : Fin cfg0.N) (p : Fin 1280) (k : Fin 256) (r : Fin 10240) (hr : r.val = t.val * 1280 + p.val) :
    featBlk0 V c t (ix2 p k) = featArr0 V c (ix2 r k) := by
  obtain ⟨e0, e1, -⟩ := place0 t
  unfold featBlk0 iblk0
  rw [View.read_apply]
  show featArr0 V c _ = _
  congr 1
  funext a
  apply Fin.ext
  match a with
  | ⟨0, _⟩ => show win0_0.index t (0 : Fin 2) * 1280 + 1 * p.val = r.val; omega
  | ⟨1, _⟩ => show win0_0.index t (1 : Fin 2) * 256 + 1 * k.val = k.val; omega

/-- The weights' block is the weights at every point. -/
theorem weights0 (c : Dev nD) (t : Fin cfg0.N) (k : Fin 256) (q : Fin 512) :
    wtBlk0 V c t (ix2 k q) = wtArr0 V c (ix2 k q) := by
  obtain ⟨-, -, e2, e3, -⟩ := place0 t
  unfold wtBlk0 iblk0
  rw [View.read_apply]
  show wtArr0 V c _ = _
  congr 1
  funext a
  apply Fin.ext
  match a with
  | ⟨0, _⟩ => show win0_1.index t (0 : Fin 2) * 256 + 1 * k.val = k.val; omega
  | ⟨1, _⟩ => show win0_1.index t (1 : Fin 2) * 512 + 1 * q.val = q.val; omega

/-- The bias row's block is the bias row at every point. -/
theorem bias0 (c : Dev nD) (t : Fin cfg0.N) (q : Fin 512) :
    biasBlk0 V c t (ix2 (0 : Fin 1) q) = biasArr0 V c (ix2 (0 : Fin 1) q) := by
  obtain ⟨-, -, -, -, e4, e5, -⟩ := place0 t
  unfold biasBlk0 iblk0
  rw [View.read_apply]
  show biasArr0 V c _ = _
  congr 1
  funext a
  apply Fin.ext
  match a with
  | ⟨0, _⟩ => show win0_2.index t (0 : Fin 2) * 1 + 1 * 0 = 0; omega
  | ⟨1, _⟩ => show win0_2.index t (1 : Fin 2) * 512 + 1 * q.val = q.val; omega

/-! ## What a point writes back -/

/-- What the body computes from the three blocks at point t, at entry (p, q) of its block, is entry (1280 t + p, q) of
    the layer. -/
theorem entry0 (c : Dev nD) (t : Fin cfg0.N) (p : Fin 1280) (q : Fin 512) (r : Fin 10240) (hr : r.val = t.val * 1280 + p.val) :
    k0_pay1 (F := Ideal) (featBlk0 V c t) (wtBlk0 V c t) (biasBlk0 V c t) (ix2 p q) = dense0 V c r q := by
  refine (pay0 (featBlk0 V c t) (wtBlk0 V c t) (biasBlk0 V c t) p q).trans ?_
  unfold dense0
  rw [bias0 V c t q]
  refine congrArg (fun s : EReal => max (s + biasArr0 V c (ix2 (0 : Fin 1) q)) 0) ?_
  exact Finset.sum_congr rfl fun k _ => by rw [rows0 V c t p k r hr, weights0 V c t k q]

/-- The same over a whole index of the block, against the array index the block's view gives it. -/
theorem entryAt0 (c : Dev nD) (t : Fin cfg0.N) (j : S1280x512.Idx) :
    k0_pay1 (F := Ideal) (featBlk0 V c t) (wtBlk0 V c t) (biasBlk0 V c t) j
      = denseArr0 V c (((cfg0.win 3).blk t).view.emb j) := by
  obtain ⟨-, -, -, -, -, -, e6, e7⟩ := place0 t
  have ht : t.val < 8 := lt8_0 t
  obtain ⟨p, q, rfl⟩ : ∃ p q, j = ix2 p q := ⟨j 0, j 1, eq_ix2 j⟩
  have hq : ((((cfg0.win 3).blk t).view.emb (ix2 p q) : S10240x512.Idx) 1 : Fin 512) = q :=
    Fin.ext (by show win0_3.index t (1 : Fin 2) * 512 + 1 * q.val = q.val; omega)
  unfold denseArr0
  rw [hq]
  exact entry0 V c t p q _ (by show win0_3.index t (0 : Fin 2) * 1280 + 1 * p.val = t.val * 1280 + p.val; omega)

/-- What point t writes back is block t of the layer's array. -/
theorem flushed0_eq (c : Dev nD) (t : Fin cfg0.N) :
    (dat0 (F := Ideal) V c).flushed 3 t = ((cfg0.win 3).blk t).view.read (Elt Ideal) (denseArr0 V c) := by
  show (cfg0.win 3).cut (grid0.coords t) ((dat0 V c).after 3 t) = _
  rw [after0_3]
  unfold out0_3
  rw [View.canon_unit_zero offsets0]
  simp only [View.ld_unit_zero (S := S1280x256) offsets0, View.ld_unit_zero (S := S256x512) offsets0, View.ld_unit_zero (S := S1x512) offsets0]
  funext j
  exact entryAt0 V c t j

/-! ## The blocks cover the array -/

/-- An index of the result array lies in point t's block iff each coordinate lies in the block's range on its axis. -/
theorem mem_blk0 (t : Fin cfg0.N) (i : S10240x512.Idx) :
    i ∈ ((cfg0.win 3).blk t).view.set ↔ ∀ a : Fin 2, win0_3.index t a * S1280x512.size a ≤ (i a).val ∧ (i a).val < win0_3.index t a * S1280x512.size a + S1280x512.size a := by
  show i ∈ ((View.whole main_v23).slice (win0_3.rect t)).set ↔ _
  rw [View.set_slice_whole, Rect.mem_set_unit]
  exact Iff.rfl

/-- Every row of the result lies in some point's block: row r in that of point r / 1280. -/
theorem cover0 (i : S10240x512.Idx) : ∃ t : Fin cfg0.N, (cfg0.win 3).flush t = true ∧ i ∈ ((cfg0.win 3).blk t).view.set := by
  have hi0 : (i 0).val < 10240 := idx2_lt0 i
  have hi1 : (i 1).val < 512 := idx2_lt1 i
  have h8 : (i 0).val / 1280 < 8 := by omega
  refine ⟨pt0 _ h8, flush0_3 _, ?_⟩
  rw [mem_blk0]
  obtain ⟨-, -, -, -, -, -, e6, e7⟩ := place0 (pt0 _ h8)
  have e6' : win0_3.index (pt0 _ h8) (0 : Fin 2) = (i 0).val / 1280 := e6
  intro a
  match a with
  | ⟨0, _⟩ => show win0_3.index (pt0 _ h8) (0 : Fin 2) * 1280 ≤ (i 0).val ∧ (i 0).val < win0_3.index (pt0 _ h8) (0 : Fin 2) * 1280 + 1280; omega
  | ⟨1, _⟩ => show win0_3.index (pt0 _ h8) (1 : Fin 2) * 512 ≤ (i 1).val ∧ (i 1).val < win0_3.index (pt0 _ h8) (1 : Fin 2) * 512 + 512; omega

/-! ## The array after the region -/

/-- The result array after the region's write-backs is the layer's array. -/
theorem array0 (c : Dev nD) : outArr0 V c = denseArr0 V c :=
  (dat0 (F := Ideal) V c).arrAt_eq_of_cover 3 (denseArr0 V c) (fun t _ => flushed0_eq V c t) cover0

/-- Entry (p, q) of the result array. -/
theorem final0 (c : Dev nD) (p : Fin 10240) (q : Fin 512) :
    outArr0 V c (ix2 p q)
      = max (∑ t : Fin 256, featArr0 V c (ix2 p t) * wtArr0 V c (ix2 t q) + biasArr0 V c (ix2 (0 : Fin 1) q)) 0 := by
  rw [array0 V c]
  rfl

end Cert.KernelIdeal.Val

end
-- ==== Proof.KV.Fin1.lean ====
/-
  The message layer's result array, entry by entry.

  The region walks the 10240 node rows in eight blocks of 1280. At grid point t the body reads node rows
  1280 t … 1280 t + 1279, the whole message weight matrix and the whole bias row, and writes rows
  1280 t … 1280 t + 1279 of the messages: entry (p, q) of what it writes is max (∑ₖ h (1280 t + p, k) · W (k, q) + b q) 0,
  the changes of float format being the identity on extended reals. So each point writes its own block of ONE array,
  the layer applied to the arrays the region finds, and the eight blocks cover that array: after the write-backs the
  message array is the layer's, at every entry.
-/
import proofs.«408707_j33406255628688_2_alg».proof.Proof.KI.RegA1
import proofs.«408707_j33406255628688_2_alg».proof.Proof.KV.Pay
import Idealize.ShloMosaic.Lib.Pipeline.Value
import Idealize.ShloMosaic.Lib.ValueIdx
import Mathlib.Algebra.BigOperators.Group.Finset.Basic

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays and the blocks, each at its literal type -/

/-- The node rows as the region finds them. -/
abbrev featArr1 (c : Dev nD) : Vec Ideal S10240x512 .f32 := V c main_v23
/-- The message weights as the region finds them. -/
abbrev wtArr1 (c : Dev nD) : Vec Ideal S512x512 .bf16 := V c main_v26
/-- The message bias row as the region finds it. -/
abbrev biasArr1 (c : Dev nD) : Vec Ideal S1x512 .f32 := V c main_v29
/-- The message array after the region's write-backs. -/
abbrev outArr1 (c : Dev nD) : Vec Ideal S10240x512 .bf16 := (dat1 (F := Ideal) V c).arrAt 3 cfg1.N
/-- The node rows' block at grid point t. -/
abbrev featBlk1 (c : Dev nD) (t : Fin cfg1.N) : Vec Ideal S1280x512 .f32 := iblk1 V c 0 t
/-- The weights' block at grid point t. -/
abbrev wtBlk1 (c : Dev nD) (t : Fin cfg1.N) : Vec Ideal S512x512 .bf16 := iblk1 V c 1 t
/-- The bias row's block at grid point t. -/
abbrev biasBlk1 (c : Dev nD) (t : Fin cfg1.N) : Vec Ideal S1x512 .f32 := iblk1 V c 2 t

/-! ## The message layer, entry by entry -/

/-- Entry (r, q) of the message layer: node row r against column q of the weights, the bias added, rectified. -/
def dense1 (c : Dev nD) (r : Fin 10240) (q : Fin 512) : EReal :=
  max (∑ k : Fin 512, featArr1 V c (ix2 r k) * wtArr1 V c (ix2 k q) + biasArr1 V c (ix2 (0 : Fin 1) q)) 0

/-- The layer's whole result, as one array over the arrays the region finds. -/
def denseArr1 (c : Dev nD) : Vec Ideal S10240x512 .bf16 := fun i => dense1 V c (i 0) (i 1)

/-- The body's loads and its store start at the corner of their blocks. -/
theorem offsets1 : (![0, 0] : Fin 2 → Nat) = fun _ => 0 := funext fun a => by fin_cases a <;> rfl

/-- The grid has eight points. -/
theorem lt8_1 (t : Fin cfg1.N) : t.val < 8 := t.isLt.trans_eq N_1
/-- The n-th of them. -/
def pt1 (n : ℕ) (h : n < 8) : Fin cfg1.N := ⟨n, h.trans_eq N_1.symm⟩

/-- Where each window's block sits at grid point t: the node rows' and the messages' row blocks move with the point, one
    block of 1280 rows per point, and the weights and the bias stay whole. -/
theorem place1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The blocks read off the arrays -/

/-- Row p of the node rows' block at point t is node row 1280 t + p. -/
theorem rows1 (c : Dev nD) (t : Fin cfg1.N) (p : Fin 1280) (k : Fin 512) (r : Fin 10240) (hr : r.val = t.val * 1280 + p.val) :
    featBlk1 V c t (ix2 p k) = featArr1 V c (ix2 r k) := by
  obtain ⟨e0, e1, -⟩ := place1 t
  unfold featBlk1 iblk1
  rw [View.read_apply]
  show featArr1 V c _ = _
  congr 1
  funext a
  apply Fin.ext
  match a with
  | ⟨0, _⟩ => show win1_0.index t (0 : Fin 2) * 1280 + 1 * p.val = r.val; omega
  | ⟨1, _⟩ => show win1_0.index t (1 : Fin 2) * 512 + 1 * k.val = k.val; omega

/-- The weights' block is the weights at every point. -/
theorem weights1 (c : Dev nD) (t : Fin cfg1.N) (k : Fin 512) (q : Fin 512) :
    wtBlk1 V c t (ix2 k q) = wtArr1 V c (ix2 k q) := by
  obtain ⟨-, -, e2, e3, -⟩ := place1 t
  unfold wtBlk1 iblk1
  rw [View.read_apply]
  show wtArr1 V c _ = _
  congr 1
  funext a
  apply Fin.ext
  match a with
  | ⟨0, _⟩ => show win1_1.index t (0 : Fin 2) * 512 + 1 * k.val = k.val; omega
  | ⟨1, _⟩ => show win1_1.index t (1 : Fin 2) * 512 + 1 * q.val = q.val; omega

/-- The bias row's block is the bias row at every point. -/
theorem bias1 (c : Dev nD) (t : Fin cfg1.N) (q : Fin 512) :
    biasBlk1 V c t (ix2 (0 : Fin 1) q) = biasArr1 V c (ix2 (0 : Fin 1) q) := by
  obtain ⟨-, -, -, -, e4, e5, -⟩ := place1 t
  unfold biasBlk1 iblk1
  rw [View.read_apply]
  show biasArr1 V c _ = _
  congr 1
  funext a
  apply Fin.ext
  match a with
  | ⟨0, _⟩ => show win1_2.index t (0 : Fin 2) * 1 + 1 * 0 = 0; omega
  | ⟨1, _⟩ => show win1_2.index t (1 : Fin 2) * 512 + 1 * q.val = q.val; omega

/-! ## What a point writes back -/

/-- What the body computes from the three blocks at point t, at entry (p, q) of its block, is entry (1280 t + p, q) of
    the message layer. -/
theorem entry1 (c : Dev nD) (t : Fin cfg1.N) (p : Fin 1280) (q : Fin 512) (r : Fin 10240) (hr : r.val = t.val * 1280 + p.val) :
    k1_pay1 (F := Ideal) (featBlk1 V c t) (wtBlk1 V c t) (biasBlk1 V c t) (ix2 p q) = dense1 V c r q := by
  refine (pay1 (featBlk1 V c t) (wtBlk1 V c t) (biasBlk1 V c t) p q).trans ?_
  unfold dense1
  rw [bias1 V c t q]
  refine congrArg (fun s : EReal => max (s + biasArr1 V c (ix2 (0 : Fin 1) q)) 0) ?_
  exact Finset.sum_congr rfl fun k _ => by rw [rows1 V c t p k r hr, weights1 V c t k q]

/-- The same over a whole index of the block, against the array index the block's view gives it. -/
theorem entryAt1 (c : Dev nD) (t : Fin cfg1.N) (j : S1280x512.Idx) :
    k1_pay1 (F := Ideal) (featBlk1 V c t) (wtBlk1 V c t) (biasBlk1 V c t) j
      = denseArr1 V c (((cfg1.win 3).blk t).view.emb j) := by
  obtain ⟨-, -, -, -, -, -, e6, e7⟩ := place1 t
  have ht : t.val < 8 := lt8_1 t
  obtain ⟨p, q, rfl⟩ : ∃ p q, j = ix2 p q := ⟨j 0, j 1, eq_ix2 j⟩
  have hq : ((((cfg1.win 3).blk t).view.emb (ix2 p q) : S10240x512.Idx) 1 : Fin 512) = q :=
    Fin.ext (by show win1_3.index t (1 : Fin 2) * 512 + 1 * q.val = q.val; omega)
  unfold denseArr1
  rw [hq]
  exact entry1 V c t p q _ (by show win1_3.index t (0 : Fin 2) * 1280 + 1 * p.val = t.val * 1280 + p.val; omega)

/-- What point t writes back is block t of the message layer's array. -/
theorem flushed1_eq (c : Dev nD) (t : Fin cfg1.N) :
    (dat1 (F := Ideal) V c).flushed 3 t = ((cfg1.win 3).blk t).view.read (Elt Ideal) (denseArr1 V c) := by
  show (cfg1.win 3).cut (grid1.coords t) ((dat1 V c).after 3 t) = _
  rw [after1_3]
  unfold out1_3
  rw [View.canon_unit_zero offsets1]
  simp only [View.ld_unit_zero (S := S1280x512) offsets1, View.ld_unit_zero (S := S512x512) offsets1, View.ld_unit_zero (S := S1x512) offsets1]
  funext j
  exact entryAt1 V c t j

/-! ## The blocks cover the array -/

/-- An index of the message array lies in point t's block iff each coordinate lies in the block's range on its axis. -/
theorem mem_blk1 (t : Fin cfg1.N) (i : S10240x512.Idx) :
    i ∈ ((cfg1.win 3).blk t).view.set ↔ ∀ a : Fin 2, win1_3.index t a * S1280x512.size a ≤ (i a).val ∧ (i a).val < win1_3.index t a * S1280x512.size a + S1280x512.size a := by
  show i ∈ ((View.whole main_v30).slice (win1_3.rect t)).set ↔ _
  rw [View.set_slice_whole, Rect.mem_set_unit]
  exact Iff.rfl

/-- Every row of the messages lies in some point's block: row r in that of point r / 1280. -/
theorem cover1 (i : S10240x512.Idx) : ∃ t : Fin cfg1.N, (cfg1.win 3).flush t = true ∧ i ∈ ((cfg1.win 3).blk t).view.set := by
  have hi0 : (i 0).val < 10240 := idx2_lt0 i
  have hi1 : (i 1).val < 512 := idx2_lt1 i
  have h8 : (i 0).val / 1280 < 8 := by omega
  refine ⟨pt1 _ h8, flush1_3 _, ?_⟩
  rw [mem_blk1]
  obtain ⟨-, -, -, -, -, -, e6, e7⟩ := place1 (pt1 _ h8)
  have e6' : win1_3.index (pt1 _ h8) (0 : Fin 2) = (i 0).val / 1280 := e6
  intro a
  match a with
  | ⟨0, _⟩ => show win1_3.index (pt1 _ h8) (0 : Fin 2) * 1280 ≤ (i 0).val ∧ (i 0).val < win1_3.index (pt1 _ h8) (0 : Fin 2) * 1280 + 1280; omega
  | ⟨1, _⟩ => show win1_3.index (pt1 _ h8) (1 : Fin 2) * 512 ≤ (i 1).val ∧ (i 1).val < win1_3.index (pt1 _ h8) (1 : Fin 2) * 512 + 512; omega

/-! ## The array after the region -/

/-- The message array after the region's write-backs is the message layer's array. -/
theorem array1 (c : Dev nD) : outArr1 V c = denseArr1 V c :=
  (dat1 (F := Ideal) V c).arrAt_eq_of_cover 3 (denseArr1 V c) (fun t _ => flushed1_eq V c t) cover1

/-- Entry (p, q) of the message array. -/
theorem final1 (c : Dev nD) (p : Fin 10240) (q : Fin 512) :
    outArr1 V c (ix2 p q)
      = max (∑ t : Fin 512, featArr1 V c (ix2 p t) * wtArr1 V c (ix2 t q) + biasArr1 V c (ix2 (0 : Fin 1) q)) 0 := by
  rw [array1 V c]
  rfl

end Cert.KernelIdeal.Val

end
-- ==== Proof.KV.FinJ2.lean ====
/-
  The adjacency region's output array, entry by entry, over the extended reals.

  The region multiplies the 10240 × 10240 matrix A by the 10240 × 512 node rows g in blocks of 1280 over an 8 × 8 grid,
  point t ↦ (i, k) = (t / 8, t % 8) with k innermost. At k = 0 the carried sum restarts from zero; at every k it takes
  the product of block (i, k) of A with block (k, 0) of g; at k = 7 the output block (i, 0) is the carried sum (the
  change of float format is the identity on extended reals) and is written back.

  So after point 8 i + k the carried sum at (r, q) is the first 1280 (k + 1) terms of ∑ s, A (1280 i + r, s) · g (s, q):
  by induction on the point, a sum over the first k + 1 stretches of length 1280 being the sum over the first k plus
  stretch k. At k = 7 that is the whole sum over s < 10240. The blocks written back tile the output array, which
  therefore ends holding A · g.
-/
import proofs.«408707_j33406255628688_2_alg».proof.Proof.KI.RegJ2
import proofs.«408707_j33406255628688_2_alg».proof.Proof.KV.Pay
import Idealize.ShloMosaic.Lib.ValueIdx
import Idealize.ShloMosaic.Lib.Pipeline.Value
import Mathlib.Algebra.BigOperators.Fin
import Mathlib.Algebra.BigOperators.Intervals

noncomputable section

open scoped BigOperators

/-! ## Sums over consecutive stretches of equal length -/

namespace Cert.BlockSum2

/-- The sum over the first `k + 1` stretches of length `m` is the sum over the first `k` plus stretch `k`. -/
theorem sum_range_block2 {M : Type*} [AddCommMonoid M] (f : ℕ → M) (m k : ℕ) :
    ∑ j ∈ Finset.range (m * (k + 1)), f j
      = ∑ j ∈ Finset.range (m * k), f j + ∑ s : Fin m, f (m * k + s.val) := by
  rw [Nat.mul_succ, Finset.sum_range_add, Finset.sum_range (fun x => f (m * k + x))]

/-- The first stretch alone. -/
theorem sum_range_block_zero2 {M : Type*} [AddCommMonoid M] (f : ℕ → M) (m : ℕ) :
    ∑ j ∈ Finset.range (m * (0 + 1)), f j = ∑ s : Fin m, f (m * 0 + s.val) := by
  rw [sum_range_block2, Nat.mul_zero, Finset.range_zero, Finset.sum_empty, zero_add]

end Cert.BlockSum2

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.BlockSum2

-- the core's buffer contents when the region is entered
variable (V : (c : Dev nD) → (b : Ref sig .tc) → Buf (Elt Ideal) ((c : Thread nD τ).loc b))

/-! ## The grid and the block index maps -/

/-- The printed index maps over the 8 × 8 grid, point `t ↦ (t / 8, t % 8)`: the matrix at block `(i, k)`, the node
    rows at block `(k, 0)`, the output at block `(i, 0)`. -/
theorem idx_facts2 : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

/-- The grid has 64 points. -/
theorem N2 : cfg2.N = 64 := by decide +kernel
theorem t_lt2 (t : Fin cfg2.N) : t.val < 64 := Nat.lt_of_lt_of_eq t.isLt N2

/-! ## The arrays and the blocks, at their literal types -/

/-- The matrix and the node rows as the region finds them. -/
abbrev Aarr2 (c : Dev nD) : Vec Ideal S10240x10240 .bf16 := V c main_v21
abbrev garr2 (c : Dev nD) : Vec Ideal S10240x512 .bf16 := V c main_v30

/-- Their blocks at point `t`. -/
abbrev Ablk2 (c : Dev nD) (t : Fin cfg2.N) : Vec Ideal S1280x1280 .bf16 := iblk2 V c 0 t
abbrev gblk2 (c : Dev nD) (t : Fin cfg2.N) : Vec Ideal S1280x512 .bf16 := iblk2 V c 1 t

/-- Block `(t / 8, t % 8)` of the matrix at `(r, s)` is the matrix at `(1280 (t / 8) + r, 1280 (t % 8) + s)`. -/
theorem Ablk2_apply (c : Dev nD) (t : Fin cfg2.N) (r s : Fin 1280) :
    Ablk2 V c t (ix2 r s)
      = Aarr2 V c (ix2 (⟨1280 * (t.val / 8) + r.val, by have := t_lt2 t; omega⟩ : Fin 10240)
          (⟨1280 * (t.val % 8) + s.val, by omega⟩ : Fin 10240)) := by
  obtain ⟨e0, e1, e2, e3, e4, e5⟩ := idx_facts2 t
  unfold Ablk2 iblk2
  rw [View.read_apply]
  show V c main_v21 _ = V c main_v21 _
  congr 1
  funext a
  apply Fin.ext
  match a with
  | ⟨0, _⟩ => show win2_0.index t (0 : Fin 2) * 1280 + 1 * r.val = 1280 * (t.val / 8) + r.val; omega
  | ⟨1, _⟩ => show win2_0.index t (1 : Fin 2) * 1280 + 1 * s.val = 1280 * (t.val % 8) + s.val; omega

/-- Block `(t % 8, 0)` of the node rows at `(s, q)` is the node rows at `(1280 (t % 8) + s, q)`. -/
theorem gblk2_apply (c : Dev nD) (t : Fin cfg2.N) (s : Fin 1280) (q : Fin 512) :
    gblk2 V c t (ix2 s q) = garr2 V c (ix2 (⟨1280 * (t.val % 8) + s.val, by omega⟩ : Fin 10240) q) := by
  obtain ⟨e0, e1, e2, e3, e4, e5⟩ := idx_facts2 t
  unfold gblk2 iblk2
  rw [View.read_apply]
  show V c main_v30 _ = V c main_v30 _
  congr 1
  funext a
  apply Fin.ext
  match a with
  | ⟨0, _⟩ => show win2_1.index t (0 : Fin 2) * 1280 + 1 * s.val = 1280 * (t.val % 8) + s.val; omega
  | ⟨1, _⟩ => show win2_1.index t (1 : Fin 2) * 512 + 1 * q.val = q.val; omega

/-! ## One row's terms, and a block product as a stretch of them -/

/-- Term `j` of row `i` of the matrix against column `q` of the node rows; zero outside the arrays. -/
def rowF2 (c : Dev nD) (q : Fin 512) (i j : ℕ) : EReal :=
  if h : i < 10240 ∧ j < 10240 then Aarr2 V c (ix2 ⟨i, h.1⟩ ⟨j, h.2⟩) * garr2 V c (ix2 ⟨j, h.2⟩ q) else 0

/-- The block product at point `t` is the stretch from `1280 (t % 8)` of row `1280 (t / 8) + r`'s terms. -/
theorem blk_prod2 (c : Dev nD) (t : Fin cfg2.N) (r : Fin 1280) (q : Fin 512) :
    ∑ s : Fin 1280, Ablk2 V c t (ix2 r s) * gblk2 V c t (ix2 s q)
      = ∑ s : Fin 1280, rowF2 V c q (1280 * (t.val / 8) + r.val) (1280 * (t.val % 8) + s.val) := by
  refine Finset.sum_congr rfl fun s _ => ?_
  rw [Ablk2_apply, gblk2_apply]
  unfold rowF2
  rw [dif_pos (show 1280 * (t.val / 8) + r.val < 10240 ∧ 1280 * (t.val % 8) + s.val < 10240 from
    ⟨by have := t_lt2 t; omega, by omega⟩)]

/-! ## What one point leaves, as the body's arithmetic of what it read -/

theorem hz2 : (![0, 0] : Fin 2 → Nat) = fun _ => 0 := funext fun a => by fin_cases a <;> rfl

/-- A point that restarts the carried sum: zero stored, read back, the block product added. -/
theorem accReset2_eq (x0 : Vec Ideal S1280x1280 .bf16) (x1 : Vec Ideal S1280x512 .bf16) :
    accReset2 (F := Ideal) x0 x1 = k2_pay2 (F := Ideal) (k2_pay1 (F := Ideal)) x0 x1 := by
  unfold accReset2
  rw [View.canon_cons_unit_zero (S := S1280x512) hz2, View.canon_unit_zero (S := S1280x512) hz2]
  simp only [View.ld_unit_zero (S := S1280x512) hz2, View.ld_unit_zero (S := S1280x1280) hz2]

/-- A point that carries it: the block product added to what the point before left. -/
theorem accStep2_eq (x0 : Vec Ideal S1280x1280 .bf16) (x1 : Vec Ideal S1280x512 .bf16) (xs : Vec Ideal S1280x512 .f32) :
    accStep2 (F := Ideal) x0 x1 xs = k2_pay2 (F := Ideal) xs x0 x1 := by
  unfold accStep2
  rw [View.canon_unit_zero (S := S1280x512) hz2]
  simp only [View.ld_unit_zero (S := S1280x512) hz2, View.ld_unit_zero (S := S1280x1280) hz2]

/-- The output block at the last column block: the carried sum just stored, in the output's format. -/
theorem outLast2_eq (x0 : Vec Ideal S1280x1280 .bf16) (x1 : Vec Ideal S1280x512 .bf16) (xs : Vec Ideal S1280x512 .f32) :
    outLast2 (F := Ideal) x0 x1 xs = k2_pay3 (F := Ideal) (accStep2 (F := Ideal) x0 x1 xs) := by
  unfold outLast2
  rw [View.canon_unit_zero (S := S1280x512) hz2]
  simp only [View.ld_unit_zero (S := S1280x512) hz2]

/-! ## The carried sum and the output block, point by point, at an entry -/

theorem prevLt2 (t : Fin cfg2.N) : t.val - 1 < cfg2.N := Nat.lt_of_le_of_lt (Nat.sub_le t.val 1) t.isLt

/-- The carried sum the point before `t` left. -/
abbrev prev2 (c : Dev nD) (t : Fin cfg2.N) : Vec Ideal S1280x512 .f32 := (outsAt2 V c (t.val - 1) (prevLt2 t)).2

/-- At the first column block the carried sum is the block product. -/
theorem scr_first2 (c : Dev nD) (t : Fin cfg2.N) (h0 : t.val % 8 = 0) (r : Fin 1280) (q : Fin 512) :
    (outsAt2 V c t.val t.isLt).2 (ix2 r q) = ∑ s : Fin 1280, Ablk2 V c t (ix2 r s) * gblk2 V c t (ix2 s q) := by
  rw [outsAt2_A V c t h0]
  dsimp only
  refine (congrFun (accReset2_eq (Ablk2 V c t) (gblk2 V c t)) (ix2 r q)).trans ?_
  refine (pay2_2 (k2_pay1 (F := Ideal)) (Ablk2 V c t) (gblk2 V c t) r q).trans ?_
  rw [pay2_1, zero_add]

/-- At a later column block it is what the point before left plus the block product. -/
theorem scr_step2 (c : Dev nD) (t : Fin cfg2.N) (h0 : ¬t.val % 8 = 0) (r : Fin 1280) (q : Fin 512) :
    (outsAt2 V c t.val t.isLt).2 (ix2 r q)
      = prev2 V c t (ix2 r q) + ∑ s : Fin 1280, Ablk2 V c t (ix2 r s) * gblk2 V c t (ix2 s q) := by
  by_cases h1 : t.val % 8 = 7
  · rw [outsAt2_C V c t h1]
    dsimp only
    refine (congrFun (accStep2_eq (Ablk2 V c t) (gblk2 V c t) (prev2 V c t)) (ix2 r q)).trans ?_
    exact pay2_2 (prev2 V c t) (Ablk2 V c t) (gblk2 V c t) r q
  · rw [outsAt2_B V c t h0 h1]
    dsimp only
    refine (congrFun (accStep2_eq (Ablk2 V c t) (gblk2 V c t) (prev2 V c t)) (ix2 r q)).trans ?_
    exact pay2_2 (prev2 V c t) (Ablk2 V c t) (gblk2 V c t) r q

/-- The same, with the point written as a successor. -/
theorem scr_succ2 (c : Dev nD) (n : ℕ) (h : n + 1 < cfg2.N) (h0 : ¬(n + 1) % 8 = 0) (r : Fin 1280) (q : Fin 512) :
    (outsAt2 V c (n + 1) h).2 (ix2 r q) = (outsAt2 V c n (Nat.lt_of_succ_lt h)).2 (ix2 r q)
      + ∑ s : Fin 1280, Ablk2 V c ⟨n + 1, h⟩ (ix2 r s) * gblk2 V c ⟨n + 1, h⟩ (ix2 s q) :=
  scr_step2 V c ⟨n + 1, h⟩ h0 r q

/-- At the last column block the output block is the carried sum. -/
theorem out_eq_scr2 (c : Dev nD) (t : Fin cfg2.N) (h7 : t.val % 8 = 7) (r : Fin 1280) (q : Fin 512) :
    (outsAt2 V c t.val t.isLt).1 (ix2 r q) = (outsAt2 V c t.val t.isLt).2 (ix2 r q) := by
  rw [outsAt2_C V c t h7]
  dsimp only
  refine (congrFun (outLast2_eq (Ablk2 V c t) (gblk2 V c t) (prev2 V c t)) (ix2 r q)).trans ?_
  exact pay2_3 (accStep2 (F := Ideal) (Ablk2 V c t) (gblk2 V c t) (prev2 V c t)) r q

/-- After point `n = 8 i + k` the carried sum at `(r, q)` is the first `1280 (k + 1)` terms of row `1280 i + r`. -/
theorem scratch_inv2 (c : Dev nD) : ∀ (n : ℕ) (hn : n < cfg2.N) (r : Fin 1280) (q : Fin 512),
    (outsAt2 V c n hn).2 (ix2 r q) = ∑ j ∈ Finset.range (1280 * (n % 8 + 1)), rowF2 V c q (1280 * (n / 8) + r.val) j
  | 0, hn, r, q => by
    refine (scr_first2 V c ⟨0, hn⟩ rfl r q).trans ?_
    rw [blk_prod2]
    exact (sum_range_block_zero2 (rowF2 V c q (1280 * (0 / 8) + r.val)) 1280).symm
  | n + 1, hn, r, q => by
    by_cases h0 : (n + 1) % 8 = 0
    · refine (scr_first2 V c ⟨n + 1, hn⟩ h0 r q).trans ?_
      rw [blk_prod2]
      show ∑ s : Fin 1280, rowF2 V c q (1280 * ((n + 1) / 8) + r.val) (1280 * ((n + 1) % 8) + s.val) = _
      rw [h0]
      exact (sum_range_block_zero2 (rowF2 V c q (1280 * ((n + 1) / 8) + r.val)) 1280).symm
    · have e1 : (n + 1) / 8 = n / 8 := by omega
      have e2 : (n + 1) % 8 = n % 8 + 1 := by omega
      rw [scr_succ2 V c n hn h0 r q, scratch_inv2 c n (Nat.lt_of_succ_lt hn) r q, blk_prod2]
      show _ + ∑ s : Fin 1280, rowF2 V c q (1280 * ((n + 1) / 8) + r.val) (1280 * ((n + 1) % 8) + s.val) = _
      rw [e1, e2]
      exact (sum_range_block2 (rowF2 V c q (1280 * (n / 8) + r.val)) 1280 (n % 8 + 1)).symm

/-- At the last column block the output block holds the whole row sum. -/
theorem out_last2 (c : Dev nD) (t : Fin cfg2.N) (h7 : t.val % 8 = 7) (r : Fin 1280) (q : Fin 512) :
    (outsAt2 V c t.val t.isLt).1 (ix2 r q)
      = ∑ s : Fin 10240, Aarr2 V c (ix2 (⟨1280 * (t.val / 8) + r.val, by have := t_lt2 t; omega⟩ : Fin 10240) s) * garr2 V c (ix2 s q) := by
  rw [out_eq_scr2 V c t h7 r q, scratch_inv2 V c t.val t.isLt r q, h7, show 1280 * (7 + 1) = 10240 from rfl, Finset.sum_range]
  refine Finset.sum_congr rfl fun s _ => ?_
  unfold rowF2
  rw [dif_pos (show 1280 * (t.val / 8) + r.val < 10240 ∧ s.val < 10240 from ⟨by have := t_lt2 t; omega, s.isLt⟩)]

/-! ## From the blocks written back to the array -/

/-- The matrix times the node rows, entry by entry. -/
abbrev prod2 (c : Dev nD) : Vec Ideal S10240x512 .bf16 :=
  fun i => ∑ s : Fin 10240, Aarr2 V c (ix2 (i 0) s) * garr2 V c (ix2 s (i 1))

/-- An index of the output array is in point `t`'s block iff each coordinate is in the block's range on its axis. -/
theorem mem_blk2 (t : Fin cfg2.N) (i : S10240x512.Idx) :
    i ∈ ((cfg2.win 2).blk t).view.set ↔ ∀ a : Fin 2, win2_2.index t a * S1280x512.size a ≤ (i a).val ∧ (i a).val < win2_2.index t a * S1280x512.size a + S1280x512.size a := by
  show i ∈ ((View.whole main_v31).slice (win2_2.rect t)).set ↔ _
  rw [View.set_slice_whole, Rect.mem_set_unit]
  exact Iff.rfl

/-- Every index of the output array is in the block of a point that writes back: row block `i₀ / 1280`, last column block. -/
theorem cover2 (i : S10240x512.Idx) :
    ∃ t : Fin cfg2.N, (cfg2.win 2).flush t = true ∧ i ∈ ((cfg2.win 2).blk t).view.set := by
  have hi0 : (i 0).val < 10240 := idx2_lt0 i
  have hi1 : (i 1).val < 512 := idx2_lt1 i
  obtain ⟨t, ht⟩ : ∃ t : Fin cfg2.N, t.val = 8 * ((i 0).val / 1280) + 7 := ⟨⟨8 * ((i 0).val / 1280) + 7, by rw [N2]; omega⟩, rfl⟩
  obtain ⟨e0, e1, e2, e3, e4, e5⟩ := idx_facts2 t
  refine ⟨t, (flush2_2 t).mpr (by omega), ?_⟩
  rw [mem_blk2]
  intro a
  match a with
  | ⟨0, _⟩ => show win2_2.index t (0 : Fin 2) * 1280 ≤ (i 0).val ∧ (i 0).val < win2_2.index t (0 : Fin 2) * 1280 + 1280; omega
  | ⟨1, _⟩ => show win2_2.index t (1 : Fin 2) * 512 ≤ (i 1).val ∧ (i 1).val < win2_2.index t (1 : Fin 2) * 512 + 512; omega

/-- What a point that writes back writes is its block of the product. -/
theorem flushed_eq2 (c : Dev nD) (t : Fin cfg2.N) (hf : (cfg2.win 2).flush t = true) :
    (dat2 (F := Ideal) V c).flushed 2 t = ((cfg2.win 2).blk t).view.read (Elt Ideal) (prod2 V c) := by
  have h7 : t.val % 8 = 7 := (flush2_2 t).mp hf
  obtain ⟨e0, e1, e2, e3, e4, e5⟩ := idx_facts2 t
  show (cfg2.win 2).cut (grid2.coords t) ((dat2 (F := Ideal) V c).after 2 t) = _
  rw [after2_2]
  funext j
  have hj0 : (j 0).val < 1280 := (j 0).isLt
  have hj1 : (j 1).val < 512 := (j 1).isLt
  have ej : (cfg2.win 2).xinj (grid2.coords t) j = ix2 (⟨(j 0).val, hj0⟩ : Fin 1280) (⟨(j 1).val, hj1⟩ : Fin 512) :=
    funext fun a => by match a with | ⟨0, _⟩ => rfl | ⟨1, _⟩ => rfl
  show (outsAt2 V c t.val t.isLt).1 ((cfg2.win 2).xinj (grid2.coords t) j) = prod2 V c (((cfg2.win 2).blk t).view.emb j)
  rw [ej, out_last2 V c t h7]
  have h0 : (((cfg2.win 2).blk t).view.emb j) 0 = (⟨1280 * (t.val / 8) + (j 0).val, by have := t_lt2 t; omega⟩ : Fin 10240) :=
    Fin.ext (by show win2_2.index t (0 : Fin 2) * 1280 + 1 * (j 0).val = 1280 * (t.val / 8) + (j 0).val; omega)
  have h1 : (((cfg2.win 2).blk t).view.emb j) 1 = (⟨(j 1).val, hj1⟩ : Fin 512) :=
    Fin.ext (by show win2_2.index t (1 : Fin 2) * 512 + 1 * (j 1).val = (j 1).val; omega)
  show _ = ∑ s : Fin 10240, Aarr2 V c (ix2 ((((cfg2.win 2).blk t).view.emb j) 0) s) * garr2 V c (ix2 s ((((cfg2.win 2).blk t).view.emb j) 1))
  rw [h0, h1]

/-- The output array after the region's write-backs: the matrix times the node rows, entry by entry. -/
theorem final2 (c : Dev nD) (p : Fin 10240) (q : Fin 512) :
    (dat2 (F := Ideal) V c).arrAt 2 cfg2.N (ix2 p q) = ∑ s : Fin 10240, Aarr2 V c (ix2 p s) * garr2 V c (ix2 s q) :=
  congrFun ((dat2 (F := Ideal) V c).arrAt_eq_of_cover 2 (prod2 V c) (flushed_eq2 V c) cover2) (ix2 p q)

end Cert.KernelIdeal.Val

end
-- ==== Proof.KV.Fin3.lean ====
/-
  Region 3, read as a value: the node update on whole arrays.

  Each of the eight grid points overwrites one block of 1280 rows of the output with the update layer
  `max ((h · W₁ + m · W₂) + b) 0` of the same rows of the features `h` and of the aggregated messages `m`, and of the
  whole weight matrices and bias row. A block's element `(r, s)` at point `t` is the array's element
  `(1280 · t + r, s)`; the weights and the bias sit at block zero, so their blocks are the arrays. Hence what point
  `t` writes back is block `t` of ONE function of the five arrays, and since row `r` lies in the block of point
  `r / 1280` the blocks cover the output: after the run the output array is that function everywhere.
-/
import proofs.«408707_j33406255628688_2_alg».proof.Proof.KI.RegU3
import proofs.«408707_j33406255628688_2_alg».proof.Proof.KV.Pay
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arrays the region reads, each at its literal type -/

/-- The node features the update starts from. -/
abbrev feat3 (c : Dev nD) : Vec Ideal S10240x512 .f32 := V c main_v23
/-- The aggregated messages. -/
abbrev aggr3 (c : Dev nD) : Vec Ideal S10240x512 .bf16 := V c main_v31
/-- The weights applied to a node's own row. -/
abbrev wself3 (c : Dev nD) : Vec Ideal S512x512 .bf16 := V c main_v34
/-- The weights applied to the aggregated row. -/
abbrev wnbr3 (c : Dev nD) : Vec Ideal S512x512 .bf16 := V c main_v37
/-- The bias row. -/
abbrev bias3 (c : Dev nD) : Vec Ideal S1x512 .f32 := V c main_v40

theorem zero2_3 : (![0, 0] : Fin 2 → Nat) = fun _ => 0 := funext fun a => by fin_cases a <;> rfl

/-! ## The update layer on whole arrays -/

/-- `max ((H · W₁ + M · W₂) + b) 0` at row `p`, column `q`. -/
def upd3 (H : Vec Ideal S10240x512 .f32) (M : Vec Ideal S10240x512 .bf16) (W1 W2 : Vec Ideal S512x512 .bf16)
    (B : Vec Ideal S1x512 .f32) (p : Fin 10240) (q : Fin 512) : EReal :=
  max (((∑ t : Fin 512, H (ix2 p t) * W1 (ix2 t q)) + (∑ t : Fin 512, M (ix2 p t) * W2 (ix2 t q)))
    + B (ix2 (0 : Fin 1) q)) 0

/-- The same as one function of the array's index. -/
def updAt3 (H : Vec Ideal S10240x512 .f32) (M : Vec Ideal S10240x512 .bf16) (W1 W2 : Vec Ideal S512x512 .bf16)
    (B : Vec Ideal S1x512 .f32) : S10240x512.Idx → EReal := fun i => upd3 H M W1 W2 B (i 0) (i 1)

/-- A block whose rows are rows of `H` and `M` and whose weights and bias are those of `W₁`, `W₂`, `B` has the
    whole-array update as its payload. -/
theorem upd_block3 (x0 : Vec Ideal S1280x512 .f32) (x1 : Vec Ideal S1280x512 .bf16) (x2 x3 : Vec Ideal S512x512 .bf16)
    (x4 : Vec Ideal S1x512 .f32) (H : Vec Ideal S10240x512 .f32) (M : Vec Ideal S10240x512 .bf16)
    (W1 W2 : Vec Ideal S512x512 .bf16) (B : Vec Ideal S1x512 .f32) (r : Fin 1280) (s : Fin 512) (p : Fin 10240) (q : Fin 512)
    (e0 : ∀ t : Fin 512, x0 (ix2 r t) = H (ix2 p t))
    (e1 : ∀ t : Fin 512, x1 (ix2 r t) = M (ix2 p t))
    (e2 : ∀ t : Fin 512, x2 (ix2 t s) = W1 (ix2 t q))
    (e3 : ∀ t : Fin 512, x3 (ix2 t s) = W2 (ix2 t q))
    (e4 : x4 (ix2 (0 : Fin 1) s) = B (ix2 (0 : Fin 1) q)) :
    k3_pay1 (F := Ideal) x0 x1 x2 x3 x4 (ix2 r s) = upd3 H M W1 W2 B p q := by
  have s1 : (∑ t : Fin 512, x0 (ix2 r t) * x2 (ix2 t s)) = ∑ t : Fin 512, H (ix2 p t) * W1 (ix2 t q) :=
    Finset.sum_congr rfl fun t _ => by rw [e0 t, e2 t]
  have s2 : (∑ t : Fin 512, x1 (ix2 r t) * x3 (ix2 t s)) = ∑ t : Fin 512, M (ix2 p t) * W2 (ix2 t q) :=
    Finset.sum_congr rfl fun t _ => by rw [e1 t, e3 t]
  rw [pay3, s1, s2, e4]
  rfl

/-! ## The index maps over the grid -/

/-- Decided over the eight points: the features, the messages and the output move together down the rows, one block per
    point; the weights and the bias stay at block zero. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-! ## Each input block at an element: the array where the block's rectangle puts it -/

theorem iblk3_0_at (c : Dev nD) (t : Fin cfg3.N) (r : Fin 1280) (s : Fin 512) (p : Fin 10240)
    (hp : p.val = t.val * 1280 + r.val) :
    (iblk3 V c 0 t : Vec Ideal S1280x512 .f32) (ix2 r s) = feat3 V c (ix2 p s) := by
  obtain ⟨a0, a1, -⟩ := idx3 t
  unfold iblk3
  rw [View.read_apply]
  show V c main_v23 _ = V c main_v23 _
  congr 1
  funext a
  apply Fin.ext
  match a with
  | ⟨0, _⟩ => show win3_0.index t (0 : Fin 2) * 1280 + 1 * r.val = p.val; omega
  | ⟨1, _⟩ => show win3_0.index t (1 : Fin 2) * 512 + 1 * s.val = s.val; omega

theorem iblk3_1_at (c : Dev nD) (t : Fin cfg3.N) (r : Fin 1280) (s : Fin 512) (p : Fin 10240)
    (hp : p.val = t.val * 1280 + r.val) :
    (iblk3 V c 1 t : Vec Ideal S1280x512 .bf16) (ix2 r s) = aggr3 V c (ix2 p s) := by
  obtain ⟨-, -, a0, a1, -⟩ := idx3 t
  unfold iblk3
  rw [View.read_apply]
  show V c main_v31 _ = V c main_v31 _
  congr 1
  funext a
  apply Fin.ext
  match a with
  | ⟨0, _⟩ => show win3_1.index t (0 : Fin 2) * 1280 + 1 * r.val = p.val; omega
  | ⟨1, _⟩ => show win3_1.index t (1 : Fin 2) * 512 + 1 * s.val = s.val; omega

theorem iblk3_2_at (c : Dev nD) (t : Fin cfg3.N) (r : Fin 512) (s : Fin 512) :
    (iblk3 V c 2 t : Vec Ideal S512x512 .bf16) (ix2 r s) = wself3 V c (ix2 r s) := by
  obtain ⟨-, -, -, -, a0, a1, -⟩ := idx3 t
  unfold iblk3
  rw [View.read_apply]
  show V c main_v34 _ = V c main_v34 _
  congr 1
  funext a
  apply Fin.ext
  match a with
  | ⟨0, _⟩ => show win3_2.index t (0 : Fin 2) * 512 + 1 * r.val = r.val; omega
  | ⟨1, _⟩ => show win3_2.index t (1 : Fin 2) * 512 + 1 * s.val = s.val; omega

theorem iblk3_3_at (c : Dev nD) (t : Fin cfg3.N) (r : Fin 512) (s : Fin 512) :
    (iblk3 V c 3 t : Vec Ideal S512x512 .bf16) (ix2 r s) = wnbr3 V c (ix2 r s) := by
  obtain ⟨-, -, -, -, -, -, a0, a1, -⟩ := idx3 t
  unfold iblk3
  rw [View.read_apply]
  show V c main_v37 _ = V c main_v37 _
  congr 1
  funext a
  apply Fin.ext
  match a with
  | ⟨0, _⟩ => show win3_3.index t (0 : Fin 2) * 512 + 1 * r.val = r.val; omega
  | ⟨1, _⟩ => show win3_3.index t (1 : Fin 2) * 512 + 1 * s.val = s.val; omega

theorem iblk3_4_at (c : Dev nD) (t : Fin cfg3.N) (r : Fin 1) (s : Fin 512) :
    (iblk3 V c 4 t : Vec Ideal S1x512 .f32) (ix2 r s) = bias3 V c (ix2 r s) := by
  obtain ⟨-, -, -, -, -, -, -, -, a0, a1, -⟩ := idx3 t
  unfold iblk3
  rw [View.read_apply]
  show V c main_v40 _ = V c main_v40 _
  congr 1
  funext a
  apply Fin.ext
  match a with
  | ⟨0, _⟩ => show win3_4.index t (0 : Fin 2) * 1 + 1 * r.val = r.val; omega
  | ⟨1, _⟩ => show win3_4.index t (1 : Fin 2) * 512 + 1 * s.val = s.val; omega

/-! ## What a point writes back, and the array after the run -/

/-- What point `t` writes back is block `t` of the whole-array update of the five arrays as the region finds them. -/
theorem flushed3_eq (c : Dev nD) (t : Fin cfg3.N) :
    (dat3 (F := Ideal) V c).flushed 5 t
      = ((cfg3.win 5).blk t).view.read (Elt Ideal) (updAt3 (feat3 V c) (aggr3 V c) (wself3 V c) (wnbr3 V c) (bias3 V c)) := by
  show (cfg3.win 5).cut (grid3.coords t) ((dat3 (F := Ideal) V c).after 5 t) = _
  rw [after3_5]
  unfold out3_5
  rw [View.canon_unit_zero zero2_3]
  simp only [View.ld_unit_zero (S := S1280x512) zero2_3, View.ld_unit_zero (S := S512x512) zero2_3,
    View.ld_unit_zero (S := S1x512) zero2_3]
  obtain ⟨-, -, -, -, -, -, -, -, -, -, o0, o1⟩ := idx3 t
  funext j
  have hj0 : (j 0).val < 1280 := (j 0).isLt
  have hj1 : (j 1).val < 512 := (j 1).isLt
  have hj : (cfg3.win 5).xinj (grid3.coords t) j = ix2 (⟨(j 0).val, hj0⟩ : Fin 1280) (⟨(j 1).val, hj1⟩ : Fin 512) :=
    funext fun a => by
      match a with
      | ⟨0, _⟩ => rfl
      | ⟨1, _⟩ => rfl
  show k3_pay1 (F := Ideal) (iblk3 V c 0 t) (iblk3 V c 1 t) (iblk3 V c 2 t) (iblk3 V c 3 t) (iblk3 V c 4 t)
      ((cfg3.win 5).xinj (grid3.coords t) j)
    = upd3 (feat3 V c) (aggr3 V c) (wself3 V c) (wnbr3 V c) (bias3 V c)
        ((((cfg3.win 5).blk t).view.emb j) 0) ((((cfg3.win 5).blk t).view.emb j) 1)
  have hp : (((cfg3.win 5).blk t).view.emb j (0 : Fin 2)).val = t.val * 1280 + (j 0).val := by
    show win3_5.index t (0 : Fin 2) * 1280 + 1 * (j 0).val = _
    omega
  have hq : (((cfg3.win 5).blk t).view.emb j) (1 : Fin 2) = (⟨(j 1).val, hj1⟩ : Fin 512) := by
    apply Fin.ext
    show win3_5.index t (1 : Fin 2) * 512 + 1 * (j 1).val = (j 1).val
    omega
  rw [hj, hq]
  exact upd_block3 _ _ _ _ _ _ _ _ _ _ _ _ _ _
    (fun s => iblk3_0_at V c t _ s _ hp) (fun s => iblk3_1_at V c t _ s _ hp)
    (fun s => iblk3_2_at V c t s _) (fun s => iblk3_3_at V c t s _) (iblk3_4_at V c t _ _)

/-- An index of the array is in point `t`'s block iff each coordinate is in the block's range on its axis. -/
theorem mem_blk3 (t : Fin cfg3.N) (i : S10240x512.Idx) :
    i ∈ ((cfg3.win 5).blk t).view.set ↔ ∀ a : Fin 2, win3_5.index t a * S1280x512.size a ≤ (i a).val
      ∧ (i a).val < win3_5.index t a * S1280x512.size a + S1280x512.size a := by
  show i ∈ ((View.whole main_v41).slice (win3_5.rect t)).set ↔ _
  rw [View.set_slice_whole, Rect.mem_set_unit]
  exact Iff.rfl

/-- Row `r` lies in the block of point `r / 1280`: the eight blocks cover the array. -/
theorem cover3 (i : S10240x512.Idx) :
    ∃ t : Fin cfg3.N, (cfg3.win 5).flush t = true ∧ i ∈ ((cfg3.win 5).blk t).view.set := by
  have hi0 : (i 0).val < 10240 := (i 0).isLt
  have hi1 : (i 1).val < 512 := (i 1).isLt
  have hN : cfg3.N = 8 := N_3
  have ht : (i 0).val / 1280 < cfg3.N := by rw [hN]; omega
  obtain ⟨-, -, -, -, -, -, -, -, -, -, o0, o1⟩ := idx3 ⟨(i 0).val / 1280, ht⟩
  refine ⟨⟨(i 0).val / 1280, ht⟩, flush3_5 _, ?_⟩
  rw [mem_blk3]
  intro a
  match a with
  | ⟨0, _⟩ =>
    show win3_5.index ⟨(i 0).val / 1280, ht⟩ (0 : Fin 2) * 1280 ≤ (i 0).val
      ∧ (i 0).val < win3_5.index ⟨(i 0).val / 1280, ht⟩ (0 : Fin 2) * 1280 + 1280
    rw [o0]
    show (i 0).val / 1280 * 1280 ≤ (i 0).val ∧ (i 0).val < (i 0).val / 1280 * 1280 + 1280
    omega
  | ⟨1, _⟩ =>
    show win3_5.index ⟨(i 0).val / 1280, ht⟩ (1 : Fin 2) * 512 ≤ (i 1).val
      ∧ (i 1).val < win3_5.index ⟨(i 0).val / 1280, ht⟩ (1 : Fin 2) * 512 + 512
    rw [o1]
    omega

/-- The output array after the run is the whole-array update. -/
theorem final3_eq (c : Dev nD) :
    (dat3 (F := Ideal) V c).arrAt 5 cfg3.N = updAt3 (feat3 V c) (aggr3 V c) (wself3 V c) (wnbr3 V c) (bias3 V c) :=
  (dat3 (F := Ideal) V c).arrAt_eq_of_cover 5 _ (fun t _ => flushed3_eq V c t) cover3

/-- The output array after the run, element by element. -/
theorem final3 (c : Dev nD) (p : Fin 10240) (q : Fin 512) :
    (dat3 (F := Ideal) V c).arrAt 5 cfg3.N (ix2 p q)
      = max (((∑ t : Fin 512, feat3 V c (ix2 p t) * wself3 V c (ix2 t q))
          + (∑ t : Fin 512, aggr3 V c (ix2 p t) * wnbr3 V c (ix2 t q))) + bias3 V c (ix2 (0 : Fin 1) q)) 0 := by
  rw [final3_eq]
  rfl

end Cert.KernelIdeal.Val

end
-- ==== Proof.KV.Fin4.lean ====
/-
  The message layer's result array, entry by entry.

  The region walks the 10240 node rows in eight blocks of 1280. At grid point t the body reads node rows
  1280 t … 1280 t + 1279, the whole message weight matrix and the whole bias row, and writes rows
  1280 t … 1280 t + 1279 of the messages: entry (p, q) of what it writes is max (∑ₖ h (1280 t + p, k) · W (k, q) + b q) 0,
  the changes of float format being the identity on extended reals. So each point writes its own block of ONE array,
  the layer applied to the arrays the region finds, and the eight blocks cover that array: after the write-backs the
  message array is the layer's, at every entry.
-/
import proofs.«408707_j33406255628688_2_alg».proof.Proof.KI.RegA4
import proofs.«408707_j33406255628688_2_alg».proof.Proof.KV.Pay
import Idealize.ShloMosaic.Lib.Pipeline.Value
import Idealize.ShloMosaic.Lib.ValueIdx
import Mathlib.Algebra.BigOperators.Group.Finset.Basic

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays and the blocks, each at its literal type -/

/-- The node rows as the region finds them. -/
abbrev featArr4 (c : Dev nD) : Vec Ideal S10240x512 .f32 := V c main_v41
/-- The message weights as the region finds them. -/
abbrev wtArr4 (c : Dev nD) : Vec Ideal S512x512 .bf16 := V c main_v44
/-- The message bias row as the region finds it. -/
abbrev biasArr4 (c : Dev nD) : Vec Ideal S1x512 .f32 := V c main_v47
/-- The message array after the region's write-backs. -/
abbrev outArr4 (c : Dev nD) : Vec Ideal S10240x512 .bf16 := (dat4 (F := Ideal) V c).arrAt 3 cfg4.N
/-- The node rows' block at grid point t. -/
abbrev featBlk4 (c : Dev nD) (t : Fin cfg4.N) : Vec Ideal S1280x512 .f32 := iblk4 V c 0 t
/-- The weights' block at grid point t. -/
abbrev wtBlk4 (c : Dev nD) (t : Fin cfg4.N) : Vec Ideal S512x512 .bf16 := iblk4 V c 1 t
/-- The bias row's block at grid point t. -/
abbrev biasBlk4 (c : Dev nD) (t : Fin cfg4.N) : Vec Ideal S1x512 .f32 := iblk4 V c 2 t

/-! ## The message layer, entry by entry -/

/-- Entry (r, q) of the message layer: node row r against column q of the weights, the bias added, rectified. -/
def dense4 (c : Dev nD) (r : Fin 10240) (q : Fin 512) : EReal :=
  max (∑ k : Fin 512, featArr4 V c (ix2 r k) * wtArr4 V c (ix2 k q) + biasArr4 V c (ix2 (0 : Fin 1) q)) 0

/-- The layer's whole result, as one array over the arrays the region finds. -/
def denseArr4 (c : Dev nD) : Vec Ideal S10240x512 .bf16 := fun i => dense4 V c (i 0) (i 1)

/-- The body's loads and its store start at the corner of their blocks. -/
theorem offsets4 : (![0, 0] : Fin 2 → Nat) = fun _ => 0 := funext fun a => by fin_cases a <;> rfl

/-- The grid has eight points. -/
theorem lt8_4 (t : Fin cfg4.N) : t.val < 8 := t.isLt.trans_eq N_4
/-- The n-th of them. -/
def pt4 (n : ℕ) (h : n < 8) : Fin cfg4.N := ⟨n, h.trans_eq N_4.symm⟩

/-- Where each window's block sits at grid point t: the node rows' and the messages' row blocks move with the point, one
    block of 1280 rows per point, and the weights and the bias stay whole. -/
theorem place4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-! ## The blocks read off the arrays -/

/-- Row p of the node rows' block at point t is node row 1280 t + p. -/
theorem rows4 (c : Dev nD) (t : Fin cfg4.N) (p : Fin 1280) (k : Fin 512) (r : Fin 10240) (hr : r.val = t.val * 1280 + p.val) :
    featBlk4 V c t (ix2 p k) = featArr4 V c (ix2 r k) := by
  obtain ⟨e0, e1, -⟩ := place4 t
  unfold featBlk4 iblk4
  rw [View.read_apply]
  show featArr4 V c _ = _
  congr 1
  funext a
  apply Fin.ext
  match a with
  | ⟨0, _⟩ => show win4_0.index t (0 : Fin 2) * 1280 + 1 * p.val = r.val; omega
  | ⟨1, _⟩ => show win4_0.index t (1 : Fin 2) * 512 + 1 * k.val = k.val; omega

/-- The weights' block is the weights at every point. -/
theorem weights4 (c : Dev nD) (t : Fin cfg4.N) (k : Fin 512) (q : Fin 512) :
    wtBlk4 V c t (ix2 k q) = wtArr4 V c (ix2 k q) := by
  obtain ⟨-, -, e2, e3, -⟩ := place4 t
  unfold wtBlk4 iblk4
  rw [View.read_apply]
  show wtArr4 V c _ = _
  congr 1
  funext a
  apply Fin.ext
  match a with
  | ⟨0, _⟩ => show win4_1.index t (0 : Fin 2) * 512 + 1 * k.val = k.val; omega
  | ⟨1, _⟩ => show win4_1.index t (1 : Fin 2) * 512 + 1 * q.val = q.val; omega

/-- The bias row's block is the bias row at every point. -/
theorem bias4 (c : Dev nD) (t : Fin cfg4.N) (q : Fin 512) :
    biasBlk4 V c t (ix2 (0 : Fin 1) q) = biasArr4 V c (ix2 (0 : Fin 1) q) := by
  obtain ⟨-, -, -, -, e4, e5, -⟩ := place4 t
  unfold biasBlk4 iblk4
  rw [View.read_apply]
  show biasArr4 V c _ = _
  congr 1
  funext a
  apply Fin.ext
  match a with
  | ⟨0, _⟩ => show win4_2.index t (0 : Fin 2) * 1 + 1 * 0 = 0; omega
  | ⟨1, _⟩ => show win4_2.index t (1 : Fin 2) * 512 + 1 * q.val = q.val; omega

/-! ## What a point writes back -/

/-- What the body computes from the three blocks at point t, at entry (p, q) of its block, is entry (1280 t + p, q) of
    the message layer. -/
theorem entry4 (c : Dev nD) (t : Fin cfg4.N) (p : Fin 1280) (q : Fin 512) (r : Fin 10240) (hr : r.val = t.val * 1280 + p.val) :
    k4_pay1 (F := Ideal) (featBlk4 V c t) (wtBlk4 V c t) (biasBlk4 V c t) (ix2 p q) = dense4 V c r q := by
  refine (pay4 (featBlk4 V c t) (wtBlk4 V c t) (biasBlk4 V c t) p q).trans ?_
  unfold dense4
  rw [bias4 V c t q]
  refine congrArg (fun s : EReal => max (s + biasArr4 V c (ix2 (0 : Fin 1) q)) 0) ?_
  exact Finset.sum_congr rfl fun k _ => by rw [rows4 V c t p k r hr, weights4 V c t k q]

/-- The same over a whole index of the block, against the array index the block's view gives it. -/
theorem entryAt4 (c : Dev nD) (t : Fin cfg4.N) (j : S1280x512.Idx) :
    k4_pay1 (F := Ideal) (featBlk4 V c t) (wtBlk4 V c t) (biasBlk4 V c t) j
      = denseArr4 V c (((cfg4.win 3).blk t).view.emb j) := by
  obtain ⟨-, -, -, -, -, -, e6, e7⟩ := place4 t
  have ht : t.val < 8 := lt8_4 t
  obtain ⟨p, q, rfl⟩ : ∃ p q, j = ix2 p q := ⟨j 0, j 1, eq_ix2 j⟩
  have hq : ((((cfg4.win 3).blk t).view.emb (ix2 p q) : S10240x512.Idx) 1 : Fin 512) = q :=
    Fin.ext (by show win4_3.index t (1 : Fin 2) * 512 + 1 * q.val = q.val; omega)
  unfold denseArr4
  rw [hq]
  exact entry4 V c t p q _ (by show win4_3.index t (0 : Fin 2) * 1280 + 1 * p.val = t.val * 1280 + p.val; omega)

/-- What point t writes back is block t of the message layer's array. -/
theorem flushed4_eq (c : Dev nD) (t : Fin cfg4.N) :
    (dat4 (F := Ideal) V c).flushed 3 t = ((cfg4.win 3).blk t).view.read (Elt Ideal) (denseArr4 V c) := by
  show (cfg4.win 3).cut (grid4.coords t) ((dat4 V c).after 3 t) = _
  rw [after4_3]
  unfold out4_3
  rw [View.canon_unit_zero offsets4]
  simp only [View.ld_unit_zero (S := S1280x512) offsets4, View.ld_unit_zero (S := S512x512) offsets4, View.ld_unit_zero (S := S1x512) offsets4]
  funext j
  exact entryAt4 V c t j

/-! ## The blocks cover the array -/

/-- An index of the message array lies in point t's block iff each coordinate lies in the block's range on its axis. -/
theorem mem_blk4 (t : Fin cfg4.N) (i : S10240x512.Idx) :
    i ∈ ((cfg4.win 3).blk t).view.set ↔ ∀ a : Fin 2, win4_3.index t a * S1280x512.size a ≤ (i a).val ∧ (i a).val < win4_3.index t a * S1280x512.size a + S1280x512.size a := by
  show i ∈ ((View.whole main_v48).slice (win4_3.rect t)).set ↔ _
  rw [View.set_slice_whole, Rect.mem_set_unit]
  exact Iff.rfl

/-- Every row of the messages lies in some point's block: row r in that of point r / 1280. -/
theorem cover4 (i : S10240x512.Idx) : ∃ t : Fin cfg4.N, (cfg4.win 3).flush t = true ∧ i ∈ ((cfg4.win 3).blk t).view.set := by
  have hi0 : (i 0).val < 10240 := idx2_lt0 i
  have hi1 : (i 1).val < 512 := idx2_lt1 i
  have h8 : (i 0).val / 1280 < 8 := by omega
  refine ⟨pt4 _ h8, flush4_3 _, ?_⟩
  rw [mem_blk4]
  obtain ⟨-, -, -, -, -, -, e6, e7⟩ := place4 (pt4 _ h8)
  have e6' : win4_3.index (pt4 _ h8) (0 : Fin 2) = (i 0).val / 1280 := e6
  intro a
  match a with
  | ⟨0, _⟩ => show win4_3.index (pt4 _ h8) (0 : Fin 2) * 1280 ≤ (i 0).val ∧ (i 0).val < win4_3.index (pt4 _ h8) (0 : Fin 2) * 1280 + 1280; omega
  | ⟨1, _⟩ => show win4_3.index (pt4 _ h8) (1 : Fin 2) * 512 ≤ (i 1).val ∧ (i 1).val < win4_3.index (pt4 _ h8) (1 : Fin 2) * 512 + 512; omega

/-! ## The array after the region -/

/-- The message array after the region's write-backs is the message layer's array. -/
theorem array4 (c : Dev nD) : outArr4 V c = denseArr4 V c :=
  (dat4 (F := Ideal) V c).arrAt_eq_of_cover 3 (denseArr4 V c) (fun t _ => flushed4_eq V c t) cover4

/-- Entry (p, q) of the message array. -/
theorem final4 (c : Dev nD) (p : Fin 10240) (q : Fin 512) :
    outArr4 V c (ix2 p q)
      = max (∑ t : Fin 512, featArr4 V c (ix2 p t) * wtArr4 V c (ix2 t q) + biasArr4 V c (ix2 (0 : Fin 1) q)) 0 := by
  rw [array4 V c]
  rfl

end Cert.KernelIdeal.Val

end
-- ==== Proof.KV.FinJ5.lean ====
/-
  The adjacency region's output array, entry by entry, over the extended reals.

  The region multiplies the 10240 × 10240 matrix A by the 10240 × 512 node rows g in blocks of 1280 over an 8 × 8 grid,
  point t ↦ (i, k) = (t / 8, t % 8) with k innermost. At k = 0 the carried sum restarts from zero; at every k it takes
  the product of block (i, k) of A with block (k, 0) of g; at k = 7 the output block (i, 0) is the carried sum (the
  change of float format is the identity on extended reals) and is written back.

  So after point 8 i + k the carried sum at (r, q) is the first 1280 (k + 1) terms of ∑ s, A (1280 i + r, s) · g (s, q):
  by induction on the point, a sum over the first k + 1 stretches of length 1280 being the sum over the first k plus
  stretch k. At k = 7 that is the whole sum over s < 10240. The blocks written back tile the output array, which
  therefore ends holding A · g.
-/
import proofs.«408707_j33406255628688_2_alg».proof.Proof.KI.RegJ5
import proofs.«408707_j33406255628688_2_alg».proof.Proof.KV.Pay
import Idealize.ShloMosaic.Lib.ValueIdx
import Idealize.ShloMosaic.Lib.Pipeline.Value
import Mathlib.Algebra.BigOperators.Fin
import Mathlib.Algebra.BigOperators.Intervals

noncomputable section

open scoped BigOperators

/-! ## Sums over consecutive stretches of equal length -/

namespace Cert.BlockSum5

/-- The sum over the first `k + 1` stretches of length `m` is the sum over the first `k` plus stretch `k`. -/
theorem sum_range_block5 {M : Type*} [AddCommMonoid M] (f : ℕ → M) (m k : ℕ) :
    ∑ j ∈ Finset.range (m * (k + 1)), f j
      = ∑ j ∈ Finset.range (m * k), f j + ∑ s : Fin m, f (m * k + s.val) := by
  rw [Nat.mul_succ, Finset.sum_range_add, Finset.sum_range (fun x => f (m * k + x))]

/-- The first stretch alone. -/
theorem sum_range_block_zero5 {M : Type*} [AddCommMonoid M] (f : ℕ → M) (m : ℕ) :
    ∑ j ∈ Finset.range (m * (0 + 1)), f j = ∑ s : Fin m, f (m * 0 + s.val) := by
  rw [sum_range_block5, Nat.mul_zero, Finset.range_zero, Finset.sum_empty, zero_add]

end Cert.BlockSum5

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.BlockSum5

-- the core's buffer contents when the region is entered
variable (V : (c : Dev nD) → (b : Ref sig .tc) → Buf (Elt Ideal) ((c : Thread nD τ).loc b))

/-! ## The grid and the block index maps -/

/-- The printed index maps over the 8 × 8 grid, point `t ↦ (t / 8, t % 8)`: the matrix at block `(i, k)`, the node
    rows at block `(k, 0)`, the output at block `(i, 0)`. -/
theorem idx_facts5 : ∀ t : Fin cfg5.N, win5_0.index t (0 : Fin 2) = t.val / 8 ∧ win5_0.index t (1 : Fin 2) = t.val % 8
    ∧ win5_1.index t (0 : Fin 2) = t.val % 8 ∧ win5_1.index t (1 : Fin 2) = 0
    ∧ win5_2.index t (0 : Fin 2) = t.val / 8 ∧ win5_2.index t (1 : Fin 2) = 0 :=
  (by decide +kernel : ∀ t : Fin grid5.N, _)

/-- The grid has 64 points. -/
theorem N5 : cfg5.N = 64 := by decide +kernel
theorem t_lt5 (t : Fin cfg5.N) : t.val < 64 := Nat.lt_of_lt_of_eq t.isLt N5

/-! ## The arrays and the blocks, at their literal types -/

/-- The matrix and the node rows as the region finds them. -/
abbrev Aarr5 (c : Dev nD) : Vec Ideal S10240x10240 .bf16 := V c main_v21
abbrev garr5 (c : Dev nD) : Vec Ideal S10240x512 .bf16 := V c main_v48

/-- Their blocks at point `t`. -/
abbrev Ablk5 (c : Dev nD) (t : Fin cfg5.N) : Vec Ideal S1280x1280 .bf16 := iblk5 V c 0 t
abbrev gblk5 (c : Dev nD) (t : Fin cfg5.N) : Vec Ideal S1280x512 .bf16 := iblk5 V c 1 t

/-- Block `(t / 8, t % 8)` of the matrix at `(r, s)` is the matrix at `(1280 (t / 8) + r, 1280 (t % 8) + s)`. -/
theorem Ablk5_apply (c : Dev nD) (t : Fin cfg5.N) (r s : Fin 1280) :
    Ablk5 V c t (ix2 r s)
      = Aarr5 V c (ix2 (⟨1280 * (t.val / 8) + r.val, by have := t_lt5 t; omega⟩ : Fin 10240)
          (⟨1280 * (t.val % 8) + s.val, by omega⟩ : Fin 10240)) := by
  obtain ⟨e0, e1, e2, e3, e4, e5⟩ := idx_facts5 t
  unfold Ablk5 iblk5
  rw [View.read_apply]
  show V c main_v21 _ = V c main_v21 _
  congr 1
  funext a
  apply Fin.ext
  match a with
  | ⟨0, _⟩ => show win5_0.index t (0 : Fin 2) * 1280 + 1 * r.val = 1280 * (t.val / 8) + r.val; omega
  | ⟨1, _⟩ => show win5_0.index t (1 : Fin 2) * 1280 + 1 * s.val = 1280 * (t.val % 8) + s.val; omega

/-- Block `(t % 8, 0)` of the node rows at `(s, q)` is the node rows at `(1280 (t % 8) + s, q)`. -/
theorem gblk5_apply (c : Dev nD) (t : Fin cfg5.N) (s : Fin 1280) (q : Fin 512) :
    gblk5 V c t (ix2 s q) = garr5 V c (ix2 (⟨1280 * (t.val % 8) + s.val, by omega⟩ : Fin 10240) q) := by
  obtain ⟨e0, e1, e2, e3, e4, e5⟩ := idx_facts5 t
  unfold gblk5 iblk5
  rw [View.read_apply]
  show V c main_v48 _ = V c main_v48 _
  congr 1
  funext a
  apply Fin.ext
  match a with
  | ⟨0, _⟩ => show win5_1.index t (0 : Fin 2) * 1280 + 1 * s.val = 1280 * (t.val % 8) + s.val; omega
  | ⟨1, _⟩ => show win5_1.index t (1 : Fin 2) * 512 + 1 * q.val = q.val; omega

/-! ## One row's terms, and a block product as a stretch of them -/

/-- Term `j` of row `i` of the matrix against column `q` of the node rows; zero outside the arrays. -/
def rowF5 (c : Dev nD) (q : Fin 512) (i j : ℕ) : EReal :=
  if h : i < 10240 ∧ j < 10240 then Aarr5 V c (ix2 ⟨i, h.1⟩ ⟨j, h.2⟩) * garr5 V c (ix2 ⟨j, h.2⟩ q) else 0

/-- The block product at point `t` is the stretch from `1280 (t % 8)` of row `1280 (t / 8) + r`'s terms. -/
theorem blk_prod5 (c : Dev nD) (t : Fin cfg5.N) (r : Fin 1280) (q : Fin 512) :
    ∑ s : Fin 1280, Ablk5 V c t (ix2 r s) * gblk5 V c t (ix2 s q)
      = ∑ s : Fin 1280, rowF5 V c q (1280 * (t.val / 8) + r.val) (1280 * (t.val % 8) + s.val) := by
  refine Finset.sum_congr rfl fun s _ => ?_
  rw [Ablk5_apply, gblk5_apply]
  unfold rowF5
  rw [dif_pos (show 1280 * (t.val / 8) + r.val < 10240 ∧ 1280 * (t.val % 8) + s.val < 10240 from
    ⟨by have := t_lt5 t; omega, by omega⟩)]

/-! ## What one point leaves, as the body's arithmetic of what it read -/

theorem hz5 : (![0, 0] : Fin 2 → Nat) = fun _ => 0 := funext fun a => by fin_cases a <;> rfl

/-- A point that restarts the carried sum: zero stored, read back, the block product added. -/
theorem accReset5_eq (x0 : Vec Ideal S1280x1280 .bf16) (x1 : Vec Ideal S1280x512 .bf16) :
    accReset5 (F := Ideal) x0 x1 = k5_pay2 (F := Ideal) (k5_pay1 (F := Ideal)) x0 x1 := by
  unfold accReset5
  rw [View.canon_cons_unit_zero (S := S1280x512) hz5, View.canon_unit_zero (S := S1280x512) hz5]
  simp only [View.ld_unit_zero (S := S1280x512) hz5, View.ld_unit_zero (S := S1280x1280) hz5]

/-- A point that carries it: the block product added to what the point before left. -/
theorem accStep5_eq (x0 : Vec Ideal S1280x1280 .bf16) (x1 : Vec Ideal S1280x512 .bf16) (xs : Vec Ideal S1280x512 .f32) :
    accStep5 (F := Ideal) x0 x1 xs = k5_pay2 (F := Ideal) xs x0 x1 := by
  unfold accStep5
  rw [View.canon_unit_zero (S := S1280x512) hz5]
  simp only [View.ld_unit_zero (S := S1280x512) hz5, View.ld_unit_zero (S := S1280x1280) hz5]

/-- The output block at the last column block: the carried sum just stored, in the output's format. -/
theorem outLast5_eq (x0 : Vec Ideal S1280x1280 .bf16) (x1 : Vec Ideal S1280x512 .bf16) (xs : Vec Ideal S1280x512 .f32) :
    outLast5 (F := Ideal) x0 x1 xs = k5_pay3 (F := Ideal) (accStep5 (F := Ideal) x0 x1 xs) := by
  unfold outLast5
  rw [View.canon_unit_zero (S := S1280x512) hz5]
  simp only [View.ld_unit_zero (S := S1280x512) hz5]

/-! ## The carried sum and the output block, point by point, at an entry -/

theorem prevLt5 (t : Fin cfg5.N) : t.val - 1 < cfg5.N := Nat.lt_of_le_of_lt (Nat.sub_le t.val 1) t.isLt

/-- The carried sum the point before `t` left. -/
abbrev prev5 (c : Dev nD) (t : Fin cfg5.N) : Vec Ideal S1280x512 .f32 := (outsAt5 V c (t.val - 1) (prevLt5 t)).2

/-- At the first column block the carried sum is the block product. -/
theorem scr_first5 (c : Dev nD) (t : Fin cfg5.N) (h0 : t.val % 8 = 0) (r : Fin 1280) (q : Fin 512) :
    (outsAt5 V c t.val t.isLt).2 (ix2 r q) = ∑ s : Fin 1280, Ablk5 V c t (ix2 r s) * gblk5 V c t (ix2 s q) := by
  rw [outsAt5_A V c t h0]
  dsimp only
  refine (congrFun (accReset5_eq (Ablk5 V c t) (gblk5 V c t)) (ix2 r q)).trans ?_
  refine (pay5_2 (k5_pay1 (F := Ideal)) (Ablk5 V c t) (gblk5 V c t) r q).trans ?_
  rw [pay5_1, zero_add]

/-- At a later column block it is what the point before left plus the block product. -/
theorem scr_step5 (c : Dev nD) (t : Fin cfg5.N) (h0 : ¬t.val % 8 = 0) (r : Fin 1280) (q : Fin 512) :
    (outsAt5 V c t.val t.isLt).2 (ix2 r q)
      = prev5 V c t (ix2 r q) + ∑ s : Fin 1280, Ablk5 V c t (ix2 r s) * gblk5 V c t (ix2 s q) := by
  by_cases h1 : t.val % 8 = 7
  · rw [outsAt5_C V c t h1]
    dsimp only
    refine (congrFun (accStep5_eq (Ablk5 V c t) (gblk5 V c t) (prev5 V c t)) (ix2 r q)).trans ?_
    exact pay5_2 (prev5 V c t) (Ablk5 V c t) (gblk5 V c t) r q
  · rw [outsAt5_B V c t h0 h1]
    dsimp only
    refine (congrFun (accStep5_eq (Ablk5 V c t) (gblk5 V c t) (prev5 V c t)) (ix2 r q)).trans ?_
    exact pay5_2 (prev5 V c t) (Ablk5 V c t) (gblk5 V c t) r q

/-- The same, with the point written as a successor. -/
theorem scr_succ5 (c : Dev nD) (n : ℕ) (h : n + 1 < cfg5.N) (h0 : ¬(n + 1) % 8 = 0) (r : Fin 1280) (q : Fin 512) :
    (outsAt5 V c (n + 1) h).2 (ix2 r q) = (outsAt5 V c n (Nat.lt_of_succ_lt h)).2 (ix2 r q)
      + ∑ s : Fin 1280, Ablk5 V c ⟨n + 1, h⟩ (ix2 r s) * gblk5 V c ⟨n + 1, h⟩ (ix2 s q) :=
  scr_step5 V c ⟨n + 1, h⟩ h0 r q

/-- At the last column block the output block is the carried sum. -/
theorem out_eq_scr5 (c : Dev nD) (t : Fin cfg5.N) (h7 : t.val % 8 = 7) (r : Fin 1280) (q : Fin 512) :
    (outsAt5 V c t.val t.isLt).1 (ix2 r q) = (outsAt5 V c t.val t.isLt).2 (ix2 r q) := by
  rw [outsAt5_C V c t h7]
  dsimp only
  refine (congrFun (outLast5_eq (Ablk5 V c t) (gblk5 V c t) (prev5 V c t)) (ix2 r q)).trans ?_
  exact pay5_3 (accStep5 (F := Ideal) (Ablk5 V c t) (gblk5 V c t) (prev5 V c t)) r q

/-- After point `n = 8 i + k` the carried sum at `(r, q)` is the first `1280 (k + 1)` terms of row `1280 i + r`. -/
theorem scratch_inv5 (c : Dev nD) : ∀ (n : ℕ) (hn : n < cfg5.N) (r : Fin 1280) (q : Fin 512),
    (outsAt5 V c n hn).2 (ix2 r q) = ∑ j ∈ Finset.range (1280 * (n % 8 + 1)), rowF5 V c q (1280 * (n / 8) + r.val) j
  | 0, hn, r, q => by
    refine (scr_first5 V c ⟨0, hn⟩ rfl r q).trans ?_
    rw [blk_prod5]
    exact (sum_range_block_zero5 (rowF5 V c q (1280 * (0 / 8) + r.val)) 1280).symm
  | n + 1, hn, r, q => by
    by_cases h0 : (n + 1) % 8 = 0
    · refine (scr_first5 V c ⟨n + 1, hn⟩ h0 r q).trans ?_
      rw [blk_prod5]
      show ∑ s : Fin 1280, rowF5 V c q (1280 * ((n + 1) / 8) + r.val) (1280 * ((n + 1) % 8) + s.val) = _
      rw [h0]
      exact (sum_range_block_zero5 (rowF5 V c q (1280 * ((n + 1) / 8) + r.val)) 1280).symm
    · have e1 : (n + 1) / 8 = n / 8 := by omega
      have e2 : (n + 1) % 8 = n % 8 + 1 := by omega
      rw [scr_succ5 V c n hn h0 r q, scratch_inv5 c n (Nat.lt_of_succ_lt hn) r q, blk_prod5]
      show _ + ∑ s : Fin 1280, rowF5 V c q (1280 * ((n + 1) / 8) + r.val) (1280 * ((n + 1) % 8) + s.val) = _
      rw [e1, e2]
      exact (sum_range_block5 (rowF5 V c q (1280 * (n / 8) + r.val)) 1280 (n % 8 + 1)).symm

/-- At the last column block the output block holds the whole row sum. -/
theorem out_last5 (c : Dev nD) (t : Fin cfg5.N) (h7 : t.val % 8 = 7) (r : Fin 1280) (q : Fin 512) :
    (outsAt5 V c t.val t.isLt).1 (ix2 r q)
      = ∑ s : Fin 10240, Aarr5 V c (ix2 (⟨1280 * (t.val / 8) + r.val, by have := t_lt5 t; omega⟩ : Fin 10240) s) * garr5 V c (ix2 s q) := by
  rw [out_eq_scr5 V c t h7 r q, scratch_inv5 V c t.val t.isLt r q, h7, show 1280 * (7 + 1) = 10240 from rfl, Finset.sum_range]
  refine Finset.sum_congr rfl fun s _ => ?_
  unfold rowF5
  rw [dif_pos (show 1280 * (t.val / 8) + r.val < 10240 ∧ s.val < 10240 from ⟨by have := t_lt5 t; omega, s.isLt⟩)]

/-! ## From the blocks written back to the array -/

/-- The matrix times the node rows, entry by entry. -/
abbrev prod5 (c : Dev nD) : Vec Ideal S10240x512 .bf16 :=
  fun i => ∑ s : Fin 10240, Aarr5 V c (ix2 (i 0) s) * garr5 V c (ix2 s (i 1))

/-- An index of the output array is in point `t`'s block iff each coordinate is in the block's range on its axis. -/
theorem mem_blk5 (t : Fin cfg5.N) (i : S10240x512.Idx) :
    i ∈ ((cfg5.win 2).blk t).view.set ↔ ∀ a : Fin 2, win5_2.index t a * S1280x512.size a ≤ (i a).val ∧ (i a).val < win5_2.index t a * S1280x512.size a + S1280x512.size a := by
  show i ∈ ((View.whole main_v49).slice (win5_2.rect t)).set ↔ _
  rw [View.set_slice_whole, Rect.mem_set_unit]
  exact Iff.rfl

/-- Every index of the output array is in the block of a point that writes back: row block `i₀ / 1280`, last column block. -/
theorem cover5 (i : S10240x512.Idx) :
    ∃ t : Fin cfg5.N, (cfg5.win 2).flush t = true ∧ i ∈ ((cfg5.win 2).blk t).view.set := by
  have hi0 : (i 0).val < 10240 := idx2_lt0 i
  have hi1 : (i 1).val < 512 := idx2_lt1 i
  obtain ⟨t, ht⟩ : ∃ t : Fin cfg5.N, t.val = 8 * ((i 0).val / 1280) + 7 := ⟨⟨8 * ((i 0).val / 1280) + 7, by rw [N5]; omega⟩, rfl⟩
  obtain ⟨e0, e1, e2, e3, e4, e5⟩ := idx_facts5 t
  refine ⟨t, (flush5_2 t).mpr (by omega), ?_⟩
  rw [mem_blk5]
  intro a
  match a with
  | ⟨0, _⟩ => show win5_2.index t (0 : Fin 2) * 1280 ≤ (i 0).val ∧ (i 0).val < win5_2.index t (0 : Fin 2) * 1280 + 1280; omega
  | ⟨1, _⟩ => show win5_2.index t (1 : Fin 2) * 512 ≤ (i 1).val ∧ (i 1).val < win5_2.index t (1 : Fin 2) * 512 + 512; omega

/-- What a point that writes back writes is its block of the product. -/
theorem flushed_eq5 (c : Dev nD) (t : Fin cfg5.N) (hf : (cfg5.win 2).flush t = true) :
    (dat5 (F := Ideal) V c).flushed 2 t = ((cfg5.win 2).blk t).view.read (Elt Ideal) (prod5 V c) := by
  have h7 : t.val % 8 = 7 := (flush5_2 t).mp hf
  obtain ⟨e0, e1, e2, e3, e4, e5⟩ := idx_facts5 t
  show (cfg5.win 2).cut (grid5.coords t) ((dat5 (F := Ideal) V c).after 2 t) = _
  rw [after5_2]
  funext j
  have hj0 : (j 0).val < 1280 := (j 0).isLt
  have hj1 : (j 1).val < 512 := (j 1).isLt
  have ej : (cfg5.win 2).xinj (grid5.coords t) j = ix2 (⟨(j 0).val, hj0⟩ : Fin 1280) (⟨(j 1).val, hj1⟩ : Fin 512) :=
    funext fun a => by match a with | ⟨0, _⟩ => rfl | ⟨1, _⟩ => rfl
  show (outsAt5 V c t.val t.isLt).1 ((cfg5.win 2).xinj (grid5.coords t) j) = prod5 V c (((cfg5.win 2).blk t).view.emb j)
  rw [ej, out_last5 V c t h7]
  have h0 : (((cfg5.win 2).blk t).view.emb j) 0 = (⟨1280 * (t.val / 8) + (j 0).val, by have := t_lt5 t; omega⟩ : Fin 10240) :=
    Fin.ext (by show win5_2.index t (0 : Fin 2) * 1280 + 1 * (j 0).val = 1280 * (t.val / 8) + (j 0).val; omega)
  have h1 : (((cfg5.win 2).blk t).view.emb j) 1 = (⟨(j 1).val, hj1⟩ : Fin 512) :=
    Fin.ext (by show win5_2.index t (1 : Fin 2) * 512 + 1 * (j 1).val = (j 1).val; omega)
  show _ = ∑ s : Fin 10240, Aarr5 V c (ix2 ((((cfg5.win 2).blk t).view.emb j) 0) s) * garr5 V c (ix2 s ((((cfg5.win 2).blk t).view.emb j) 1))
  rw [h0, h1]

/-- The output array after the region's write-backs: the matrix times the node rows, entry by entry. -/
theorem final5 (c : Dev nD) (p : Fin 10240) (q : Fin 512) :
    (dat5 (F := Ideal) V c).arrAt 2 cfg5.N (ix2 p q) = ∑ s : Fin 10240, Aarr5 V c (ix2 p s) * garr5 V c (ix2 s q) :=
  congrFun ((dat5 (F := Ideal) V c).arrAt_eq_of_cover 2 (prod5 V c) (flushed_eq5 V c) cover5) (ix2 p q)

end Cert.KernelIdeal.Val

end
-- ==== Proof.KV.Fin6.lean ====
/-
  Region 6, read as a value: the node update on whole arrays.

  Each of the eight grid points overwrites one block of 1280 rows of the output with the update layer
  `max ((h · W₁ + m · W₂) + b) 0` of the same rows of the features `h` and of the aggregated messages `m`, and of the
  whole weight matrices and bias row. A block's element `(r, s)` at point `t` is the array's element
  `(1280 · t + r, s)`; the weights and the bias sit at block zero, so their blocks are the arrays. Hence what point
  `t` writes back is block `t` of ONE function of the five arrays, and since row `r` lies in the block of point
  `r / 1280` the blocks cover the output: after the run the output array is that function everywhere.
-/
import proofs.«408707_j33406255628688_2_alg».proof.Proof.KI.RegU6
import proofs.«408707_j33406255628688_2_alg».proof.Proof.KV.Pay
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arrays the region reads, each at its literal type -/

/-- The node features the update starts from. -/
abbrev feat6 (c : Dev nD) : Vec Ideal S10240x512 .f32 := V c main_v41
/-- The aggregated messages. -/
abbrev aggr6 (c : Dev nD) : Vec Ideal S10240x512 .bf16 := V c main_v49
/-- The weights applied to a node's own row. -/
abbrev wself6 (c : Dev nD) : Vec Ideal S512x512 .bf16 := V c main_v52
/-- The weights applied to the aggregated row. -/
abbrev wnbr6 (c : Dev nD) : Vec Ideal S512x512 .bf16 := V c main_v55
/-- The bias row. -/
abbrev bias6 (c : Dev nD) : Vec Ideal S1x512 .f32 := V c main_v58

theorem zero2_6 : (![0, 0] : Fin 2 → Nat) = fun _ => 0 := funext fun a => by fin_cases a <;> rfl

/-! ## The update layer on whole arrays -/

/-- `max ((H · W₁ + M · W₂) + b) 0` at row `p`, column `q`. -/
def upd6 (H : Vec Ideal S10240x512 .f32) (M : Vec Ideal S10240x512 .bf16) (W1 W2 : Vec Ideal S512x512 .bf16)
    (B : Vec Ideal S1x512 .f32) (p : Fin 10240) (q : Fin 512) : EReal :=
  max (((∑ t : Fin 512, H (ix2 p t) * W1 (ix2 t q)) + (∑ t : Fin 512, M (ix2 p t) * W2 (ix2 t q)))
    + B (ix2 (0 : Fin 1) q)) 0

/-- The same as one function of the array's index. -/
def updAt6 (H : Vec Ideal S10240x512 .f32) (M : Vec Ideal S10240x512 .bf16) (W1 W2 : Vec Ideal S512x512 .bf16)
    (B : Vec Ideal S1x512 .f32) : S10240x512.Idx → EReal := fun i => upd6 H M W1 W2 B (i 0) (i 1)

/-- A block whose rows are rows of `H` and `M` and whose weights and bias are those of `W₁`, `W₂`, `B` has the
    whole-array update as its payload. -/
theorem upd_block6 (x0 : Vec Ideal S1280x512 .f32) (x1 : Vec Ideal S1280x512 .bf16) (x2 x3 : Vec Ideal S512x512 .bf16)
    (x4 : Vec Ideal S1x512 .f32) (H : Vec Ideal S10240x512 .f32) (M : Vec Ideal S10240x512 .bf16)
    (W1 W2 : Vec Ideal S512x512 .bf16) (B : Vec Ideal S1x512 .f32) (r : Fin 1280) (s : Fin 512) (p : Fin 10240) (q : Fin 512)
    (e0 : ∀ t : Fin 512, x0 (ix2 r t) = H (ix2 p t))
    (e1 : ∀ t : Fin 512, x1 (ix2 r t) = M (ix2 p t))
    (e2 : ∀ t : Fin 512, x2 (ix2 t s) = W1 (ix2 t q))
    (e3 : ∀ t : Fin 512, x3 (ix2 t s) = W2 (ix2 t q))
    (e4 : x4 (ix2 (0 : Fin 1) s) = B (ix2 (0 : Fin 1) q)) :
    k6_pay1 (F := Ideal) x0 x1 x2 x3 x4 (ix2 r s) = upd6 H M W1 W2 B p q := by
  have s1 : (∑ t : Fin 512, x0 (ix2 r t) * x2 (ix2 t s)) = ∑ t : Fin 512, H (ix2 p t) * W1 (ix2 t q) :=
    Finset.sum_congr rfl fun t _ => by rw [e0 t, e2 t]
  have s2 : (∑ t : Fin 512, x1 (ix2 r t) * x3 (ix2 t s)) = ∑ t : Fin 512, M (ix2 p t) * W2 (ix2 t q) :=
    Finset.sum_congr rfl fun t _ => by rw [e1 t, e3 t]
  rw [pay6, s1, s2, e4]
  rfl

/-! ## The index maps over the grid -/

/-- Decided over the eight points: the features, the messages and the output move together down the rows, one block per
    point; the weights and the bias stay at block zero. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-! ## Each input block at an element: the array where the block's rectangle puts it -/

theorem iblk6_0_at (c : Dev nD) (t : Fin cfg6.N) (r : Fin 1280) (s : Fin 512) (p : Fin 10240)
    (hp : p.val = t.val * 1280 + r.val) :
    (iblk6 V c 0 t : Vec Ideal S1280x512 .f32) (ix2 r s) = feat6 V c (ix2 p s) := by
  obtain ⟨a0, a1, -⟩ := idx6 t
  unfold iblk6
  rw [View.read_apply]
  show V c main_v41 _ = V c main_v41 _
  congr 1
  funext a
  apply Fin.ext
  match a with
  | ⟨0, _⟩ => show win6_0.index t (0 : Fin 2) * 1280 + 1 * r.val = p.val; omega
  | ⟨1, _⟩ => show win6_0.index t (1 : Fin 2) * 512 + 1 * s.val = s.val; omega

theorem iblk6_1_at (c : Dev nD) (t : Fin cfg6.N) (r : Fin 1280) (s : Fin 512) (p : Fin 10240)
    (hp : p.val = t.val * 1280 + r.val) :
    (iblk6 V c 1 t : Vec Ideal S1280x512 .bf16) (ix2 r s) = aggr6 V c (ix2 p s) := by
  obtain ⟨-, -, a0, a1, -⟩ := idx6 t
  unfold iblk6
  rw [View.read_apply]
  show V c main_v49 _ = V c main_v49 _
  congr 1
  funext a
  apply Fin.ext
  match a with
  | ⟨0, _⟩ => show win6_1.index t (0 : Fin 2) * 1280 + 1 * r.val = p.val; omega
  | ⟨1, _⟩ => show win6_1.index t (1 : Fin 2) * 512 + 1 * s.val = s.val; omega

theorem iblk6_2_at (c : Dev nD) (t : Fin cfg6.N) (r : Fin 512) (s : Fin 512) :
    (iblk6 V c 2 t : Vec Ideal S512x512 .bf16) (ix2 r s) = wself6 V c (ix2 r s) := by
  obtain ⟨-, -, -, -, a0, a1, -⟩ := idx6 t
  unfold iblk6
  rw [View.read_apply]
  show V c main_v52 _ = V c main_v52 _
  congr 1
  funext a
  apply Fin.ext
  match a with
  | ⟨0, _⟩ => show win6_2.index t (0 : Fin 2) * 512 + 1 * r.val = r.val; omega
  | ⟨1, _⟩ => show win6_2.index t (1 : Fin 2) * 512 + 1 * s.val = s.val; omega

theorem iblk6_3_at (c : Dev nD) (t : Fin cfg6.N) (r : Fin 512) (s : Fin 512) :
    (iblk6 V c 3 t : Vec Ideal S512x512 .bf16) (ix2 r s) = wnbr6 V c (ix2 r s) := by
  obtain ⟨-, -, -, -, -, -, a0, a1, -⟩ := idx6 t
  unfold iblk6
  rw [View.read_apply]
  show V c main_v55 _ = V c main_v55 _
  congr 1
  funext a
  apply Fin.ext
  match a with
  | ⟨0, _⟩ => show win6_3.index t (0 : Fin 2) * 512 + 1 * r.val = r.val; omega
  | ⟨1, _⟩ => show win6_3.index t (1 : Fin 2) * 512 + 1 * s.val = s.val; omega

theorem iblk6_4_at (c : Dev nD) (t : Fin cfg6.N) (r : Fin 1) (s : Fin 512) :
    (iblk6 V c 4 t : Vec Ideal S1x512 .f32) (ix2 r s) = bias6 V c (ix2 r s) := by
  obtain ⟨-, -, -, -, -, -, -, -, a0, a1, -⟩ := idx6 t
  unfold iblk6
  rw [View.read_apply]
  show V c main_v58 _ = V c main_v58 _
  congr 1
  funext a
  apply Fin.ext
  match a with
  | ⟨0, _⟩ => show win6_4.index t (0 : Fin 2) * 1 + 1 * r.val = r.val; omega
  | ⟨1, _⟩ => show win6_4.index t (1 : Fin 2) * 512 + 1 * s.val = s.val; omega

/-! ## What a point writes back, and the array after the run -/

/-- What point `t` writes back is block `t` of the whole-array update of the five arrays as the region finds them. -/
theorem flushed6_eq (c : Dev nD) (t : Fin cfg6.N) :
    (dat6 (F := Ideal) V c).flushed 5 t
      = ((cfg6.win 5).blk t).view.read (Elt Ideal) (updAt6 (feat6 V c) (aggr6 V c) (wself6 V c) (wnbr6 V c) (bias6 V c)) := by
  show (cfg6.win 5).cut (grid6.coords t) ((dat6 (F := Ideal) V c).after 5 t) = _
  rw [after6_5]
  unfold out6_5
  rw [View.canon_unit_zero zero2_6]
  simp only [View.ld_unit_zero (S := S1280x512) zero2_6, View.ld_unit_zero (S := S512x512) zero2_6,
    View.ld_unit_zero (S := S1x512) zero2_6]
  obtain ⟨-, -, -, -, -, -, -, -, -, -, o0, o1⟩ := idx6 t
  funext j
  have hj0 : (j 0).val < 1280 := (j 0).isLt
  have hj1 : (j 1).val < 512 := (j 1).isLt
  have hj : (cfg6.win 5).xinj (grid6.coords t) j = ix2 (⟨(j 0).val, hj0⟩ : Fin 1280) (⟨(j 1).val, hj1⟩ : Fin 512) :=
    funext fun a => by
      match a with
      | ⟨0, _⟩ => rfl
      | ⟨1, _⟩ => rfl
  show k6_pay1 (F := Ideal) (iblk6 V c 0 t) (iblk6 V c 1 t) (iblk6 V c 2 t) (iblk6 V c 3 t) (iblk6 V c 4 t)
      ((cfg6.win 5).xinj (grid6.coords t) j)
    = upd6 (feat6 V c) (aggr6 V c) (wself6 V c) (wnbr6 V c) (bias6 V c)
        ((((cfg6.win 5).blk t).view.emb j) 0) ((((cfg6.win 5).blk t).view.emb j) 1)
  have hp : (((cfg6.win 5).blk t).view.emb j (0 : Fin 2)).val = t.val * 1280 + (j 0).val := by
    show win6_5.index t (0 : Fin 2) * 1280 + 1 * (j 0).val = _
    omega
  have hq : (((cfg6.win 5).blk t).view.emb j) (1 : Fin 2) = (⟨(j 1).val, hj1⟩ : Fin 512) := by
    apply Fin.ext
    show win6_5.index t (1 : Fin 2) * 512 + 1 * (j 1).val = (j 1).val
    omega
  rw [hj, hq]
  exact upd_block6 _ _ _ _ _ _ _ _ _ _ _ _ _ _
    (fun s => iblk6_0_at V c t _ s _ hp) (fun s => iblk6_1_at V c t _ s _ hp)
    (fun s => iblk6_2_at V c t s _) (fun s => iblk6_3_at V c t s _) (iblk6_4_at V c t _ _)

/-- An index of the array is in point `t`'s block iff each coordinate is in the block's range on its axis. -/
theorem mem_blk6 (t : Fin cfg6.N) (i : S10240x512.Idx) :
    i ∈ ((cfg6.win 5).blk t).view.set ↔ ∀ a : Fin 2, win6_5.index t a * S1280x512.size a ≤ (i a).val
      ∧ (i a).val < win6_5.index t a * S1280x512.size a + S1280x512.size a := by
  show i ∈ ((View.whole main_v59).slice (win6_5.rect t)).set ↔ _
  rw [View.set_slice_whole, Rect.mem_set_unit]
  exact Iff.rfl

/-- Row `r` lies in the block of point `r / 1280`: the eight blocks cover the array. -/
theorem cover6 (i : S10240x512.Idx) :
    ∃ t : Fin cfg6.N, (cfg6.win 5).flush t = true ∧ i ∈ ((cfg6.win 5).blk t).view.set := by
  have hi0 : (i 0).val < 10240 := (i 0).isLt
  have hi1 : (i 1).val < 512 := (i 1).isLt
  have hN : cfg6.N = 8 := N_6
  have ht : (i 0).val / 1280 < cfg6.N := by rw [hN]; omega
  obtain ⟨-, -, -, -, -, -, -, -, -, -, o0, o1⟩ := idx6 ⟨(i 0).val / 1280, ht⟩
  refine ⟨⟨(i 0).val / 1280, ht⟩, flush6_5 _, ?_⟩
  rw [mem_blk6]
  intro a
  match a with
  | ⟨0, _⟩ =>
    show win6_5.index ⟨(i 0).val / 1280, ht⟩ (0 : Fin 2) * 1280 ≤ (i 0).val
      ∧ (i 0).val < win6_5.index ⟨(i 0).val / 1280, ht⟩ (0 : Fin 2) * 1280 + 1280
    rw [o0]
    show (i 0).val / 1280 * 1280 ≤ (i 0).val ∧ (i 0).val < (i 0).val / 1280 * 1280 + 1280
    omega
  | ⟨1, _⟩ =>
    show win6_5.index ⟨(i 0).val / 1280, ht⟩ (1 : Fin 2) * 512 ≤ (i 1).val
      ∧ (i 1).val < win6_5.index ⟨(i 0).val / 1280, ht⟩ (1 : Fin 2) * 512 + 512
    rw [o1]
    omega

/-- The output array after the run is the whole-array update. -/
theorem final6_eq (c : Dev nD) :
    (dat6 (F := Ideal) V c).arrAt 5 cfg6.N = updAt6 (feat6 V c) (aggr6 V c) (wself6 V c) (wnbr6 V c) (bias6 V c) :=
  (dat6 (F := Ideal) V c).arrAt_eq_of_cover 5 _ (fun t _ => flushed6_eq V c t) cover6

/-- The output array after the run, element by element. -/
theorem final6 (c : Dev nD) (p : Fin 10240) (q : Fin 512) :
    (dat6 (F := Ideal) V c).arrAt 5 cfg6.N (ix2 p q)
      = max (((∑ t : Fin 512, feat6 V c (ix2 p t) * wself6 V c (ix2 t q))
          + (∑ t : Fin 512, aggr6 V c (ix2 p t) * wnbr6 V c (ix2 t q))) + bias6 V c (ix2 (0 : Fin 1) q)) 0 := by
  rw [final6_eq]
  rfl

end Cert.KernelIdeal.Val

end
-- ==== Proof.KV.Fin7.lean ====
/-
  Region 7, read as a value: the last linear layer on whole arrays.

  Each of the eight grid points overwrites one block of 1280 rows of the one-column output with `h · w + b` of the same
  rows of the features `h` and of the whole weight column and bias. A block's element `(r, 0)` at point `t` is the
  array's element `(1280 · t + r, 0)`; the weights and the bias sit at block zero, so their blocks are the arrays.
  Hence what point `t` writes back is block `t` of ONE function of the three arrays, and since row `r` lies in the
  block of point `r / 1280` the blocks cover the output: after the run the output array is that function everywhere.
-/
import proofs.«408707_j33406255628688_2_alg».proof.Proof.KI.RegA7
import proofs.«408707_j33406255628688_2_alg».proof.Proof.KV.Pay
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arrays the region reads, each at its literal type -/

/-- The node features after the last round. -/
abbrev hid7 (c : Dev nD) : Vec Ideal S10240x512 .f32 := V c main_v59
/-- The output weights, one column. -/
abbrev wout7 (c : Dev nD) : Vec Ideal S512x1 .f32 := V c main_arg8
/-- The output bias, one number. -/
abbrev bout7 (c : Dev nD) : Vec Ideal S1x1 .f32 := V c main_v60

theorem zero2_7 : (![0, 0] : Fin 2 → Nat) = fun _ => 0 := funext fun a => by fin_cases a <;> rfl

/-! ## The last linear layer on whole arrays -/

/-- `H · w + b` at row `p` (and the one column `q`). -/
def lin7 (H : Vec Ideal S10240x512 .f32) (W : Vec Ideal S512x1 .f32) (B : Vec Ideal S1x1 .f32)
    (p : Fin 10240) (q : Fin 1) : EReal :=
  (∑ t : Fin 512, H (ix2 p t) * W (ix2 t q)) + B (ix2 (0 : Fin 1) q)

/-- The same as one function of the array's index. -/
def linAt7 (H : Vec Ideal S10240x512 .f32) (W : Vec Ideal S512x1 .f32) (B : Vec Ideal S1x1 .f32) :
    S10240x1.Idx → EReal := fun i => lin7 H W B (i 0) (i 1)

/-- A block whose rows are rows of `H` and whose weights and bias are those of `W`, `B` has the whole-array layer as
    its payload. -/
theorem lin_block7 (x0 : Vec Ideal S1280x512 .f32) (x1 : Vec Ideal S512x1 .f32) (x2 : Vec Ideal S1x1 .f32)
    (H : Vec Ideal S10240x512 .f32) (W : Vec Ideal S512x1 .f32) (B : Vec Ideal S1x1 .f32) (r : Fin 1280) (p : Fin 10240)
    (e0 : ∀ t : Fin 512, x0 (ix2 r t) = H (ix2 p t))
    (e1 : ∀ t : Fin 512, x1 (ix2 t (0 : Fin 1)) = W (ix2 t (0 : Fin 1)))
    (e2 : x2 (ix2 (0 : Fin 1) (0 : Fin 1)) = B (ix2 (0 : Fin 1) (0 : Fin 1))) :
    k7_pay1 (F := Ideal) x0 x1 x2 (ix2 r (0 : Fin 1)) = lin7 H W B p (0 : Fin 1) := by
  have s1 : (∑ t : Fin 512, x0 (ix2 r t) * x1 (ix2 t (0 : Fin 1))) = ∑ t : Fin 512, H (ix2 p t) * W (ix2 t (0 : Fin 1)) :=
    Finset.sum_congr rfl fun t _ => by rw [e0 t, e1 t]
  rw [pay7, s1, e2]
  rfl

/-! ## The index maps over the grid -/

/-- Decided over the eight points: the features and the output move together down the rows, one block per point; the
    weights and the bias stay at block zero. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-! ## Each input block at an element: the array where the block's rectangle puts it -/

theorem iblk7_0_at (c : Dev nD) (t : Fin cfg7.N) (r : Fin 1280) (s : Fin 512) (p : Fin 10240)
    (hp : p.val = t.val * 1280 + r.val) :
    (iblk7 V c 0 t : Vec Ideal S1280x512 .f32) (ix2 r s) = hid7 V c (ix2 p s) := by
  obtain ⟨a0, a1, -⟩ := idx7 t
  unfold iblk7
  rw [View.read_apply]
  show V c main_v59 _ = V c main_v59 _
  congr 1
  funext a
  apply Fin.ext
  match a with
  | ⟨0, _⟩ => show win7_0.index t (0 : Fin 2) * 1280 + 1 * r.val = p.val; omega
  | ⟨1, _⟩ => show win7_0.index t (1 : Fin 2) * 512 + 1 * s.val = s.val; omega

theorem iblk7_1_at (c : Dev nD) (t : Fin cfg7.N) (r : Fin 512) (s : Fin 1) :
    (iblk7 V c 1 t : Vec Ideal S512x1 .f32) (ix2 r s) = wout7 V c (ix2 r s) := by
  obtain ⟨-, -, a0, a1, -⟩ := idx7 t
  unfold iblk7
  rw [View.read_apply]
  show V c main_arg8 _ = V c main_arg8 _
  congr 1
  funext a
  apply Fin.ext
  match a with
  | ⟨0, _⟩ => show win7_1.index t (0 : Fin 2) * 512 + 1 * r.val = r.val; omega
  | ⟨1, _⟩ => show win7_1.index t (1 : Fin 2) * 1 + 1 * s.val = s.val; omega

theorem iblk7_2_at (c : Dev nD) (t : Fin cfg7.N) (r : Fin 1) (s : Fin 1) :
    (iblk7 V c 2 t : Vec Ideal S1x1 .f32) (ix2 r s) = bout7 V c (ix2 r s) := by
  obtain ⟨-, -, -, -, a0, a1, -⟩ := idx7 t
  unfold iblk7
  rw [View.read_apply]
  show V c main_v60 _ = V c main_v60 _
  congr 1
  funext a
  apply Fin.ext
  match a with
  | ⟨0, _⟩ => show win7_2.index t (0 : Fin 2) * 1 + 1 * r.val = r.val; omega
  | ⟨1, _⟩ => show win7_2.index t (1 : Fin 2) * 1 + 1 * s.val = s.val; omega

/-! ## What a point writes back, and the array after the run -/

/-- What point `t` writes back is block `t` of the whole-array layer of the three arrays as the region finds them. -/
theorem flushed7_eq (c : Dev nD) (t : Fin cfg7.N) :
    (dat7 (F := Ideal) V c).flushed 3 t
      = ((cfg7.win 3).blk t).view.read (Elt Ideal) (linAt7 (hid7 V c) (wout7 V c) (bout7 V c)) := by
  show (cfg7.win 3).cut (grid7.coords t) ((dat7 (F := Ideal) V c).after 3 t) = _
  rw [after7_3]
  unfold out7_3
  rw [View.canon_unit_zero zero2_7]
  simp only [View.ld_unit_zero (S := S1280x512) zero2_7, View.ld_unit_zero (S := S512x1) zero2_7,
    View.ld_unit_zero (S := S1x1) zero2_7]
  obtain ⟨-, -, -, -, -, -, o0, o1⟩ := idx7 t
  funext j
  have hj0 : (j 0).val < 1280 := (j 0).isLt
  have hj1 : (j 1).val < 1 := (j 1).isLt
  have hj : (cfg7.win 3).xinj (grid7.coords t) j = ix2 (⟨(j 0).val, hj0⟩ : Fin 1280) (0 : Fin 1) :=
    funext fun a => by
      match a with
      | ⟨0, _⟩ => rfl
      | ⟨1, _⟩ => exact Fin.ext (by show (j 1).val = 0; omega)
  show k7_pay1 (F := Ideal) (iblk7 V c 0 t) (iblk7 V c 1 t) (iblk7 V c 2 t) ((cfg7.win 3).xinj (grid7.coords t) j)
    = lin7 (hid7 V c) (wout7 V c) (bout7 V c)
        ((((cfg7.win 3).blk t).view.emb j) 0) ((((cfg7.win 3).blk t).view.emb j) 1)
  have hp : (((cfg7.win 3).blk t).view.emb j (0 : Fin 2)).val = t.val * 1280 + (j 0).val := by
    show win7_3.index t (0 : Fin 2) * 1280 + 1 * (j 0).val = _
    omega
  have hq : (((cfg7.win 3).blk t).view.emb j) (1 : Fin 2) = (0 : Fin 1) := by
    apply Fin.ext
    show win7_3.index t (1 : Fin 2) * 1 + 1 * (j 1).val = 0
    omega
  rw [hj, hq]
  exact lin_block7 _ _ _ _ _ _ _ _
    (fun s => iblk7_0_at V c t _ s _ hp) (fun s => iblk7_1_at V c t s _) (iblk7_2_at V c t _ _)

/-- An index of the array is in point `t`'s block iff each coordinate is in the block's range on its axis. -/
theorem mem_blk7 (t : Fin cfg7.N) (i : S10240x1.Idx) :
    i ∈ ((cfg7.win 3).blk t).view.set ↔ ∀ a : Fin 2, win7_3.index t a * S1280x1.size a ≤ (i a).val
      ∧ (i a).val < win7_3.index t a * S1280x1.size a + S1280x1.size a := by
  show i ∈ ((View.whole main_v61).slice (win7_3.rect t)).set ↔ _
  rw [View.set_slice_whole, Rect.mem_set_unit]
  exact Iff.rfl

/-- Row `r` lies in the block of point `r / 1280`: the eight blocks cover the array. -/
theorem cover7 (i : S10240x1.Idx) :
    ∃ t : Fin cfg7.N, (cfg7.win 3).flush t = true ∧ i ∈ ((cfg7.win 3).blk t).view.set := by
  have hi0 : (i 0).val < 10240 := (i 0).isLt
  have hi1 : (i 1).val < 1 := (i 1).isLt
  have hN : cfg7.N = 8 := N_7
  have ht : (i 0).val / 1280 < cfg7.N := by rw [hN]; omega
  obtain ⟨-, -, -, -, -, -, o0, o1⟩ := idx7 ⟨(i 0).val / 1280, ht⟩
  refine ⟨⟨(i 0).val / 1280, ht⟩, flush7_3 _, ?_⟩
  rw [mem_blk7]
  intro a
  match a with
  | ⟨0, _⟩ =>
    show win7_3.index ⟨(i 0).val / 1280, ht⟩ (0 : Fin 2) * 1280 ≤ (i 0).val
      ∧ (i 0).val < win7_3.index ⟨(i 0).val / 1280, ht⟩ (0 : Fin 2) * 1280 + 1280
    rw [o0]
    show (i 0).val / 1280 * 1280 ≤ (i 0).val ∧ (i 0).val < (i 0).val / 1280 * 1280 + 1280
    omega
  | ⟨1, _⟩ =>
    show win7_3.index ⟨(i 0).val / 1280, ht⟩ (1 : Fin 2) * 1 ≤ (i 1).val
      ∧ (i 1).val < win7_3.index ⟨(i 0).val / 1280, ht⟩ (1 : Fin 2) * 1 + 1
    rw [o1]
    omega

/-- The output array after the run is the whole-array layer. -/
theorem final7_eq (c : Dev nD) :
    (dat7 (F := Ideal) V c).arrAt 3 cfg7.N = linAt7 (hid7 V c) (wout7 V c) (bout7 V c) :=
  (dat7 (F := Ideal) V c).arrAt_eq_of_cover 3 _ (fun t _ => flushed7_eq V c t) cover7

/-- The output array after the run, element by element. -/
theorem final7 (c : Dev nD) (p : Fin 10240) :
    (dat7 (F := Ideal) V c).arrAt 3 cfg7.N (ix2 p (0 : Fin 1))
      = (∑ t : Fin 512, hid7 V c (ix2 p t) * wout7 V c (ix2 t (0 : Fin 1))) + bout7 V c (ix2 (0 : Fin 1) (0 : Fin 1)) := by
  rw [final7_eq]
  rfl

end Cert.KernelIdeal.Val

end
-- ==== Proof.KV.Host.lean ====
/-
  What the host stretches of the idealized kernel's @main write, read at an index, over the extended reals.

  Between the kernel regions @main slices, reshapes, pads and converts its arguments into the arrays the regions'
  windows read.  Each such array is, entry by entry, one entry of an argument (or zero, on the padded rows): a
  format change is the identity on the extended reals, and a slice, a reshape and a pad each read a single entry of
  their operand.  Every lemma is stated at the buffer contents with which the reading region is entered, for any launch
  memory and any contents the earlier regions leave.
-/
import proofs.«408707_j33406255628688_2_alg».proof.Proof.Gen.KernelIdeal.Regions
import Idealize.ShloMosaic.Lib.ValueIdx
import Idealize.ShloMosaic.Lib.ValueLayout
import Idealize.ShloMosaic.Lib.KernelVsHost
import Idealize.ShloMosaic.Lib.StableHlo.Run

set_option maxRecDepth 1064

noncomputable section

namespace Cert.KernelIdeal.Val

open Idealize.ShloMosaic Idealize.ShloMosaic.TcCoe Idealize.ShloMosaic.ValueIdx
open Idealize.ShloMosaic.StableHlo
open Cert.KernelIdeal Cert.KernelIdeal.Gen

/-! ## Two shapes of host text read at an index -/

/-- A `[1, 512, 512]` slab cut out of a rank-3 array at offsets `(o0, o1, 0)` and cast to `[512, 512]` reads, at
    `(t, j)`, the array at `(o0, o1 + t, j)`. -/
theorem slab_apply {α : Type} {n0 n1 : ℕ} (o0 o1 : ℕ) (X : (⟨3, ![n0, n1, 512]⟩ : Shape).Idx → α)
    (hs : (⟨3, ![n0, n1, 512]⟩ : Shape).Slices ![o0, o1, 0] ⟨3, ![1, 512, 512]⟩)
    (hc : (⟨3, ![1, 512, 512]⟩ : Shape).ShapeCasts ⟨2, ![512, 512]⟩)
    (t j : Fin 512) (a : Fin n0) (b : Fin n1) (ha : a.val = o0) (hb : b.val = o1 + t.val) :
    shapeCast ⟨2, ![512, 512]⟩ (extractStridedSlice ⟨3, ![1, 512, 512]⟩ ![o0, o1, 0] X hs) hc (ix2 t j) = X (ix3 a b j) := by
  rw [shapeCast_1ab_ab_apply]
  exact extractStridedSlice_apply _ _ _ _ _ (fun ax => by
    match ax with
    | ⟨0, _⟩ => exact ha
    | ⟨1, _⟩ => exact hb
    | ⟨2, _⟩ => exact (Nat.zero_add _).symm)

/-- Row `o` of an `[n, 512]` matrix cut out as `[1, 512]`, flattened and given its unit axis back, reads at `(u, j)` the
    matrix at `(o, j)`. -/
theorem row_apply {α : Type} {n : ℕ} (o : ℕ) (X : (⟨2, ![n, 512]⟩ : Shape).Idx → α)
    (hs : (⟨2, ![n, 512]⟩ : Shape).Slices ![o, 0] ⟨2, ![1, 512]⟩)
    (h1 : (⟨2, ![1, 512]⟩ : Shape).ShapeCasts ⟨1, ![512]⟩) (h2 : (⟨1, ![512]⟩ : Shape).ShapeCasts ⟨2, ![1, 512]⟩)
    (u : Fin 1) (j : Fin 512) (a : Fin n) (ha : a.val = o) :
    shapeCast ⟨2, ![1, 512]⟩ (shapeCast ⟨1, ![512]⟩ (extractStridedSlice ⟨2, ![1, 512]⟩ ![o, 0] X hs) h1) h2 (ix2 u j)
      = X (ix2 a j) := by
  rw [shapeCast_a_1a_apply, shapeCast_1a_a_apply]
  exact slice2_axis0_apply o X hs (0 : Fin 1) j a ha

/-! ## What each host stretch writes, from any contents `W` of the core's buffers

Stated over a variable `W`, so that nothing here unfolds the contents the stretch starts from. A format change is the
identity on the extended reals; a slice, a reshape and a pad each read ONE entry of their operand. -/

section Stretch

variable (W : Valuation τ sig (Elt Ideal))

/-- The integer constant `0` the pad's value is converted from. -/
theorem ops0_c : (StableHlo.after hostOps0 W (Proc.devRef .tc main_c) : S_.Idx → BitVec 32) = constantI S_ 32 0#32 := by
  after_results

/-- The features, padded below with 240 rows of the converted constant. -/
theorem ops0_1_v4 :
    (StableHlo.after hostOps0_1 W (Proc.devRef .tc main_v4) : S10240x256.Idx → EReal)
      = pad S10240x256 ![0, 0] ![240, 0] ![0, 0] (W main_arg0 : S10000x256.Idx → EReal)
          (sitofp (F := Ideal) .f32 (W main_c : S_.Idx → BitVec 32)) pads_S10000x256_S10240x256_02400_000 h_S_ := by
  after_results
  rfl

/-- The input layer's bias as one row. -/
theorem ops0_2_v22 (u : Fin 1) (j : Fin 512) :
    (StableHlo.after hostOps0_2 W (Proc.devRef .tc main_v22) : S1x512.Idx → EReal) (ix2 u j)
      = (W main_arg3 : S512.Idx → EReal) (ix1 j) := by
  after_results
  show shapeCast S1x512 (W main_arg3 : S512.Idx → EReal) shapeCasts_S512_S1x512 (ix2 u j) = _
  exact shapeCast_a_1a_apply _ _ u j

/-- Layer 0's message weights. -/
theorem ops1_v26 (t j : Fin 512) :
    (StableHlo.after hostOps1 W (Proc.devRef .tc main_v26) : S512x512.Idx → EReal) (ix2 t j)
      = (W main_arg4 : S2x512x512.Idx → EReal) (ix3 (0 : Fin 2) t j) := by
  after_results
  show shapeCast S512x512 (extractStridedSlice S1x512x512 ![0, 0, 0] (W main_arg4 : S2x512x512.Idx → EReal)
    slices_S2x512x512_S1x512x512_0_0_0) shapeCasts_S1x512x512_S512x512 (ix2 t j) = _
  exact slab_apply 0 0 _ _ _ t j (0 : Fin 2) t rfl (Nat.zero_add _).symm

/-- Layer 0's message bias as one row. -/
theorem ops1_v29 (u : Fin 1) (j : Fin 512) :
    (StableHlo.after hostOps1 W (Proc.devRef .tc main_v29) : S1x512.Idx → EReal) (ix2 u j)
      = (W main_arg5 : S2x512.Idx → EReal) (ix2 (0 : Fin 2) j) := by
  after_results
  show shapeCast S1x512 (shapeCast S512 (extractStridedSlice S1x512 ![0, 0] (W main_arg5 : S2x512.Idx → EReal)
    slices_S2x512_S1x512_0_0) shapeCasts_S1x512_S512) shapeCasts_S512_S1x512 (ix2 u j) = _
  exact row_apply 0 _ _ _ _ u j (0 : Fin 2) rfl

/-- Layer 0's update weights, the half that meets a node's own row. -/
theorem ops3_v34 (t j : Fin 512) :
    (StableHlo.after hostOps3 W (Proc.devRef .tc main_v34) : S512x512.Idx → EReal) (ix2 t j)
      = (W main_arg6 : S2x1024x512.Idx → EReal) (ix3 (0 : Fin 2) (⟨t.val, by omega⟩ : Fin 1024) j) := by
  after_results
  show shapeCast S512x512 (extractStridedSlice S1x512x512 ![0, 0, 0] (W main_arg6 : S2x1024x512.Idx → EReal)
    slices_S2x1024x512_S1x512x512_0_0_0) shapeCasts_S1x512x512_S512x512 (ix2 t j) = _
  exact slab_apply 0 0 _ _ _ t j (0 : Fin 2) (⟨t.val, by omega⟩ : Fin 1024) rfl (Nat.zero_add _).symm

/-- Layer 0's update weights, the half that meets the aggregated row: rows `512 + t`. -/
theorem ops3_v37 (t j : Fin 512) :
    (StableHlo.after hostOps3 W (Proc.devRef .tc main_v37) : S512x512.Idx → EReal) (ix2 t j)
      = (W main_arg6 : S2x1024x512.Idx → EReal) (ix3 (0 : Fin 2) (⟨512 + t.val, by omega⟩ : Fin 1024) j) := by
  after_results
  show shapeCast S512x512 (extractStridedSlice S1x512x512 ![0, 512, 0] (W main_arg6 : S2x1024x512.Idx → EReal)
    slices_S2x1024x512_S1x512x512_0_512_0) shapeCasts_S1x512x512_S512x512 (ix2 t j) = _
  exact slab_apply 0 512 _ _ _ t j (0 : Fin 2) (⟨512 + t.val, by omega⟩ : Fin 1024) rfl rfl

/-- Layer 0's update bias as one row. -/
theorem ops3_v40 (u : Fin 1) (j : Fin 512) :
    (StableHlo.after hostOps3 W (Proc.devRef .tc main_v40) : S1x512.Idx → EReal) (ix2 u j)
      = (W main_arg7 : S2x512.Idx → EReal) (ix2 (0 : Fin 2) j) := by
  after_results
  show shapeCast S1x512 (shapeCast S512 (extractStridedSlice S1x512 ![0, 0] (W main_arg7 : S2x512.Idx → EReal)
    slices_S2x512_S1x512_0_0) shapeCasts_S1x512_S512) shapeCasts_S512_S1x512 (ix2 u j) = _
  exact row_apply 0 _ _ _ _ u j (0 : Fin 2) rfl

/-- Layer 1's message weights. -/
theorem ops4_v44 (t j : Fin 512) :
    (StableHlo.after hostOps4 W (Proc.devRef .tc main_v44) : S512x512.Idx → EReal) (ix2 t j)
      = (W main_arg4 : S2x512x512.Idx → EReal) (ix3 (1 : Fin 2) t j) := by
  after_results
  show shapeCast S512x512 (extractStridedSlice S1x512x512 ![1, 0, 0] (W main_arg4 : S2x512x512.Idx → EReal)
    slices_S2x512x512_S1x512x512_1_0_0) shapeCasts_S1x512x512_S512x512 (ix2 t j) = _
  exact slab_apply 1 0 _ _ _ t j (1 : Fin 2) t rfl (Nat.zero_add _).symm

/-- Layer 1's message bias as one row. -/
theorem ops4_v47 (u : Fin 1) (j : Fin 512) :
    (StableHlo.after hostOps4 W (Proc.devRef .tc main_v47) : S1x512.Idx → EReal) (ix2 u j)
      = (W main_arg5 : S2x512.Idx → EReal) (ix2 (1 : Fin 2) j) := by
  after_results
  show shapeCast S1x512 (shapeCast S512 (extractStridedSlice S1x512 ![1, 0] (W main_arg5 : S2x512.Idx → EReal)
    slices_S2x512_S1x512_1_0) shapeCasts_S1x512_S512) shapeCasts_S512_S1x512 (ix2 u j) = _
  exact row_apply 1 _ _ _ _ u j (1 : Fin 2) rfl

/-- Layer 1's update weights, the half that meets a node's own row. -/
theorem ops6_v52 (t j : Fin 512) :
    (StableHlo.after hostOps6 W (Proc.devRef .tc main_v52) : S512x512.Idx → EReal) (ix2 t j)
      = (W main_arg6 : S2x1024x512.Idx → EReal) (ix3 (1 : Fin 2) (⟨t.val, by omega⟩ : Fin 1024) j) := by
  after_results
  show shapeCast S512x512 (extractStridedSlice S1x512x512 ![1, 0, 0] (W main_arg6 : S2x1024x512.Idx → EReal)
    slices_S2x1024x512_S1x512x512_1_0_0) shapeCasts_S1x512x512_S512x512 (ix2 t j) = _
  exact slab_apply 1 0 _ _ _ t j (1 : Fin 2) (⟨t.val, by omega⟩ : Fin 1024) rfl (Nat.zero_add _).symm

/-- Layer 1's update weights, the half that meets the aggregated row: rows `512 + t`. -/
theorem ops6_v55 (t j : Fin 512) :
    (StableHlo.after hostOps6 W (Proc.devRef .tc main_v55) : S512x512.Idx → EReal) (ix2 t j)
      = (W main_arg6 : S2x1024x512.Idx → EReal) (ix3 (1 : Fin 2) (⟨512 + t.val, by omega⟩ : Fin 1024) j) := by
  after_results
  show shapeCast S512x512 (extractStridedSlice S1x512x512 ![1, 512, 0] (W main_arg6 : S2x1024x512.Idx → EReal)
    slices_S2x1024x512_S1x512x512_1_512_0) shapeCasts_S1x512x512_S512x512 (ix2 t j) = _
  exact slab_apply 1 512 _ _ _ t j (1 : Fin 2) (⟨512 + t.val, by omega⟩ : Fin 1024) rfl rfl

/-- Layer 1's update bias as one row. -/
theorem ops6_v58 (u : Fin 1) (j : Fin 512) :
    (StableHlo.after hostOps6 W (Proc.devRef .tc main_v58) : S1x512.Idx → EReal) (ix2 u j)
      = (W main_arg7 : S2x512.Idx → EReal) (ix2 (1 : Fin 2) j) := by
  after_results
  show shapeCast S1x512 (shapeCast S512 (extractStridedSlice S1x512 ![1, 0] (W main_arg7 : S2x512.Idx → EReal)
    slices_S2x512_S1x512_1_0) shapeCasts_S1x512_S512) shapeCasts_S512_S1x512 (ix2 u j) = _
  exact row_apply 1 _ _ _ _ u j (1 : Fin 2) rfl

/-- The output layer's bias as a `1 × 1` matrix. -/
theorem ops7_v60 (u v : Fin 1) :
    (StableHlo.after hostOps7 W (Proc.devRef .tc main_v60) : S1x1.Idx → EReal) (ix2 u v)
      = (W main_arg9 : S1.Idx → EReal) (ix1 (0 : Fin 1)) := by
  have hv : v = 0 := Subsingleton.elim _ _
  subst hv
  after_results
  show shapeCast S1x1 (W main_arg9 : S1.Idx → EReal) shapeCasts_S1_S1x1 (ix2 u (0 : Fin 1)) = _
  exact shapeCast_a_1a_apply _ _ u (0 : Fin 1)

/-- The result: the first 10000 rows of the last region's one column, as a vector. -/
theorem ops8_v63 (q : Fin 10000) :
    (StableHlo.after hostOps8 W (Proc.devRef .tc main_v63) : S10000.Idx → EReal) (ix1 q)
      = (W main_v61 : S10240x1.Idx → EReal) (ix2 (⟨q.val, by omega⟩ : Fin 10240) (0 : Fin 1)) := by
  after_results
  show shapeCast S10000 (extractStridedSlice S10000x1 ![0, 0] (W main_v61 : S10240x1.Idx → EReal)
    slices_S10240x1_S10000x1_0_0) shapeCasts_S10000x1_S10000 (ix1 q) = _
  refine (shapeCast_apply _ _ _ (ix2 q (0 : Fin 1)) ?_).trans ?_
  · rw [Shape.rowMajor_val_two, Shape.rowMajor_val_one]
    show q.val * 1 + 0 = q.val
    omega
  · exact slice2_axis0_apply 0 _ _ q (0 : Fin 1) _ (Nat.zero_add _).symm

end Stretch

/-! ## The arguments, still as launched where a stretch reads them -/

variable (m : (ℓ : Loc nD τ sig) → Buf (Elt Ideal) ℓ) (outs : Outs (F := Ideal)) (c : Dev nD)

/-- No item before item 1 writes `main_arg0`: the core still holds it as launched. -/
theorem V1_main_arg0 : V1 m c main_arg0 = m ((c : Thread nD τ).loc main_arg0) :=
  (V1_of m c main_arg0 (by decide)).trans rfl

/-- No item before item 2 writes `main_arg3`: the core still holds it as launched. -/
theorem V2_main_arg3 : V2 m c main_arg3 = m ((c : Thread nD τ).loc main_arg3) :=
  (V2_of m c main_arg3 (by decide)).trans <| (V1_of m c main_arg3 (by decide)).trans rfl

/-- No item before item 4 writes `main_arg4`: the core still holds it as launched. -/
theorem V4_main_arg4 : V4 m outs c main_arg4 = m ((c : Thread nD τ).loc main_arg4) :=
  (V4_of m outs c main_arg4 (by decide)).trans <| (V3_of m c main_arg4 (by decide)).trans <| (V2_of m c main_arg4 (by decide)).trans <| (V1_of m c main_arg4 (by decide)).trans rfl

/-- No item before item 4 writes `main_arg5`: the core still holds it as launched. -/
theorem V4_main_arg5 : V4 m outs c main_arg5 = m ((c : Thread nD τ).loc main_arg5) :=
  (V4_of m outs c main_arg5 (by decide)).trans <| (V3_of m c main_arg5 (by decide)).trans <| (V2_of m c main_arg5 (by decide)).trans <| (V1_of m c main_arg5 (by decide)).trans rfl

/-- No item before item 7 writes `main_arg6`: the core still holds it as launched. -/
theorem V7_main_arg6 : V7 m outs c main_arg6 = m ((c : Thread nD τ).loc main_arg6) :=
  (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide)).trans rfl

/-- No item before item 7 writes `main_arg7`: the core still holds it as launched. -/
theorem V7_main_arg7 : V7 m outs c main_arg7 = m ((c : Thread nD τ).loc main_arg7) :=
  (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide)).trans rfl

/-- No item before item 9 writes `main_arg4`: the core still holds it as launched. -/
theorem V9_main_arg4 : V9 m outs c main_arg4 = m ((c : Thread nD τ).loc main_arg4) :=
  (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide)).trans rfl

/-- No item before item 9 writes `main_arg5`: the core still holds it as launched. -/
theorem V9_main_arg5 : V9 m outs c main_arg5 = m ((c : Thread nD τ).loc main_arg5) :=
  (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide)).trans rfl

/-- No item before item 12 writes `main_arg6`: the core still holds it as launched. -/
theorem V12_main_arg6 : V12 m outs c main_arg6 = m ((c : Thread nD τ).loc main_arg6) :=
  (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide)).trans rfl

/-- No item before item 12 writes `main_arg7`: the core still holds it as launched. -/
theorem V12_main_arg7 : V12 m outs c main_arg7 = m ((c : Thread nD τ).loc main_arg7) :=
  (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide)).trans rfl

/-- No item before item 14 writes `main_arg9`: the core still holds it as launched. -/
theorem V14_main_arg9 : V14 m outs c main_arg9 = m ((c : Thread nD τ).loc main_arg9) :=
  (V14_of m outs c main_arg9 (by decide)).trans <| (V13_of m outs c main_arg9 (by decide)).trans <| (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m c main_arg9 (by decide)).trans <| (V2_of m c main_arg9 (by decide)).trans <| (V1_of m c main_arg9 (by decide)).trans rfl

/-- No item before item 3 writes `main_arg2`: the core still holds it as launched. -/
theorem V3_main_arg2 : V3 m c main_arg2 = m ((c : Thread nD τ).loc main_arg2) :=
  (V3_of m c main_arg2 (by decide)).trans <| (V2_of m c main_arg2 (by decide)).trans <| (V1_of m c main_arg2 (by decide)).trans rfl

/-- No item before item 15 writes `main_arg8`: the core still holds it as launched. -/
theorem V15_main_arg8 : V15 m outs c main_arg8 = m ((c : Thread nD τ).loc main_arg8) :=
  (V15_of m outs c main_arg8 (by decide)).trans <| (V14_of m outs c main_arg8 (by decide)).trans <| (V13_of m outs c main_arg8 (by decide)).trans <| (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m c main_arg8 (by decide)).trans <| (V2_of m c main_arg8 (by decide)).trans <| (V1_of m c main_arg8 (by decide)).trans rfl

/-! ## The arrays by their literal types

An entry of `hostArr_vJ …` or `hostArg K …` is an extended real by its type, so sums and products over entries
elaborate; each unfolds to the core's buffer contents it names. -/

/-- The features `x`. -/
abbrev hostArg0 : Vec Ideal S10000x256 .f32 := m ((c : Thread nD τ).loc main_arg0)
/-- The input layer's bias. -/
abbrev hostArg3 : Vec Ideal S512 .f32 := m ((c : Thread nD τ).loc main_arg3)
/-- The two layers' message weights. -/
abbrev hostArg4 : Vec Ideal S2x512x512 .f32 := m ((c : Thread nD τ).loc main_arg4)
/-- The two layers' message biases. -/
abbrev hostArg5 : Vec Ideal S2x512 .f32 := m ((c : Thread nD τ).loc main_arg5)
/-- The two layers' update weights. -/
abbrev hostArg6 : Vec Ideal S2x1024x512 .f32 := m ((c : Thread nD τ).loc main_arg6)
/-- The two layers' update biases. -/
abbrev hostArg7 : Vec Ideal S2x512 .f32 := m ((c : Thread nD τ).loc main_arg7)
/-- The output layer's bias. -/
abbrev hostArg9 : Vec Ideal S1 .f32 := m ((c : Thread nD τ).loc main_arg9)
/-- The input layer's weights. -/
abbrev hostArg2 : Vec Ideal S256x512 .f32 := m ((c : Thread nD τ).loc main_arg2)
/-- The output layer's weights, one column. -/
abbrev hostArg8 : Vec Ideal S512x1 .f32 := m ((c : Thread nD τ).loc main_arg8)
/-- `main_arg2` as region 0 finds it. -/
abbrev hostArr_arg2 : Vec Ideal S256x512 .f32 := V3 m c main_arg2
/-- `main_arg8` as region 7 finds it. -/
abbrev hostArr_arg8 : Vec Ideal S512x1 .f32 := V15 m outs c main_arg8
/-- `main_v4` as region 0 finds it. -/
abbrev hostArr_v4 : Vec Ideal S10240x256 .f32 := V3 m c main_v4
/-- `main_v22` as region 0 finds it. -/
abbrev hostArr_v22 : Vec Ideal S1x512 .f32 := V3 m c main_v22
/-- `main_v26` as region 1 finds it. -/
abbrev hostArr_v26 : Vec Ideal S512x512 .bf16 := V5 m outs c main_v26
/-- `main_v29` as region 1 finds it. -/
abbrev hostArr_v29 : Vec Ideal S1x512 .f32 := V5 m outs c main_v29
/-- `main_v34` as region 3 finds it. -/
abbrev hostArr_v34 : Vec Ideal S512x512 .bf16 := V8 m outs c main_v34
/-- `main_v37` as region 3 finds it. -/
abbrev hostArr_v37 : Vec Ideal S512x512 .bf16 := V8 m outs c main_v37
/-- `main_v40` as region 3 finds it. -/
abbrev hostArr_v40 : Vec Ideal S1x512 .f32 := V8 m outs c main_v40
/-- `main_v44` as region 4 finds it. -/
abbrev hostArr_v44 : Vec Ideal S512x512 .bf16 := V10 m outs c main_v44
/-- `main_v47` as region 4 finds it. -/
abbrev hostArr_v47 : Vec Ideal S1x512 .f32 := V10 m outs c main_v47
/-- `main_v52` as region 6 finds it. -/
abbrev hostArr_v52 : Vec Ideal S512x512 .bf16 := V13 m outs c main_v52
/-- `main_v55` as region 6 finds it. -/
abbrev hostArr_v55 : Vec Ideal S512x512 .bf16 := V13 m outs c main_v55
/-- `main_v58` as region 6 finds it. -/
abbrev hostArr_v58 : Vec Ideal S1x512 .f32 := V13 m outs c main_v58
/-- `main_v60` as region 7 finds it. -/
abbrev hostArr_v60 : Vec Ideal S1x1 .f32 := V15 m outs c main_v60
/-- `main_v61` as region 7 leaves it. -/
abbrev hostArr_v61 : Vec Ideal S10240x1 .f32 := V16 m outs c main_v61
/-- `main_v63`, the result, after the last stretch. -/
abbrev hostArr_v63 : Vec Ideal S10000 .f32 := V17 m outs c main_v63

/-! ## What the regions find in the buffers a host stretch wrote, at an index -/

/-- Region 0's rows: the features, and zero on the 240 rows past them (the pad's value is the integer `0` converted). -/
theorem host_v4 (p : Fin 10240) (t : Fin 256) :
    hostArr_v4 m c (ix2 p t)
      = if h : p.val < 10000 then hostArg0 m c (ix2 (⟨p.val, h⟩ : Fin 10000) t) else 0 := by
  have e : (V3 m c main_v4 : S10240x256.Idx → EReal)
      = pad S10240x256 ![0, 0] ![240, 0] ![0, 0] (m ((c : Thread nD τ).loc main_arg0) : S10000x256.Idx → EReal)
          (sitofp (F := Ideal) .f32 (constantI S_ 32 0#32 : S_.Idx → BitVec 32)) pads_S10000x256_S10240x256_02400_000 h_S_ := by
    rw [V3_of m c main_v4 (by decide)]
    show StableHlo.after hostOps0_1 (V1 m c) (Proc.devRef .tc main_v4) = _
    rw [ops0_1_v4, V1_main_arg0]
    show pad S10240x256 ![0, 0] ![240, 0] ![0, 0] (m ((c : Thread nD τ).loc main_arg0) : S10000x256.Idx → EReal)
      (sitofp (F := Ideal) .f32 (StableHlo.after hostOps0 (V0 m c) (Proc.devRef .tc main_c) : S_.Idx → BitVec 32))
      pads_S10000x256_S10240x256_02400_000 h_S_ = _
    rw [ops0_c]
  show (V3 m c main_v4 : S10240x256.Idx → EReal) (ix2 p t) = _
  rw [e]
  by_cases h : p.val < 10000
  · rw [dif_pos h]
    exact pad_apply_of_inside _ _ _ _ _ _ _ _ (ix2 (⟨p.val, h⟩ : Fin 10000) t) (fun a => by
      match a with
      | ⟨0, _⟩ => show p.val = 0 + p.val * (0 + 1); omega
      | ⟨1, _⟩ => show t.val = 0 + t.val * (0 + 1); omega)
  · rw [dif_neg h]
    refine (pad_apply_of_not_inside _ _ _ _ _ _ _ _ (0 : Fin 2) ?_).trans ?_
    · show ¬(0 ≤ p.val ∧ (p.val - 0) % (0 + 1) = 0 ∧ (p.val - 0) / (0 + 1) < 10000)
      omega
    · show ((((0#32 : BitVec 32).toInt : ℤ) : ℝ) : EReal) = 0
      simp

/-- Region 0's bias row: the input layer's bias. -/
theorem host_v22 (u : Fin 1) (j : Fin 512) :
    hostArr_v22 m c (ix2 u j) = hostArg3 m c (ix1 j) := by
  show StableHlo.after hostOps0_2 (V2 m c) (Proc.devRef .tc main_v22) (ix2 u j) = _
  rw [ops0_2_v22, V2_main_arg3]

/-- Region 1's weights: layer 0's message weights. -/
theorem host_v26 (t j : Fin 512) :
    hostArr_v26 m outs c (ix2 t j) = hostArg4 m c (ix3 (0 : Fin 2) t j) := by
  show StableHlo.after hostOps1 (V4 m outs c) (Proc.devRef .tc main_v26) (ix2 t j) = _
  rw [ops1_v26, V4_main_arg4]

/-- Region 1's bias row: layer 0's message bias. -/
theorem host_v29 (u : Fin 1) (j : Fin 512) :
    hostArr_v29 m outs c (ix2 u j) = hostArg5 m c (ix2 (0 : Fin 2) j) := by
  show StableHlo.after hostOps1 (V4 m outs c) (Proc.devRef .tc main_v29) (ix2 u j) = _
  rw [ops1_v29, V4_main_arg5]

/-- Region 3's first weights: rows `0 … 511` of layer 0's update weights. -/
theorem host_v34 (t j : Fin 512) :
    hostArr_v34 m outs c (ix2 t j) = hostArg6 m c (ix3 (0 : Fin 2) (⟨t.val, by omega⟩ : Fin 1024) j) := by
  show StableHlo.after hostOps3 (V7 m outs c) (Proc.devRef .tc main_v34) (ix2 t j) = _
  rw [ops3_v34, V7_main_arg6]

/-- Region 3's second weights: rows `512 … 1023` of layer 0's update weights. -/
theorem host_v37 (t j : Fin 512) :
    hostArr_v37 m outs c (ix2 t j) = hostArg6 m c (ix3 (0 : Fin 2) (⟨512 + t.val, by omega⟩ : Fin 1024) j) := by
  show StableHlo.after hostOps3 (V7 m outs c) (Proc.devRef .tc main_v37) (ix2 t j) = _
  rw [ops3_v37, V7_main_arg6]

/-- Region 3's bias row: layer 0's update bias. -/
theorem host_v40 (u : Fin 1) (j : Fin 512) :
    hostArr_v40 m outs c (ix2 u j) = hostArg7 m c (ix2 (0 : Fin 2) j) := by
  show StableHlo.after hostOps3 (V7 m outs c) (Proc.devRef .tc main_v40) (ix2 u j) = _
  rw [ops3_v40, V7_main_arg7]

/-- Region 4's weights: layer 1's message weights. -/
theorem host_v44 (t j : Fin 512) :
    hostArr_v44 m outs c (ix2 t j) = hostArg4 m c (ix3 (1 : Fin 2) t j) := by
  show StableHlo.after hostOps4 (V9 m outs c) (Proc.devRef .tc main_v44) (ix2 t j) = _
  rw [ops4_v44, V9_main_arg4]

/-- Region 4's bias row: layer 1's message bias. -/
theorem host_v47 (u : Fin 1) (j : Fin 512) :
    hostArr_v47 m outs c (ix2 u j) = hostArg5 m c (ix2 (1 : Fin 2) j) := by
  show StableHlo.after hostOps4 (V9 m outs c) (Proc.devRef .tc main_v47) (ix2 u j) = _
  rw [ops4_v47, V9_main_arg5]

/-- Region 6's first weights: rows `0 … 511` of layer 1's update weights. -/
theorem host_v52 (t j : Fin 512) :
    hostArr_v52 m outs c (ix2 t j) = hostArg6 m c (ix3 (1 : Fin 2) (⟨t.val, by omega⟩ : Fin 1024) j) := by
  show StableHlo.after hostOps6 (V12 m outs c) (Proc.devRef .tc main_v52) (ix2 t j) = _
  rw [ops6_v52, V12_main_arg6]

/-- Region 6's second weights: rows `512 … 1023` of layer 1's update weights. -/
theorem host_v55 (t j : Fin 512) :
    hostArr_v55 m outs c (ix2 t j) = hostArg6 m c (ix3 (1 : Fin 2) (⟨512 + t.val, by omega⟩ : Fin 1024) j) := by
  show StableHlo.after hostOps6 (V12 m outs c) (Proc.devRef .tc main_v55) (ix2 t j) = _
  rw [ops6_v55, V12_main_arg6]

/-- Region 6's bias row: layer 1's update bias. -/
theorem host_v58 (u : Fin 1) (j : Fin 512) :
    hostArr_v58 m outs c (ix2 u j) = hostArg7 m c (ix2 (1 : Fin 2) j) := by
  show StableHlo.after hostOps6 (V12 m outs c) (Proc.devRef .tc main_v58) (ix2 u j) = _
  rw [ops6_v58, V12_main_arg7]

/-- Region 7's bias: the output layer's one bias. -/
theorem host_v60 (u v : Fin 1) :
    hostArr_v60 m outs c (ix2 u v) = hostArg9 m c (ix1 (0 : Fin 1)) := by
  show StableHlo.after hostOps7 (V14 m outs c) (Proc.devRef .tc main_v60) (ix2 u v) = _
  rw [ops7_v60, V14_main_arg9]

/-- Region 0's weights are the input layer's, untouched by the stretches before it. -/
theorem host_arg2 : hostArr_arg2 m c = hostArg2 m c := V3_main_arg2 m c

/-- Region 7's weights are the output layer's, untouched by everything before it. -/
theorem host_arg8 : hostArr_arg8 m outs c = hostArg8 m c := V15_main_arg8 m outs c

/-- The result vector: entry `q` is row `q` of what the last region left in its one-column output. -/
theorem host_v63 (q : Fin 10000) :
    hostArr_v63 m outs c (ix1 q) = hostArr_v61 m outs c (ix2 (⟨q.val, by omega⟩ : Fin 10240) (0 : Fin 1)) := by
  show StableHlo.after hostOps8 (V16 m outs c) (Proc.devRef .tc main_v63) (ix1 q) = _
  rw [ops8_v63]

end Cert.KernelIdeal.Val

end
-- ==== Proof.Net.lean ====
/-
  The two networks as plain functions, free of any program text.

  A message-passing network on a graph of 10000 nodes and 160000 directed edges, read over the extended reals.
  `rNet` gathers each edge's source row, applies the message layer per EDGE and adds the messages into their
  destination rows.  `kNet` applies the message layer once per NODE (on rows padded to 10240), and routes the rows through
  the matrix `adj d s` = the number of edges from `s` to `d`.  Both then update every node from its own row and the
  aggregated one.  They agree: a row-wise layer commutes with the gather, and `(number of edges s → d) · g s` is the sum
  of `g s` over those edges, which holds for every extended real, so no finiteness is used.
-/
import Idealize.ShloMosaic.Lib.ValueIdx
import Mathlib.Data.EReal.Operations
import Mathlib.Algebra.BigOperators.Fin
import Mathlib.Algebra.BigOperators.Group.Finset.Basic

noncomputable section

open scoped BigOperators

namespace Cert.Net

open Idealize.ShloMosaic Idealize.ShloMosaic.ValueIdx

/-- The network's inputs as curried functions; the edge ends already known to be node numbers. -/
structure P where
  x : Fin 10000 → Fin 256 → EReal
  Win : Fin 256 → Fin 512 → EReal
  bin : Fin 512 → EReal
  msgW : Fin 2 → Fin 512 → Fin 512 → EReal
  msgb : Fin 2 → Fin 512 → EReal
  updW : Fin 2 → Fin 1024 → Fin 512 → EReal
  updb : Fin 2 → Fin 512 → EReal
  Wout : Fin 512 → EReal
  bout : EReal
  src : Fin 160000 → Fin 10000
  dst : Fin 160000 → Fin 10000

/-- One dense layer with a rectifier, row by row: `max (h · W + b) 0`. -/
def dense {r k d : ℕ} (h : Fin r → Fin k → EReal) (W : Fin k → Fin d → EReal) (b : Fin d → EReal) : Fin r → Fin d → EReal :=
  fun i j => max (∑ t, h i t * W t j + b j) 0

/-! ## The reference: gather, message per edge, scatter-add, update on the concatenation -/

/-- The messages of layer `l`, one row per edge: the dense layer on the source node's row. -/
def rMsg (p : P) (l : Fin 2) (h : Fin 10000 → Fin 512 → EReal) : Fin 160000 → Fin 512 → EReal :=
  dense (fun e => h (p.src e)) (p.msgW l) (p.msgb l)

/-- The messages added into their destination rows, from zero. -/
def rAggr (p : P) (l : Fin 2) (h : Fin 10000 → Fin 512 → EReal) : Fin 10000 → Fin 512 → EReal :=
  fun d j => 0 + ∑ e ∈ Finset.univ.filter (fun e => p.dst e = d), rMsg p l h e j

/-- A node's row followed by its aggregated row: 1024 columns. -/
def cat (h a : Fin 10000 → Fin 512 → EReal) : Fin 10000 → Fin 1024 → EReal :=
  fun i t => if ht : t.val < 512 then h i ⟨t.val, ht⟩ else a i ⟨t.val - 512, by omega⟩

def rLayer (p : P) (l : Fin 2) (h : Fin 10000 → Fin 512 → EReal) : Fin 10000 → Fin 512 → EReal :=
  dense (cat h (rAggr p l h)) (p.updW l) (p.updb l)

def rNet (p : P) : Fin 10000 → EReal :=
  fun i => (∑ t, rLayer p 1 (rLayer p 0 (dense p.x p.Win p.bin)) i t * p.Wout t) + p.bout

/-! ## The kernel: message per node on padded rows, routed by the edge-count matrix, update on two products -/

/-- A node number among the 10240 padded rows. -/
def up (i : Fin 10000) : Fin 10240 := ⟨i.val, by omega⟩

/-- The features padded with 240 zero rows. -/
def xpad (p : P) : Fin 10240 → Fin 256 → EReal :=
  fun i t => if h : i.val < 10000 then p.x ⟨i.val, h⟩ t else 0

/-- `adj d s`: a one added, from zero, for every edge from `s` to `d`. -/
def adj (p : P) : Fin 10240 → Fin 10240 → EReal :=
  fun d s => 0 + ∑ _e ∈ Finset.univ.filter (fun e : Fin 160000 => up (p.dst e) = d ∧ up (p.src e) = s), (1 : EReal)

def kAggr (p : P) (l : Fin 2) (h : Fin 10240 → Fin 512 → EReal) : Fin 10240 → Fin 512 → EReal :=
  fun d j => ∑ s, adj p d s * dense h (p.msgW l) (p.msgb l) s j

def kLayer (p : P) (l : Fin 2) (h : Fin 10240 → Fin 512 → EReal) : Fin 10240 → Fin 512 → EReal :=
  fun i j => max ((∑ t : Fin 512, h i t * p.updW l ⟨t.val, by omega⟩ j
      + ∑ t : Fin 512, kAggr p l h i t * p.updW l ⟨512 + t.val, by omega⟩ j) + p.updb l j) 0

def kNet (p : P) : Fin 10000 → EReal :=
  fun i => (∑ t, kLayer p 1 (kLayer p 0 (dense (xpad p) p.Win p.bin)) (up i) t * p.Wout t) + p.bout

/-! ## Three facts about sums of extended reals -/

/-- Counting a finite set by adding ones and multiplying by `y` is adding `y` once per element: true for every
extended real `y`, since the partial counts are nonnegative and multiplication distributes over nonnegative sums. -/
theorem ones_mul {α : Type} (S : Finset α) (y : EReal) : (∑ _e ∈ S, (1 : EReal)) * y = ∑ _e ∈ S, y := by
  classical
  induction S using Finset.induction_on with
  | empty => simp
  | insert a S ha ih =>
    rw [Finset.sum_insert ha, Finset.sum_insert ha,
      EReal.right_distrib_of_nonneg zero_le_one (Finset.sum_nonneg fun _ _ => zero_le_one), one_mul, ih]

/-- Routing by the edge-count matrix is the scatter-add: the fibres of the source map partition the edges into `d`. -/
theorem route_eq {E N M : Type} [Fintype E] [Fintype M] [DecidableEq N] [DecidableEq M]
    (u : N → M) (hu : Function.Injective u) (src dst : E → N) (g : M → EReal) (d : N) :
    ∑ s, (0 + ∑ _e ∈ Finset.univ.filter (fun e : E => u (dst e) = u d ∧ u (src e) = s), (1 : EReal)) * g s
      = 0 + ∑ e ∈ Finset.univ.filter (fun e : E => dst e = d), g (u (src e)) := by
  have h1 : ∀ s, (0 + ∑ _e ∈ Finset.univ.filter (fun e : E => u (dst e) = u d ∧ u (src e) = s), (1 : EReal)) * g s
      = ∑ e ∈ (Finset.univ.filter (fun e : E => dst e = d)).filter (fun e => u (src e) = s), g (u (src e)) := by
    intro s
    rw [zero_add, ones_mul, Finset.filter_filter]
    refine Finset.sum_congr ?_ ?_
    · ext e
      simp only [Finset.mem_filter, Finset.mem_univ, true_and, hu.eq_iff]
    · intro e he
      rw [(Finset.mem_filter.1 he).2.2]
  rw [Finset.sum_congr rfl fun s _ => h1 s, zero_add]
  exact Finset.sum_fiberwise _ _ _

/-- A sum over `n + n` columns, the first `n` read from `a` and the last `n` from `b`, is the two sums. -/
theorem sum_halves (n : ℕ) (a b : Fin n → EReal) (W : Fin (n + n) → EReal) :
    ∑ t : Fin (n + n), (if ht : t.val < n then a ⟨t.val, ht⟩ else b ⟨t.val - n, by omega⟩) * W t
      = ∑ t : Fin n, a t * W ⟨t.val, by omega⟩ + ∑ t : Fin n, b t * W ⟨n + t.val, by omega⟩ := by
  rw [Fin.sum_univ_add]
  congr 1
  · refine Finset.sum_congr rfl fun t _ => ?_
    rw [dif_pos (show (Fin.castAdd n t).val < n from t.isLt)]
    rfl
  · refine Finset.sum_congr rfl fun t _ => ?_
    rw [dif_neg (show ¬ (Fin.natAdd n t).val < n by simp)]
    congr 2
    ext
    simp

theorem up_injective : Function.Injective up := by
  intro a b h
  have := congrArg Fin.val h
  exact Fin.ext this

/-- The two networks are one function of the inputs. -/
theorem kNet_eq_rNet (p : P) : kNet p = rNet p := by
  -- the first layer: a padded row that is a node's row is the node's row
  have h0 : ∀ i t, dense (xpad p) p.Win p.bin (up i) t = dense p.x p.Win p.bin i t := by
    intro i t
    have hx : ∀ c, xpad p (up i) c = p.x i c := by
      intro c
      unfold xpad
      rw [dif_pos (show (up i).val < 10000 from i.isLt)]
      rfl
    unfold dense
    simp only [hx]
  -- a message-passing layer keeps "kernel row `up i` = reference row `i`"
  have hL : ∀ (l : Fin 2) (hk : Fin 10240 → Fin 512 → EReal) (hr : Fin 10000 → Fin 512 → EReal),
      (∀ i t, hk (up i) t = hr i t) → ∀ i t, kLayer p l hk (up i) t = rLayer p l hr i t := by
    intro l hk hr hinv i j
    have hmsg : ∀ e c, dense hk (p.msgW l) (p.msgb l) (up (p.src e)) c = rMsg p l hr e c := by
      intro e c
      unfold rMsg dense
      simp only [hinv]
    have hag : ∀ c, kAggr p l hk (up i) c = rAggr p l hr i c := by
      intro c
      unfold kAggr rAggr adj
      rw [route_eq up up_injective p.src p.dst (fun s => dense hk (p.msgW l) (p.msgb l) s c) i]
      simp only [hmsg]
    unfold kLayer rLayer
    simp only [hinv, hag]
    unfold dense cat
    rw [sum_halves 512 (hr i) (rAggr p l hr i) (fun t => p.updW l t j)]
  funext i
  unfold kNet rNet
  simp only [hL 1 _ _ (hL 0 _ _ h0)]

/-! ## The inputs read off the argument arrays -/

/-- The argument arrays as the programs hold them (shapes literal), the edge ends given to lie in `[0, 10000)`. -/
def mkP (x : (⟨2, ![10000, 256]⟩ : Shape).Idx → EReal) (ei : (⟨2, ![2, 160000]⟩ : Shape).Idx → BitVec 32)
    (Win : (⟨2, ![256, 512]⟩ : Shape).Idx → EReal) (bin : (⟨1, ![512]⟩ : Shape).Idx → EReal)
    (msgW : (⟨3, ![2, 512, 512]⟩ : Shape).Idx → EReal) (msgb : (⟨2, ![2, 512]⟩ : Shape).Idx → EReal)
    (updW : (⟨3, ![2, 1024, 512]⟩ : Shape).Idx → EReal) (updb : (⟨2, ![2, 512]⟩ : Shape).Idx → EReal)
    (Wout : (⟨2, ![512, 1]⟩ : Shape).Idx → EReal) (bout : (⟨1, ![1]⟩ : Shape).Idx → EReal)
    (hr : ∀ a, 0 ≤ (ei a).toInt ∧ (ei a).toInt < 10000) : P where
  x i t := x (ix2 i t)
  Win t j := Win (ix2 t j)
  bin j := bin (ix1 j)
  msgW l t j := msgW (ix3 l t j)
  msgb l j := msgb (ix2 l j)
  updW l t j := updW (ix3 l t j)
  updb l j := updb (ix2 l j)
  Wout t := Wout (ix2 t (0 : Fin 1))
  bout := bout (ix1 (0 : Fin 1))
  src e := ⟨(ei (ix2 (0 : Fin 2) e)).toInt.toNat, by have := hr (ix2 (0 : Fin 2) e); omega⟩
  dst e := ⟨(ei (ix2 (1 : Fin 2) e)).toInt.toNat, by have := hr (ix2 (1 : Fin 2) e); omega⟩

end Cert.Net

end
-- ==== Proof.KV.HostAdj.lean ====
/-
  The edge-count matrix the host code builds is `Cert.Net.adj`.

  The host code reads the two rows of the edge table (destinations in row 1, sources in row 0), replaces every word `x`
  by `x + 10240` where `x < 0` (a node number is at least 0, so nothing changes), lays the two columns side by side
  as a `[160000, 2]` array of index pairs and adds a one, from zero, into a `[10240, 10240]` matrix at every pair;
  the change of float format at the end is the identity on extended reals.  A scatter-add whose two operand axes are
  both scattered and which has no window axis sends update `e` to the element `(d, s)` exactly when the two words of
  row `e`, read signed, are `d` and `s`; a node number below 10000 is in range of 10240.  So the matrix at `(d, s)` is
  zero plus a one for every edge with destination `d` and source `s`.
-/
import proofs.«408707_j33406255628688_2_alg».proof.Proof.Gen.KernelIdeal.Regions
import proofs.«408707_j33406255628688_2_alg».proof.Proof.Net
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Predicate
import Idealize.ShloMosaic.Lib.StableHlo.Run
import Idealize.ShloMosaic.PureOps.Ideal.Laws

noncomputable section

open scoped BigOperators

namespace Cert.KernelIdeal.Val

open Cert.KernelIdeal Cert.KernelIdeal.Gen Idealize.ShloMosaic Idealize.ShloMosaic.ValueIdx Idealize.SL.Sem
open Idealize.ShloMosaic.TcCoe Idealize.ShloMosaic.StableHlo

/-! ## A scatter-add of ones at pairs of indices counts the pairs

The operand is `[N0, N1]`, the scatter indices `[E, 2]` (row `e` is the pair of edge `e`), the updates `[E]`;
both operand axes are scattered and no axis is a window axis.  Update `e` lands at `(d, s)` exactly when the
two words of row `e`, read signed, are `d` and `s`. -/

section Count
variable {N0 N1 E : Nat}

/-- Those dimension numbers; their conditions are decided on a program's literal shapes. -/
abbrev edgeDims (N0 N1 E : Nat) (wf : ScatterDims.WF ⟨2, ![N0, N1]⟩ ⟨2, ![E, 2]⟩ ⟨1, ![E]⟩ [] [0, 1] [0, 1] 1) :
    ScatterDims ⟨2, ![N0, N1]⟩ ⟨2, ![E, 2]⟩ ⟨1, ![E]⟩ where
  updateWindowDims := []
  insertedWindowDims := [0, 1]
  scatterDimsToOperandDims := [0, 1]
  indexVectorDim := 1
  wf := wf

variable (wf : ScatterDims.WF ⟨2, ![N0, N1]⟩ ⟨2, ![E, 2]⟩ ⟨1, ![E]⟩ [] [0, 1] [0, 1] 1)

/-- No operand axis is a window axis: the window coordinate is zero. -/
theorem edgeDims_window (j : (⟨1, ![E]⟩ : Shape).Idx) (a : Fin 2) : (edgeDims N0 N1 E wf).window j a = 0 := by
  unfold ScatterDims.window
  rw [dif_neg]
  intro h
  have h' : a ∈ (List.finRange 2).filter (· ∉ ([0, 1] : List (Fin 2))) := h
  rw [List.mem_filter] at h'
  have := h'.2
  match a with
  | ⟨0, _⟩ => simp at this
  | ⟨1, _⟩ => simp at this

/-- The start on the first operand axis is the first word of the update's row, read signed. -/
theorem edgeDims_start0 {w : Nat} (e : Fin E) (idx : IVec ⟨2, ![E, 2]⟩ w) :
    (edgeDims N0 N1 E wf).start (ix1 e) idx 0 = (idx (ix2 e 0)).toInt := by
  unfold ScatterDims.start
  rw [dif_pos (show (0 : Fin 2) ∈ ([0, 1] : List (Fin 2)) by simp)]
  congr 2
  funext b
  refine Fin.ext ?_
  match b with
  | ⟨0, _⟩ => rfl
  | ⟨1, _⟩ => rfl

/-- The start on the second operand axis is the second word of the update's row, read signed. -/
theorem edgeDims_start1 {w : Nat} (e : Fin E) (idx : IVec ⟨2, ![E, 2]⟩ w) :
    (edgeDims N0 N1 E wf).start (ix1 e) idx 1 = (idx (ix2 e 1)).toInt := by
  unfold ScatterDims.start
  rw [dif_pos (show (1 : Fin 2) ∈ ([0, 1] : List (Fin 2)) by simp)]
  congr 2
  funext b
  refine Fin.ext ?_
  match b with
  | ⟨0, _⟩ => rfl
  | ⟨1, _⟩ => rfl

/-- Where update `e` lands. -/
theorem edgeDims_resultIdx {w : Nat} (e : Fin E) (idx : IVec ⟨2, ![E, 2]⟩ w) (d : Fin N0) (s : Fin N1) :
    (edgeDims N0 N1 E wf).resultIdx? (ix1 e) idx = some (ix2 d s) ↔
      (idx (ix2 e 0)).toInt = d.val ∧ (idx (ix2 e 1)).toInt = s.val := by
  have hd := d.isLt
  have hs := s.isLt
  have s0 : (⟨2, ![N0, N1]⟩ : Shape).size 0 = N0 := rfl
  have s1 : (⟨2, ![N0, N1]⟩ : Shape).size 1 = N1 := rfl
  unfold ScatterDims.resultIdx?
  constructor
  · intro h
    split at h
    · next hall =>
      have hf := Option.some.inj h
      have h0 := congrArg Fin.val (congrFun hf 0)
      have h1 := congrArg Fin.val (congrFun hf 1)
      have a0 := (hall 0).1
      have a1 := (hall 1).1
      simp only [edgeDims_window, edgeDims_start0, edgeDims_start1, Nat.cast_zero, add_zero] at h0 h1 a0 a1
      change (idx (ix2 e 0)).toInt.toNat = d.val at h0
      change (idx (ix2 e 1)).toInt.toNat = s.val at h1
      omega
    · exact absurd h (by simp)
  · rintro ⟨h0, h1⟩
    have hall : ∀ a : Fin 2, 0 ≤ (edgeDims N0 N1 E wf).start (ix1 e) idx a + ((edgeDims N0 N1 E wf).window (ix1 e) a : Int)
        ∧ (edgeDims N0 N1 E wf).start (ix1 e) idx a + ((edgeDims N0 N1 E wf).window (ix1 e) a : Int) < (⟨2, ![N0, N1]⟩ : Shape).size a := by
      intro a
      match a with
      | ⟨0, _⟩ =>
        show 0 ≤ (edgeDims N0 N1 E wf).start (ix1 e) idx 0 + ((edgeDims N0 N1 E wf).window (ix1 e) 0 : Int)
          ∧ (edgeDims N0 N1 E wf).start (ix1 e) idx 0 + ((edgeDims N0 N1 E wf).window (ix1 e) 0 : Int) < (N0 : Int)
        rw [edgeDims_window, edgeDims_start0, h0]; omega
      | ⟨1, _⟩ =>
        show 0 ≤ (edgeDims N0 N1 E wf).start (ix1 e) idx 1 + ((edgeDims N0 N1 E wf).window (ix1 e) 1 : Int)
          ∧ (edgeDims N0 N1 E wf).start (ix1 e) idx 1 + ((edgeDims N0 N1 E wf).window (ix1 e) 1 : Int) < (N1 : Int)
        rw [edgeDims_window, edgeDims_start1, h1]; omega
    rw [dif_pos hall]
    congr 1
    funext a
    refine Fin.ext ?_
    match a with
    | ⟨0, _⟩ =>
      show ((edgeDims N0 N1 E wf).start (ix1 e) idx 0 + ((edgeDims N0 N1 E wf).window (ix1 e) 0 : Int)).toNat = d.val
      rw [edgeDims_window, edgeDims_start0, h0]; omega
    | ⟨1, _⟩ =>
      show ((edgeDims N0 N1 E wf).start (ix1 e) idx 1 + ((edgeDims N0 N1 E wf).window (ix1 e) 1 : Int)).toNat = s.val
      rw [edgeDims_window, edgeDims_start1, h1]; omega

/-- The scatter-add of ones into zeros, read at `(d, s)`: one for every row whose two words are `d` and `s`. -/
theorem scatter_ones_apply {w : Nat} (idx : IVec ⟨2, ![E, 2]⟩ w) (x : (⟨2, ![N0, N1]⟩ : Shape).Idx → EReal)
    (u : (⟨1, ![E]⟩ : Shape).Idx → EReal) (d : Fin N0) (s : Fin N1) :
    Ideal.hostScatterAdd (edgeDims N0 N1 E wf) x idx u (ix2 d s)
      = x (ix2 d s) + ∑ e ∈ Finset.univ.filter (fun e : Fin E => (idx (ix2 e 0)).toInt = d.val ∧ (idx (ix2 e 1)).toInt = s.val), u (ix1 e) := by
  unfold Ideal.hostScatterAdd
  congr 1
  refine Finset.sum_bij' (fun j _ => (j 0 : Fin E)) (fun e _ => ix1 e) ?_ ?_ ?_ ?_ ?_
  · intro j hj
    have h2 := (Finset.mem_filter.1 hj).2
    have h3 : (edgeDims N0 N1 E wf).resultIdx? (ix1 (j 0 : Fin E)) idx = some (ix2 d s) :=
      (congrArg (fun j' => (edgeDims N0 N1 E wf).resultIdx? j' idx) (eq_ix1 j)).symm.trans h2
    exact Finset.mem_filter.2 ⟨Finset.mem_univ _, (edgeDims_resultIdx wf (j 0) idx d s).mp h3⟩
  · intro e he
    exact Finset.mem_filter.2 ⟨Finset.mem_univ _, (edgeDims_resultIdx wf e idx d s).mpr (Finset.mem_filter.1 he).2⟩
  · intro j _
    exact (eq_ix1 j).symm
  · intro e _
    rfl
  · intro j _
    exact congrArg u (eq_ix1 j)

end Count

/-! ## A node number wrapped against the padded extent is itself -/

/-- `select (x < 0) (x + k) x` on a nonnegative word is the word. -/
theorem wrap_nonneg (x k : BitVec 32) (hx : 0 ≤ x.toInt) :
    Scalar.select (IntOp.cmpi .slt x 0#32) (IntOp.addi x k) x = x := by
  have h0 : IntOp.cmpi .slt x 0#32 = 0#1 := by
    apply eq_zero_of_ne_one
    intro h
    rw [IntOp.cmpi, StableHlo.Predicate.ofBool_eq_one_iff] at h
    have h' : x.toInt < (0#32 : BitVec 32).toInt := by simpa [BitVec.slt] using h
    simp at h'
    omega
  rw [h0, select_zero]

/-! ## The index array read at a row -/

section Read
variable {α : Type} {n : Nat}

/-- A vector laid out as an `[n, 1]` column reads, at row `e`, the vector at `e`. -/
theorem col_apply (hb : (⟨1, ![n]⟩ : Shape).BroadcastsInDim ⟨2, ![n, 1]⟩ ![0])
    (a : (⟨1, ![n]⟩ : Shape).Idx → α) (e : Fin n) :
    broadcastInDim ⟨2, ![n, 1]⟩ ![0] hb a (ix2 e (0 : Fin 1)) = a (ix1 e) := by
  refine broadcastInDim_apply _ hb a _ (ix1 e) fun t => ?_
  obtain rfl : t = 0 := Subsingleton.elim _ _
  have he := e.isLt
  show e.val = if n = 1 then 0 else e.val
  split <;> omega

/-- Two columns side by side: column 0 of row `e` is the first piece at row `e`. -/
theorem pair_apply0 (hc : Shape.Concatenates [(⟨2, ![n, 1]⟩ : Shape), ⟨2, ![n, 1]⟩] ⟨2, ![n, 2]⟩ 1)
    (x y : (⟨2, ![n, 1]⟩ : Shape).Idx → α) (e : Fin n) :
    concatenate ⟨2, ![n, 2]⟩ 1 [⟨⟨2, ![n, 1]⟩, x⟩, ⟨⟨2, ![n, 1]⟩, y⟩] hc (ix2 e (0 : Fin 2)) = x (ix2 e (0 : Fin 1)) := by
  refine concatenate_apply_piece (t := ⟨2, ![n, 2]⟩) (1 : Fin 2) [⟨⟨2, ![n, 1]⟩, x⟩, ⟨⟨2, ![n, 1]⟩, y⟩] hc (ix2 e 0) 0 (Nat.zero_lt_succ _) ⟨2, ![n, 1]⟩ x rfl rfl 0 rfl (ix2 e 0) ?_ ?_
  · intro b hb
    match b with
    | ⟨0, _⟩ => rfl
    | ⟨1, _⟩ => exact absurd rfl hb
  · rfl

/-- Column 1 of row `e` is the second piece at row `e`. -/
theorem pair_apply1 (hc : Shape.Concatenates [(⟨2, ![n, 1]⟩ : Shape), ⟨2, ![n, 1]⟩] ⟨2, ![n, 2]⟩ 1)
    (x y : (⟨2, ![n, 1]⟩ : Shape).Idx → α) (e : Fin n) :
    concatenate ⟨2, ![n, 2]⟩ 1 [⟨⟨2, ![n, 1]⟩, x⟩, ⟨⟨2, ![n, 1]⟩, y⟩] hc (ix2 e (1 : Fin 2)) = y (ix2 e (0 : Fin 1)) := by
  refine concatenate_apply_piece (t := ⟨2, ![n, 2]⟩) (1 : Fin 2) [⟨⟨2, ![n, 1]⟩, x⟩, ⟨⟨2, ![n, 1]⟩, y⟩] hc (ix2 e 1) 1 (Nat.succ_lt_succ (Nat.zero_lt_succ _)) ⟨2, ![n, 1]⟩ y rfl rfl 1 rfl (ix2 e 0) ?_ ?_
  · intro b hb
    match b with
    | ⟨0, _⟩ => rfl
    | ⟨1, _⟩ => exact absurd rfl hb
  · rfl

/-- Row 0 of a `[2, n]` table, sliced out and flattened, read at `e`. -/
theorem row0_apply (x : (⟨2, ![2, n]⟩ : Shape).Idx → α) (hs : (⟨2, ![2, n]⟩ : Shape).Slices ![0, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![0, 0] x hs) hc (ix1 e) = x (ix2 (0 : Fin 2) e) := by
  refine (shapeCast_apply _ hc (ix1 e) (ix2 (0 : Fin 1) e) ?_).trans ?_
  · rw [Shape.rowMajor_val_two, Shape.rowMajor_val_one]
    show 0 * n + e.val = e.val
    omega
  · refine extractStridedSlice_apply _ x hs (ix2 (0 : Fin 1) e) (ix2 (0 : Fin 2) e) fun a => ?_
    match a with
    | ⟨0, _⟩ => rfl
    | ⟨1, _⟩ => show e.val = 0 + e.val; omega

/-- Row 1 likewise. -/
theorem row1_apply (x : (⟨2, ![2, n]⟩ : Shape).Idx → α) (hs : (⟨2, ![2, n]⟩ : Shape).Slices ![1, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![1, 0] x hs) hc (ix1 e) = x (ix2 (1 : Fin 2) e) := by
  refine (shapeCast_apply _ hc (ix1 e) (ix2 (0 : Fin 1) e) ?_).trans ?_
  · rw [Shape.rowMajor_val_two, Shape.rowMajor_val_one]
    show 0 * n + e.val = e.val
    omega
  · refine extractStridedSlice_apply _ x hs (ix2 (0 : Fin 1) e) (ix2 (1 : Fin 2) e) fun a => ?_
    match a with
    | ⟨0, _⟩ => rfl
    | ⟨1, _⟩ => show e.val = 0 + e.val; omega

end Read

/-! ## The host operations -/

section Host

/-- `select (x < 0) (x + 10240) x` on every word of a vector. -/
abbrev wrapV (x : IVec S160000 32) : IVec S160000 32 :=
  select (cmpi .slt x (broadcastInDim S160000 ![] bcast_S_S160000 (constantI S_ 32 0#32)))
    (addi x (broadcastInDim S160000 ![] bcast_S_S160000 (constantI S_ 32 10240#32))) x

theorem wrapV_apply (x : IVec S160000 32) (e : Fin 160000) (hx : 0 ≤ (x (ix1 e)).toInt) :
    wrapV x (ix1 e) = x (ix1 e) := by
  show Scalar.select (IntOp.cmpi .slt (x (ix1 e)) 0#32) (IntOp.addi (x (ix1 e)) 10240#32) (x (ix1 e)) = x (ix1 e)
  exact wrap_nonneg _ _ hx

/-- The `[160000, 2]` array of index pairs made from the two vectors: each wrapped, laid out as a column, the columns side by side. -/
abbrev idxPairs (a b : IVec S160000 32) : IVec S160000x2 32 :=
  concatenate S160000x2 1
    [⟨S160000x1, broadcastInDim S160000x1 ![0] bcast_S160000_S160000x1_0 (wrapV a)⟩,
     ⟨S160000x1, broadcastInDim S160000x1 ![0] bcast_S160000_S160000x1_0 (wrapV b)⟩]
    concatenates_S160000x1_S160000x1_S160000x2_d1

theorem idxPairs_apply0 (a b : IVec S160000 32) (e : Fin 160000) (ha : 0 ≤ (a (ix1 e)).toInt) :
    idxPairs a b (ix2 e (0 : Fin 2)) = a (ix1 e) :=
  (pair_apply0 concatenates_S160000x1_S160000x1_S160000x2_d1 _ _ e).trans
    ((col_apply bcast_S160000_S160000x1_0 _ e).trans (wrapV_apply a e ha))

theorem idxPairs_apply1 (a b : IVec S160000 32) (e : Fin 160000) (hb : 0 ≤ (b (ix1 e)).toInt) :
    idxPairs a b (ix2 e (1 : Fin 2)) = b (ix1 e) :=
  (pair_apply1 concatenates_S160000x1_S160000x1_S160000x2_d1 _ _ e).trans
    ((col_apply bcast_S160000_S160000x1_0 _ e).trans (wrapV_apply b e hb))

/-- The rewriting of one operation's result at a reference, repeated: what is left after the one-pass form. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

-- the fold over a stretch of operations is rewritten once per operation and reference: past the default budgets
set_option maxRecDepth 4096 in
set_option maxHeartbeats 16000000 in
/-- What the first host stretch leaves in the flattened row 1 of the edge table. -/
theorem ops0_v3 (V : Valuation τ sig (Elt Ideal)) :
    (StableHlo.after hostOps0 V (Proc.devRef .tc main_v3) : IVec S160000 32)
      = shapeCast S160000 (extractStridedSlice S1x160000 ![1, 0] (V (Proc.devRef .tc main_arg1) : IVec S2x160000 32)
          slices_S2x160000_S1x160000_1_0) shapeCasts_S1x160000_S160000 := by
  after_results
  all_goals rfl

set_option maxRecDepth 4096 in
set_option maxHeartbeats 16000000 in
/-- … and in the flattened row 0. -/
theorem ops0_v1 (V : Valuation τ sig (Elt Ideal)) :
    (StableHlo.after hostOps0 V (Proc.devRef .tc main_v1) : IVec S160000 32)
      = shapeCast S160000 (extractStridedSlice S1x160000 ![0, 0] (V (Proc.devRef .tc main_arg1) : IVec S2x160000 32)
          slices_S2x160000_S1x160000_0_0) shapeCasts_S1x160000_S160000 := by
  after_results
  all_goals rfl

set_option maxRecDepth 4096 in
set_option maxHeartbeats 16000000 in
/-- What the third host stretch leaves in the matrix, as a term over the two index vectors it reads. -/
theorem ops2_v21 (V : Valuation τ sig (Elt Ideal)) :
    (StableHlo.after hostOps0_2 V (Proc.devRef .tc main_v21) : S10240x10240.Idx → EReal) =
      truncf .bf16 (Host.scatterAdd scatter_S10240x10240_S160000x2_S160000_n_01_01_1
        (broadcastInDim S10240x10240 ![] bcast_S_S10240x10240 (constant (F := Ideal) S_ .f32 0x00000000#32))
        (idxPairs (V (Proc.devRef .tc main_v3)) (V (Proc.devRef .tc main_v1)))
        (broadcastInDim S160000 ![] bcast_S_S160000 (constant (F := Ideal) S_ .f32 0x3F800000#32))) bitsLt_bf16_f32 := by
  after_results_simp
  results_rw
  all_goals rfl

set_option maxRecDepth 4096 in
/-- The matrix at `(d, s)`: zero plus a one for every row whose two words, read signed, are `d` and `s`. -/
theorem ops2_v21_apply (V : Valuation τ sig (Elt Ideal))
    (h3 : ∀ e : Fin 160000, 0 ≤ ((V (Proc.devRef .tc main_v3) : IVec S160000 32) (ix1 e)).toInt)
    (h1 : ∀ e : Fin 160000, 0 ≤ ((V (Proc.devRef .tc main_v1) : IVec S160000 32) (ix1 e)).toInt) (d s : Fin 10240) :
    (StableHlo.after hostOps0_2 V (Proc.devRef .tc main_v21) : S10240x10240.Idx → EReal) (ix2 d s)
      = 0 + ∑ _e ∈ Finset.univ.filter (fun e : Fin 160000 =>
          ((V (Proc.devRef .tc main_v3) : IVec S160000 32) (ix1 e)).toInt = d.val
            ∧ ((V (Proc.devRef .tc main_v1) : IVec S160000 32) (ix1 e)).toInt = s.val), (1 : EReal) := by
  rw [ops2_v21 V, truncf_apply]
  unfold Host.scatterAdd
  rw [Ideal.hostScatterAdd_def]
  show Ideal.hostScatterAdd (edgeDims 10240 10240 160000 scatter_S10240x10240_S160000x2_S160000_n_01_01_1_wf) _ _ _ (ix2 d s) = _
  rw [scatter_ones_apply]
  refine congrArg₂ (· + ·) ?_ ?_
  · rw [StableHlo.Predicate.bcast_scalar _ h_S_, constant_apply, Ideal.ofBits_zero_f32]
  · refine Finset.sum_congr (Finset.filter_congr fun e _ => ?_) fun e _ => ?_
    · rw [idxPairs_apply0 _ _ e (h3 e), idxPairs_apply1 _ _ e (h1 e)]
    · rw [StableHlo.Predicate.bcast_scalar _ h_S_, constant_apply, Ideal.ofBits_one_f32]

end Host

/-! ## The matrix is `Cert.Net.adj` -/

set_option maxRecDepth 4096 in
set_option maxHeartbeats 4000000 in
/-- The matrix the host code hands the adjacency kernels, at `(d, s)`, is the number of edges from `s` to `d` as
`Cert.Net.adj` counts it. -/
theorem host_v21 (m : (ℓ : Loc nD τ sig) → Buf (Elt Ideal) ℓ) (c : Dev nD)
    (hr : ∀ a, 0 ≤ ((m ((c.tc : Thread nD τ).loc main_arg1) : (⟨2, ![2, 160000]⟩ : Shape).Idx → BitVec 32) a).toInt
      ∧ ((m ((c.tc : Thread nD τ).loc main_arg1) : (⟨2, ![2, 160000]⟩ : Shape).Idx → BitVec 32) a).toInt < 10000)
    (d s : Fin 10240) :
    (Gen.V3 m c main_v21 : S10240x10240.Idx → EReal) (ix2 d s)
      = Cert.Net.adj (Cert.Net.mkP (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) hr) d s := by
  -- the two index vectors the third stretch reads are rows 1 and 0 of the edge table
  have e3 : ∀ e : Fin 160000, (Gen.V2 m c (Proc.devRef .tc main_v3) : IVec S160000 32) (ix1 e)
      = (m ((c.tc : Thread nD τ).loc main_arg1) : (⟨2, ![2, 160000]⟩ : Shape).Idx → BitVec 32) (ix2 (1 : Fin 2) e) := fun e =>
    (congrFun (Gen.V2_of m c main_v3 (by decide)) (ix1 e)).trans
      ((congrFun (ops0_v3 (Gen.V0 m c)) (ix1 e)).trans
        (row1_apply _ slices_S2x160000_S1x160000_1_0 shapeCasts_S1x160000_S160000 e))
  have e1 : ∀ e : Fin 160000, (Gen.V2 m c (Proc.devRef .tc main_v1) : IVec S160000 32) (ix1 e)
      = (m ((c.tc : Thread nD τ).loc main_arg1) : (⟨2, ![2, 160000]⟩ : Shape).Idx → BitVec 32) (ix2 (0 : Fin 2) e) := fun e =>
    (congrFun (Gen.V2_of m c main_v1 (by decide)) (ix1 e)).trans
      ((congrFun (ops0_v1 (Gen.V0 m c)) (ix1 e)).trans
        (row0_apply _ slices_S2x160000_S1x160000_0_0 shapeCasts_S1x160000_S160000 e))
  have h3 : ∀ e : Fin 160000, 0 ≤ ((Gen.V2 m c (Proc.devRef .tc main_v3) : IVec S160000 32) (ix1 e)).toInt :=
    fun e => by rw [e3 e]; exact (hr _).1
  have h1 : ∀ e : Fin 160000, 0 ≤ ((Gen.V2 m c (Proc.devRef .tc main_v1) : IVec S160000 32) (ix1 e)).toInt :=
    fun e => by rw [e1 e]; exact (hr _).1
  unfold Cert.Net.adj
  refine (ops2_v21_apply (Gen.V2 m c) h3 h1 d s).trans ?_
  refine congrArg₂ (· + ·) rfl ?_
  refine Finset.sum_congr (Finset.filter_congr fun e _ => ?_) fun _ _ => rfl
  rw [e3 e, e1 e]
  have hd := hr (ix2 (1 : Fin 2) e)
  have hs := hr (ix2 (0 : Fin 2) e)
  simp only [Fin.ext_iff, Cert.Net.up, Cert.Net.mkP]
  omega

end Cert.KernelIdeal.Val

end
-- ==== Proof.KV.Carry.lean ====
/-
  Where each array a region or a late host stretch reads was last written.

  The run is a list of items; between them stand the valuations V0 … V17 of the core's unscoped buffers.  A host stretch
  changes only the arrays it writes, and a region's exit changes only the one array it overwrites with what the region
  left there.  So an array read when an item is entered still holds what its last writer left: a region's output
  (`outs J r c`), a host stretch's result (the valuation just after that stretch), or, for an argument, which nothing
  writes, the launch memory.  Each equation below walks back from the item that reads to the item that wrote, one item at a
  time: an item that does not write the array leaves it as it was, and an overwritten array read at once is what was put there.
-/
import proofs.«408707_j33406255628688_2_alg».proof.Proof.Gen.KernelIdeal.Regions

set_option maxRecDepth 1064

noncomputable section

namespace Cert.KernelIdeal.Val

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (outs : Outs (F := F))

/-! ## Arrays the regions leave -/

/-- Region 0's output, read when region 1 is entered: the host stretch between them does not write it. -/
theorem carry_v23_at5 (c : Dev nD) : V5 m outs c main_v23 = outs 4 main_v23 c :=
  (V5_of m outs c main_v23 (by decide)).trans (Function.update_self ..)

/-- Region 1's output, read at once by region 2. -/
theorem carry_v30_at6 (c : Dev nD) : V6 m outs c main_v30 = outs 6 main_v30 c :=
  Function.update_self ..

/-- Region 0's output again, read when region 3 is entered: regions 1 and 2 and the stretch after them leave it. -/
theorem carry_v23_at8 (c : Dev nD) : V8 m outs c main_v23 = outs 4 main_v23 c :=
  (V8_of m outs c main_v23 (by decide)).trans <| (V7_of m outs c main_v23 (by decide)).trans <|
    (V6_of m outs c main_v23 (by decide)).trans <| carry_v23_at5 m outs c

/-- Region 2's output, read when region 3 is entered. -/
theorem carry_v31_at8 (c : Dev nD) : V8 m outs c main_v31 = outs 7 main_v31 c :=
  (V8_of m outs c main_v31 (by decide)).trans (Function.update_self ..)

/-- Region 3's output, read when region 4 is entered. -/
theorem carry_v41_at10 (c : Dev nD) : V10 m outs c main_v41 = outs 9 main_v41 c :=
  (V10_of m outs c main_v41 (by decide)).trans (Function.update_self ..)

/-- Region 4's output, read at once by region 5. -/
theorem carry_v48_at11 (c : Dev nD) : V11 m outs c main_v48 = outs 11 main_v48 c :=
  Function.update_self ..

/-- Region 3's output again, read when region 6 is entered. -/
theorem carry_v41_at13 (c : Dev nD) : V13 m outs c main_v41 = outs 9 main_v41 c :=
  (V13_of m outs c main_v41 (by decide)).trans <| (V12_of m outs c main_v41 (by decide)).trans <|
    (V11_of m outs c main_v41 (by decide)).trans <| carry_v41_at10 m outs c

/-- Region 5's output, read when region 6 is entered. -/
theorem carry_v49_at13 (c : Dev nD) : V13 m outs c main_v49 = outs 12 main_v49 c :=
  (V13_of m outs c main_v49 (by decide)).trans (Function.update_self ..)

/-- Region 6's output, read when region 7 is entered. -/
theorem carry_v59_at15 (c : Dev nD) : V15 m outs c main_v59 = outs 14 main_v59 c :=
  (V15_of m outs c main_v59 (by decide)).trans (Function.update_self ..)

/-- Region 7's output, read by the last host stretch. -/
theorem carry_v61_at16 (c : Dev nD) : V16 m outs c main_v61 = outs 16 main_v61 c :=
  Function.update_self ..

/-! ## An array the first host stretches leave, read by both adjacency regions -/

/-- Read when region 2 is entered: still what the stretch before region 0 left. -/
theorem carry_v21_at6 (c : Dev nD) : V6 m outs c main_v21 = V3 m c main_v21 :=
  (V6_of m outs c main_v21 (by decide)).trans <| (V5_of m outs c main_v21 (by decide)).trans <|
    V4_of m outs c main_v21 (by decide)

/-- Read when region 5 is entered: the same. -/
theorem carry_v21_at11 (c : Dev nD) : V11 m outs c main_v21 = V3 m c main_v21 :=
  (V11_of m outs c main_v21 (by decide)).trans <| (V10_of m outs c main_v21 (by decide)).trans <|
    (V9_of m outs c main_v21 (by decide)).trans <| (V8_of m outs c main_v21 (by decide)).trans <|
    (V7_of m outs c main_v21 (by decide)).trans <| carry_v21_at6 m outs c

/-! ## Arguments: nothing writes them, so wherever they are read they are the launch memory -/

theorem carry_arg2_at3 (c : Dev nD) : V3 m c main_arg2 = m ((c : Thread nD τ).loc main_arg2) :=
  (V3_of m c main_arg2 (by decide)).trans <| (V2_of m c main_arg2 (by decide)).trans <|
    (V1_of m c main_arg2 (by decide)).trans rfl

theorem carry_arg4_at4 (c : Dev nD) : V4 m outs c main_arg4 = m ((c : Thread nD τ).loc main_arg4) :=
  (V4_of m outs c main_arg4 (by decide)).trans <| (V3_of m c main_arg4 (by decide)).trans <|
    (V2_of m c main_arg4 (by decide)).trans <| (V1_of m c main_arg4 (by decide)).trans rfl

theorem carry_arg5_at4 (c : Dev nD) : V4 m outs c main_arg5 = m ((c : Thread nD τ).loc main_arg5) :=
  (V4_of m outs c main_arg5 (by decide)).trans <| (V3_of m c main_arg5 (by decide)).trans <|
    (V2_of m c main_arg5 (by decide)).trans <| (V1_of m c main_arg5 (by decide)).trans rfl

theorem carry_arg4_at9 (c : Dev nD) : V9 m outs c main_arg4 = m ((c : Thread nD τ).loc main_arg4) :=
  (V9_of m outs c main_arg4 (by decide)).trans <| (V8_of m outs c main_arg4 (by decide)).trans <|
    (V7_of m outs c main_arg4 (by decide)).trans <| (V6_of m outs c main_arg4 (by decide)).trans <|
    (V5_of m outs c main_arg4 (by decide)).trans <| carry_arg4_at4 m outs c

theorem carry_arg5_at9 (c : Dev nD) : V9 m outs c main_arg5 = m ((c : Thread nD τ).loc main_arg5) :=
  (V9_of m outs c main_arg5 (by decide)).trans <| (V8_of m outs c main_arg5 (by decide)).trans <|
    (V7_of m outs c main_arg5 (by decide)).trans <| (V6_of m outs c main_arg5 (by decide)).trans <|
    (V5_of m outs c main_arg5 (by decide)).trans <| carry_arg5_at4 m outs c

theorem carry_arg6_at7 (c : Dev nD) : V7 m outs c main_arg6 = m ((c : Thread nD τ).loc main_arg6) :=
  (V7_of m outs c main_arg6 (by decide)).trans <| (V6_of m outs c main_arg6 (by decide)).trans <|
    (V5_of m outs c main_arg6 (by decide)).trans <| (V4_of m outs c main_arg6 (by decide)).trans <|
    (V3_of m c main_arg6 (by decide)).trans <| (V2_of m c main_arg6 (by decide)).trans <|
    (V1_of m c main_arg6 (by decide)).trans rfl

theorem carry_arg7_at7 (c : Dev nD) : V7 m outs c main_arg7 = m ((c : Thread nD τ).loc main_arg7) :=
  (V7_of m outs c main_arg7 (by decide)).trans <| (V6_of m outs c main_arg7 (by decide)).trans <|
    (V5_of m outs c main_arg7 (by decide)).trans <| (V4_of m outs c main_arg7 (by decide)).trans <|
    (V3_of m c main_arg7 (by decide)).trans <| (V2_of m c main_arg7 (by decide)).trans <|
    (V1_of m c main_arg7 (by decide)).trans rfl

theorem carry_arg6_at12 (c : Dev nD) : V12 m outs c main_arg6 = m ((c : Thread nD τ).loc main_arg6) :=
  (V12_of m outs c main_arg6 (by decide)).trans <| (V11_of m outs c main_arg6 (by decide)).trans <|
    (V10_of m outs c main_arg6 (by decide)).trans <| (V9_of m outs c main_arg6 (by decide)).trans <|
    (V8_of m outs c main_arg6 (by decide)).trans <| carry_arg6_at7 m outs c

theorem carry_arg7_at12 (c : Dev nD) : V12 m outs c main_arg7 = m ((c : Thread nD τ).loc main_arg7) :=
  (V12_of m outs c main_arg7 (by decide)).trans <| (V11_of m outs c main_arg7 (by decide)).trans <|
    (V10_of m outs c main_arg7 (by decide)).trans <| (V9_of m outs c main_arg7 (by decide)).trans <|
    (V8_of m outs c main_arg7 (by decide)).trans <| carry_arg7_at7 m outs c

theorem carry_arg9_at14 (c : Dev nD) : V14 m outs c main_arg9 = m ((c : Thread nD τ).loc main_arg9) :=
  (V14_of m outs c main_arg9 (by decide)).trans <| (V13_of m outs c main_arg9 (by decide)).trans <|
    (V12_of m outs c main_arg9 (by decide)).trans <| (V11_of m outs c main_arg9 (by decide)).trans <|
    (V10_of m outs c main_arg9 (by decide)).trans <| (V9_of m outs c main_arg9 (by decide)).trans <|
    (V8_of m outs c main_arg9 (by decide)).trans <| (V7_of m outs c main_arg9 (by decide)).trans <|
    (V6_of m outs c main_arg9 (by decide)).trans <| (V5_of m outs c main_arg9 (by decide)).trans <|
    (V4_of m outs c main_arg9 (by decide)).trans <| (V3_of m c main_arg9 (by decide)).trans <|
    (V2_of m c main_arg9 (by decide)).trans <| (V1_of m c main_arg9 (by decide)).trans rfl

theorem carry_arg8_at15 (c : Dev nD) : V15 m outs c main_arg8 = m ((c : Thread nD τ).loc main_arg8) :=
  (V15_of m outs c main_arg8 (by decide)).trans <| (V14_of m outs c main_arg8 (by decide)).trans <|
    (V13_of m outs c main_arg8 (by decide)).trans <| (V12_of m outs c main_arg8 (by decide)).trans <|
    (V11_of m outs c main_arg8 (by decide)).trans <| (V10_of m outs c main_arg8 (by decide)).trans <|
    (V9_of m outs c main_arg8 (by decide)).trans <| (V8_of m outs c main_arg8 (by decide)).trans <|
    (V7_of m outs c main_arg8 (by decide)).trans <| (V6_of m outs c main_arg8 (by decide)).trans <|
    (V5_of m outs c main_arg8 (by decide)).trans <| (V4_of m outs c main_arg8 (by decide)).trans <|
    (V3_of m c main_arg8 (by decide)).trans <| (V2_of m c main_arg8 (by decide)).trans <|
    (V1_of m c main_arg8 (by decide)).trans rfl

end Cert.KernelIdeal.Val

end
-- ==== Proof.KV.Compose.lean ====
/-
  The idealized kernel's result array is the network `kNet` of the argument arrays.

  The fold of the buffers' contents through @main gives every array a definite value at every item.  Each kernel
  region's result array is a closed form over the arrays the region finds (a dense layer, a product with the edge-count
  matrix, an update layer on two products, the output column); each array a region finds is either an earlier region's
  result, carried unchanged to where it is read, or what a host stretch cut out of an argument, entry by entry.  Reading
  the closed forms over arrays whose entries are known gives, region by region, the layers of the network: the first
  dense layer on the padded features, then twice (message layer per node, routing by the edge-count matrix, update), then
  the output column; the result vector is its first 10000 rows.
-/
import proofs.«408707_j33406255628688_2_alg».proof.Proof.KI.Fold
import proofs.«408707_j33406255628688_2_alg».proof.Proof.KV.Fin0
import proofs.«408707_j33406255628688_2_alg».proof.Proof.KV.Fin1
import proofs.«408707_j33406255628688_2_alg».proof.Proof.KV.FinJ2
import proofs.«408707_j33406255628688_2_alg».proof.Proof.KV.Fin3
import proofs.«408707_j33406255628688_2_alg».proof.Proof.KV.Fin4
import proofs.«408707_j33406255628688_2_alg».proof.Proof.KV.FinJ5
import proofs.«408707_j33406255628688_2_alg».proof.Proof.KV.Fin6
import proofs.«408707_j33406255628688_2_alg».proof.Proof.KV.Fin7
import proofs.«408707_j33406255628688_2_alg».proof.Proof.KV.Host
import proofs.«408707_j33406255628688_2_alg».proof.Proof.KV.HostAdj
import proofs.«408707_j33406255628688_2_alg».proof.Proof.KV.Carry
import proofs.«408707_j33406255628688_2_alg».proof.Proof.Net
import Idealize.ShloMosaic.Lib.ValueIdx

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

/-! ## The network's layers read off arrays

Program-free: an array is a function on indices; each lemma says that a closed form over arrays whose entries are known
is the corresponding layer of the network. Both message-passing layers use the same four. -/

section Glue

open Cert.Net

/-- A dense layer with a rectifier over arrays: rows `A`, weights `Wt`, the bias as one row `Bt`. -/
theorem dense_read {r k d : ℕ} (h : Fin r → Fin k → EReal) (W : Fin k → Fin d → EReal) (b : Fin d → EReal)
    (A : (⟨2, ![r, k]⟩ : Shape).Idx → EReal) (Wt : (⟨2, ![k, d]⟩ : Shape).Idx → EReal)
    (Bt : (⟨2, ![1, d]⟩ : Shape).Idx → EReal)
    (hA : ∀ p t, A (ix2 p t) = h p t) (hW : ∀ t j, Wt (ix2 t j) = W t j) (hB : ∀ j, Bt (ix2 (0 : Fin 1) j) = b j)
    (p : Fin r) (q : Fin d) :
    max (∑ t : Fin k, A (ix2 p t) * Wt (ix2 t q) + Bt (ix2 (0 : Fin 1) q)) 0 = dense h W b p q := by
  unfold dense
  simp only [hA, hW, hB]

/-- The messages routed through the edge-count matrix, over arrays. -/
theorem aggr_read (P : P) (l : Fin 2) (h : Fin 10240 → Fin 512 → EReal)
    (Adj : (⟨2, ![10240, 10240]⟩ : Shape).Idx → EReal) (M : (⟨2, ![10240, 512]⟩ : Shape).Idx → EReal)
    (hAdj : ∀ d s, Adj (ix2 d s) = adj P d s) (hM : ∀ s j, M (ix2 s j) = dense h (P.msgW l) (P.msgb l) s j)
    (p : Fin 10240) (q : Fin 512) :
    ∑ s : Fin 10240, Adj (ix2 p s) * M (ix2 s q) = kAggr P l h p q := by
  unfold kAggr
  simp only [hAdj, hM]

/-- The update layer on a node's own row and its aggregated row, the update weights given as their two halves. -/
theorem layer_read (P : P) (l : Fin 2) (h : Fin 10240 → Fin 512 → EReal)
    (A G : (⟨2, ![10240, 512]⟩ : Shape).Idx → EReal) (W1 W2 : (⟨2, ![512, 512]⟩ : Shape).Idx → EReal)
    (Bt : (⟨2, ![1, 512]⟩ : Shape).Idx → EReal)
    (hA : ∀ p t, A (ix2 p t) = h p t) (hG : ∀ p t, G (ix2 p t) = kAggr P l h p t)
    (hW1 : ∀ (t j : Fin 512), W1 (ix2 t j) = P.updW l ⟨t.val, by omega⟩ j)
    (hW2 : ∀ (t j : Fin 512), W2 (ix2 t j) = P.updW l ⟨512 + t.val, by omega⟩ j)
    (hB : ∀ j, Bt (ix2 (0 : Fin 1) j) = P.updb l j) (p : Fin 10240) (q : Fin 512) :
    max ((∑ t : Fin 512, A (ix2 p t) * W1 (ix2 t q) + ∑ t : Fin 512, G (ix2 p t) * W2 (ix2 t q))
      + Bt (ix2 (0 : Fin 1) q)) 0 = kLayer P l h p q := by
  unfold kLayer
  simp only [hA, hG, hW1, hW2, hB]

/-- The output layer's one column, over arrays. -/
theorem out_read (P : P) (h : Fin 10240 → Fin 512 → EReal)
    (A : (⟨2, ![10240, 512]⟩ : Shape).Idx → EReal) (Wt : (⟨2, ![512, 1]⟩ : Shape).Idx → EReal)
    (Bt : (⟨2, ![1, 1]⟩ : Shape).Idx → EReal)
    (hA : ∀ p t, A (ix2 p t) = h p t) (hW : ∀ t, Wt (ix2 t (0 : Fin 1)) = P.Wout t)
    (hB : Bt (ix2 (0 : Fin 1) (0 : Fin 1)) = P.bout) (p : Fin 10240) :
    (∑ t : Fin 512, A (ix2 p t) * Wt (ix2 t (0 : Fin 1))) + Bt (ix2 (0 : Fin 1) (0 : Fin 1))
      = (∑ t, h p t * P.Wout t) + P.bout := by
  simp only [hA, hW, hB]

end Glue

/-! ## The network's inputs and layers at core `c` -/

variable (m : (ℓ : Loc nD τ sig) → Buf (Elt Ideal) ℓ) (c : Dev nD)

/-- The network's inputs read off the launch memory of core `c`, the edge table's words given to be node numbers. -/
abbrev netP (hr : ∀ a, 0 ≤ ((m ((c : Thread nD τ).loc main_arg1) : (⟨2, ![2, 160000]⟩ : Shape).Idx → BitVec 32) a).toInt
      ∧ ((m ((c : Thread nD τ).loc main_arg1) : (⟨2, ![2, 160000]⟩ : Shape).Idx → BitVec 32) a).toInt < 10000) : Cert.Net.P :=
  Cert.Net.mkP (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) hr

variable (hr : ∀ a, 0 ≤ ((m ((c : Thread nD τ).loc main_arg1) : (⟨2, ![2, 160000]⟩ : Shape).Idx → BitVec 32) a).toInt
      ∧ ((m ((c : Thread nD τ).loc main_arg1) : (⟨2, ![2, 160000]⟩ : Shape).Idx → BitVec 32) a).toInt < 10000)

/-- The first dense layer on the padded features. -/
abbrev netH0 : Fin 10240 → Fin 512 → EReal :=
  Cert.Net.dense (Cert.Net.xpad (netP m c hr)) (netP m c hr).Win (netP m c hr).bin
/-- After the first message-passing layer. -/
abbrev netH1 : Fin 10240 → Fin 512 → EReal := Cert.Net.kLayer (netP m c hr) 0 (netH0 m c hr)
/-- After the second. -/
abbrev netH2 : Fin 10240 → Fin 512 → EReal := Cert.Net.kLayer (netP m c hr) 1 (netH1 m c hr)

/-! ## Arrays carried to where they are read, in the fold's own contents

The carried arrays are stated for the conditional frame's valuations at any unknowns; at the fold's unknowns those
valuations are the fold, and the unknown at a region's output is the fold's contents there. -/

theorem w5_v23 : W5 m c main_v23 = W4 m c main_v23 := by
  rw [← V5_eq m c]; exact carry_v23_at5 m (outsX m) c
theorem w6_v21 : W6 m c main_v21 = V3 m c main_v21 := by
  rw [← V6_eq m c]; exact carry_v21_at6 m (outsX m) c
theorem w8_v23 : W8 m c main_v23 = W4 m c main_v23 := by
  rw [← V8_eq m c]; exact carry_v23_at8 m (outsX m) c
theorem w8_v31 : W8 m c main_v31 = W7 m c main_v31 := by
  rw [← V8_eq m c]; exact carry_v31_at8 m (outsX m) c
theorem w10_v41 : W10 m c main_v41 = W9 m c main_v41 := by
  rw [← V10_eq m c]; exact carry_v41_at10 m (outsX m) c
theorem w11_v21 : W11 m c main_v21 = V3 m c main_v21 := by
  rw [← V11_eq m c]; exact carry_v21_at11 m (outsX m) c
theorem w13_v41 : W13 m c main_v41 = W9 m c main_v41 := by
  rw [← V13_eq m c]; exact carry_v41_at13 m (outsX m) c
theorem w13_v49 : W13 m c main_v49 = W12 m c main_v49 := by
  rw [← V13_eq m c]; exact carry_v49_at13 m (outsX m) c
theorem w15_v59 : W15 m c main_v59 = W14 m c main_v59 := by
  rw [← V15_eq m c]; exact carry_v59_at15 m (outsX m) c

/-! ## Region by region -/

/-- Region 0 leaves the first dense layer on the padded features. -/
theorem s23 (p : Fin 10240) (q : Fin 512) : W4 m c main_v23 (ix2 p q) = netH0 m c hr p q := by
  have e : W4 m c main_v23 = o23 m c := by unfold W4; exact Function.update_self ..
  rw [e]; unfold o23
  refine (final0 (T3 m) c p q).trans ?_
  refine dense_read _ _ _ _ _ _ ?_ ?_ ?_ p q
  · intro p t; exact host_v4 m c p t
  · intro t j
    show V3 m c main_arg2 (ix2 t j) = _
    rw [carry_arg2_at3 m c]; rfl
  · intro j; exact host_v22 m c 0 j

/-! ### Layer 0 -/

/-- Region 1 leaves layer 0's messages, one row per node. -/
theorem s30 (p : Fin 10240) (q : Fin 512) :
    W6 m c main_v30 (ix2 p q) = Cert.Net.dense (netH0 m c hr) ((netP m c hr).msgW 0) ((netP m c hr).msgb 0) p q := by
  have e : W6 m c main_v30 = o30 m c := by unfold W6; exact Function.update_self ..
  rw [e]; unfold o30
  refine (final1 (T5 m) c p q).trans ?_
  refine dense_read _ _ _ _ _ _ ?_ ?_ ?_ p q
  · intro p t
    show W5 m c main_v23 (ix2 p t) = _
    rw [w5_v23 m c]; exact s23 m c hr p t
  · intro t j
    show W5 m c main_v26 (ix2 t j) = _
    rw [← V5_eq m c]; exact host_v26 m (outsX m) c t j
  · intro j
    show W5 m c main_v29 (ix2 (0 : Fin 1) j) = _
    rw [← V5_eq m c]; exact host_v29 m (outsX m) c 0 j

/-- Region 2 leaves the messages routed through the edge-count matrix. -/
theorem s31 (p : Fin 10240) (q : Fin 512) :
    W7 m c main_v31 (ix2 p q) = Cert.Net.kAggr (netP m c hr) 0 (netH0 m c hr) p q := by
  have e : W7 m c main_v31 = o31 m c := by unfold W7; exact Function.update_self ..
  rw [e]; unfold o31
  refine (final2 (T6 m) c p q).trans ?_
  refine aggr_read _ 0 _ _ _ ?_ ?_ p q
  · intro d s
    show W6 m c main_v21 (ix2 d s) = _
    rw [w6_v21 m c]; exact host_v21 m c hr d s
  · intro s j; exact s30 m c hr s j

/-- Region 3 leaves the rows after layer 0. -/
theorem s41 (p : Fin 10240) (q : Fin 512) : W9 m c main_v41 (ix2 p q) = netH1 m c hr p q := by
  have e : W9 m c main_v41 = o41 m c := by unfold W9; exact Function.update_self ..
  rw [e]; unfold o41
  refine (final3 (T8 m) c p q).trans ?_
  refine layer_read _ 0 _ _ _ _ _ _ ?_ ?_ ?_ ?_ ?_ p q
  · intro p t
    show W8 m c main_v23 (ix2 p t) = _
    rw [w8_v23 m c]; exact s23 m c hr p t
  · intro p t
    show W8 m c main_v31 (ix2 p t) = _
    rw [w8_v31 m c]; exact s31 m c hr p t
  · intro t j
    show W8 m c main_v34 (ix2 t j) = _
    rw [← V8_eq m c]; exact host_v34 m (outsX m) c t j
  · intro t j
    show W8 m c main_v37 (ix2 t j) = _
    rw [← V8_eq m c]; exact host_v37 m (outsX m) c t j
  · intro j
    show W8 m c main_v40 (ix2 (0 : Fin 1) j) = _
    rw [← V8_eq m c]; exact host_v40 m (outsX m) c 0 j

/-! ### Layer 1: the same three regions one layer up -/

/-- Region 4 leaves layer 1's messages. -/
theorem s48 (p : Fin 10240) (q : Fin 512) :
    W11 m c main_v48 (ix2 p q) = Cert.Net.dense (netH1 m c hr) ((netP m c hr).msgW 1) ((netP m c hr).msgb 1) p q := by
  have e : W11 m c main_v48 = o48 m c := by unfold W11; exact Function.update_self ..
  rw [e]; unfold o48
  refine (final4 (T10 m) c p q).trans ?_
  refine dense_read _ _ _ _ _ _ ?_ ?_ ?_ p q
  · intro p t
    show W10 m c main_v41 (ix2 p t) = _
    rw [w10_v41 m c]; exact s41 m c hr p t
  · intro t j
    show W10 m c main_v44 (ix2 t j) = _
    rw [← V10_eq m c]; exact host_v44 m (outsX m) c t j
  · intro j
    show W10 m c main_v47 (ix2 (0 : Fin 1) j) = _
    rw [← V10_eq m c]; exact host_v47 m (outsX m) c 0 j

/-- Region 5 leaves them routed through the edge-count matrix. -/
theorem s49 (p : Fin 10240) (q : Fin 512) :
    W12 m c main_v49 (ix2 p q) = Cert.Net.kAggr (netP m c hr) 1 (netH1 m c hr) p q := by
  have e : W12 m c main_v49 = o49 m c := by unfold W12; exact Function.update_self ..
  rw [e]; unfold o49
  refine (final5 (T11 m) c p q).trans ?_
  refine aggr_read _ 1 _ _ _ ?_ ?_ p q
  · intro d s
    show W11 m c main_v21 (ix2 d s) = _
    rw [w11_v21 m c]; exact host_v21 m c hr d s
  · intro s j; exact s48 m c hr s j

/-- Region 6 leaves the rows after layer 1. -/
theorem s59 (p : Fin 10240) (q : Fin 512) : W14 m c main_v59 (ix2 p q) = netH2 m c hr p q := by
  have e : W14 m c main_v59 = o59 m c := by unfold W14; exact Function.update_self ..
  rw [e]; unfold o59
  refine (final6 (T13 m) c p q).trans ?_
  refine layer_read _ 1 _ _ _ _ _ _ ?_ ?_ ?_ ?_ ?_ p q
  · intro p t
    show W13 m c main_v41 (ix2 p t) = _
    rw [w13_v41 m c]; exact s41 m c hr p t
  · intro p t
    show W13 m c main_v49 (ix2 p t) = _
    rw [w13_v49 m c]; exact s49 m c hr p t
  · intro t j
    show W13 m c main_v52 (ix2 t j) = _
    rw [← V13_eq m c]; exact host_v52 m (outsX m) c t j
  · intro t j
    show W13 m c main_v55 (ix2 t j) = _
    rw [← V13_eq m c]; exact host_v55 m (outsX m) c t j
  · intro j
    show W13 m c main_v58 (ix2 (0 : Fin 1) j) = _
    rw [← V13_eq m c]; exact host_v58 m (outsX m) c 0 j

/-! ### The output column and the result vector -/

/-- Region 7 leaves the output layer's one column on the padded rows. -/
theorem s61 (p : Fin 10240) :
    W16 m c main_v61 (ix2 p (0 : Fin 1)) = (∑ t, netH2 m c hr p t * (netP m c hr).Wout t) + (netP m c hr).bout := by
  have e : W16 m c main_v61 = o61 m c := by unfold W16; exact Function.update_self ..
  rw [e]; unfold o61
  refine (final7 (T15 m) c p).trans ?_
  refine out_read _ _ _ _ _ ?_ ?_ ?_ p
  · intro p t
    show W15 m c main_v59 (ix2 p t) = _
    rw [w15_v59 m c]; exact s59 m c hr p t
  · intro t
    show W15 m c main_arg8 (ix2 t (0 : Fin 1)) = _
    rw [← V15_eq m c, carry_arg8_at15 m (outsX m) c]; rfl
  · show W15 m c main_v60 (ix2 (0 : Fin 1) (0 : Fin 1)) = _
    rw [← V15_eq m c]; exact host_v60 m (outsX m) c 0 0

/-- The idealized kernel's result vector is the network of the argument arrays. -/
theorem kernel_value (q : Fin 10000) :
    (W17 m c main_v63 : S10000.Idx → EReal) (ix1 q) = Cert.Net.kNet (netP m c hr) q := by
  rw [← V17_eq m c]
  refine (host_v63 m (outsX m) c q).trans ?_
  show V16 m (outsX m) c main_v61 (ix2 (Cert.Net.up q) (0 : Fin 1)) = _
  rw [V16_eq m c]
  exact s61 m c hr (Cert.Net.up q)

end Cert.KernelIdeal.Val

end
-- ==== Proof.RefValue.Gather.lean ====
/-
  The reference's gather of rows and its concatenation of two row blocks, read at an index.

  The gather takes, for every edge, the row of the operand named by the edge's start index: the start is read signed and
  clamped into the operand, and under the range hypothesis the clamp is the identity.  The concatenation along the column
  axis reads its first piece at a column below 512 and its second piece, 512 less, from there on.
-/
import proofs.«408707_j33406255628688_2_alg».proof.ReferenceIdeal
import Idealize.ShloMosaic.Lib.ValueIdx
import Idealize.ShloMosaic.Lib.Pipeline.Value

noncomputable section

namespace Cert.ReferenceIdeal.RefValue

open Cert.ReferenceIdeal Idealize.ShloMosaic Idealize.ShloMosaic.ValueIdx

variable [Facts₀]
open Facts₀

/-- Row `e`, column `j` of the gathered array is the operand's row at the start index of `e`, column `j`, when that
    start index, read signed, is a row number. -/
theorem gather_row {α : Type} {w : Nat} (x : S10000x512.Idx → α) (idx : IVec S160000x1 w) (e : Fin 160000) (j : Fin 512)
    (h0 : 0 ≤ (idx (ix2 e (0 : Fin 1))).toInt) (hlt : (idx (ix2 e (0 : Fin 1))).toInt.toNat < 10000) :
    Host.gather gather_S10000x512_S160000x1_S160000x512_1_0_n_n_0_1_1512 x idx (ix2 e j) = x (ix2 (⟨(idx (ix2 e (0 : Fin 1))).toInt.toNat, hlt⟩ : Fin 10000) j) := by
  unfold Host.gather
  congr 1
  funext a
  refine Fin.ext ?_
  match a with
  | ⟨0, _⟩ =>
    show gather_S10000x512_S160000x1_S160000x512_1_0_n_n_0_1_1512.start (ix2 e j) idx 0 + gather_S10000x512_S160000x1_S160000x512_1_0_n_n_0_1_1512.batchCoord (ix2 e j) 0 + gather_S10000x512_S160000x1_S160000x512_1_0_n_n_0_1_1512.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S10000x512.rank) ∈ gather_S10000x512_S160000x1_S160000x512_1_0_n_n_0_1_1512.startIndexMap from List.mem_singleton.mpr rfl)]
    have hsi : gather_S10000x512_S160000x1_S160000x512_1_0_n_n_0_1_1512.siIdx (ix2 e j) ⟨List.idxOf (0 : Fin S10000x512.rank) gather_S10000x512_S160000x1_S160000x512_1_0_n_n_0_1_1512.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    show min (idx (ix2 e (0 : Fin 1))).toInt.toNat (10000 - 1) = (idx (ix2 e (0 : Fin 1))).toInt.toNat
    omega
  | ⟨1, _⟩ =>
    show gather_S10000x512_S160000x1_S160000x512_1_0_n_n_0_1_1512.start (ix2 e j) idx 1 + gather_S10000x512_S160000x1_S160000x512_1_0_n_n_0_1_1512.batchCoord (ix2 e j) 1 + gather_S10000x512_S160000x1_S160000x512_1_0_n_n_0_1_1512.offCoord (ix2 e j) 1 = j.val
    have hs : gather_S10000x512_S160000x1_S160000x512_1_0_n_n_0_1_1512.start (ix2 e j) idx 1 = 0 := by
      unfold GatherDims.start
      rw [dif_neg (show ¬ (1 : Fin S10000x512.rank) ∈ gather_S10000x512_S160000x1_S160000x512_1_0_n_n_0_1_1512.startIndexMap from
        (show ¬ (1 : Fin S10000x512.rank) ∈ ([0] : List (Fin S10000x512.rank)) by decide))]
    have ho : gather_S10000x512_S160000x1_S160000x512_1_0_n_n_0_1_1512.offCoord (ix2 e j) 1 = j.val := by
      unfold GatherDims.offCoord
      rw [dif_pos (show (1 : Fin S10000x512.rank) ∈ gather_S10000x512_S160000x1_S160000x512_1_0_n_n_0_1_1512.sKept from
        (show (1 : Fin S10000x512.rank) ∈ S10000x512.kept (([0] : List (Fin S10000x512.rank)) ++ []) by decide))]
      rfl
    rw [hs, GatherDims.batchCoord_eq_zero _ _ _ List.not_mem_nil, ho]
    omega

/-- A column below 512 of the concatenation is that column of the first piece. -/
theorem cat_left {α : Type} (a b : S10000x512.Idx → α) (i : Fin 10000) (t : Fin 1024) (ht : t.val < 512) :
    concatenate S10000x1024 1 [⟨S10000x512, a⟩, ⟨S10000x512, b⟩] concatenates_S10000x512_S10000x512_S10000x1024_d1 (ix2 i t)
      = a (ix2 i (⟨t.val, ht⟩ : Fin 512)) :=
  concatenate_pair_apply_left 1 a b concatenates_S10000x512_S10000x512_S10000x1024_d1 _ rfl _ (fun c => by
    match c with
    | ⟨0, _⟩ => rfl
    | ⟨1, _⟩ => rfl)

/-- A column from 512 on of the concatenation is the second piece's column 512 less. -/
theorem cat_right {α : Type} (a b : S10000x512.Idx → α) (i : Fin 10000) (t : Fin 1024) (ht : ¬ t.val < 512) :
    concatenate S10000x1024 1 [⟨S10000x512, a⟩, ⟨S10000x512, b⟩] concatenates_S10000x512_S10000x512_S10000x1024_d1 (ix2 i t)
      = b (ix2 i (⟨t.val - 512, by omega⟩ : Fin 512)) :=
  concatenate_pair_apply_right 1 a b concatenates_S10000x512_S10000x512_S10000x1024_d1 _ rfl rfl _
    (fun c hc => by
      match c with
      | ⟨0, _⟩ => rfl
      | ⟨1, _⟩ => exact absurd rfl hc)
    (by show t.val - 512 + 512 = t.val; omega)

end Cert.ReferenceIdeal.RefValue

end
-- ==== Proof.RefValue.Scatter.lean ====
/-
  The reference's accumulating scatter of rows, read at an index.

  Every update row `e` is added into the operand's row named by its scatter index; that index is read signed and is not
  clamped: a row outside the operand is dropped.  Under the range hypothesis no row is dropped, and element `(d, j)` of the
  result is the operand's plus the sum, over the rows `e` whose index is `d`, of the updates' element `(e, j)`.
-/
import proofs.«408707_j33406255628688_2_alg».proof.ReferenceIdeal
import Idealize.ShloMosaic.Lib.ValueIdx

noncomputable section

open scoped BigOperators

namespace Cert.ReferenceIdeal.RefValue

open Cert.ReferenceIdeal Idealize.ShloMosaic Idealize.ShloMosaic.ValueIdx

variable [Facts₀]
open Facts₀

/-- On the row axis the window starts at the update row's scatter index, read signed. -/
theorem scatter_start_row {w : Nat} (idx : IVec S160000x1 w) (u : S160000x512.Idx) (a : Fin S10000x512.rank) (ha : a.val = 0) :
    scatter_S10000x512_S160000x1_S160000x512_1_0_0_1.start u idx a = (idx (ix2 (u 0) (0 : Fin 1))).toInt := by
  obtain rfl : a = 0 := Fin.ext ha
  unfold ScatterDims.start
  rw [dif_pos (show (0 : Fin S10000x512.rank) ∈ scatter_S10000x512_S160000x1_S160000x512_1_0_0_1.scatterDimsToOperandDims from List.mem_singleton.mpr rfl)]
  have hsi : scatter_S10000x512_S160000x1_S160000x512_1_0_0_1.siIdx u ⟨List.idxOf (0 : Fin S10000x512.rank) scatter_S10000x512_S160000x1_S160000x512_1_0_0_1.scatterDimsToOperandDims,
      List.idxOf_lt_length_iff.2 (List.mem_singleton.mpr rfl)⟩ = ix2 (u 0) (0 : Fin 1) := by
    funext b; refine Fin.ext ?_
    match b with
    | ⟨0, _⟩ => rfl
    | ⟨1, _⟩ => rfl
  rw [hsi]
  rfl

/-- On the column axis it starts at zero. -/
theorem scatter_start_col {w : Nat} (idx : IVec S160000x1 w) (u : S160000x512.Idx) (a : Fin S10000x512.rank) (ha : a.val = 1) :
    scatter_S10000x512_S160000x1_S160000x512_1_0_0_1.start u idx a = 0 := by
  obtain rfl : a = 1 := Fin.ext ha
  unfold ScatterDims.start
  rw [dif_neg (show ¬ (1 : Fin S10000x512.rank) ∈ scatter_S10000x512_S160000x1_S160000x512_1_0_0_1.scatterDimsToOperandDims from
    (show ¬ (1 : Fin S10000x512.rank) ∈ ([0] : List (Fin S10000x512.rank)) by decide))]

/-- The row axis is inserted: no window coordinate. -/
theorem scatter_window_row (u : S160000x512.Idx) (a : Fin S10000x512.rank) (ha : a.val = 0) : scatter_S10000x512_S160000x1_S160000x512_1_0_0_1.window u a = 0 := by
  obtain rfl : a = 0 := Fin.ext ha
  unfold ScatterDims.window
  rw [dif_neg (show ¬ (0 : Fin S10000x512.rank) ∈ scatter_S10000x512_S160000x1_S160000x512_1_0_0_1.sKept from
    (show ¬ (0 : Fin S10000x512.rank) ∈ S10000x512.kept ([0] : List (Fin S10000x512.rank)) by decide))]

/-- The column axis carries the update's column. -/
theorem scatter_window_col (u : S160000x512.Idx) (a : Fin S10000x512.rank) (ha : a.val = 1) : scatter_S10000x512_S160000x1_S160000x512_1_0_0_1.window u a = (u 1).val := by
  obtain rfl : a = 1 := Fin.ext ha
  unfold ScatterDims.window
  rw [dif_pos (show (1 : Fin S10000x512.rank) ∈ scatter_S10000x512_S160000x1_S160000x512_1_0_0_1.sKept from
    (show (1 : Fin S10000x512.rank) ∈ S10000x512.kept ([0] : List (Fin S10000x512.rank)) by decide))]
  rfl

/-- Where an update element lands, when its row's scatter index is a row number: that row, the same column. -/
theorem scatter_resultIdx {w : Nat} (idx : IVec S160000x1 w) (u : S160000x512.Idx) (i : S10000x512.Idx)
    (h0 : 0 ≤ (idx (ix2 (u 0) (0 : Fin 1))).toInt) (h1 : (idx (ix2 (u 0) (0 : Fin 1))).toInt < 10000) :
    scatter_S10000x512_S160000x1_S160000x512_1_0_0_1.resultIdx? u idx = some i ↔ (idx (ix2 (u 0) (0 : Fin 1))).toInt.toNat = (i 0).val ∧ (u 1).val = (i 1).val := by
  have hall : ∀ a, 0 ≤ scatter_S10000x512_S160000x1_S160000x512_1_0_0_1.start u idx a + scatter_S10000x512_S160000x1_S160000x512_1_0_0_1.window u a ∧ scatter_S10000x512_S160000x1_S160000x512_1_0_0_1.start u idx a + scatter_S10000x512_S160000x1_S160000x512_1_0_0_1.window u a < S10000x512.size a := by
    intro a
    match a with
    | ⟨0, _⟩ =>
      rw [scatter_start_row idx u _ rfl, scatter_window_row u _ rfl]
      show 0 ≤ _ + ((0 : ℕ) : ℤ) ∧ _ + ((0 : ℕ) : ℤ) < ((10000 : ℕ) : ℤ)
      omega
    | ⟨1, _⟩ =>
      rw [scatter_start_col idx u _ rfl, scatter_window_col u _ rfl]
      have := idx2_lt1 u
      show 0 ≤ (0 : ℤ) + (((u 1).val : ℕ) : ℤ) ∧ (0 : ℤ) + (((u 1).val : ℕ) : ℤ) < ((512 : ℕ) : ℤ)
      omega
  unfold ScatterDims.resultIdx?
  rw [dif_pos hall, Option.some.injEq]
  constructor
  · intro h
    have e0 : (scatter_S10000x512_S160000x1_S160000x512_1_0_0_1.start u idx ⟨0, by decide⟩ + scatter_S10000x512_S160000x1_S160000x512_1_0_0_1.window u ⟨0, by decide⟩).toNat = (i 0).val := congrArg (fun f => (f 0).val) h
    have e1 : (scatter_S10000x512_S160000x1_S160000x512_1_0_0_1.start u idx ⟨1, by decide⟩ + scatter_S10000x512_S160000x1_S160000x512_1_0_0_1.window u ⟨1, by decide⟩).toNat = (i 1).val := congrArg (fun f => (f 1).val) h
    rw [scatter_start_row idx u _ rfl, scatter_window_row u _ rfl] at e0
    rw [scatter_start_col idx u _ rfl, scatter_window_col u _ rfl] at e1
    constructor
    · rw [← e0]; simp
    · rw [← e1]; simp
  · rintro ⟨e0, e1⟩
    funext a; refine Fin.ext ?_
    match a with
    | ⟨0, _⟩ =>
      show (scatter_S10000x512_S160000x1_S160000x512_1_0_0_1.start u idx ⟨0, by decide⟩ + scatter_S10000x512_S160000x1_S160000x512_1_0_0_1.window u ⟨0, by decide⟩).toNat = (i 0).val
      rw [scatter_start_row idx u _ rfl, scatter_window_row u _ rfl, ← e0]; simp
    | ⟨1, _⟩ =>
      show (scatter_S10000x512_S160000x1_S160000x512_1_0_0_1.start u idx ⟨1, by decide⟩ + scatter_S10000x512_S160000x1_S160000x512_1_0_0_1.window u ⟨1, by decide⟩).toNat = (i 1).val
      rw [scatter_start_col idx u _ rfl, scatter_window_col u _ rfl, ← e1]; simp

/-- THE SCATTER READ AT `(d, j)`: the operand there plus the updates' column `j` summed over the rows whose scatter index
    is `d` (`dst` names those indices as row numbers). -/
theorem scatter_row {w : Nat} (x : S10000x512.Idx → EReal) (idx : IVec S160000x1 w) (upd : S160000x512.Idx → EReal)
    (hr : ∀ e : Fin 160000, 0 ≤ (idx (ix2 e (0 : Fin 1))).toInt ∧ (idx (ix2 e (0 : Fin 1))).toInt < 10000)
    (dst : Fin 160000 → Fin 10000) (hdst : ∀ e, (dst e).val = (idx (ix2 e (0 : Fin 1))).toInt.toNat)
    (d : Fin 10000) (j : Fin 512) :
    Ideal.hostScatterAdd scatter_S10000x512_S160000x1_S160000x512_1_0_0_1 x idx upd (ix2 d j)
      = x (ix2 d j) + ∑ e ∈ Finset.univ.filter (fun e : Fin 160000 => dst e = d), upd (ix2 e j) := by
  unfold Ideal.hostScatterAdd
  refine congrArg (fun z => x (ix2 d j) + z) ?_
  have key : ∀ u : S160000x512.Idx, scatter_S10000x512_S160000x1_S160000x512_1_0_0_1.resultIdx? u idx = some (ix2 d j) ↔ dst (u 0) = d ∧ (u 1).val = j.val := by
    intro u
    rw [scatter_resultIdx idx u (ix2 d j) (hr (u 0)).1 (hr (u 0)).2]
    constructor
    · rintro ⟨a, b⟩; exact ⟨Fin.ext ((hdst (u 0)).trans a), b⟩
    · rintro ⟨a, b⟩; exact ⟨(hdst (u 0)).symm.trans (congrArg Fin.val a), b⟩
  have back : ∀ u : S160000x512.Idx, (u 1).val = j.val → ix2 (u 0) j = u := by
    intro u hu
    funext a
    match a with
    | ⟨0, _⟩ => rfl
    | ⟨1, _⟩ => exact (Fin.ext hu).symm
  refine Finset.sum_bij' (fun u _ => u 0) (fun e _ => ix2 e j) ?_ ?_ ?_ ?_ ?_
  · intro u hu
    exact Finset.mem_filter.2 ⟨Finset.mem_univ _, ((key u).1 (Finset.mem_filter.1 hu).2).1⟩
  · intro e he
    exact Finset.mem_filter.2 ⟨Finset.mem_univ _, (key (ix2 e j)).2 ⟨(Finset.mem_filter.1 he).2, rfl⟩⟩
  · intro u hu
    exact back u ((key u).1 (Finset.mem_filter.1 hu).2).2
  · intro e he
    rfl
  · intro u hu
    exact congrArg upd (back u ((key u).1 (Finset.mem_filter.1 hu).2).2).symm

end Cert.ReferenceIdeal.RefValue

end
-- ==== Proof.RefValue.lean ====
/-
  What the reference computes, read off its run one operation at a time, is the network `Cert.Net.rNet` of the argument arrays.

  The run's term is the last stage (`val_main_v71_eq`); every stage is read at an index from its operands at an index.  The
  gathers read the source node's row (the index correction `select (src < 0) (src + 10000) src` is `src`, and the clamp is
  the identity, for an index in range); the scatters add every edge's message into its destination's row (no edge is
  dropped, for an index in range); the concatenations put a node's row before its aggregated row.  Each of the two layers
  is then `Net.rLayer` of the rows before it, the first stage `Net.dense` of the features, and the last the output sum.
-/
import proofs.«408707_j33406255628688_2_alg».proof.Proof.Gen.ReferenceIdeal.Run
import proofs.«408707_j33406255628688_2_alg».proof.Proof.Gen.ReferenceIdeal.Read
import proofs.«408707_j33406255628688_2_alg».proof.Proof.Net
import proofs.«408707_j33406255628688_2_alg».proof.Proof.RefValue.Gather
import proofs.«408707_j33406255628688_2_alg».proof.Proof.RefValue.Scatter

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-! ## Words and the two index-driven reads, in the form the stages meet them -/

/-- A word that is not negative is not below zero: the select on that comparison keeps its last operand. -/
theorem select_slt_zero {α : Type} (a : BitVec 32) (h : 0 ≤ a.toInt) (p q : α) :
    Scalar.select (IntOp.cmpi .slt a 0#32) p q = q := by
  have hs : a.slt 0#32 = false := by
    have h0 : (0#32 : BitVec 32).toInt = 0 := by decide
    simp only [BitVec.slt, h0]
    exact decide_eq_false (by omega)
  have hc : IntOp.cmpi .slt a 0#32 = 0#1 := by
    show BitVec.ofBool (a.slt 0#32) = 0#1
    rw [hs]; rfl
  rw [hc]
  exact select_zero p q

/-- The gather at `(e, k)` is the operand's row `r`, when `e`'s start index is the row number `r`. -/
theorem gather_at (x : S10000x512.Idx → EReal) (idx : IVec S160000x1 32) (e : Fin 160000) (k : Fin 512) (r : Fin 10000)
    (h0 : 0 ≤ (idx (ix2 e (0 : Fin 1))).toInt) (hrow : (idx (ix2 e (0 : Fin 1))).toInt.toNat = r.val) :
    Host.gather gather_S10000x512_S160000x1_S160000x512_1_0_n_n_0_1_1512 x idx (ix2 e k) = x (ix2 r k) :=
  (gather_row x idx e k h0 (hrow ▸ r.isLt)).trans (congrArg (fun r' : Fin 10000 => x (ix2 r' k)) (Fin.ext hrow))

/-- The network's inputs, read off the argument arrays. -/
abbrev pp (x0 : S10000x256.Idx → EReal) (x1 : S2x160000.Idx → BitVec 32) (x2 : S256x512.Idx → EReal) (x3 : S512.Idx → EReal)
    (x4 : S2x512x512.Idx → EReal) (x5 : S2x512.Idx → EReal) (x6 : S2x1024x512.Idx → EReal) (x7 : S2x512.Idx → EReal)
    (x8 : S512x1.Idx → EReal) (x9 : S1.Idx → EReal) (hr : ∀ a, 0 ≤ (x1 a).toInt ∧ (x1 a).toInt < 10000) : Net.P :=
  Net.mkP x0 x1 x2 x3 x4 x5 x6 x7 x8 x9 hr

/-! ## The input layer: operations %4 to %8 -/

theorem dense0 (x0 : S10000x256.Idx → EReal) (x1 : S2x160000.Idx → BitVec 32) (x2 : S256x512.Idx → EReal) (x3 : S512.Idx → EReal)
    (x4 : S2x512x512.Idx → EReal) (x5 : S2x512.Idx → EReal) (x6 : S2x1024x512.Idx → EReal) (x7 : S2x512.Idx → EReal)
    (x8 : S512x1.Idx → EReal) (x9 : S1.Idx → EReal) (hr : ∀ a, 0 ≤ (x1 a).toInt ∧ (x1 a).toInt < 10000) (i : Fin 10000) (j : Fin 512) :
    val_main_v8 (F := Ideal) x0 x2 x3 (ix2 i j) = Net.dense (pp x0 x1 x2 x3 x4 x5 x6 x7 x8 x9 hr).x (pp x0 x1 x2 x3 x4 x5 x6 x7 x8 x9 hr).Win (pp x0 x1 x2 x3 x4 x5 x6 x7 x8 x9 hr).bin i j := by
  rw [val_main_v8_apply, val_main_v7_apply, val_main_v4_apply, val_main_v6_apply, val_main_v5_apply,
    val_main_call0_v0_apply, val_main_call0_cst_apply]
  have hl : ∀ k : Fin 256, lidx_main_v4 (ix2 i j) k = ix2 i k := fun k => funext fun a => by match a with | ⟨0, _⟩ => rfl | ⟨1, _⟩ => rfl
  have hw : ∀ k : Fin 256, ridx_main_v4 (ix2 i j) k = ix2 k j := fun k => funext fun a => by match a with | ⟨0, _⟩ => rfl | ⟨1, _⟩ => rfl
  have hb : idx_main_v5 (idx_main_v6 (ix2 i j)) = ix1 j := funext fun a => by match a with | ⟨0, _⟩ => rfl
  simp only [hl, hw]
  rw [hb, Ideal.ofBits_def, Ideal.ofBits_zero_f32]
  rfl

/-! ## Layer 0: operations %9 to %37 -/

/-- The gather's start indices are the edges' sources: the "negative index" correction selects the index itself. -/
theorem src0 (x1 : S2x160000.Idx → BitVec 32) (hr : ∀ a, 0 ≤ (x1 a).toInt ∧ (x1 a).toInt < 10000) (e : Fin 160000) :
    val_main_v14 (F := Ideal) x1 (ix2 e (0 : Fin 1)) = x1 (ix2 (0 : Fin 2) e) := by
  rw [val_main_v14_apply, val_main_v13_apply, val_main_v10_apply, val_main_v9_apply, val_main_c_apply, val_main_v1_apply, val_main_v0_apply]
  have hi : idx_main_v0 (idx_main_v1 (idx_main_v14 (ix2 e (0 : Fin 1)))) = ix2 (0 : Fin 2) e := funext fun a => Fin.ext (by
    match a with
    | ⟨0, _⟩ => rfl
    | ⟨1, _⟩ => show e.val % 160000 = e.val; omega)
  rw [hi]
  exact select_slt_zero _ (hr _).1 _ _

/-- The scatter's indices are the edges' destinations. -/
theorem dst0 (x1 : S2x160000.Idx → BitVec 32) (e : Fin 160000) :
    val_main_v26 (F := Ideal) x1 (ix2 e (0 : Fin 1)) = x1 (ix2 (1 : Fin 2) e) := by
  rw [val_main_v26_apply, val_main_v3_apply, val_main_v2_apply]
  exact congrArg x1 (funext fun a => Fin.ext (by
    match a with
    | ⟨0, _⟩ => rfl
    | ⟨1, _⟩ => show e.val % 160000 = e.val; omega))

/-- The message of an edge: the dense layer on its source's row. -/
theorem msg0 (x0 : S10000x256.Idx → EReal) (x1 : S2x160000.Idx → BitVec 32) (x2 : S256x512.Idx → EReal) (x3 : S512.Idx → EReal)
    (x4 : S2x512x512.Idx → EReal) (x5 : S2x512.Idx → EReal) (x6 : S2x1024x512.Idx → EReal) (x7 : S2x512.Idx → EReal)
    (x8 : S512x1.Idx → EReal) (x9 : S1.Idx → EReal) (hr : ∀ a, 0 ≤ (x1 a).toInt ∧ (x1 a).toInt < 10000) (e : Fin 160000) (t : Fin 512) :
    val_main_v24 (F := Ideal) x0 x1 x2 x3 x4 x5 (ix2 e t) = Net.rMsg (pp x0 x1 x2 x3 x4 x5 x6 x7 x8 x9 hr) (0 : Fin 2) (fun i k => val_main_v8 (F := Ideal) x0 x2 x3 (ix2 i k)) e t := by
  rw [val_main_v24_apply, val_main_v23_apply, val_main_v18_apply, val_main_v22_apply, val_main_v21_apply, val_main_v20_apply, val_main_v19_apply,
    val_main_call1_v0_apply, val_main_call1_cst_apply]
  have hl : ∀ k : Fin 512, val_main_v15 (F := Ideal) x0 x1 x2 x3 (lidx_main_v18 (ix2 e t) k) = val_main_v8 (F := Ideal) x0 x2 x3 (ix2 ((pp x0 x1 x2 x3 x4 x5 x6 x7 x8 x9 hr).src e) k) := fun k => by
    have hk : lidx_main_v18 (ix2 e t) k = ix2 e k := funext fun a => by match a with | ⟨0, _⟩ => rfl | ⟨1, _⟩ => rfl
    rw [hk]
    exact gather_at (val_main_v8 (F := Ideal) x0 x2 x3) (val_main_v14 (F := Ideal) x1) e k ((pp x0 x1 x2 x3 x4 x5 x6 x7 x8 x9 hr).src e)
      (by rw [src0 x1 hr e]; exact (hr _).1) (congrArg (fun w : BitVec 32 => w.toInt.toNat) (src0 x1 hr e))
  have hw : ∀ k : Fin 512, val_main_v17 (F := Ideal) x4 (ridx_main_v18 (ix2 e t) k) = x4 (ix3 (0 : Fin 2) k t) := fun k => by
    rw [val_main_v17_apply, val_main_v16_apply]
    exact congrArg x4 (funext fun a => Fin.ext (by
      have := k.isLt; have := t.isLt
      match a with
      | ⟨0, _⟩ => rfl
      | ⟨1, _⟩ => show (k.val * 512 + t.val) / 512 % 512 = k.val; omega
      | ⟨2, _⟩ => show (k.val * 512 + t.val) % 512 = t.val; omega))
  have hb : idx_main_v19 (idx_main_v20 (idx_main_v21 (idx_main_v22 (ix2 e t)))) = ix2 (0 : Fin 2) t := funext fun a => Fin.ext (by
    have := t.isLt
    match a with
    | ⟨0, _⟩ => rfl
    | ⟨1, _⟩ => show t.val % 512 = t.val; omega)
  simp only [hl, hw]
  rw [hb, Ideal.ofBits_def, Ideal.ofBits_zero_f32]
  rfl

/-- The aggregated row of a node: its incoming edges' messages, added from zero. -/
theorem aggr0 (x0 : S10000x256.Idx → EReal) (x1 : S2x160000.Idx → BitVec 32) (x2 : S256x512.Idx → EReal) (x3 : S512.Idx → EReal)
    (x4 : S2x512x512.Idx → EReal) (x5 : S2x512.Idx → EReal) (x6 : S2x1024x512.Idx → EReal) (x7 : S2x512.Idx → EReal)
    (x8 : S512x1.Idx → EReal) (x9 : S1.Idx → EReal) (hr : ∀ a, 0 ≤ (x1 a).toInt ∧ (x1 a).toInt < 10000) (d : Fin 10000) (t : Fin 512) :
    val_main_v27 (F := Ideal) x0 x1 x2 x3 x4 x5 (ix2 d t) = Net.rAggr (pp x0 x1 x2 x3 x4 x5 x6 x7 x8 x9 hr) (0 : Fin 2) (fun i k => val_main_v8 (F := Ideal) x0 x2 x3 (ix2 i k)) d t := by
  show Ideal.hostScatterAdd scatter_S10000x512_S160000x1_S160000x512_1_0_0_1 (val_main_v25 (F := Ideal)) (val_main_v26 (F := Ideal) x1) (val_main_v24 (F := Ideal) x0 x1 x2 x3 x4 x5) (ix2 d t) = _
  rw [scatter_row (val_main_v25 (F := Ideal)) (val_main_v26 (F := Ideal) x1) (val_main_v24 (F := Ideal) x0 x1 x2 x3 x4 x5)
      (fun e => by rw [dst0 x1 e]; exact hr _) (pp x0 x1 x2 x3 x4 x5 x6 x7 x8 x9 hr).dst
      (fun e => (congrArg (fun w : BitVec 32 => w.toInt.toNat) (dst0 x1 e)).symm) d t,
    val_main_v25_apply, val_main_cst_apply, Ideal.ofBits_def, Ideal.ofBits_zero_f32]
  simp only [msg0 x0 x1 x2 x3 x4 x5 x6 x7 x8 x9 hr]
  rfl

/-- A node's own row followed by its aggregated row. -/
theorem cat0 (x0 : S10000x256.Idx → EReal) (x1 : S2x160000.Idx → BitVec 32) (x2 : S256x512.Idx → EReal) (x3 : S512.Idx → EReal)
    (x4 : S2x512x512.Idx → EReal) (x5 : S2x512.Idx → EReal) (x6 : S2x1024x512.Idx → EReal) (x7 : S2x512.Idx → EReal)
    (x8 : S512x1.Idx → EReal) (x9 : S1.Idx → EReal) (hr : ∀ a, 0 ≤ (x1 a).toInt ∧ (x1 a).toInt < 10000) (i : Fin 10000) (k : Fin 1024) :
    val_main_v28 (F := Ideal) x0 x1 x2 x3 x4 x5 (ix2 i k) = Net.cat (fun i k => val_main_v8 (F := Ideal) x0 x2 x3 (ix2 i k)) (Net.rAggr (pp x0 x1 x2 x3 x4 x5 x6 x7 x8 x9 hr) (0 : Fin 2) (fun i k => val_main_v8 (F := Ideal) x0 x2 x3 (ix2 i k))) i k := by
  show concatenate S10000x1024 1 [⟨S10000x512, val_main_v8 (F := Ideal) x0 x2 x3⟩, ⟨S10000x512, val_main_v27 (F := Ideal) x0 x1 x2 x3 x4 x5⟩] _ (ix2 i k) = _
  unfold Net.cat
  by_cases hk : k.val < 512
  · rw [cat_left _ _ i k hk, dif_pos hk]
  · rw [cat_right _ _ i k hk, dif_neg hk, aggr0 x0 x1 x2 x3 x4 x5 x6 x7 x8 x9 hr]

/-- The layer: the dense update on the concatenation. -/
theorem layer0 (x0 : S10000x256.Idx → EReal) (x1 : S2x160000.Idx → BitVec 32) (x2 : S256x512.Idx → EReal) (x3 : S512.Idx → EReal)
    (x4 : S2x512x512.Idx → EReal) (x5 : S2x512.Idx → EReal) (x6 : S2x1024x512.Idx → EReal) (x7 : S2x512.Idx → EReal)
    (x8 : S512x1.Idx → EReal) (x9 : S1.Idx → EReal) (hr : ∀ a, 0 ≤ (x1 a).toInt ∧ (x1 a).toInt < 10000) (i : Fin 10000) (j : Fin 512) :
    val_main_v37 (F := Ideal) x0 x1 x2 x3 x4 x5 x6 x7 (ix2 i j) = Net.rLayer (pp x0 x1 x2 x3 x4 x5 x6 x7 x8 x9 hr) (0 : Fin 2) (fun i k => val_main_v8 (F := Ideal) x0 x2 x3 (ix2 i k)) i j := by
  rw [val_main_v37_apply, val_main_v36_apply, val_main_v31_apply, val_main_v35_apply, val_main_v34_apply, val_main_v33_apply, val_main_v32_apply,
    val_main_call2_v0_apply, val_main_call2_cst_apply]
  have hl : ∀ k : Fin 1024, val_main_v28 (F := Ideal) x0 x1 x2 x3 x4 x5 (lidx_main_v31 (ix2 i j) k)
      = Net.cat (fun i k => val_main_v8 (F := Ideal) x0 x2 x3 (ix2 i k)) (Net.rAggr (pp x0 x1 x2 x3 x4 x5 x6 x7 x8 x9 hr) (0 : Fin 2) (fun i k => val_main_v8 (F := Ideal) x0 x2 x3 (ix2 i k))) i k := fun k => by
    have hk : lidx_main_v31 (ix2 i j) k = ix2 i k := funext fun a => by match a with | ⟨0, _⟩ => rfl | ⟨1, _⟩ => rfl
    rw [hk, cat0 x0 x1 x2 x3 x4 x5 x6 x7 x8 x9 hr]
  have hw : ∀ k : Fin 1024, val_main_v30 (F := Ideal) x6 (ridx_main_v31 (ix2 i j) k) = x6 (ix3 (0 : Fin 2) k j) := fun k => by
    rw [val_main_v30_apply, val_main_v29_apply]
    exact congrArg x6 (funext fun a => Fin.ext (by
      have := k.isLt; have := j.isLt
      match a with
      | ⟨0, _⟩ => rfl
      | ⟨1, _⟩ => show (k.val * 512 + j.val) / 512 % 1024 = k.val; omega
      | ⟨2, _⟩ => show (k.val * 512 + j.val) % 512 = j.val; omega))
  have hb : idx_main_v32 (idx_main_v33 (idx_main_v34 (idx_main_v35 (ix2 i j)))) = ix2 (0 : Fin 2) j := funext fun a => Fin.ext (by
    have := j.isLt
    match a with
    | ⟨0, _⟩ => rfl
    | ⟨1, _⟩ => show j.val % 512 = j.val; omega)
  simp only [hl, hw]
  rw [hb, Ideal.ofBits_def, Ideal.ofBits_zero_f32]
  rfl

/-! ## Layer 1: operations %38 to %66 -/

/-- The gather's start indices are the edges' sources: the "negative index" correction selects the index itself. -/
theorem src1 (x1 : S2x160000.Idx → BitVec 32) (hr : ∀ a, 0 ≤ (x1 a).toInt ∧ (x1 a).toInt < 10000) (e : Fin 160000) :
    val_main_v43 (F := Ideal) x1 (ix2 e (0 : Fin 1)) = x1 (ix2 (0 : Fin 2) e) := by
  rw [val_main_v43_apply, val_main_v42_apply, val_main_v39_apply, val_main_v38_apply, val_main_c_1_apply, val_main_v1_apply, val_main_v0_apply]
  have hi : idx_main_v0 (idx_main_v1 (idx_main_v43 (ix2 e (0 : Fin 1)))) = ix2 (0 : Fin 2) e := funext fun a => Fin.ext (by
    match a with
    | ⟨0, _⟩ => rfl
    | ⟨1, _⟩ => show e.val % 160000 = e.val; omega)
  rw [hi]
  exact select_slt_zero _ (hr _).1 _ _

/-- The scatter's indices are the edges' destinations. -/
theorem dst1 (x1 : S2x160000.Idx → BitVec 32) (e : Fin 160000) :
    val_main_v55 (F := Ideal) x1 (ix2 e (0 : Fin 1)) = x1 (ix2 (1 : Fin 2) e) := by
  rw [val_main_v55_apply, val_main_v3_apply, val_main_v2_apply]
  exact congrArg x1 (funext fun a => Fin.ext (by
    match a with
    | ⟨0, _⟩ => rfl
    | ⟨1, _⟩ => show e.val % 160000 = e.val; omega))

/-- The message of an edge: the dense layer on its source's row. -/
theorem msg1 (x0 : S10000x256.Idx → EReal) (x1 : S2x160000.Idx → BitVec 32) (x2 : S256x512.Idx → EReal) (x3 : S512.Idx → EReal)
    (x4 : S2x512x512.Idx → EReal) (x5 : S2x512.Idx → EReal) (x6 : S2x1024x512.Idx → EReal) (x7 : S2x512.Idx → EReal)
    (x8 : S512x1.Idx → EReal) (x9 : S1.Idx → EReal) (hr : ∀ a, 0 ≤ (x1 a).toInt ∧ (x1 a).toInt < 10000) (e : Fin 160000) (t : Fin 512) :
    val_main_v53 (F := Ideal) x0 x1 x2 x3 x4 x5 x6 x7 (ix2 e t) = Net.rMsg (pp x0 x1 x2 x3 x4 x5 x6 x7 x8 x9 hr) (1 : Fin 2) (fun i k => val_main_v37 (F := Ideal) x0 x1 x2 x3 x4 x5 x6 x7 (ix2 i k)) e t := by
  rw [val_main_v53_apply, val_main_v52_apply, val_main_v47_apply, val_main_v51_apply, val_main_v50_apply, val_main_v49_apply, val_main_v48_apply,
    val_main_call3_v0_apply, val_main_call3_cst_apply]
  have hl : ∀ k : Fin 512, val_main_v44 (F := Ideal) x0 x1 x2 x3 x4 x5 x6 x7 (lidx_main_v47 (ix2 e t) k) = val_main_v37 (F := Ideal) x0 x1 x2 x3 x4 x5 x6 x7 (ix2 ((pp x0 x1 x2 x3 x4 x5 x6 x7 x8 x9 hr).src e) k) := fun k => by
    have hk : lidx_main_v47 (ix2 e t) k = ix2 e k := funext fun a => by match a with | ⟨0, _⟩ => rfl | ⟨1, _⟩ => rfl
    rw [hk]
    exact gather_at (val_main_v37 (F := Ideal) x0 x1 x2 x3 x4 x5 x6 x7) (val_main_v43 (F := Ideal) x1) e k ((pp x0 x1 x2 x3 x4 x5 x6 x7 x8 x9 hr).src e)
      (by rw [src1 x1 hr e]; exact (hr _).1) (congrArg (fun w : BitVec 32 => w.toInt.toNat) (src1 x1 hr e))
  have hw : ∀ k : Fin 512, val_main_v46 (F := Ideal) x4 (ridx_main_v47 (ix2 e t) k) = x4 (ix3 (1 : Fin 2) k t) := fun k => by
    rw [val_main_v46_apply, val_main_v45_apply]
    exact congrArg x4 (funext fun a => Fin.ext (by
      have := k.isLt; have := t.isLt
      match a with
      | ⟨0, _⟩ => rfl
      | ⟨1, _⟩ => show (k.val * 512 + t.val) / 512 % 512 = k.val; omega
      | ⟨2, _⟩ => show (k.val * 512 + t.val) % 512 = t.val; omega))
  have hb : idx_main_v48 (idx_main_v49 (idx_main_v50 (idx_main_v51 (ix2 e t)))) = ix2 (1 : Fin 2) t := funext fun a => Fin.ext (by
    have := t.isLt
    match a with
    | ⟨0, _⟩ => rfl
    | ⟨1, _⟩ => show t.val % 512 = t.val; omega)
  simp only [hl, hw]
  rw [hb, Ideal.ofBits_def, Ideal.ofBits_zero_f32]
  rfl

/-- The aggregated row of a node: its incoming edges' messages, added from zero. -/
theorem aggr1 (x0 : S10000x256.Idx → EReal) (x1 : S2x160000.Idx → BitVec 32) (x2 : S256x512.Idx → EReal) (x3 : S512.Idx → EReal)
    (x4 : S2x512x512.Idx → EReal) (x5 : S2x512.Idx → EReal) (x6 : S2x1024x512.Idx → EReal) (x7 : S2x512.Idx → EReal)
    (x8 : S512x1.Idx → EReal) (x9 : S1.Idx → EReal) (hr : ∀ a, 0 ≤ (x1 a).toInt ∧ (x1 a).toInt < 10000) (d : Fin 10000) (t : Fin 512) :
    val_main_v56 (F := Ideal) x0 x1 x2 x3 x4 x5 x6 x7 (ix2 d t) = Net.rAggr (pp x0 x1 x2 x3 x4 x5 x6 x7 x8 x9 hr) (1 : Fin 2) (fun i k => val_main_v37 (F := Ideal) x0 x1 x2 x3 x4 x5 x6 x7 (ix2 i k)) d t := by
  show Ideal.hostScatterAdd scatter_S10000x512_S160000x1_S160000x512_1_0_0_1 (val_main_v54 (F := Ideal)) (val_main_v55 (F := Ideal) x1) (val_main_v53 (F := Ideal) x0 x1 x2 x3 x4 x5 x6 x7) (ix2 d t) = _
  rw [scatter_row (val_main_v54 (F := Ideal)) (val_main_v55 (F := Ideal) x1) (val_main_v53 (F := Ideal) x0 x1 x2 x3 x4 x5 x6 x7)
      (fun e => by rw [dst1 x1 e]; exact hr _) (pp x0 x1 x2 x3 x4 x5 x6 x7 x8 x9 hr).dst
      (fun e => (congrArg (fun w : BitVec 32 => w.toInt.toNat) (dst1 x1 e)).symm) d t,
    val_main_v54_apply, val_main_cst_3_apply, Ideal.ofBits_def, Ideal.ofBits_zero_f32]
  simp only [msg1 x0 x1 x2 x3 x4 x5 x6 x7 x8 x9 hr]
  rfl

/-- A node's own row followed by its aggregated row. -/
theorem cat1 (x0 : S10000x256.Idx → EReal) (x1 : S2x160000.Idx → BitVec 32) (x2 : S256x512.Idx → EReal) (x3 : S512.Idx → EReal)
    (x4 : S2x512x512.Idx → EReal) (x5 : S2x512.Idx → EReal) (x6 : S2x1024x512.Idx → EReal) (x7 : S2x512.Idx → EReal)
    (x8 : S512x1.Idx → EReal) (x9 : S1.Idx → EReal) (hr : ∀ a, 0 ≤ (x1 a).toInt ∧ (x1 a).toInt < 10000) (i : Fin 10000) (k : Fin 1024) :
    val_main_v57 (F := Ideal) x0 x1 x2 x3 x4 x5 x6 x7 (ix2 i k) = Net.cat (fun i k => val_main_v37 (F := Ideal) x0 x1 x2 x3 x4 x5 x6 x7 (ix2 i k)) (Net.rAggr (pp x0 x1 x2 x3 x4 x5 x6 x7 x8 x9 hr) (1 : Fin 2) (fun i k => val_main_v37 (F := Ideal) x0 x1 x2 x3 x4 x5 x6 x7 (ix2 i k))) i k := by
  show concatenate S10000x1024 1 [⟨S10000x512, val_main_v37 (F := Ideal) x0 x1 x2 x3 x4 x5 x6 x7⟩, ⟨S10000x512, val_main_v56 (F := Ideal) x0 x1 x2 x3 x4 x5 x6 x7⟩] _ (ix2 i k) = _
  unfold Net.cat
  by_cases hk : k.val < 512
  · rw [cat_left _ _ i k hk, dif_pos hk]
  · rw [cat_right _ _ i k hk, dif_neg hk, aggr1 x0 x1 x2 x3 x4 x5 x6 x7 x8 x9 hr]

/-- The layer: the dense update on the concatenation. -/
theorem layer1 (x0 : S10000x256.Idx → EReal) (x1 : S2x160000.Idx → BitVec 32) (x2 : S256x512.Idx → EReal) (x3 : S512.Idx → EReal)
    (x4 : S2x512x512.Idx → EReal) (x5 : S2x512.Idx → EReal) (x6 : S2x1024x512.Idx → EReal) (x7 : S2x512.Idx → EReal)
    (x8 : S512x1.Idx → EReal) (x9 : S1.Idx → EReal) (hr : ∀ a, 0 ≤ (x1 a).toInt ∧ (x1 a).toInt < 10000) (i : Fin 10000) (j : Fin 512) :
    val_main_v66 (F := Ideal) x0 x1 x2 x3 x4 x5 x6 x7 (ix2 i j) = Net.rLayer (pp x0 x1 x2 x3 x4 x5 x6 x7 x8 x9 hr) (1 : Fin 2) (fun i k => val_main_v37 (F := Ideal) x0 x1 x2 x3 x4 x5 x6 x7 (ix2 i k)) i j := by
  rw [val_main_v66_apply, val_main_v65_apply, val_main_v60_apply, val_main_v64_apply, val_main_v63_apply, val_main_v62_apply, val_main_v61_apply,
    val_main_call4_v0_apply, val_main_call4_cst_apply]
  have hl : ∀ k : Fin 1024, val_main_v57 (F := Ideal) x0 x1 x2 x3 x4 x5 x6 x7 (lidx_main_v60 (ix2 i j) k)
      = Net.cat (fun i k => val_main_v37 (F := Ideal) x0 x1 x2 x3 x4 x5 x6 x7 (ix2 i k)) (Net.rAggr (pp x0 x1 x2 x3 x4 x5 x6 x7 x8 x9 hr) (1 : Fin 2) (fun i k => val_main_v37 (F := Ideal) x0 x1 x2 x3 x4 x5 x6 x7 (ix2 i k))) i k := fun k => by
    have hk : lidx_main_v60 (ix2 i j) k = ix2 i k := funext fun a => by match a with | ⟨0, _⟩ => rfl | ⟨1, _⟩ => rfl
    rw [hk, cat1 x0 x1 x2 x3 x4 x5 x6 x7 x8 x9 hr]
  have hw : ∀ k : Fin 1024, val_main_v59 (F := Ideal) x6 (ridx_main_v60 (ix2 i j) k) = x6 (ix3 (1 : Fin 2) k j) := fun k => by
    rw [val_main_v59_apply, val_main_v58_apply]
    exact congrArg x6 (funext fun a => Fin.ext (by
      have := k.isLt; have := j.isLt
      match a with
      | ⟨0, _⟩ => rfl
      | ⟨1, _⟩ => show (k.val * 512 + j.val) / 512 % 1024 = k.val; omega
      | ⟨2, _⟩ => show (k.val * 512 + j.val) % 512 = j.val; omega))
  have hb : idx_main_v61 (idx_main_v62 (idx_main_v63 (idx_main_v64 (ix2 i j)))) = ix2 (1 : Fin 2) j := funext fun a => Fin.ext (by
    have := j.isLt
    match a with
    | ⟨0, _⟩ => rfl
    | ⟨1, _⟩ => show j.val % 512 = j.val; omega)
  simp only [hl, hw]
  rw [hb, Ideal.ofBits_def, Ideal.ofBits_zero_f32]
  rfl

/-! ## The output: operations %67 to %71 -/

/-- The last stage at a node is the network's value there. -/
theorem val_value (x0 : S10000x256.Idx → EReal) (x1 : S2x160000.Idx → BitVec 32) (x2 : S256x512.Idx → EReal) (x3 : S512.Idx → EReal)
    (x4 : S2x512x512.Idx → EReal) (x5 : S2x512.Idx → EReal) (x6 : S2x1024x512.Idx → EReal) (x7 : S2x512.Idx → EReal)
    (x8 : S512x1.Idx → EReal) (x9 : S1.Idx → EReal) (hr : ∀ a, 0 ≤ (x1 a).toInt ∧ (x1 a).toInt < 10000) (q : Fin 10000) :
    val_main_v71 (F := Ideal) x0 x1 x2 x3 x4 x5 x6 x7 x8 x9 (ix1 q) = Net.rNet (pp x0 x1 x2 x3 x4 x5 x6 x7 x8 x9 hr) q := by
  have e8 : (fun i k => val_main_v8 (F := Ideal) x0 x2 x3 (ix2 i k)) = Net.dense (pp x0 x1 x2 x3 x4 x5 x6 x7 x8 x9 hr).x (pp x0 x1 x2 x3 x4 x5 x6 x7 x8 x9 hr).Win (pp x0 x1 x2 x3 x4 x5 x6 x7 x8 x9 hr).bin :=
    funext fun i => funext fun k => dense0 x0 x1 x2 x3 x4 x5 x6 x7 x8 x9 hr i k
  have e37 : (fun i k => val_main_v37 (F := Ideal) x0 x1 x2 x3 x4 x5 x6 x7 (ix2 i k)) = Net.rLayer (pp x0 x1 x2 x3 x4 x5 x6 x7 x8 x9 hr) 0 (Net.dense (pp x0 x1 x2 x3 x4 x5 x6 x7 x8 x9 hr).x (pp x0 x1 x2 x3 x4 x5 x6 x7 x8 x9 hr).Win (pp x0 x1 x2 x3 x4 x5 x6 x7 x8 x9 hr).bin) :=
    funext fun i => funext fun k => (layer0 x0 x1 x2 x3 x4 x5 x6 x7 x8 x9 hr i k).trans (congrArg (fun h => Net.rLayer (pp x0 x1 x2 x3 x4 x5 x6 x7 x8 x9 hr) 0 h i k) e8)
  rw [val_main_v71_apply, val_main_v70_apply, val_main_v67_apply, val_main_v69_apply, val_main_v68_apply]
  have hl : ∀ k : Fin 512, val_main_v66 (F := Ideal) x0 x1 x2 x3 x4 x5 x6 x7 (lidx_main_v67 (idx_main_v71 (ix1 q)) k)
      = Net.rLayer (pp x0 x1 x2 x3 x4 x5 x6 x7 x8 x9 hr) 1 (Net.rLayer (pp x0 x1 x2 x3 x4 x5 x6 x7 x8 x9 hr) 0 (Net.dense (pp x0 x1 x2 x3 x4 x5 x6 x7 x8 x9 hr).x (pp x0 x1 x2 x3 x4 x5 x6 x7 x8 x9 hr).Win (pp x0 x1 x2 x3 x4 x5 x6 x7 x8 x9 hr).bin)) q k := fun k => by
    have hk : lidx_main_v67 (idx_main_v71 (ix1 q)) k = ix2 q k := funext fun a => Fin.ext (by
      match a with
      | ⟨0, _⟩ => show q.val / 1 = q.val; omega
      | ⟨1, _⟩ => rfl)
    rw [hk, layer1 x0 x1 x2 x3 x4 x5 x6 x7 x8 x9 hr q k, e37]
  have hw : ∀ k : Fin 512, ridx_main_v67 (idx_main_v71 (ix1 q)) k = ix2 k (0 : Fin 1) := fun k => funext fun a => by match a with | ⟨0, _⟩ => rfl | ⟨1, _⟩ => rfl
  have hb : idx_main_v68 (idx_main_v69 (idx_main_v71 (ix1 q))) = ix1 (0 : Fin 1) := funext fun a => by match a with | ⟨0, _⟩ => rfl
  simp only [hl, hw]
  rw [hb]
  rfl

/-- THE REFERENCE'S VALUE: the result of its run, at a node, is the network of the argument arrays there. -/
theorem ref_value (m' : (ℓ : Loc nD τ sig) → Buf (Elt Ideal) ℓ) (c : Dev nD)
    (hr : ∀ a, 0 ≤ ((m' ((c.tc : Thread nD τ).loc main_arg1) : S2x160000.Idx → BitVec 32) a).toInt
      ∧ ((m' ((c.tc : Thread nD τ).loc main_arg1) : S2x160000.Idx → BitVec 32) a).toInt < 10000) (q : Fin 10000) :
    Cert.ReferenceIdeal.Value.res_main_v71 (F := Ideal) m' c (ix1 q)
      = Cert.Net.rNet (Cert.Net.mkP (m' ((c.tc : Thread nD τ).loc main_arg0)) (m' ((c.tc : Thread nD τ).loc main_arg1))
          (m' ((c.tc : Thread nD τ).loc main_arg2)) (m' ((c.tc : Thread nD τ).loc main_arg3)) (m' ((c.tc : Thread nD τ).loc main_arg4))
          (m' ((c.tc : Thread nD τ).loc main_arg5)) (m' ((c.tc : Thread nD τ).loc main_arg6)) (m' ((c.tc : Thread nD τ).loc main_arg7))
          (m' ((c.tc : Thread nD τ).loc main_arg8)) (m' ((c.tc : Thread nD τ).loc main_arg9)) hr) q := by
  rw [val_main_v71_eq]
  exact val_value _ _ _ _ _ _ _ _ _ _ hr q

end Cert.ReferenceIdeal.RefValue

end
-- ==== Proof.PreDecode.lean ====
/-
  The precondition read back at the edge table.

  The printed precondition is a conjunction of "all" tests.  Its last two conjuncts say, of the edge table (two rows of
  160000 signed 32-bit words), that every word is at least 0 and that every word is below 10000, both read signed.
  A conjunction of bits is 1 only when each bit is 1; an "all" (a reduction by `and`, started at 1, over every axis into a
  single result) is 1 only when every element is 1; and an element of a signed comparison is 1 exactly when the
  comparison holds of the two words' signed readings.  The second operand of each comparison is a constant laid over
  the whole shape, so at every index it is that constant: 0, respectively 10000.
-/
import proofs.«408707_j33406255628688_2_alg».proof.Pre_finite_inputs
import Idealize.ShloMosaic.Lib.ReduceAll
import Idealize.ShloMosaic.Lib.ValueIdx

noncomputable section

namespace Cert.PreDecode

open Idealize.ShloMosaic
open Cert.Pre_finite_inputs

/-- The shape with no axes has exactly one index. -/
instance subsingleton_S_ : Subsingleton S_.Idx := ⟨fun a b => funext fun d => d.elim0⟩

/-- Every word of the edge table is a node number: at least 0 and below 10000, read signed. -/
theorem range_of_pre [hPre_finite_inputs : Cert.Pre_finite_inputs.Facts]
    (a0 : FVec Ideal S10000x256 .f32) (a1 : (⟨2, ![2, 160000]⟩ : Shape).Idx → BitVec 32)
    (a2 : FVec Ideal S256x512 .f32) (a3 : FVec Ideal S512 .f32) (a4 : FVec Ideal S2x512x512 .f32)
    (a5 : FVec Ideal S2x512 .f32) (a6 : FVec Ideal S2x1024x512 .f32) (a7 : FVec Ideal S2x512 .f32)
    (a8 : FVec Ideal S512x1 .f32) (a9 : FVec Ideal S1 .f32)
    (h : Cert.Pre_finite_inputs.fn (F := Ideal) a0 a1 a2 a3 a4 a5 a6 a7 a8 a9 = fun _ => 1#1) :
    ∀ a, 0 ≤ (a1 a).toInt ∧ (a1 a).toInt < 10000 := by
  intro a
  -- the one element of the result
  have e := congrFun h ValueIdx.ix0
  dsimp only [fn, fn_part1, fn_part2, fn_part3] at e
  -- the outermost conjunction: (everything before) ∧ all (word < 10000)
  obtain ⟨e47, e50⟩ := IntOp.andi_eq_one.1 e
  -- the next one in: (the float tests) ∧ all (word ≥ 0)
  obtain ⟨-, e46⟩ := IntOp.andi_eq_one.1 e47
  -- each "all" at the index a
  have hge := Host.reduce_andi_all _ _ _ _ _ e46 a
  have hlt := Host.reduce_andi_all _ _ _ _ _ e50 a
  -- each comparison read signed; the constant operand is the constant at every index
  have hge' : (0#32 : BitVec 32).toInt ≤ (a1 a).toInt := IntOp.cmpi_sge.1 hge
  have hlt' : (a1 a).toInt < (10000#32 : BitVec 32).toInt := IntOp.cmpi_slt.1 hlt
  have z0 : (0#32 : BitVec 32).toInt = 0 := by decide
  have z1 : (10000#32 : BitVec 32).toInt = 10000 := by decide
  rw [z0] at hge'
  rw [z1] at hlt'
  exact ⟨hge', hlt'⟩

end Cert.PreDecode

end
-- ==== Proof.lean ====
/-
  The claim of this certificate, assembled from its parts.

  Both programs compute a message-passing network on a graph of 10000 nodes and 160000 directed edges: an input layer,
  two message-passing layers and a linear read-out, one number per node.  A layer is dense with a rectifier,
  `max (h · W + b) 0`, row by row.

  The reference gathers, for every edge, the row of the edge's source node, applies the message layer to each edge's
  row, adds every message into the row of the edge's destination, and updates each node by a dense layer on its own row
  followed by its aggregated row (1024 columns).

  The kernel pads the node rows to 10240, turns the edge table into the matrix `adj d s` = the number of edges from
  `s` to `d`, applies the message layer once per node, multiplies the result by that matrix, and updates each node by
  the sum of two products, one with each half of the update weights.

  Read over the extended reals the two are one function of the ten argument arrays (`Cert.Net.kNet_eq_rNet`): a layer
  that acts row by row commutes with gathering rows; `(number of edges s → d) · g s` is the sum of `g s` over those
  edges, for every extended real, the infinite ones included; a product with a row followed by another row is the sum of
  the products with the two halves of the weights; and a padded row that is a node's row is that row.

  Of the precondition only the two conjuncts about the edge table are used: every word of it, read signed, is at least 0
  and below 10000.  They make the reference's gathers and scatter-adds, and the kernel's scatter that counts the edges,
  address real nodes, so that no edge is dropped, clamped or wrapped.  The finiteness conjuncts are not used: the identity
  between the two networks holds at every extended real.

  The three frames are the three runs with the result forgotten.  The ideal pass rewrote no operation of the kernel, so
  there is nothing for `preserves` to say.
-/
import proofs.«408707_j33406255628688_2_alg».proof.Defs
import proofs.«408707_j33406255628688_2_alg».proof.Proof.Gen.Kernel
import proofs.«408707_j33406255628688_2_alg».proof.Proof.Gen.Kernel.Skeleton
import proofs.«408707_j33406255628688_2_alg».proof.Proof.Gen.Kernel.Launch
import proofs.«408707_j33406255628688_2_alg».proof.Proof.Gen.Kernel.Regions
import proofs.«408707_j33406255628688_2_alg».proof.Proof.Gen.Kernel.Points
import proofs.«408707_j33406255628688_2_alg».proof.Proof.Gen.KernelIdeal
import proofs.«408707_j33406255628688_2_alg».proof.Proof.Gen.KernelIdeal.Skeleton
import proofs.«408707_j33406255628688_2_alg».proof.Proof.Gen.KernelIdeal.Launch
import proofs.«408707_j33406255628688_2_alg».proof.Proof.Gen.KernelIdeal.Regions
import proofs.«408707_j33406255628688_2_alg».proof.Proof.Gen.KernelIdeal.Points
import proofs.«408707_j33406255628688_2_alg».proof.Proof.Gen.ReferenceIdeal
import proofs.«408707_j33406255628688_2_alg».proof.Proof.Gen.Pre_finite_inputs
import proofs.«408707_j33406255628688_2_alg».proof.Proof.Gen.ReferenceIdeal.Run
import proofs.«408707_j33406255628688_2_alg».proof.Proof.KI.Run
import proofs.«408707_j33406255628688_2_alg».proof.Proof.KB.Run
import proofs.«408707_j33406255628688_2_alg».proof.Proof.KV.Compose
import proofs.«408707_j33406255628688_2_alg».proof.Proof.RefValue
import proofs.«408707_j33406255628688_2_alg».proof.Proof.PreDecode
import proofs.«408707_j33406255628688_2_alg».proof.Proof.Net
import Idealize.ShloMosaic.Adequacy
import Idealize.ShloMosaic.Init

noncomputable section

open Idealize.ShloMosaic Idealize.ShloMosaic.TcCoe Idealize.SL.Sem Idealize.ShloMosaic.ValueIdx

namespace Cert.Proof.Claims

/-! ## The two results are one function of the arguments -/

/-- The network's inputs are a function of the ten arrays alone: equal arrays give equal inputs, whichever proofs that
    the edge ends are node numbers they come with. -/
theorem mkP_congr
    {x x' : (⟨2, ![10000, 256]⟩ : Shape).Idx → EReal} {ei ei' : (⟨2, ![2, 160000]⟩ : Shape).Idx → BitVec 32}
    {Win Win' : (⟨2, ![256, 512]⟩ : Shape).Idx → EReal} {bin bin' : (⟨1, ![512]⟩ : Shape).Idx → EReal}
    {msgW msgW' : (⟨3, ![2, 512, 512]⟩ : Shape).Idx → EReal} {msgb msgb' : (⟨2, ![2, 512]⟩ : Shape).Idx → EReal}
    {updW updW' : (⟨3, ![2, 1024, 512]⟩ : Shape).Idx → EReal} {updb updb' : (⟨2, ![2, 512]⟩ : Shape).Idx → EReal}
    {Wout Wout' : (⟨2, ![512, 1]⟩ : Shape).Idx → EReal} {bout bout' : (⟨1, ![1]⟩ : Shape).Idx → EReal}
    (h0 : x' = x) (h1 : ei' = ei) (h2 : Win' = Win) (h3 : bin' = bin) (h4 : msgW' = msgW) (h5 : msgb' = msgb)
    (h6 : updW' = updW) (h7 : updb' = updb) (h8 : Wout' = Wout) (h9 : bout' = bout)
    (hr : ∀ a, 0 ≤ (ei a).toInt ∧ (ei a).toInt < 10000) (hr' : ∀ a, 0 ≤ (ei' a).toInt ∧ (ei' a).toInt < 10000) :
    Cert.Net.mkP x' ei' Win' bin' msgW' msgb' updW' updb' Wout' bout' hr'
      = Cert.Net.mkP x ei Win bin msgW msgb updW updb Wout bout hr := by
  subst h0 h1 h2 h3 h4 h5 h6 h7 h8 h9
  rfl

/-- On a core, from memories that agree on the ten arguments, the first of them meeting the precondition: what the
    reference's run leaves in its result array is what the kernel's run leaves in its own.  At a node `q` the first is
    the reference network of the reference's arguments there, the second the kernel network of the kernel's; the
    arguments are equal, so the two networks are fed the same inputs, and the networks agree. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v71 (F := Ideal) m' c = Cert.KernelIdeal.Hand.W17 m c Cert.KernelIdeal.main_v63 := by
  obtain ⟨h0, h1, h2, h3, h4, h5, h6, h7, h8, h9⟩ := hag
  -- the edge ends are node numbers, in the kernel's memory by the precondition and so in the reference's
  have hr : ∀ a, 0 ≤ ((m ((c.tc : Thread Cert.KernelIdeal.nD Cert.KernelIdeal.τ).loc Cert.KernelIdeal.main_arg1) : (⟨2, ![2, 160000]⟩ : Shape).Idx → BitVec 32) a).toInt
      ∧ ((m ((c.tc : Thread Cert.KernelIdeal.nD Cert.KernelIdeal.τ).loc Cert.KernelIdeal.main_arg1) : (⟨2, ![2, 160000]⟩ : Shape).Idx → BitVec 32) a).toInt < 10000 :=
    Cert.PreDecode.range_of_pre _ _ _ _ _ _ _ _ _ _ (hpre c)
  have hr' : ∀ a, 0 ≤ ((m' ((c.tc : Thread Cert.ReferenceIdeal.nD Cert.ReferenceIdeal.τ).loc Cert.ReferenceIdeal.main_arg1) : (⟨2, ![2, 160000]⟩ : Shape).Idx → BitVec 32) a).toInt
      ∧ ((m' ((c.tc : Thread Cert.ReferenceIdeal.nD Cert.ReferenceIdeal.τ).loc Cert.ReferenceIdeal.main_arg1) : (⟨2, ![2, 160000]⟩ : Shape).Idx → BitVec 32) a).toInt < 10000 := fun a => by
    rw [h1]; exact hr a
  -- node by node
  have key : ∀ q : Fin 10000,
      (Cert.ReferenceIdeal.Value.res_main_v71 (F := Ideal) m' c : (⟨1, ![10000]⟩ : Shape).Idx → EReal) (ix1 q)
        = (Cert.KernelIdeal.Hand.W17 m c Cert.KernelIdeal.main_v63 : (⟨1, ![10000]⟩ : Shape).Idx → EReal) (ix1 q) := fun q => by
    rw [Cert.ReferenceIdeal.RefValue.ref_value m' c hr' q, Cert.KernelIdeal.Val.kernel_value m c hr q, Cert.Net.kNet_eq_rNet,
      mkP_congr h0 h1 h2 h3 h4 h5 h6 h7 h8 h9 hr hr']
  funext i
  have hi : i = ix1 (i 0) := ValueIdx.eq_ix1 (n := 10000) i
  rw [hi]
  exact key (i 0)

/-! ## The five claims -/

/-- The kernel as printed runs and leaves its arguments as they were: its run, the result forgotten. -/
theorem frame_kernel : Cert.frame_Kernel := fun m ρ _ =>
  (θ_run _ _ _).mono (fun _ h c => (h c).2) (Cert.Kernel.Hand.run_main (F := Bits) m ρ)

/-- The same of the kernel read over the extended reals. -/
theorem frame_kernel_ideal : Cert.frame_KernelIdeal := fun m ρ _ =>
  (θ_run _ _ _).mono (fun _ h c => (h c).2) (Cert.KernelIdeal.Hand.run_main (F := Ideal) m ρ)

/-- The same of the reference. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Over the extended reals both programs run, and from memories that agree on the arguments they end with one and the
    same result on every core — the kernel's own final contents of its result array — and with the arguments unchanged. -/
theorem algebraic : Cert.algebraic_KernelIdeal_ReferenceIdeal := by
  intro m ρ m' ρ' hpre hagree
  refine ⟨fun c => Cert.KernelIdeal.Hand.W17 m c Cert.KernelIdeal.main_v63, Cert.KernelIdeal.Hand.run_main (F := Ideal) m ρ, ?_⟩
  exact (θ_run Cert.ReferenceIdeal.defs _ _).mono (fun _ h c => ⟨(h c).1.trans (result_eq m m' hpre c (hagree c)), (h c).2⟩)
    (Cert.ReferenceIdeal.Value.run (F := Ideal) m' ρ')

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference_ideal, Claims.preserves, Claims.algebraic⟩

end Cert.Proof

end
